-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 2048]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 512, 2048]⟩ 2 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x512x256 : Shape := ⟨3, ![4, 512, 256]⟩
abbrev S4x128 : Shape := ⟨2, ![4, 128]⟩
abbrev S128x256 : Shape := ⟨2, ![128, 256]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S4x512x256 .f32) (main_arg1 : FVec F S4x128 .f32) (main_arg2 : FVec F S128x256 .f32) (main_arg3 : FVec F S128x256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Pre_finite_inputs_ReferenceIdeal.lean ====
abbrev S4x512x2048 : Shape := ⟨3, ![4, 512, 2048]⟩
abbrev S4x128 : Shape := ⟨2, ![4, 128]⟩
abbrev S128x2048 : Shape := ⟨2, ![128, 2048]⟩
abbrev S_ : Shape := ⟨0, ![]⟩

class Facts : Prop where
  bcast_S_S4x512x2048 : S_.BroadcastsInDim S4x512x2048 (![] : Fin 0 → Fin S4x512x2048.rank)
  reducesTo_S4x512x2048_S_d0_1_2 : S4x512x2048.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x2048 : S_.BroadcastsInDim S128x2048 (![] : Fin 0 → Fin S128x2048.rank)
  reducesTo_S128x2048_S_d0_1 : S128x2048.ReducesTo [0, 1] S_

variable [Facts]

def fn_part1 {F : FTy → Type} [FloatOps F] (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  main_v18

def fn {F : FTy → Type} [FloatOps F] (main_arg0 : FVec F S4x512x2048 .f32) (main_arg1 : FVec F S4x128 .f32) (main_arg2 : FVec F S128x2048 .f32) (main_arg3 : FVec F S128x2048 .f32) : IVec S_ 1 :=
  let main_v0 : FVec F S4x512x2048 .f32 := Host.absf main_arg0
  let main_cst : FVec F S_ .f32 := constant S_ .f32 0x7F800000#32
  let main_v1 : FVec F S4x512x2048 .f32 := broadcastInDim S4x512x2048 ![] bcast_S_S4x512x2048 main_cst
  let main_v2 : IVec S4x512x2048 1 := cmpf .olt main_v0 main_v1
  let main_c : IVec S_ 1 := constantI S_ 1 1#1
  let main_v3 : IVec S_ 1 := (fun x v => Host.reduce IntOp.andi x v reducesTo_S4x512x2048_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128x2048 .f32 := Host.absf main_arg3
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_v13 main_v16
-- ==== Kernel.lean ====
abbrev S4x512x256 : Shape := ⟨3, ![4, 512, 256]⟩
abbrev S4x128 : Shape := ⟨2, ![4, 128]⟩
abbrev S128x256 : Shape := ⟨2, ![128, 256]⟩
abbrev S2x4x512 : Shape := ⟨3, ![2, 4, 512]⟩
abbrev S7x2x4x512 : Shape := ⟨4, ![7, 2, 4, 512]⟩
abbrev S7 : Shape := ⟨1, ![7]⟩
abbrev S4x512 : Shape := ⟨2, ![4, 512]⟩
abbrev S1x4x512 : Shape := ⟨3, ![1, 4, 512]⟩
abbrev S_ : Shape := ⟨0, ![]⟩
abbrev S1 : Shape := ⟨1, ![1]⟩
abbrev S1x2x4x512 : Shape := ⟨4, ![1, 2, 4, 512]⟩
abbrev S4x256 : Shape := ⟨2, ![4, 256]⟩
abbrev S4x512x1 : Shape := ⟨3, ![4, 512, 1]⟩
abbrev S4x1x256 : Shape := ⟨3, ![4, 1, 256]⟩

abbrev nBuf : Space → Nat
  | .hbm => 5
  | .vmem => 7
  | .smem => 0
  | _ => 0

abbrev bufTy : (tb : Table) → Fin (tcTables nBuf tb) → BufTy
  | .hbm, ⟨0, _⟩ => ⟨S4x512x256, .f32⟩
  | .hbm, ⟨1, _⟩ => ⟨S4x128, .f32⟩
  | .hbm, ⟨2, _⟩ => ⟨S128x256, .f32⟩
  | .hbm, ⟨3, _⟩ => ⟨S128x256, .f32⟩
  | .hbm, ⟨4, _⟩ => ⟨S4x512x256, .f32⟩
  | .local _ .vmem, ⟨0, _⟩ => ⟨S4x512x256, .f32⟩
  | .local _ .vmem, ⟨1, _⟩ => ⟨S4x128, .f32⟩
  | .local _ .vmem, ⟨2, _⟩ => ⟨S128x256, .f32⟩
  | .local _ .vmem, ⟨3, _⟩ => ⟨S128x256, .f32⟩
  | .local _ .vmem, ⟨4, _⟩ => ⟨S4x512x256, .f32⟩
  | .local _ .vmem, ⟨5, _⟩ => ⟨S2x4x512, .f32⟩
  | .local _ .vmem, ⟨6, _⟩ => ⟨S7x2x4x512, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v15 : BitVec 32 := Scalar.addi v2 c1_i32_8
  let c8_i32_9 : BitVec 32 := 8#32
  let v16 : BitVec 32 := Scalar.remsi v15 c8_i32_9
  let c1_i32_11 : BitVec 32 := 1#32
  let v17 : BitVec 32 := Scalar.muli v16 c1_i32_11
  let v18 : BitVec 32 := Scalar.addi c0_i32 v17
  v18.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v19 : BitVec 32 := Scalar.addi v2 c2_i32
  let c8_i32_12 : BitVec 32 := 8#32
  let v20 : BitVec 32 := Scalar.remsi v19 c8_i32_12
  let c1_i32_14 : BitVec 32 := 1#32
  let v21 : BitVec 32 := Scalar.muli v20 c1_i32_14
  let v22 : BitVec 32 := Scalar.addi c0_i32_15 v21
  v22.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v23 : BitVec 32 := Scalar.addi v2 c3_i32
  let c8_i32_16 : BitVec 32 := 8#32
  let v24 : BitVec 32 := Scalar.remsi v23 c8_i32_16
  let c1_i32_18 : BitVec 32 := 1#32
  let v25 : BitVec 32 := Scalar.muli v24 c1_i32_18
  let v26 : BitVec 32 := Scalar.addi c0_i32_19 v25
  v26.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v27 : BitVec 32 := Scalar.addi v2 c4_i32
  let c8_i32_20 : BitVec 32 := 8#32
  let v28 : BitVec 32 := Scalar.remsi v27 c8_i32_20
  let c1_i32_22 : BitVec 32 := 1#32
  let v29 : BitVec 32 := Scalar.muli v28 c1_i32_22
  let v30 : BitVec 32 := Scalar.addi c0_i32_23 v29
  v30.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v31 : BitVec 32 := Scalar.addi v2 c5_i32
  let c8_i32_24 : BitVec 32 := 8#32
  let v32 : BitVec 32 := Scalar.remsi v31 c8_i32_24
  let c1_i32_26 : BitVec 32 := 1#32
  let v33 : BitVec 32 := Scalar.muli v32 c1_i32_26
  let v34 : BitVec 32 := Scalar.addi c0_i32_27 v33
  v34.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v35 : BitVec 32 := Scalar.addi v2 c6_i32
  let c8_i32_28 : BitVec 32 := 8#32
  let v36 : BitVec 32 := Scalar.remsi v35 c8_i32_28
  let c1_i32_30 : BitVec 32 := 1#32
  let v37 : BitVec 32 := Scalar.muli v36 c1_i32_30
  let v38 : BitVec 32 := Scalar.addi c0_i32_31 v37
  v38.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v39 : BitVec 32 := Scalar.addi v2 c7_i32
  let c8_i32_32 : BitVec 32 := 8#32
  let v40 : BitVec 32 := Scalar.remsi v39 c8_i32_32
  let c1_i32_34 : BitVec 32 := 1#32
  let v41 : BitVec 32 := Scalar.muli v40 c1_i32_34
  let v42 : BitVec 32 := Scalar.addi c0_i32_35 v41
  v42.toNat
def k0_dev8 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v43 : BitVec 32 := Scalar.addi v2 c1_i32_37
  let c8_i32_38 : BitVec 32 := 8#32
  let v44 : BitVec 32 := Scalar.remsi v43 c8_i32_38
  let c1_i32_42 : BitVec 32 := 1#32
  let v45 : BitVec 32 := Scalar.muli v44 c1_i32_42
  let v46 : BitVec 32 := Scalar.addi c0_i32_43 v45
  v46.toNat
def k0_dev9 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_47 : BitVec 32 := 2#32
  let v53 : BitVec 32 := Scalar.addi v2 c2_i32_47
  let c8_i32_48 : BitVec 32 := 8#32
  let v54 : BitVec 32 := Scalar.remsi v53 c8_i32_48
  let c1_i32_52 : BitVec 32 := 1#32
  let v55 : BitVec 32 := Scalar.muli v54 c1_i32_52
  let v56 : BitVec 32 := Scalar.addi c0_i32_53 v55
  v56.toNat
def k0_dev10 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_57 : BitVec 32 := 3#32
  let v63 : BitVec 32 := Scalar.addi v2 c3_i32_57
  let c8_i32_58 : BitVec 32 := 8#32
  let v64 : BitVec 32 := Scalar.remsi v63 c8_i32_58
  let c1_i32_62 : BitVec 32 := 1#32
  let v65 : BitVec 32 := Scalar.muli v64 c1_i32_62
  let v66 : BitVec 32 := Scalar.addi c0_i32_63 v65
  v66.toNat
def k0_dev11 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v73 : BitVec 32 := Scalar.addi v2 c4_i32_67
  let c8_i32_68 : BitVec 32 := 8#32
  let v74 : BitVec 32 := Scalar.remsi v73 c8_i32_68
  let c1_i32_72 : BitVec 32 := 1#32
  let v75 : BitVec 32 := Scalar.muli v74 c1_i32_72
  let v76 : BitVec 32 := Scalar.addi c0_i32_73 v75
  v76.toNat
def k0_dev12 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_77 : BitVec 32 := 5#32
  let v83 : BitVec 32 := Scalar.addi v2 c5_i32_77
  let c8_i32_78 : BitVec 32 := 8#32
  let v84 : BitVec 32 := Scalar.remsi v83 c8_i32_78
  let c1_i32_82 : BitVec 32 := 1#32
  let v85 : BitVec 32 := Scalar.muli v84 c1_i32_82
  let v86 : BitVec 32 := Scalar.addi c0_i32_83 v85
  v86.toNat
def k0_dev13 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_87 : BitVec 32 := 6#32
  let v93 : BitVec 32 := Scalar.addi v2 c6_i32_87
  let c8_i32_88 : BitVec 32 := 8#32
  let v94 : BitVec 32 := Scalar.remsi v93 c8_i32_88
  let c1_i32_92 : BitVec 32 := 1#32
  let v95 : BitVec 32 := Scalar.muli v94 c1_i32_92
  let v96 : BitVec 32 := Scalar.addi c0_i32_93 v95
  v96.toNat
def k0_dev14 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_97 : BitVec 32 := 7#32
  let v103 : BitVec 32 := Scalar.addi v2 c7_i32_97
  let c8_i32_98 : BitVec 32 := 8#32
  let v104 : BitVec 32 := Scalar.remsi v103 c8_i32_98
  let c1_i32_102 : BitVec 32 := 1#32
  let v105 : BitVec 32 := Scalar.muli v104 c1_i32_102
  let v106 : BitVec 32 := Scalar.addi c0_i32_103 v105
  v106.toNat
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  reduces_S4x512x256_S4x512 : S4x512x256.Reduces [2] S4x512
  inb_S2x4x512_S1x4x512_0_0_0 : ∀ a, (![0, 0, 0] : Fin 3 → Nat) a + S1x4x512.size a ≤ S2x4x512.size a
  h_S1x4x512 : 0 < S1x4x512.numel
  shapeCasts_S1x4x512_S4x512 : S1x4x512.ShapeCasts S4x512
  shapeCasts_S4x512_S1x4x512 : S4x512.ShapeCasts S1x4x512
  inb_S2x4x512_S1x4x512_1_0_0 : ∀ a, (![1, 0, 0] : Fin 3 → Nat) a + S1x4x512.size a ≤ S2x4x512.size a
  hamt_1 : (1#32 : BitVec 32).msb = false
  hamt_7 : (7#32 : BitVec 32).msb = false
  inb_S7_S1_0 : ∀ a, (![0] : Fin 1 → Nat) a + S1.size a ≤ S7.size a
  squeezes_S1_S_ : S1.Squeezes S_
  inb_S7x2x4x512_S1x2x4x512_0_0_0_0 : ∀ a, (![0, 0, 0, 0] : Fin 4 → Nat) a + S1x2x4x512.size a ≤ S7x2x4x512.size a
  squeezes_S1x2x4x512_S2x4x512 : S1x2x4x512.Squeezes S2x4x512
  inb_S7_S1_1 : ∀ a, (![1] : Fin 1 → Nat) a + S1.size a ≤ S7.size a
  inb_S7x2x4x512_S1x2x4x512_1_0_0_0 : ∀ a, (![1, 0, 0, 0] : Fin 4 → Nat) a + S1x2x4x512.size a ≤ S7x2x4x512.size a
  inb_S7_S1_2 : ∀ a, (![2] : Fin 1 → Nat) a + S1.size a ≤ S7.size a
  inb_S7x2x4x512_S1x2x4x512_2_0_0_0 : ∀ a, (![2, 0, 0, 0] : Fin 4 → Nat) a + S1x2x4x512.size a ≤ S7x2x4x512.size a
  inb_S7_S1_3 : ∀ a, (![3] : Fin 1 → Nat) a + S1.size a ≤ S7.size a
  inb_S7x2x4x512_S1x2x4x512_3_0_0_0 : ∀ a, (![3, 0, 0, 0] : Fin 4 → Nat) a + S1x2x4x512.size a ≤ S7x2x4x512.size a
  inb_S7_S1_4 : ∀ a, (![4] : Fin 1 → Nat) a + S1.size a ≤ S7.size a
  inb_S7x2x4x512_S1x2x4x512_4_0_0_0 : ∀ a, (![4, 0, 0, 0] : Fin 4 → Nat) a + S1x2x4x512.size a ≤ S7x2x4x512.size a
  inb_S7_S1_5 : ∀ a, (![5] : Fin 1 → Nat) a + S1.size a ≤ S7.size a
  inb_S7x2x4x512_S1x2x4x512_5_0_0_0 : ∀ a, (![5, 0, 0, 0] : Fin 4 → Nat) a + S1x2x4x512.size a ≤ S7x2x4x512.size a
  inb_S7_S1_6 : ∀ a, (![6] : Fin 1 → Nat) a + S1.size a ≤ S7.size a
  inb_S7x2x4x512_S1x2x4x512_6_0_0_0 : ∀ a, (![6, 0, 0, 0] : Fin 4 → Nat) a + S1x2x4x512.size a ≤ S7x2x4x512.size a
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2x4x512_S2x4x512_0_0_0 : ∀ a, (![0, 0, 0] : Fin 3 → Nat) a + S2x4x512.size a ≤ S2x4x512.size a
  h_S2x4x512 : 0 < S2x4x512.numel
  h_S1x2x4x512 : 0 < S1x2x4x512.numel
  shapeCasts_S1x2x4x512_S2x4x512 : S1x2x4x512.ShapeCasts S2x4x512
  slices_S2x4x512_o0_0_0_S1x4x512 : S2x4x512.Slices ![0, 0, 0] S1x4x512
  slices_S2x4x512_o1_0_0_S1x4x512 : S2x4x512.Slices ![1, 0, 0] S1x4x512
  shapeCasts_S4x512_S4x512x1 : S4x512.ShapeCasts S4x512x1
  broadcasts_S4x512x1_S4x512x256 : S4x512x1.Broadcasts S4x512x256
  shapeCasts_S4x256_S4x1x256 : S4x256.ShapeCasts S4x1x256
  broadcasts_S4x1x256_S4x512x256 : S4x1x256.Broadcasts S4x512x256
  dot_S4x128_S128x256_S4x256_1_0_0_1_n_n_wf : DotDims.WF S4x128 S128x256 S4x256 [1] [0] [0] [1] [] []
  hcc0_scratch2 : 5 + S7.numel ≤ 19
  hcc0_scratch3 : 12 + S7.numel ≤ 19
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch2 : DmaSems sig S7 := SemArray.consecutive 5 S7 hcc0_scratch2
abbrev cc0_scratch3 : DmaSems sig S7 := SemArray.consecutive 12 S7 hcc0_scratch3
def dot_S4x128_S128x256_S4x256_1_0_0_1_n_n : DotDims S4x128 S128x256 S4x256 where
  lhsContracting := [1]
  rhsContracting := [0]
  lhsNonContracting := [0]
  rhsNonContracting := [1]
  lhsBatch := []
  rhsBatch := []
  wf := dot_S4x128_S128x256_S4x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x2048 : Shape := ⟨3, ![4, 512, 2048]⟩
abbrev S4x128 : Shape := ⟨2, ![4, 128]⟩
abbrev S128x2048 : Shape := ⟨2, ![128, 2048]⟩
abbrev S_ : Shape := ⟨0, ![]⟩
abbrev S4x512 : Shape := ⟨2, ![4, 512]⟩
abbrev S4x512x1 : Shape := ⟨3, ![4, 512, 1]⟩
abbrev S4x2048 : Shape := ⟨2, ![4, 2048]⟩
abbrev S4x1x2048 : Shape := ⟨3, ![4, 1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x128, .f32⟩
  | .hbm, ⟨2, _⟩ => ⟨S128x2048, .f32⟩
  | .hbm, ⟨3, _⟩ => ⟨S128x2048, .f32⟩
  | .hbm, ⟨4, _⟩ => ⟨S_, .f32⟩
  | .hbm, ⟨5, _⟩ => ⟨S4x512, .f32⟩
  | .hbm, ⟨6, _⟩ => ⟨S4x512x1, .f32⟩
  | .hbm, ⟨7, _⟩ => ⟨S_, .f32⟩
  | .hbm, ⟨8, _⟩ => ⟨S4x512x1, .f32⟩
  | .hbm, ⟨9, _⟩ => ⟨S4x512x1, .f32⟩
  | .hbm, ⟨10, _⟩ => ⟨S_, .i32⟩
  | .hbm, ⟨11, _⟩ => ⟨S_, .f32⟩
  | .hbm, ⟨12, _⟩ => ⟨S4x512, .f32⟩
  | .hbm, ⟨13, _⟩ => ⟨S4x512x1, .f32⟩
  | .hbm, ⟨14, _⟩ => ⟨S_, .f32⟩
  | .hbm, ⟨15, _⟩ => ⟨S4x512x1, .f32⟩
  | .hbm, ⟨16, _⟩ => ⟨S4x512x1, .f32⟩
  | .hbm, ⟨17, _⟩ => ⟨S4x512x2048, .f32⟩
  | .hbm, ⟨18, _⟩ => ⟨S4x512x2048, .f32⟩
  | .hbm, ⟨19, _⟩ => ⟨S4x512x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x512, .f32⟩
  | .hbm, ⟨25, _⟩ => ⟨S4x512x1, .f32⟩
  | .hbm, ⟨26, _⟩ => ⟨S4x512x1, .f32⟩
  | .hbm, ⟨27, _⟩ => ⟨S4x512x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x512x1, .f32⟩
  | .hbm, ⟨33, _⟩ => ⟨S4x512x1, .f32⟩
  | .hbm, ⟨34, _⟩ => ⟨S4x512x2048, .f32⟩
  | .hbm, ⟨35, _⟩ => ⟨S4x512x2048, .f32⟩
  | .hbm, ⟨36, _⟩ => ⟨S_, .f32⟩
  | .hbm, ⟨37, _⟩ => ⟨S4x512x1, .f32⟩
  | .hbm, ⟨38, _⟩ => ⟨S4x512x1, .f32⟩
  | .hbm, ⟨39, _⟩ => ⟨S4x512x1, .f32⟩
  | .hbm, ⟨40, _⟩ => ⟨S4x512x2048, .f32⟩
  | .hbm, ⟨41, _⟩ => ⟨S4x512x2048, .f32⟩
  | .hbm, ⟨42, _⟩ => ⟨S4x2048, .f32⟩
  | .hbm, ⟨43, _⟩ => ⟨S4x2048, .f32⟩
  | .hbm, ⟨44, _⟩ => ⟨S4x1x2048, .f32⟩
  | .hbm, ⟨45, _⟩ => ⟨S_, .f32⟩
  | .hbm, ⟨46, _⟩ => ⟨S4x1x2048, .f32⟩
  | .hbm, ⟨47, _⟩ => ⟨S4x1x2048, .f32⟩
  | .hbm, ⟨48, _⟩ => ⟨S4x512x2048, .f32⟩
  | .hbm, ⟨49, _⟩ => ⟨S4x512x2048, .f32⟩
  | .hbm, ⟨50, _⟩ => ⟨S4x1x2048, .f32⟩
  | .hbm, ⟨51, _⟩ => ⟨S4x512x2048, .f32⟩
  | .hbm, ⟨52, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  reducesTo_S4x512x2048_S4x512_d2 : S4x512x2048.ReducesTo [2] S4x512
  h_S_ : 0 < S_.numel
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512x1_S4x512x2048_0_1_2 : S4x512x1.BroadcastsInDim S4x512x2048 (![0, 1, 2] : Fin 3 → Fin S4x512x2048.rank)
  bcast_S4x2048_S4x1x2048_0_2 : S4x2048.BroadcastsInDim S4x1x2048 (![0, 2] : Fin 2 → Fin S4x1x2048.rank)
  bcast_S_S4x1x2048 : S_.BroadcastsInDim S4x1x2048 (![] : Fin 0 → Fin S4x1x2048.rank)
  bcast_S4x1x2048_S4x512x2048_0_1_2 : S4x1x2048.BroadcastsInDim S4x512x2048 (![0, 1, 2] : Fin 3 → Fin S4x512x2048.rank)
  dot_S4x128_S128x2048_S4x2048_1_0_0_1_n_n_wf : DotDims.WF S4x128 S128x2048 S4x2048 [1] [0] [0] [1] [] []

variable [Facts₀]

def dot_S4x128_S128x2048_S4x2048_1_0_0_1_n_n : DotDims S4x128 S128x2048 S4x2048 where
  lhsContracting := [1]
  rhsContracting := [0]
  lhsNonContracting := [0]
  rhsNonContracting := [1]
  lhsBatch := []
  rhsBatch := []
  wf := dot_S4x128_S128x2048_S4x2048_1_0_0_1_n_n_wf

class Facts : Prop extends Facts₀ where

variable [Facts]
-- ==== Proof.Math.lean ====
/- The two closed formulas the certificate joins, stated over plain index types and the
   extended reals: what one device of the kernel leaves at an entry of its result block, and
   what the reference leaves at an entry of the whole result.  Both are a layer normalisation
   over the last axis (2048 entries, cut into eight blocks of 256) followed by a scale and a
   shift that are two small matrix products. -/
import Idealize.ShloMosaic.PureOps.Ideal
import Idealize.ShloMosaic.PureOps.Ideal.Laws

noncomputable section

namespace Cert.Math

open Idealize.ShloMosaic

/-- The float words the two programs share: 2048, 1e-5 as an f32, and 1. -/
abbrev w2048 : EReal := Ideal.ofBits .f32 0x45000000#32
abbrev wEps : EReal := Ideal.ofBits .f32 0x3727C5AC#32
abbrev wOne : EReal := Ideal.ofBits .f32 0x3F800000#32

/-- The device whose partial sums land in slot `k` of device `c`: `c - (k+1)` around the ring of eight. -/
def src (c : Fin 8) (k : Fin 7) : Fin 8 := ⟨(c.val + (7 - k.val)) % 8, Nat.mod_lt _ (by decide)⟩
/-- The device that device `c`'s `k`-th copy is addressed to: `c + (k+1)` around the ring. -/
def dst (c : Fin 8) (k : Fin 7) : Fin 8 := ⟨(c.val + k.val + 1) % 8, Nat.mod_lt _ (by decide)⟩

theorem dst_src (c : Fin 8) (k : Fin 7) : dst (src c k) k = c := by revert c k; decide
theorem src_dst (c : Fin 8) (k : Fin 7) : src (dst c k) k = c := by revert c k; decide

/-- A device's own total with the seven received ones added in slot order, as the kernel adds them. -/
def ringSum (f : Fin 8 → EReal) (c : Fin 8) : EReal :=
  ((((((f c + f (src c 0)) + f (src c 1)) + f (src c 2)) + f (src c 3)) + f (src c 4)) + f (src c 5)) + f (src c 6)

section Kernel
variable (X : Fin 8 → Fin 4 → Fin 512 → Fin 256 → EReal) (T : Fin 4 → Fin 128 → EReal)
  (WS WSH : Fin 128 → Fin 256 → EReal)

/-- Device `d`'s row sums of its block and of its block squared. -/
def rowSum (d : Fin 8) (b : Fin 4) (s : Fin 512) : EReal := ∑ j : Fin 256, X d b s j
def rowSq (d : Fin 8) (b : Fin 4) (s : Fin 512) : EReal := ∑ j : Fin 256, X d b s j * X d b s j

def kMean (c : Fin 8) (b : Fin 4) (s : Fin 512) : EReal := Ideal.div (ringSum (fun d => rowSum X d b s) c) w2048
def kVar (c : Fin 8) (b : Fin 4) (s : Fin 512) : EReal :=
  Ideal.div (ringSum (fun d => rowSq X d b s) c) w2048 - kMean X c b s * kMean X c b s
def kScale (b : Fin 4) (j : Fin 256) : EReal := ∑ k : Fin 128, T b k * WS k j
def kShift (b : Fin 4) (j : Fin 256) : EReal := ∑ k : Fin 128, T b k * WSH k j

/-- What device `c` stores at `(b, s, j)` of its result block. -/
def kOut (c : Fin 8) (b : Fin 4) (s : Fin 512) (j : Fin 256) : EReal :=
  ((X c b s j - kMean X c b s) * Ideal.rsqrt (kVar X c b s + wEps)) * (wOne + kScale T WS b j) + kShift T WSH b j
end Kernel

section Reference
variable (XG : Fin 4 → Fin 512 → Fin 2048 → EReal) (T : Fin 4 → Fin 128 → EReal)
  (WSG WSHG : Fin 128 → Fin 2048 → EReal)

def rMean (b : Fin 4) (s : Fin 512) : EReal := Ideal.div (∑ J : Fin 2048, XG b s J) w2048
def rVar (b : Fin 4) (s : Fin 512) : EReal :=
  Ideal.div (∑ J : Fin 2048, (XG b s J - rMean XG b s) * (XG b s J - rMean XG b s)) w2048
def rScale (b : Fin 4) (J : Fin 2048) : EReal := ∑ k : Fin 128, T b k * WSG k J
def rShift (b : Fin 4) (J : Fin 2048) : EReal := ∑ k : Fin 128, T b k * WSHG k J

/-- What the reference leaves at `(b, s, J)` of the whole result. -/
def rOut (b : Fin 4) (s : Fin 512) (J : Fin 2048) : EReal :=
  (Ideal.div (XG b s J - rMean XG b s) (Ideal.sqrt (rVar XG b s + wEps))) * (wOne + rScale T WSG b J) + rShift T WSHG b J
end Reference

/-- Column `j` of block `c` as a column of the whole array. -/
def gcol (c : Fin 8) (j : Fin 256) : Fin 2048 := ⟨256 * c.val + j.val, by have := c.isLt; have := j.isLt; omega⟩

end Cert.Math

end
-- ==== Proof.MathBridge.lean ====
/- The layer normalisation as one device computes it (mean and variance from per-block sums added
   around the ring, the variance as the mean of squares minus the squared mean, a product with the
   reciprocal root) against the textbook two-pass form (the variance as the mean of squared
   deviations, a quotient by the root): over the extended reals the two agree at every entry as
   soon as every input entry is a real number. -/
import proofs.«900772_g7700000000000773_dist_diff_adaln_cshard_i_b4_s512_c256_v7x_i8_f32_1_alg».proof.Proof.Math
import Mathlib.Algebra.BigOperators.Fin
import Mathlib.Data.Fintype.BigOperators
import Mathlib.Data.EReal.Operations
import Mathlib.Analysis.Real.Sqrt
import Mathlib.Tactic.Ring
import Mathlib.Tactic.NormNum
import Mathlib.Tactic.Positivity
import Mathlib.Tactic.Linarith

noncomputable section

namespace Cert.Math

open Idealize.ShloMosaic

/-! ### The ring order visits every block once -/

/-- The seven sources of device `c` are exactly the other seven devices. -/
theorem image_src (c : Fin 8) : Finset.univ.image (src c) = Finset.univ.erase c := by
  revert c; decide

theorem src_injective (c : Fin 8) : Function.Injective (src c) := by
  revert c; decide

/-- So the ring-ordered total is the plain total over the eight devices. -/
theorem ringSum_eq (f : Fin 8 → EReal) (c : Fin 8) : ringSum f c = ∑ d : Fin 8, f d := by
  have h1 : ringSum f c = f c + ∑ k : Fin 7, f (src c k) := by
    rw [Fin.sum_univ_seven]; simp only [ringSum, add_assoc]
  rw [h1, ← Finset.add_sum_erase Finset.univ f (Finset.mem_univ c), ← image_src c,
    Finset.sum_image (fun a _ b _ h => src_injective c h)]

/-! ### Eight blocks of 256 columns are the 2048 columns -/

/-- A column of the whole array is a block and a column of that block. -/
def blockEquiv : Fin 8 × Fin 256 ≃ Fin 2048 where
  toFun p := gcol p.1 p.2
  invFun J := (⟨J.val / 256, by have := J.isLt; omega⟩, ⟨J.val % 256, Nat.mod_lt _ (by decide)⟩)
  left_inv := by
    rintro ⟨⟨d, hd⟩, ⟨j, hj⟩⟩
    simp only [gcol]
    refine Prod.ext (Fin.ext ?_) (Fin.ext ?_) <;> simp <;> omega
  right_inv := by
    rintro ⟨J, hJ⟩
    simp only [gcol]
    refine Fin.ext ?_
    simp; omega

theorem sum_blocks (g : Fin 2048 → EReal) :
    ∑ d : Fin 8, ∑ j : Fin 256, g (gcol d j) = ∑ J : Fin 2048, g J :=
  (Fintype.sum_prod_type' (fun d j => g (gcol d j))).symm.trans
    (Fintype.sum_equiv blockEquiv _ _ (fun _ => rfl))

/-- The ring-ordered total of the per-block row sums is the sum over the whole axis. -/
theorem ringSum_blocks (g : Fin 2048 → EReal) (c : Fin 8) :
    ringSum (fun d => ∑ j : Fin 256, g (gcol d j)) c = ∑ J : Fin 2048, g J := by
  rw [ringSum_eq, sum_blocks]

/-! ### Sums of real numbers stay real -/

theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ### The two float words -/

theorem w2048_eq : w2048 = ((2048 : ℝ) : EReal) := by
  simp [w2048, Ideal.ofBits, Ideal.ieee, -EReal.coe_mul]; norm_num

theorem wEps_eq : ∃ e : ℝ, 0 < e ∧ wEps = (e : EReal) := by
  refine ⟨(10995116 : ℝ) * (2 : ℝ) ^ (-40 : ℤ), by positivity, ?_⟩
  simp [wEps, Ideal.ofBits, Ideal.ieee, -EReal.coe_mul]

/-! ### The variance, two ways, over the reals -/

/-- The mean of squares minus the squared mean is the mean of squared deviations. -/
theorem var_identity (x : Fin 2048 → ℝ) (μ : ℝ) (hμ : μ = (∑ J, x J) * (1 / 2048)) :
    (∑ J, x J * x J) * (1 / 2048) - μ * μ = (∑ J, (x J - μ) * (x J - μ)) * (1 / 2048) := by
  have h : ∀ J, (x J - μ) * (x J - μ) = x J * x J - 2 * μ * x J + μ * μ := fun J => by ring
  have hS : (∑ J, x J) = 2048 * μ := by rw [hμ]; ring
  simp only [h, Finset.sum_add_distrib, Finset.sum_sub_distrib, ← Finset.mul_sum, Finset.sum_const,
    Finset.card_univ, Fintype.card_fin, nsmul_eq_mul]
  rw [hS]; push_cast; ring

/-! ### The bridge -/

theorem bridge (XG : Fin 4 → Fin 512 → Fin 2048 → EReal) (T : Fin 4 → Fin 128 → EReal) (WSG WSHG : Fin 128 → Fin 2048 → EReal)
    (hX : ∀ b s J, ∃ r : ℝ, XG b s J = (r : EReal)) (c : Fin 8) (b : Fin 4) (s : Fin 512) (j : Fin 256) :
    kOut (fun d b s j => XG b s (gcol d j)) T (fun k j => WSG k (gcol c j)) (fun k j => WSHG k (gcol c j)) c b s j
      = rOut XG T WSG WSHG b s (gcol c j) := by
  obtain ⟨e, he, hwe⟩ := wEps_eq
  -- the row as real numbers, its mean
  choose x hx using fun J => hX b s J
  obtain ⟨μ, hμ⟩ : ∃ μ : ℝ, μ = (∑ J, x J) * (1 / 2048) := ⟨_, rfl⟩
  have hsum1 : ∑ J, XG b s J = ((∑ J, x J : ℝ) : EReal) := by
    simp only [hx]; exact coe_sum _ _
  have hsum2 : ∑ J, XG b s J * XG b s J = ((∑ J, x J * x J : ℝ) : EReal) := by
    simp only [hx, ← EReal.coe_mul]; exact coe_sum _ _
  -- both means are the real mean
  have hkM : kMean (fun d b s j => XG b s (gcol d j)) c b s = (μ : EReal) := by
    have h : ringSum (fun d => rowSum (fun d b s j => XG b s (gcol d j)) d b s) c = ∑ J, XG b s J :=
      ringSum_blocks (fun J => XG b s J) c
    unfold kMean
    rw [h, hsum1, w2048_eq, Ideal.div_coe (by norm_num), ← EReal.coe_mul, ← hμ]
  have hrM : rMean XG b s = (μ : EReal) := by
    unfold rMean
    rw [hsum1, w2048_eq, Ideal.div_coe (by norm_num), ← EReal.coe_mul, ← hμ]
  -- both variances are real, and the same real
  have hkV : kVar (fun d b s j => XG b s (gcol d j)) c b s
      = (((∑ J, x J * x J) * (1 / 2048) - μ * μ : ℝ) : EReal) := by
    have h : ringSum (fun d => rowSq (fun d b s j => XG b s (gcol d j)) d b s) c = ∑ J, XG b s J * XG b s J :=
      ringSum_blocks (fun J => XG b s J * XG b s J) c
    unfold kVar
    rw [hkM, h, hsum2, w2048_eq, Ideal.div_coe (by norm_num), ← EReal.coe_mul, ← EReal.coe_mul, ← EReal.coe_sub]
  have hrV : rVar XG b s = (((∑ J, (x J - μ) * (x J - μ)) * (1 / 2048) : ℝ) : EReal) := by
    have h : ∑ J, (XG b s J - (μ : EReal)) * (XG b s J - (μ : EReal))
        = ((∑ J, (x J - μ) * (x J - μ) : ℝ) : EReal) := by
      simp only [hx, ← EReal.coe_sub, ← EReal.coe_mul]; exact coe_sum _ _
    unfold rVar
    rw [hrM, h, w2048_eq, Ideal.div_coe (by norm_num), ← EReal.coe_mul]
  rw [var_identity x μ hμ] at hkV
  have hv0 : 0 ≤ (∑ J, (x J - μ) * (x J - μ)) * (1 / 2048 : ℝ) :=
    mul_nonneg (Finset.sum_nonneg fun J _ => mul_self_nonneg _) (by norm_num)
  obtain ⟨v, hv⟩ : ∃ v : ℝ, v = (∑ J, (x J - μ) * (x J - μ)) * (1 / 2048) := ⟨_, rfl⟩
  rw [← hv] at hkV hrV hv0
  -- the variance plus the positive word is positive: root and reciprocal root are real
  have hpos : 0 < v + e := by linarith
  have hsq : 0 < Real.sqrt (v + e) := Real.sqrt_pos.mpr hpos
  simp only [kOut, rOut]
  rw [hkM, hkV, hrM, hrV, hwe, hx (gcol c j), ← EReal.coe_add, ← EReal.coe_sub,
    Ideal.rsqrt_coe, if_neg (not_lt.mpr hpos.le), if_neg hpos.ne', Ideal.sqrt_coe,
    if_neg (not_lt.mpr hpos.le), Ideal.div_coe hsq.ne', one_div]
  rfl

end Cert.Math

end

/-- info: 'Cert.Math.bridge' depends on axioms: [propext, Classical.choice, Quot.sound] -/
#guard_msgs in #print axioms Cert.Math.bridge
-- ==== Proof.KiSpec.lean ====
/- What the kernel computes, as pure terms of the argument arrays of all eight devices.
   Each device reduces its block of x along the last axis (row sums and row sums of squares: a
   2x4x512 array of partial statistics), the devices exchange these, and each device adds the
   seven arrays it receives to its own, normalises its block with the totals, and applies its
   block of the scale and shift projections. -/
import proofs.«900772_g7700000000000773_dist_diff_adaln_cshard_i_b4_s512_c256_v7x_i8_f32_1_alg».proof.Proof.Gen.KernelIdeal.Skeleton
import proofs.«900772_g7700000000000773_dist_diff_adaln_cshard_i_b4_s512_c256_v7x_i8_f32_1_alg».proof.Proof.Math
import Idealize.ShloMosaic.Lib.ValueIdx

noncomputable section

namespace Cert.KernelIdeal.Spec

open Idealize.ShloMosaic Idealize.SL.Sem Cert.KernelIdeal Cert.KernelIdeal.Gen

variable {F : FTy → Type} [FloatOps F]

/-- The device whose statistics land in slot `k` of device `c`, and the one `c`'s `k`-th copy goes to. -/
abbrev src (c : Dev nD) (k : Fin 7) : Dev nD := Cert.Math.src c k
abbrev dst (c : Dev nD) (k : Fin 7) : Dev nD := Cert.Math.dst c k

/-- The statistics array of a block: plane 0 its row sums, plane 1 the row sums of its squares. -/
def statsVec (x : Vec F S4x512x256 .f32) : Vec F S2x4x512 .f32 := fun i =>
  if (i 0).val = 0 then k0_pay3 x (ValueIdx.ix3 (n0 := 1) (n1 := 4) (n2 := 512) 0 (i 1) (i 2))
  else k0_pay4 x (ValueIdx.ix3 (n0 := 1) (n1 := 4) (n2 := 512) 0 (i 1) (i 2))

/-- A statistics array as the one-slot vector a load of a receive slot returns. -/
def slotVec (s : Vec F S2x4x512 .f32) : Vec F S1x2x4x512 .f32 := fun i =>
  s (ValueIdx.ix3 (n0 := 2) (n1 := 4) (n2 := 512) (i 1) (i 2) (i 3))

/-- The totals: the device's own statistics, then the seven slots added in slot order. -/
def totalVec (s0 : Vec F S2x4x512 .f32) (sl : Fin 7 → Vec F S1x2x4x512 .f32) : FVec F S2x4x512 .f32 :=
  k0_pay10 (k0_pay9 (k0_pay8 (k0_pay7 s0 (sl 0)) (sl 1) (sl 2)) (sl 3) (sl 4) (sl 5)) (sl 6)

/-- The result block from the device's four blocks and the totals. -/
def outVec (x : Vec F S4x512x256 .f32) (t : Vec F S4x128 .f32) (ws wsh : Vec F S128x256 .f32)
    (tot : FVec F S2x4x512 .f32) : FVec F S4x512x256 .f32 :=
  k0_pay1 (k0_pay6 t wsh) (k0_pay11 (k0_pay2 x) tot) (k0_pay12 (k0_pay5 t ws))

variable (m : (ℓ : Loc nD τ sig) → Buf (Elt F) ℓ)

/-- Device `c`'s argument blocks as launched. -/
def xOf (c : Dev nD) : Vec F S4x512x256 .f32 := m ((c.tc : Thread nD τ).loc main_arg0)
def tOf (c : Dev nD) : Vec F S4x128 .f32 := m ((c.tc : Thread nD τ).loc main_arg1)
def wsOf (c : Dev nD) : Vec F S128x256 .f32 := m ((c.tc : Thread nD τ).loc main_arg2)
def wshOf (c : Dev nD) : Vec F S128x256 .f32 := m ((c.tc : Thread nD τ).loc main_arg3)

/-- Device `c`'s statistics, and what lands in its slot `k`. -/
def statsOf (c : Dev nD) : Vec F S2x4x512 .f32 := statsVec (xOf m c)
def slotOf (c : Dev nD) (k : Fin 7) : Vec F S1x2x4x512 .f32 := slotVec (statsOf m (src c k))

/-- Device `c`'s result block. -/
def outAt (c : Dev nD) : Vec F S4x512x256 .f32 :=
  outVec (xOf m c) (tOf m c) (wsOf m c) (wshOf m c) (totalVec (statsOf m c) (slotOf m c))

end Cert.KernelIdeal.Spec

end
-- ==== Proof.RefSpec.lean ====
/- The reference's result as ONE pure term of its four argument arrays: the composition of the
   host operations of its @main (the variance helper and its guard inlined), in program order. -/
import proofs.«900772_g7700000000000773_dist_diff_adaln_cshard_i_b4_s512_c256_v7x_i8_f32_1_alg».proof.ReferenceIdeal
import proofs.«900772_g7700000000000773_dist_diff_adaln_cshard_i_b4_s512_c256_v7x_i8_f32_1_alg».proof.Proof.Gen.ReferenceIdeal

noncomputable section

namespace Cert.RefSpec

open Idealize.ShloMosaic Cert.ReferenceIdeal
open Cert.ReferenceIdeal.Facts₀

variable {F : FTy → Type} [FloatOps F]

abbrev A3 := Vec F S4x512x2048 .f32
abbrev A21 := Vec F S4x512x1 .f32

/-- A scalar word spread over the keepdims column shape. -/
def col (w : BitVec 32) : Vec F S4x512x1 .f32 :=
  broadcastInDim S4x512x1 ![] bcast_S_S4x512x1 (constant S_ .f32 w : Vec F S_ .f32)
/-- A keepdims column spread along the last axis. -/
def spread (v : Vec F S4x512x1 .f32) : Vec F S4x512x2048 .f32 :=
  broadcastInDim S4x512x2048 ![0, 1, 2] bcast_S4x512x1_S4x512x2048_0_1_2 v
/-- The sum along the last axis, as a keepdims column. -/
def rowSum (x : Vec F S4x512x2048 .f32) : Vec F S4x512x1 .f32 :=
  broadcastInDim S4x512x1 ![0, 1] bcast_S4x512_S4x512x1_0_1
    ((Host.reduceAdd x (constant S_ .f32 0x00000000#32 : Vec F S_ .f32) reducesTo_S4x512x2048_S4x512_d2 h_S_ : Vec F S4x512 .f32))

def mean (x : Vec F S4x512x2048 .f32) : Vec F S4x512x1 .f32 := Host.divf (rowSum x) (col 0x45000000#32)
def centered (x : Vec F S4x512x2048 .f32) : Vec F S4x512x2048 .f32 := subf x (spread (mean x))
/-- The variance helper's normaliser, 2048 minus the zero degrees of freedom, as a scalar. -/
def nrm : Vec F S_ .f32 :=
  subf (constant S_ .f32 0x45000000#32 : Vec F S_ .f32) (sitofp .f32 (constantI S_ 32 0#32 : IVec S_ 32) : Vec F S_ .f32)
def varRaw (x : Vec F S4x512x2048 .f32) : Vec F S4x512x1 .f32 :=
  Host.divf (rowSum (mulf (centered x) (centered x))) (broadcastInDim S4x512x1 ![] bcast_S_S4x512x1 (nrm (F := F)))
/-- The helper's guard: the raw variance where the normaliser is positive, the NaN word otherwise. -/
def var (x : Vec F S4x512x2048 .f32) : Vec F S4x512x1 .f32 :=
  select (broadcastInDim S4x512x1 ![] bcast_S_S4x512x1 (cmpf .ogt (nrm (F := F)) (constant S_ .f32 0x00000000#32 : Vec F S_ .f32)))
    (varRaw x) (broadcastInDim S4x512x1 ![] bcast_S_S4x512x1 (id (constant S_ .f32 0x7FC00000#32 : Vec F S_ .f32)))
def normed (x : Vec F S4x512x2048 .f32) : Vec F S4x512x2048 .f32 :=
  Host.divf (subf x (spread (mean x))) (spread (Host.sqrt (addf (var x) (col 0x3727C5AC#32))))
def proj (t : Vec F S4x128 .f32) (w : Vec F S128x2048 .f32) : Vec F S4x2048 .f32 :=
  Host.dotGeneral dot_S4x128_S128x2048_S4x2048_1_0_0_1_n_n none t w
def rowB (v : Vec F S4x2048 .f32) : Vec F S4x1x2048 .f32 := broadcastInDim S4x1x2048 ![0, 2] bcast_S4x2048_S4x1x2048_0_2 v
def allB (v : Vec F S4x1x2048 .f32) : Vec F S4x512x2048 .f32 :=
  broadcastInDim S4x512x2048 ![0, 1, 2] bcast_S4x1x2048_S4x512x2048_0_1_2 v
def onePlus (t : Vec F S4x128 .f32) (ws : Vec F S128x2048 .f32) : Vec F S4x512x2048 .f32 :=
  allB (addf (broadcastInDim S4x1x2048 ![] bcast_S_S4x1x2048 (constant S_ .f32 0x3F800000#32 : Vec F S_ .f32)) (rowB (proj t ws)))

/-- The reference's result. -/
def refOut (x : Vec F S4x512x2048 .f32) (t : Vec F S4x128 .f32) (ws wsh : Vec F S128x2048 .f32) : Vec F S4x512x2048 .f32 :=
  addf (mulf (normed x) (onePlus t ws)) (allB (rowB (proj t wsh)))

end Cert.RefSpec

end
-- ==== Proof.Bridge.lean ====
/- The value side assembled: what a device of the kernel leaves in its result block is that device's
   block of the reference's result, when the devices' argument blocks are the blocks of the
   reference's arrays and every entry the kernel is given is a real number. The two closed formulas
   are joined entry by entry; the finiteness of the whole first array is read off the devices'
   blocks, every column of the whole being a column of exactly one block. -/
import proofs.«900772_g7700000000000773_dist_diff_adaln_cshard_i_b4_s512_c256_v7x_i8_f32_1_alg».proof.Defs
import proofs.«900772_g7700000000000773_dist_diff_adaln_cshard_i_b4_s512_c256_v7x_i8_f32_1_alg».proof.Proof.MathBridge
import proofs.«900772_g7700000000000773_dist_diff_adaln_cshard_i_b4_s512_c256_v7x_i8_f32_1_alg».proof.Proof.KiSpec
import proofs.«900772_g7700000000000773_dist_diff_adaln_cshard_i_b4_s512_c256_v7x_i8_f32_1_alg».proof.Proof.RefSpec
import proofs.«900772_g7700000000000773_dist_diff_adaln_cshard_i_b4_s512_c256_v7x_i8_f32_1_alg».proof.Proof.Gen.Pre_finite_inputs_Kernel
import Idealize.ShloMosaic.Lib.Layout
import Idealize.ShloMosaic.Lib.ValueIdx
import Idealize.ShloMosaic.Lib.ReduceAll

noncomputable section

namespace Cert.Bridge

open Idealize.ShloMosaic Idealize.SL.Sem

/-! ### An entry whose absolute value is below the infinity word is a real number -/

instance : Subsingleton Cert.Pre_finite_inputs_Kernel.S_.Idx := ⟨fun a b => funext fun d => d.elim0⟩

theorem ofBits_inf : Ideal.ofBits .f32 0x7F800000#32 = ⊤ := by simp [Ideal.ofBits, Ideal.ieee]

theorem real_of_abs_lt (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

/-- Under the kernel's precondition every entry of every device's block of the first array is real. -/
theorem x_real (m : (ℓ : Loc Cert.KernelIdeal.nD Cert.KernelIdeal.τ Cert.KernelIdeal.sig) → Buf (Elt Ideal) ℓ) (hpre : Cert.Pre_KernelIdeal m) (d : Dev Cert.KernelIdeal.nD) (i : Cert.KernelIdeal.S4x512x256.Idx) :
    ∃ r : ℝ, Cert.KernelIdeal.Spec.xOf (F := Ideal) m d i = (r : EReal) := by
  have h := congrFun (hpre d) ValueIdx.ix0
  dsimp only [Cert.Pre_finite_inputs_Kernel.fn, Cert.Pre_finite_inputs_Kernel.fn_part1] at h
  have h1 := (IntOp.andi_eq_one.1 h).1
  have h2 := (IntOp.andi_eq_one.1 h1).1
  have h3 := (IntOp.andi_eq_one.1 h2).1
  have h4 := Host.reduce_andi_all _ _ _ _ _ h3 i
  exact real_of_abs_lt _ h4

/-! ### Where a block's entry lies in the whole array -/

theorem idx3 (h : Layout.Tiles ⟨3, ![4, 512, 256]⟩ ⟨3, ![4, 512, 2048]⟩ 2 8) (c : Fin 8) (b : Fin 4) (s : Fin 512) (j : Fin 256) :
    h.idx c (ValueIdx.ix3 b s j) = ValueIdx.ix3 b s (Cert.Math.gcol c j) := by
  funext a; refine Fin.ext ?_
  match a with
  | ⟨0, _⟩ => rfl
  | ⟨1, _⟩ => rfl
  | ⟨2, _⟩ => show c.val * 256 + j.val = 256 * c.val + j.val; omega

theorem idx2 (h : Layout.Tiles ⟨2, ![128, 256]⟩ ⟨2, ![128, 2048]⟩ 1 8) (c : Fin 8) (k : Fin 128) (j : Fin 256) :
    h.idx c (ValueIdx.ix2 k j) = ValueIdx.ix2 k (Cert.Math.gcol c j) := by
  funext a; refine Fin.ext ?_
  match a with
  | ⟨0, _⟩ => rfl
  | ⟨1, _⟩ => show c.val * 256 + j.val = 256 * c.val + j.val; omega

/-! ### The assembly -/

theorem outAt_eq_block
    (hK : ∀ (m : (ℓ : Loc Cert.KernelIdeal.nD Cert.KernelIdeal.τ Cert.KernelIdeal.sig) → Buf (Elt Ideal) ℓ) (c : Dev Cert.KernelIdeal.nD) (b : Fin 4) (s : Fin 512) (j : Fin 256),
      Cert.KernelIdeal.Spec.outAt (F := Ideal) m c (ValueIdx.ix3 b s j)
        = Cert.Math.kOut (fun d b s j => Cert.KernelIdeal.Spec.xOf (F := Ideal) m d (ValueIdx.ix3 b s j)) (fun b k => Cert.KernelIdeal.Spec.tOf (F := Ideal) m c (ValueIdx.ix2 b k))
            (fun k j => Cert.KernelIdeal.Spec.wsOf (F := Ideal) m c (ValueIdx.ix2 k j)) (fun k j => Cert.KernelIdeal.Spec.wshOf (F := Ideal) m c (ValueIdx.ix2 k j)) c b s j)
    (hR : ∀ (x : Vec Ideal Cert.ReferenceIdeal.S4x512x2048 .f32) (t : Vec Ideal Cert.ReferenceIdeal.S4x128 .f32) (ws wsh : Vec Ideal Cert.ReferenceIdeal.S128x2048 .f32) (b : Fin 4) (s : Fin 512) (J : Fin 2048),
      Cert.RefSpec.refOut (F := Ideal) x t ws wsh (ValueIdx.ix3 b s J)
        = Cert.Math.rOut (fun b s J => x (ValueIdx.ix3 b s J)) (fun b k => t (ValueIdx.ix2 b k)) (fun k J => ws (ValueIdx.ix2 k J)) (fun k J => wsh (ValueIdx.ix2 k J)) b s J)
    (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal m)
    (hag : ∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 2048]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg3)))
    (c : Dev Cert.KernelIdeal.nD) :
    Cert.KernelIdeal.Spec.outAt (F := Ideal) m c
      = Layout.block ⟨3, ![4, 512, 256]⟩ ⟨3, ![4, 512, 2048]⟩ 2 8 c
          (Cert.RefSpec.refOut (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) := by
  funext i
  obtain ⟨b, s, j, rfl⟩ : ∃ (b : Fin 4) (s : Fin 512) (j : Fin 256), i = ValueIdx.ix3 b s j :=
    ⟨i 0, i 1, i 2, ValueIdx.eq_ix3 i⟩
  -- both sides as the closed formulas, the right one at the entry's place in the whole array
  rw [hK m c b s j, Layout.block_apply, idx3, hR]
  -- every device's blocks are the blocks of the reference's arrays
  have hx : (fun (d : Dev Cert.KernelIdeal.nD) (b : Fin 4) (s : Fin 512) (j : Fin 256) => Cert.KernelIdeal.Spec.xOf (F := Ideal) m d (ValueIdx.ix3 b s j))
      = fun d b s j => (m' (((0 : Dev Cert.ReferenceIdeal.nD).tc : Thread Cert.ReferenceIdeal.nD Cert.ReferenceIdeal.τ).loc Cert.ReferenceIdeal.main_arg0)) (ValueIdx.ix3 b s (Cert.Math.gcol d j)) := by
    funext d b s j
    unfold Cert.KernelIdeal.Spec.xOf
    rw [(hag d).1, Layout.block_apply, idx3]
  have ht : (fun (b : Fin 4) (k : Fin 128) => Cert.KernelIdeal.Spec.tOf (F := Ideal) m c (ValueIdx.ix2 b k))
      = fun b k => (m' (((0 : Dev Cert.ReferenceIdeal.nD).tc : Thread Cert.ReferenceIdeal.nD Cert.ReferenceIdeal.τ).loc Cert.ReferenceIdeal.main_arg1)) (ValueIdx.ix2 b k) := by
    funext b k
    unfold Cert.KernelIdeal.Spec.tOf
    rw [(hag c).2.1]
  have hws : (fun (k : Fin 128) (j : Fin 256) => Cert.KernelIdeal.Spec.wsOf (F := Ideal) m c (ValueIdx.ix2 k j))
      = fun k j => (m' (((0 : Dev Cert.ReferenceIdeal.nD).tc : Thread Cert.ReferenceIdeal.nD Cert.ReferenceIdeal.τ).loc Cert.ReferenceIdeal.main_arg2)) (ValueIdx.ix2 k (Cert.Math.gcol c j)) := by
    funext k j
    unfold Cert.KernelIdeal.Spec.wsOf
    rw [(hag c).2.2.1, Layout.block_apply, idx2]
  have hwsh : (fun (k : Fin 128) (j : Fin 256) => Cert.KernelIdeal.Spec.wshOf (F := Ideal) m c (ValueIdx.ix2 k j))
      = fun k j => (m' (((0 : Dev Cert.ReferenceIdeal.nD).tc : Thread Cert.ReferenceIdeal.nD Cert.ReferenceIdeal.τ).loc Cert.ReferenceIdeal.main_arg3)) (ValueIdx.ix2 k (Cert.Math.gcol c j)) := by
    funext k j
    unfold Cert.KernelIdeal.Spec.wshOf
    rw [(hag c).2.2.2, Layout.block_apply, idx2]
  -- every entry of the whole first array lies in one device's block, where it is real
  have hX : ∀ (b : Fin 4) (s : Fin 512) (J : Fin 2048),
      ∃ r : ℝ, (m' (((0 : Dev Cert.ReferenceIdeal.nD).tc : Thread Cert.ReferenceIdeal.nD Cert.ReferenceIdeal.τ).loc Cert.ReferenceIdeal.main_arg0)) (ValueIdx.ix3 b s J) = (r : EReal) := by
    intro b s J
    obtain ⟨d, j, hJ⟩ : ∃ d j, Cert.Math.gcol d j = J := ⟨_, _, Cert.Math.blockEquiv.apply_symm_apply J⟩
    subst hJ
    obtain ⟨r, hr⟩ := x_real m hpre d (ValueIdx.ix3 b s j)
    exact ⟨r, by rw [← hr]; exact (congrFun (congrFun (congrFun (congrFun hx d) b) s) j).symm⟩
  rw [hx, ht, hws, hwsh]
  exact Cert.Math.bridge (fun b s J => (m' (((0 : Dev Cert.ReferenceIdeal.nD).tc : Thread Cert.ReferenceIdeal.nD Cert.ReferenceIdeal.τ).loc Cert.ReferenceIdeal.main_arg0)) (ValueIdx.ix3 b s J))
    (fun b k => (m' (((0 : Dev Cert.ReferenceIdeal.nD).tc : Thread Cert.ReferenceIdeal.nD Cert.ReferenceIdeal.τ).loc Cert.ReferenceIdeal.main_arg1)) (ValueIdx.ix2 b k)) (fun k J => (m' (((0 : Dev Cert.ReferenceIdeal.nD).tc : Thread Cert.ReferenceIdeal.nD Cert.ReferenceIdeal.τ).loc Cert.ReferenceIdeal.main_arg2)) (ValueIdx.ix2 k J))
    (fun k J => (m' (((0 : Dev Cert.ReferenceIdeal.nD).tc : Thread Cert.ReferenceIdeal.nD Cert.ReferenceIdeal.τ).loc Cert.ReferenceIdeal.main_arg3)) (ValueIdx.ix2 k J)) hX c b s j

end Cert.Bridge

end

/-- info: 'Cert.Bridge.outAt_eq_block' depends on axioms: [propext, Classical.choice, Quot.sound] -/
#guard_msgs in #print axioms Cert.Bridge.outAt_eq_block
-- ==== Proof.KiValue.lean ====
/- The kernel's value read at an index, at the extended reals: each pure value the kernel's body
   computes, read at one coordinate tuple, and from these the closed formula for one entry of a
   device's result block.  The layout operations (casts that add or drop a unit axis, the two
   broadcasts, the two plane slices) move an index; the lane reductions are sums over the last
   axis; the two matrix products are sums over the contracted axis; everything else is pointwise. -/
import proofs.«900772_g7700000000000773_dist_diff_adaln_cshard_i_b4_s512_c256_v7x_i8_f32_1_alg».proof.Proof.KiSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Value'

open Idealize.ShloMosaic Idealize.ShloMosaic.ValueIdx Idealize.SL.Sem
open Cert.KernelIdeal Cert.KernelIdeal.Gen Cert.KernelIdeal.Spec

/-! ## The layout operations at an index -/

section Layout
variable {α : Type}

/-- Plane `p` of a 2x4x512 array, cut out as a 1x4x512 array, reads the array on that plane. -/
theorem slice_plane (o : Nat) (v : S2x4x512.Idx → α) (h : S2x4x512.Slices ![o, 0, 0] S1x4x512)
    (u : Fin 1) (b : Fin 4) (s : Fin 512) (p : Fin 2) (hp : p.val = o) :
    extractStridedSlice S1x4x512 ![o, 0, 0] v h (ix3 u b s) = v (ix3 p b s) :=
  extractStridedSlice_apply _ _ _ _ _ (fun ax => by
    match ax with
    | ⟨0, _⟩ =>
      have hu : u.val = 0 := by omega
      show p.val = o + u.val
      omega
    | ⟨1, _⟩ => exact (Nat.zero_add _).symm
    | ⟨2, _⟩ => exact (Nat.zero_add _).symm)

/-- A 4x512 array viewed as 4x512x1 reads the same entry, whatever the unit coordinate. -/
theorem cast_col (v : S4x512.Idx → α) (h : S4x512.ShapeCasts S4x512x1) (b : Fin 4) (s : Fin 512) (u : Fin 1) :
    shapeCast S4x512x1 v h (ix3 b s u) = v (ix2 b s) :=
  shapeCast_apply v h _ _ (by
    have hu : u.val = 0 := by omega
    rw [Shape.rowMajor_val_three, Shape.rowMajor_val_two]
    show b.val * 512 + s.val = (b.val * 512 + s.val) * 1 + u.val
    omega)

/-- A 4x256 array viewed as 4x1x256 reads the same entry, whatever the unit coordinate. -/
theorem cast_row (v : S4x256.Idx → α) (h : S4x256.ShapeCasts S4x1x256) (b : Fin 4) (u : Fin 1) (j : Fin 256) :
    shapeCast S4x1x256 v h (ix3 b u j) = v (ix2 b j) :=
  shapeCast_apply v h _ _ (by
    have hu : u.val = 0 := by omega
    rw [Shape.rowMajor_val_three, Shape.rowMajor_val_two]
    show b.val * 256 + j.val = (b.val * 1 + u.val) * 256 + j.val
    omega)

/-- A column 4x512x1 spread along the last axis reads the column's entry of the same row. -/
theorem bcast_col (v : S4x512x1.Idx → α) (h : S4x512x1.Broadcasts S4x512x256) (b : Fin 4) (s : Fin 512) (j : Fin 256) :
    broadcastTo S4x512x256 v h (ix3 b s j) = v (ix3 b s (0 : Fin 1)) := by
  refine broadcastTo_apply v h (ix3 b s j) (ix3 b s (0 : Fin 1)) fun ax => ?_
  match ax with
  | ⟨0, _⟩ => rfl
  | ⟨1, _⟩ => rfl
  | ⟨2, _⟩ => rfl

/-- A row 4x1x256 spread along the middle axis reads the row's entry of the same column. -/
theorem bcast_row (v : S4x1x256.Idx → α) (h : S4x1x256.Broadcasts S4x512x256) (b : Fin 4) (s : Fin 512) (j : Fin 256) :
    broadcastTo S4x512x256 v h (ix3 b s j) = v (ix3 b (0 : Fin 1) j) := by
  refine broadcastTo_apply v h (ix3 b s j) (ix3 b (0 : Fin 1) j) fun ax => ?_
  match ax with
  | ⟨0, _⟩ => rfl
  | ⟨1, _⟩ => rfl
  | ⟨2, _⟩ => rfl

end Layout

/-! ## The lane reduction and the matrix product at an index -/

/-- The sum over the last axis of a 4x512x256 array, read at a row, is the sum of the row's 256 entries. -/
theorem laneSum_at (v : FVec Ideal S4x512x256 .f32) (h : S4x512x256.Reduces [2] S4x512)
    (hφ : FKind.Formats .f32) (hacc : (0x00000000#32 : BitVec 32) = FKind.add.neutral .f32 hφ) (b : Fin 4) (s : Fin 512) :
    multiReduction (F := Ideal) .add [2] S4x512 v 0x00000000#32 h hφ hacc (ix2 b s) = ∑ k : Fin 256, v (ix3 b s k) := by
  refine (Ideal.multiReduction_add_single v _ h hφ hacc (ix2 b s)).trans ?_
  refine Finset.sum_congr rfl fun k _ => congrArg v (funext fun a => Fin.ext ?_)
  match a with
  | ⟨0, _⟩ => rfl
  | ⟨1, _⟩ => rfl
  | ⟨2, _⟩ => rfl

/-! ## The matrix product at an index

The record of the two products contracts axis 1 of the 4x128 operand with axis 0 of the 128x256
operand.  Its operand indices at a result index `(b, j)` and a contraction index are read axis by
axis; then the contraction index is its one coordinate. -/

theorem lhs_axis0 (j : S4x256.Idx) (q : dot_S4x128_S128x256_S4x256_1_0_0_1_n_n.contr.Idx) :
    (dot_S4x128_S128x256_S4x256_1_0_0_1_n_n.lhsIdx j q 0).val = (j 0).val := by
  unfold DotDims.lhsIdx
  rw [dif_neg (show ¬(0 : Fin S4x128.rank) ∈ dot_S4x128_S128x256_S4x256_1_0_0_1_n_n.lhsBatch by decide),
    dif_pos (show (0 : Fin S4x128.rank) ∈ dot_S4x128_S128x256_S4x256_1_0_0_1_n_n.lhsNonContracting by decide)]
  rfl

theorem lhs_axis1 (j : S4x256.Idx) (q : dot_S4x128_S128x256_S4x256_1_0_0_1_n_n.contr.Idx) :
    (dot_S4x128_S128x256_S4x256_1_0_0_1_n_n.lhsIdx j q 1).val = (q ⟨0, by decide⟩).val :=
  DotDims.lhsIdx_val_of_single dot_S4x128_S128x256_S4x256_1_0_0_1_n_n (cl := 1) rfl j q

theorem rhs_axis0 (j : S4x256.Idx) (q : dot_S4x128_S128x256_S4x256_1_0_0_1_n_n.contr.Idx) :
    (dot_S4x128_S128x256_S4x256_1_0_0_1_n_n.rhsIdx j q 0).val = (q ⟨0, by decide⟩).val :=
  DotDims.rhsIdx_val_of_single dot_S4x128_S128x256_S4x256_1_0_0_1_n_n (cr := 0) rfl j q

theorem rhs_axis1 (j : S4x256.Idx) (q : dot_S4x128_S128x256_S4x256_1_0_0_1_n_n.contr.Idx) :
    (dot_S4x128_S128x256_S4x256_1_0_0_1_n_n.rhsIdx j q 1).val = (j 1).val := by
  unfold DotDims.rhsIdx
  rw [dif_neg (show ¬(1 : Fin S128x256.rank) ∈ dot_S4x128_S128x256_S4x256_1_0_0_1_n_n.rhsBatch by decide),
    dif_pos (show (1 : Fin S128x256.rank) ∈ dot_S4x128_S128x256_S4x256_1_0_0_1_n_n.rhsNonContracting by decide)]
  rfl

/-- The product of a 4x128 by a 128x256 matrix into the zero array, read at `(b, j)`, is the sum
    over the 128 contracted coordinates of the products of the entries. -/
theorem matmul_at (t : FVec Ideal S4x128 .f32) (w : FVec Ideal S128x256 .f32) (b : Fin 4) (j : Fin 256) :
    matmul dot_S4x128_S128x256_S4x256_1_0_0_1_n_n none t w (constant (F := Ideal) S4x256 .f32 0x00000000#32) (ix2 b j)
      = ∑ k : Fin 128, t (ix2 b k) * w (ix2 k j) := by
  show FloatOps.matmul dot_S4x128_S128x256_S4x256_1_0_0_1_n_n none t w (constant S4x256 .f32 0x00000000#32) (ix2 b j) = _
  rw [Ideal.matmul_constant_zero_apply,
    ← Equiv.sum_comp (contrEquiv1 dot_S4x128_S128x256_S4x256_1_0_0_1_n_n 128 rfl rfl).symm]
  refine Finset.sum_congr rfl fun k _ => ?_
  have hk := contrEquiv1_symm_val dot_S4x128_S128x256_S4x256_1_0_0_1_n_n 128 rfl rfl k
  have hl : dot_S4x128_S128x256_S4x256_1_0_0_1_n_n.lhsIdx (ix2 b j)
      ((contrEquiv1 dot_S4x128_S128x256_S4x256_1_0_0_1_n_n 128 rfl rfl).symm k) = ix2 b k := by
    funext a; apply Fin.ext
    match a with
    | ⟨0, _⟩ => exact lhs_axis0 _ _
    | ⟨1, _⟩ => exact (lhs_axis1 _ _).trans hk
  have hr : dot_S4x128_S128x256_S4x256_1_0_0_1_n_n.rhsIdx (ix2 b j)
      ((contrEquiv1 dot_S4x128_S128x256_S4x256_1_0_0_1_n_n 128 rfl rfl).symm k) = ix2 k j := by
    funext a; apply Fin.ext
    match a with
    | ⟨0, _⟩ => exact (rhs_axis0 _ _).trans hk
    | ⟨1, _⟩ => exact rhs_axis1 _ _
  rw [hl, hr]

/-! ## The payloads at an index -/

/-- The identity cast of the block. -/
theorem pay2_eq (x : FVec Ideal S4x512x256 .f32) : k0_pay2 (F := Ideal) x = x := by
  unfold k0_pay2
  exact shapeCast_self x _

/-- The row sums, stored as a 1x4x512 plane. -/
theorem pay3_at (x : FVec Ideal S4x512x256 .f32) (u : Fin 1) (b : Fin 4) (s : Fin 512) :
    k0_pay3 (F := Ideal) x (ix3 u b s) = ∑ k : Fin 256, x (ix3 b s k) := by
  unfold k0_pay3
  rw [pay2_eq]
  refine (shapeCast_ab_1ab_apply _ _ u b s).trans ?_
  exact laneSum_at x _ _ _ b s

/-- The row sums of the squares, stored as a 1x4x512 plane. -/
theorem pay4_at (x : FVec Ideal S4x512x256 .f32) (u : Fin 1) (b : Fin 4) (s : Fin 512) :
    k0_pay4 (F := Ideal) x (ix3 u b s) = ∑ k : Fin 256, x (ix3 b s k) * x (ix3 b s k) := by
  unfold k0_pay4
  rw [pay2_eq]
  refine (shapeCast_ab_1ab_apply _ _ u b s).trans ?_
  exact laneSum_at (mulf x x) _ _ _ b s

/-- The two matrix products. -/
theorem pay5_at (t : FVec Ideal S4x128 .f32) (w : FVec Ideal S128x256 .f32) (b : Fin 4) (j : Fin 256) :
    k0_pay5 (F := Ideal) t w (ix2 b j) = ∑ k : Fin 128, t (ix2 b k) * w (ix2 k j) := by
  unfold k0_pay5
  rw [shapeCast_self, shapeCast_self]
  exact matmul_at t w b j

theorem pay6_at (t : FVec Ideal S4x128 .f32) (w : FVec Ideal S128x256 .f32) (b : Fin 4) (j : Fin 256) :
    k0_pay6 (F := Ideal) t w (ix2 b j) = ∑ k : Fin 128, t (ix2 b k) * w (ix2 k j) := by
  unfold k0_pay6
  rw [shapeCast_self, shapeCast_self]
  exact matmul_at t w b j

/-- The partial totals: a received slot is added entry by entry, the slot read on its one leading coordinate. -/
theorem pay7_at (a : FVec Ideal S2x4x512 .f32) (r : FVec Ideal S1x2x4x512 .f32) (p : Fin 2) (b : Fin 4) (s : Fin 512) :
    k0_pay7 (F := Ideal) a r (ix3 p b s) = a (ix3 p b s) + r (ix4 (0 : Fin 1) p b s) := by
  unfold k0_pay7
  rw [addf_apply, shapeCast_1abc_abc_apply]

theorem pay8_at (a : FVec Ideal S2x4x512 .f32) (r1 r2 : FVec Ideal S1x2x4x512 .f32) (p : Fin 2) (b : Fin 4) (s : Fin 512) :
    k0_pay8 (F := Ideal) a r1 r2 (ix3 p b s)
      = (a (ix3 p b s) + r1 (ix4 (0 : Fin 1) p b s)) + r2 (ix4 (0 : Fin 1) p b s) := by
  unfold k0_pay8
  rw [addf_apply, addf_apply, shapeCast_1abc_abc_apply, shapeCast_1abc_abc_apply]

theorem pay9_at (a : FVec Ideal S2x4x512 .f32) (r1 r2 r3 : FVec Ideal S1x2x4x512 .f32) (p : Fin 2) (b : Fin 4) (s : Fin 512) :
    k0_pay9 (F := Ideal) a r1 r2 r3 (ix3 p b s)
      = ((a (ix3 p b s) + r1 (ix4 (0 : Fin 1) p b s)) + r2 (ix4 (0 : Fin 1) p b s)) + r3 (ix4 (0 : Fin 1) p b s) := by
  unfold k0_pay9
  rw [addf_apply, addf_apply, addf_apply, shapeCast_1abc_abc_apply, shapeCast_1abc_abc_apply, shapeCast_1abc_abc_apply]

theorem pay10_at (a : FVec Ideal S2x4x512 .f32) (r : FVec Ideal S1x2x4x512 .f32) (p : Fin 2) (b : Fin 4) (s : Fin 512) :
    k0_pay10 (F := Ideal) a r (ix3 p b s) = a (ix3 p b s) + r (ix4 (0 : Fin 1) p b s) := by
  unfold k0_pay10
  rw [addf_apply, shapeCast_1abc_abc_apply]

/-- A reciprocal root at an index is the reciprocal root of the entry. -/
theorem rsqrt_at {sh : Shape} {φ : FTy} (a : FVec Ideal sh φ) (i : sh.Idx) : rsqrt a i = Ideal.rsqrt (a i) := rfl

/-- The normalised block: the mean and the mean of the squares are the two planes of the totals over
    2048, the variance their difference with the squared mean, and each entry of the block has the
    mean taken off and is scaled by the reciprocal root of the variance plus the small constant. -/
theorem pay11_at (x : FVec Ideal S4x512x256 .f32) (tot : FVec Ideal S2x4x512 .f32) (b : Fin 4) (s : Fin 512) (j : Fin 256) :
    k0_pay11 (F := Ideal) x tot (ix3 b s j)
      = (x (ix3 b s j) - Ideal.div (tot (ix3 (0 : Fin 2) b s)) (Ideal.ofBits .f32 0x45000000#32))
        * Ideal.rsqrt ((Ideal.div (tot (ix3 (1 : Fin 2) b s)) (Ideal.ofBits .f32 0x45000000#32)
            - Ideal.div (tot (ix3 (0 : Fin 2) b s)) (Ideal.ofBits .f32 0x45000000#32)
              * Ideal.div (tot (ix3 (0 : Fin 2) b s)) (Ideal.ofBits .f32 0x45000000#32))
          + Ideal.ofBits .f32 0x3727C5AC#32) := by
  unfold k0_pay11
  simp only [mulf_apply, subf_apply, addf_apply, divf_apply, rsqrt_at, broadcast_apply, bcast_col, cast_col,
    shapeCast_1ab_ab_apply]
  rw [slice_plane 0 tot _ (0 : Fin 1) b s (0 : Fin 2) rfl, slice_plane 1 tot _ (0 : Fin 1) b s (1 : Fin 2) rfl]
  rfl

/-- One plus the scale projection, spread over the rows. -/
theorem pay12_at (g : FVec Ideal S4x256 .f32) (b : Fin 4) (s : Fin 512) (j : Fin 256) :
    k0_pay12 (F := Ideal) g (ix3 b s j) = Ideal.ofBits .f32 0x3F800000#32 + g (ix2 b j) := by
  unfold k0_pay12
  rw [bcast_row, addf_apply, broadcast_apply, cast_row]
  rfl

/-- The result: the normalised block times one plus the scale, plus the shift spread over the rows. -/
theorem pay1_at (sh : FVec Ideal S4x256 .f32) (y sc : FVec Ideal S4x512x256 .f32) (b : Fin 4) (s : Fin 512) (j : Fin 256) :
    k0_pay1 (F := Ideal) sh y sc (ix3 b s j) = y (ix3 b s j) * sc (ix3 b s j) + sh (ix2 b j) := by
  unfold k0_pay1
  rw [addf_apply, mulf_apply, bcast_row, cast_row]

/-! ## The statistics, the slots and the totals at an index -/

/-- Plane 0 of a block's statistics is its row sums, plane 1 the row sums of its squares. -/
theorem statsVec_at (x : FVec Ideal S4x512x256 .f32) (p : Fin 2) (b : Fin 4) (s : Fin 512) :
    statsVec (F := Ideal) x (ix3 p b s)
      = if p.val = 0 then ∑ k : Fin 256, x (ix3 b s k) else ∑ k : Fin 256, x (ix3 b s k) * x (ix3 b s k) := by
  unfold statsVec
  show (if p.val = 0 then k0_pay3 (F := Ideal) x (ix3 (0 : Fin 1) b s) else k0_pay4 (F := Ideal) x (ix3 (0 : Fin 1) b s)) = _
  rw [pay3_at, pay4_at]

theorem statsVec_at0 (x : FVec Ideal S4x512x256 .f32) (b : Fin 4) (s : Fin 512) :
    statsVec (F := Ideal) x (ix3 (0 : Fin 2) b s) = ∑ k : Fin 256, x (ix3 b s k) := by
  rw [statsVec_at]; rfl

theorem statsVec_at1 (x : FVec Ideal S4x512x256 .f32) (b : Fin 4) (s : Fin 512) :
    statsVec (F := Ideal) x (ix3 (1 : Fin 2) b s) = ∑ k : Fin 256, x (ix3 b s k) * x (ix3 b s k) := by
  rw [statsVec_at]; rfl

/-- A slot read on its one leading coordinate is the statistics array it carries. -/
theorem slotVec_at (v : FVec Ideal S2x4x512 .f32) (u : Fin 1) (p : Fin 2) (b : Fin 4) (s : Fin 512) :
    slotVec (F := Ideal) v (ix4 u p b s) = v (ix3 p b s) := rfl

/-- The totals: the device's own statistics, then the seven slots added in slot order. -/
theorem totalVec_at (s0 : FVec Ideal S2x4x512 .f32) (sl : Fin 7 → FVec Ideal S1x2x4x512 .f32) (p : Fin 2) (b : Fin 4) (s : Fin 512) :
    totalVec (F := Ideal) s0 sl (ix3 p b s)
      = ((((((s0 (ix3 p b s) + sl 0 (ix4 (0 : Fin 1) p b s)) + sl 1 (ix4 (0 : Fin 1) p b s)) + sl 2 (ix4 (0 : Fin 1) p b s))
          + sl 3 (ix4 (0 : Fin 1) p b s)) + sl 4 (ix4 (0 : Fin 1) p b s)) + sl 5 (ix4 (0 : Fin 1) p b s))
        + sl 6 (ix4 (0 : Fin 1) p b s) := by
  unfold totalVec
  rw [pay10_at, pay9_at, pay8_at, pay7_at]

end Cert.KernelIdeal.Value'

/-! ## One entry of a device's result block -/

open Cert.KernelIdeal Cert.KernelIdeal.Spec Idealize.ShloMosaic in
/-- Entry `(b, s, j)` of device `c`'s result block: the block's entry with the mean over all eight
    devices' 2048 columns taken off, scaled by the reciprocal root of the variance plus the small
    constant, times one plus the scale projection, plus the shift projection; the mean and the mean
    of the squares are the device's own row sums and the seven received ones, added in slot order,
    over 2048. -/
theorem Cert.KernelIdeal.Value'.outAt_apply (m : (ℓ : Loc nD τ sig) → Buf (Elt Ideal) ℓ) (c : Dev nD) (b : Fin 4) (s : Fin 512) (j : Fin 256) :
    outAt (F := Ideal) m c (ValueIdx.ix3 b s j)
      = Cert.Math.kOut (fun d b s j => xOf (F := Ideal) m d (ValueIdx.ix3 b s j)) (fun b k => tOf (F := Ideal) m c (ValueIdx.ix2 b k))
          (fun k j => wsOf (F := Ideal) m c (ValueIdx.ix2 k j)) (fun k j => wshOf (F := Ideal) m c (ValueIdx.ix2 k j)) c b s j := by
  unfold outAt outVec
  rw [Value'.pay1_at, Value'.pay6_at, Value'.pay11_at, Value'.pay12_at, Value'.pay5_at, Value'.pay2_eq,
    Value'.totalVec_at, Value'.totalVec_at]
  simp only [slotOf, statsOf, Value'.slotVec_at, Value'.statsVec_at0, Value'.statsVec_at1]
  rfl

/-- info: 'Cert.KernelIdeal.Value'.outAt_apply' depends on axioms: [propext, Classical.choice, Quot.sound] -/
#guard_msgs in #print axioms Cert.KernelIdeal.Value'.outAt_apply

end
-- ==== Proof.RefValue.lean ====
/- The reference's result read at an index, at the ideal instance (floats are extended reals):
   each definition of the reference's pure term is read at its coordinates, and the composition is the
   closed formula of a layer normalisation over the last axis followed by a scale and a shift that are
   two small matrix products. -/
import proofs.«900772_g7700000000000773_dist_diff_adaln_cshard_i_b4_s512_c256_v7x_i8_f32_1_alg».proof.Proof.RefSpec
import proofs.«900772_g7700000000000773_dist_diff_adaln_cshard_i_b4_s512_c256_v7x_i8_f32_1_alg».proof.Proof.Math
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.RefValue

open Idealize.ShloMosaic Idealize.ShloMosaic.ValueIdx Cert.ReferenceIdeal Cert.RefSpec
open Cert.Math (w2048 wEps wOne rMean rVar rScale rShift rOut)
open Cert.ReferenceIdeal.Facts₀
open scoped BigOperators

/-- A scalar word spread over the column shape reads the word's value everywhere. -/
theorem col_apply (w : BitVec 32) (j : S4x512x1.Idx) : col (F := Ideal) w j = Ideal.ofBits .f32 w := by
  unfold col
  exact broadcastInDim_scalar_apply _ _ j

/-- A column spread along the last axis reads the column at the row's one entry. -/
theorem spread_apply (v : Vec Ideal S4x512x1 .f32) (b : Fin 4) (s : Fin 512) (J : Fin 2048) :
    spread (F := Ideal) v (ix3 b s J) = v (ix3 b s (0 : Fin 1)) := by
  unfold spread
  exact broadcastInDim_apply _ _ v (ix3 b s J) (ix3 b s (0 : Fin 1))
    (fun a => match a with | ⟨0, _⟩ => rfl | ⟨1, _⟩ => rfl | ⟨2, _⟩ => rfl)

/-- The sum along the last axis, read at a row: the sum of the row's 2048 entries. -/
theorem rowSum_apply (x : Vec Ideal S4x512x2048 .f32) (b : Fin 4) (s : Fin 512) (z : Fin 1) :
    rowSum (F := Ideal) x (ix3 b s z) = ∑ J : Fin 2048, x (ix3 b s J) := by
  unfold rowSum
  refine (broadcastInDim_apply _ _ _ (ix3 b s z) (ix2 b s)
    (fun a => match a with | ⟨0, _⟩ => rfl | ⟨1, _⟩ => rfl)).trans ?_
  unfold Host.reduceAdd
  rw [Ideal.hostReduceAdd_def, Ideal.hostReduceAdd_single reducesTo_S4x512x2048_S4x512_d2 (by decide)]
  rw [constant_apply, Ideal.ofBits_zero_f32, zero_add]
  refine Finset.sum_congr rfl fun k _ => ?_
  exact congrArg x (funext fun a => Fin.ext (by
    match a with | ⟨0, _⟩ => rfl | ⟨1, _⟩ => rfl | ⟨2, _⟩ => rfl))

/-- The mean of a row: the row's sum divided by the word 2048. -/
theorem mean_apply (x : Vec Ideal S4x512x2048 .f32) (b : Fin 4) (s : Fin 512) (z : Fin 1) :
    mean (F := Ideal) x (ix3 b s z) = rMean (fun b s J => x (ix3 b s J)) b s := by
  unfold mean
  show Ideal.div (rowSum (F := Ideal) x (ix3 b s z)) (col (F := Ideal) 0x45000000#32 (ix3 b s z)) = _
  rw [rowSum_apply, col_apply]
  rfl

/-- An entry less its row's mean. -/
theorem centered_apply (x : Vec Ideal S4x512x2048 .f32) (b : Fin 4) (s : Fin 512) (J : Fin 2048) :
    centered (F := Ideal) x (ix3 b s J) = x (ix3 b s J) - rMean (fun b s J => x (ix3 b s J)) b s := by
  unfold centered
  show x (ix3 b s J) - spread (F := Ideal) (mean (F := Ideal) x) (ix3 b s J) = _
  rw [spread_apply, mean_apply]

/-- The word 2048 is a positive extended real. -/
theorem w2048_pos : (0 : EReal) < w2048 := by
  have h : w2048 = ((2048 : ℝ) : EReal) := by
    show Ideal.ofBits .f32 0x45000000#32 = _
    simp [Ideal.ofBits, Ideal.ieee, -EReal.coe_mul]; norm_num
  rw [h]
  exact EReal.coe_pos.mpr (by norm_num)

/-- The normaliser: 2048 less the zero degrees of freedom is the word 2048. -/
theorem nrm_apply (j : S_.Idx) : nrm (F := Ideal) j = w2048 := by
  unfold nrm
  show Ideal.ofBits .f32 0x45000000#32 - (((0#32 : BitVec 32).toInt : ℝ) : EReal) = _
  simp

/-- The guard holds: the normaliser is above zero. -/
theorem guard_apply (j : S_.Idx) :
    cmpf (F := Ideal) .ogt (nrm (F := Ideal)) (constant (F := Ideal) S_ .f32 0x00000000#32) j = 1#1 := by
  show Ideal.cmp .ogt (nrm (F := Ideal) j) (Ideal.ofBits .f32 0x00000000#32) = 1#1
  rw [nrm_apply, Ideal.ofBits_zero_f32]
  unfold Ideal.cmp
  simp [w2048_pos]

/-- The raw variance of a row: the sum of the squared centred entries divided by the word 2048. -/
theorem varRaw_apply (x : Vec Ideal S4x512x2048 .f32) (b : Fin 4) (s : Fin 512) (z : Fin 1) :
    varRaw (F := Ideal) x (ix3 b s z) = rVar (fun b s J => x (ix3 b s J)) b s := by
  unfold varRaw
  show Ideal.div (rowSum (F := Ideal) (mulf (F := Ideal) (φ := .f32) (centered (F := Ideal) x) (centered (F := Ideal) x)) (ix3 b s z))
      (broadcastInDim S4x512x1 ![] bcast_S_S4x512x1 (nrm (F := Ideal)) (ix3 b s z)) = _
  rw [rowSum_apply, broadcastInDim_scalar_apply, nrm_apply]
  unfold rVar
  refine congrArg (fun u => Ideal.div u w2048) (Finset.sum_congr rfl fun J _ => ?_)
  rw [mulf_apply, centered_apply]

/-- Under the guard the variance is the raw variance. -/
theorem var_apply (x : Vec Ideal S4x512x2048 .f32) (b : Fin 4) (s : Fin 512) (z : Fin 1) :
    var (F := Ideal) x (ix3 b s z) = rVar (fun b s J => x (ix3 b s J)) b s := by
  unfold var
  rw [select_apply, broadcastInDim_scalar_apply, guard_apply, select_one, varRaw_apply]

/-- The normalised entry: the centred entry divided by the root of the variance plus the small word. -/
theorem normed_apply (x : Vec Ideal S4x512x2048 .f32) (b : Fin 4) (s : Fin 512) (J : Fin 2048) :
    normed (F := Ideal) x (ix3 b s J)
      = Ideal.div (x (ix3 b s J) - rMean (fun b s J => x (ix3 b s J)) b s)
          (Ideal.sqrt (rVar (fun b s J => x (ix3 b s J)) b s + wEps)) := by
  unfold normed
  show Ideal.div (x (ix3 b s J) - spread (F := Ideal) (mean (F := Ideal) x) (ix3 b s J))
      (spread (F := Ideal) (Host.sqrt (F := Ideal) (φ := .f32) (addf (F := Ideal) (φ := .f32) (var (F := Ideal) x) (col (F := Ideal) 0x3727C5AC#32))) (ix3 b s J)) = _
  rw [spread_apply, spread_apply, mean_apply]
  show Ideal.div _ (Ideal.sqrt (var (F := Ideal) x (ix3 b s (0 : Fin 1)) + col (F := Ideal) 0x3727C5AC#32 (ix3 b s (0 : Fin 1)))) = _
  rw [var_apply, col_apply]

/-! The matrix product's operand indices, axis by axis: the left operand is read at (row, contraction
    position), the right one at (contraction position, column). -/

theorem lhs_proj_0 (i : S4x2048.Idx) (q : dot_S4x128_S128x2048_S4x2048_1_0_0_1_n_n.contr.Idx) :
    (dot_S4x128_S128x2048_S4x2048_1_0_0_1_n_n.lhsIdx i q 0).val = (i 0).val := by
  unfold DotDims.lhsIdx
  rw [dif_neg (show ¬(0 : Fin S4x128.rank) ∈ dot_S4x128_S128x2048_S4x2048_1_0_0_1_n_n.lhsBatch by decide),
    dif_pos (show (0 : Fin S4x128.rank) ∈ dot_S4x128_S128x2048_S4x2048_1_0_0_1_n_n.lhsNonContracting by decide)]
  rfl

theorem lhs_proj_1 (i : S4x2048.Idx) (q : dot_S4x128_S128x2048_S4x2048_1_0_0_1_n_n.contr.Idx) :
    (dot_S4x128_S128x2048_S4x2048_1_0_0_1_n_n.lhsIdx i q 1).val = (q ⟨0, by decide⟩).val :=
  dot_S4x128_S128x2048_S4x2048_1_0_0_1_n_n.lhsIdx_val_of_single rfl i q

theorem rhs_proj_0 (i : S4x2048.Idx) (q : dot_S4x128_S128x2048_S4x2048_1_0_0_1_n_n.contr.Idx) :
    (dot_S4x128_S128x2048_S4x2048_1_0_0_1_n_n.rhsIdx i q 0).val = (q ⟨0, by decide⟩).val :=
  dot_S4x128_S128x2048_S4x2048_1_0_0_1_n_n.rhsIdx_val_of_single rfl i q

theorem rhs_proj_1 (i : S4x2048.Idx) (q : dot_S4x128_S128x2048_S4x2048_1_0_0_1_n_n.contr.Idx) :
    (dot_S4x128_S128x2048_S4x2048_1_0_0_1_n_n.rhsIdx i q 1).val = (i 1).val := by
  unfold DotDims.rhsIdx
  rw [dif_neg (show ¬(1 : Fin S128x2048.rank) ∈ dot_S4x128_S128x2048_S4x2048_1_0_0_1_n_n.rhsBatch by decide),
    dif_pos (show (1 : Fin S128x2048.rank) ∈ dot_S4x128_S128x2048_S4x2048_1_0_0_1_n_n.rhsNonContracting by decide)]
  rfl

/-- The small matrix product at (b, J): the sum over the 128 contraction positions of the products. -/
theorem proj_apply (t : Vec Ideal S4x128 .f32) (w : Vec Ideal S128x2048 .f32) (b : Fin 4) (J : Fin 2048) :
    proj (F := Ideal) t w (ix2 b J) = ∑ k : Fin 128, t (ix2 b k) * w (ix2 k J) := by
  unfold proj
  simp only [Host.dotGeneral]
  rw [Ideal.dotGeneral_apply, ← Equiv.sum_comp (contrEquiv1 dot_S4x128_S128x2048_S4x2048_1_0_0_1_n_n 128 rfl rfl).symm]
  refine Finset.sum_congr rfl fun k _ => ?_
  have hk := contrEquiv1_symm_val dot_S4x128_S128x2048_S4x2048_1_0_0_1_n_n 128 rfl rfl k
  have el : dot_S4x128_S128x2048_S4x2048_1_0_0_1_n_n.lhsIdx (ix2 b J) ((contrEquiv1 dot_S4x128_S128x2048_S4x2048_1_0_0_1_n_n 128 rfl rfl).symm k) = ix2 b k :=
    funext fun a => Fin.ext (by
      match a with
      | ⟨0, _⟩ => exact lhs_proj_0 _ _
      | ⟨1, _⟩ => exact (lhs_proj_1 _ _).trans hk)
  have er : dot_S4x128_S128x2048_S4x2048_1_0_0_1_n_n.rhsIdx (ix2 b J) ((contrEquiv1 dot_S4x128_S128x2048_S4x2048_1_0_0_1_n_n 128 rfl rfl).symm k) = ix2 k J :=
    funext fun a => Fin.ext (by
      match a with
      | ⟨0, _⟩ => exact (rhs_proj_0 _ _).trans hk
      | ⟨1, _⟩ => exact rhs_proj_1 _ _)
  rw [el, er]

/-- A [4, 2048] array placed on a new middle axis of size one. -/
theorem rowB_apply (v : Vec Ideal S4x2048 .f32) (b : Fin 4) (z : Fin 1) (J : Fin 2048) :
    rowB (F := Ideal) v (ix3 b z J) = v (ix2 b J) := by
  unfold rowB
  exact broadcastInDim_apply _ _ v (ix3 b z J) (ix2 b J)
    (fun a => match a with | ⟨0, _⟩ => rfl | ⟨1, _⟩ => rfl)

/-- A [4, 1, 2048] array repeated along the middle axis. -/
theorem allB_apply (v : Vec Ideal S4x1x2048 .f32) (b : Fin 4) (s : Fin 512) (J : Fin 2048) :
    allB (F := Ideal) v (ix3 b s J) = v (ix3 b (0 : Fin 1) J) := by
  unfold allB
  exact broadcastInDim_apply _ _ v (ix3 b s J) (ix3 b (0 : Fin 1) J)
    (fun a => match a with | ⟨0, _⟩ => rfl | ⟨1, _⟩ => rfl | ⟨2, _⟩ => rfl)

/-- One plus the scale: the word one plus the first matrix product. -/
theorem onePlus_apply (t : Vec Ideal S4x128 .f32) (ws : Vec Ideal S128x2048 .f32) (b : Fin 4) (s : Fin 512) (J : Fin 2048) :
    onePlus (F := Ideal) t ws (ix3 b s J)
      = wOne + rScale (fun b k => t (ix2 b k)) (fun k J => ws (ix2 k J)) b J := by
  unfold onePlus
  rw [allB_apply]
  show broadcastInDim S4x1x2048 ![] bcast_S_S4x1x2048 (constant (F := Ideal) S_ .f32 0x3F800000#32) (ix3 b (0 : Fin 1) J)
      + rowB (F := Ideal) (proj (F := Ideal) t ws) (ix3 b (0 : Fin 1) J) = _
  rw [broadcastInDim_scalar_apply, rowB_apply, proj_apply]
  rfl

/-- The shift: the second matrix product, repeated along the middle axis. -/
theorem shift_apply (t : Vec Ideal S4x128 .f32) (wsh : Vec Ideal S128x2048 .f32) (b : Fin 4) (s : Fin 512) (J : Fin 2048) :
    allB (F := Ideal) (rowB (F := Ideal) (proj (F := Ideal) t wsh)) (ix3 b s J)
      = rShift (fun b k => t (ix2 b k)) (fun k J => wsh (ix2 k J)) b J := by
  rw [allB_apply, rowB_apply, proj_apply]
  rfl

end Cert.RefValue

open Cert.ReferenceIdeal Cert.RefSpec Idealize.ShloMosaic in
/-- The reference's result at (b, s, J) is the closed formula: the normalised entry times one plus the
    scale, plus the shift. -/
theorem Cert.RefValue.refOut_apply (x : Vec Ideal S4x512x2048 .f32) (t : Vec Ideal S4x128 .f32) (ws wsh : Vec Ideal S128x2048 .f32)
    (b : Fin 4) (s : Fin 512) (J : Fin 2048) :
    refOut (F := Ideal) x t ws wsh (ValueIdx.ix3 b s J)
      = Cert.Math.rOut (fun b s J => x (ValueIdx.ix3 b s J)) (fun b k => t (ValueIdx.ix2 b k)) (fun k J => ws (ValueIdx.ix2 k J)) (fun k J => wsh (ValueIdx.ix2 k J)) b s J := by
  unfold refOut
  show normed (F := Ideal) x (ValueIdx.ix3 b s J) * onePlus (F := Ideal) t ws (ValueIdx.ix3 b s J)
      + allB (F := Ideal) (rowB (F := Ideal) (proj (F := Ideal) t wsh)) (ValueIdx.ix3 b s J) = _
  rw [Cert.RefValue.normed_apply, Cert.RefValue.onePlus_apply, Cert.RefValue.shift_apply]
  rfl

/-- info: 'Cert.RefValue.refOut_apply' depends on axioms: [propext, Classical.choice, Quot.sound] -/
#guard_msgs in #print axioms Cert.RefValue.refOut_apply

end
-- ==== Proof.RefRun.lean ====
/- The run of the one-device reference program: its @main with the variance helper and the helper's
   guard unfolded at their calls is one straight line of forty-nine host operations; every weakly fair
   execution terminates with the result buffer at the composition of those operations over the four
   argument arrays, and the arguments unchanged. -/
import proofs.«900772_g7700000000000773_dist_diff_adaln_cshard_i_b4_s512_c256_v7x_i8_f32_1_alg».proof.Proof.RefSpec
import proofs.«900772_g7700000000000773_dist_diff_adaln_cshard_i_b4_s512_c256_v7x_i8_f32_1_alg».proof.Proof.Gen.ReferenceIdeal
import Idealize.ShloMosaic.Lib.StableHlo.Run
import Idealize.ShloMosaic.PureOps.Ideal

noncomputable section

namespace Cert.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The operations of @main in program order, the calls unfolded: seven of @main's own (the row sum, its
    keepdims column, the mean and the integer zero the helper is called with), the variance helper's twenty over
    its call's buffers (the mean again, the centred squares, the normaliser, the raw variance, the comparison
    and the not-a-number word), the guard's three over its call's buffers (the word converted, spread, the
    select, whose buffer is the helper's result), then @main's remaining nineteen. -/
abbrev ops : List (HloOp τ sig (Elt F)) :=
  [ StableHlo.nullary main_cst (constant S_ .f32 0x00000000#32),
    StableHlo.binary main_arg0 main_cst main_v0 ((fun x v => Host.reduceAdd x v reducesTo_S4x512x2048_S4x512_d2 h_S_) : (⟨S4x512x2048, .f32⟩ : BufTy).Contents (Elt F) → (⟨S_, .f32⟩ : BufTy).Contents (Elt F) → (⟨S4x512, .f32⟩ : BufTy).Contents (Elt F)),
    StableHlo.unary main_v0 main_v1 (broadcastInDim S4x512x1 ![0, 1] bcast_S4x512_S4x512x1_0_1 : (⟨S4x512, .f32⟩ : BufTy).Contents (Elt F) → (⟨S4x512x1, .f32⟩ : BufTy).Contents (Elt F)),
    StableHlo.nullary main_cst_0 (constant S_ .f32 0x45000000#32),
    StableHlo.unary main_cst_0 main_v2 (broadcastInDim S4x512x1 ![] bcast_S_S4x512x1 : (⟨S_, .f32⟩ : BufTy).Contents (Elt F) → (⟨S4x512x1, .f32⟩ : BufTy).Contents (Elt F)),
    StableHlo.binary main_v1 main_v2 main_v3 (Host.divf : (⟨S4x512x1, .f32⟩ : BufTy).Contents (Elt F) → (⟨S4x512x1, .f32⟩ : BufTy).Contents (Elt F) → (⟨S4x512x1, .f32⟩ : BufTy).Contents (Elt F)),
    StableHlo.nullary main_c (constantI S_ 32 0#32),
    StableHlo.TRef.nullary main_call0.cst (constant S_ .f32 0x00000000#32),
    StableHlo.TRef.binary (.of main_arg0) main_call0.cst main_call0.v0 (fun x v => Host.reduceAdd x v reducesTo_S4x512x2048_S4x512_d2 h_S_),
    StableHlo.TRef.unary main_call0.v0 main_call0.v1 (broadcastInDim S4x512x1 ![0, 1] bcast_S4x512_S4x512x1_0_1),
    StableHlo.TRef.nullary main_call0.cst_0 (constant S_ .f32 0x45000000#32),
    StableHlo.TRef.unary main_call0.cst_0 main_call0.v2 (broadcastInDim S4x512x1 ![] bcast_S_S4x512x1),
    StableHlo.TRef.binary main_call0.v1 main_call0.v2 main_call0.v3 Host.divf,
    StableHlo.TRef.unary main_call0.v3 main_call0.v4 (broadcastInDim S4x512x2048 ![0, 1, 2] bcast_S4x512x1_S4x512x2048_0_1_2),
    StableHlo.TRef.binary (.of main_arg0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x45000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x512x2048_S4x512_d2 h_S_),
    StableHlo.TRef.unary main_call0.v9 main_call0.v10 (broadcastInDim S4x512x1 ![0, 1] bcast_S4x512_S4x512x1_0_1),
    StableHlo.TRef.unary main_call0.v8 main_call0.v11 (broadcastInDim S4x512x1 ![] bcast_S_S4x512x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4x512x1 ![] bcast_S_S4x512x1),
    StableHlo.TRef.ternary main_call0.v13 main_call0.v12 main_call0.call0.v1 main_call0.call0.v2 (fun p a b => select (broadcastInDim S4x512x1 ![] bcast_S_S4x512x1 p) a b),
    StableHlo.unary main_v3 main_v5 (broadcastInDim S4x512x2048 ![0, 1, 2] bcast_S4x512x1_S4x512x2048_0_1_2 : (⟨S4x512x1, .f32⟩ : BufTy).Contents (Elt F) → (⟨S4x512x2048, .f32⟩ : BufTy).Contents (Elt F)),
    StableHlo.binary main_arg0 main_v5 main_v6 (subf : (⟨S4x512x2048, .f32⟩ : BufTy).Contents (Elt F) → (⟨S4x512x2048, .f32⟩ : BufTy).Contents (Elt F) → (⟨S4x512x2048, .f32⟩ : BufTy).Contents (Elt F)),
    StableHlo.nullary main_cst_1 (constant S_ .f32 0x3727C5AC#32),
    StableHlo.unary main_cst_1 main_v7 (broadcastInDim S4x512x1 ![] bcast_S_S4x512x1 : (⟨S_, .f32⟩ : BufTy).Contents (Elt F) → (⟨S4x512x1, .f32⟩ : BufTy).Contents (Elt F)),
    StableHlo.binary main_v4 main_v7 main_v8 (addf : (⟨S4x512x1, .f32⟩ : BufTy).Contents (Elt F) → (⟨S4x512x1, .f32⟩ : BufTy).Contents (Elt F) → (⟨S4x512x1, .f32⟩ : BufTy).Contents (Elt F)),
    StableHlo.unary main_v8 main_v9 (Host.sqrt : (⟨S4x512x1, .f32⟩ : BufTy).Contents (Elt F) → (⟨S4x512x1, .f32⟩ : BufTy).Contents (Elt F)),
    StableHlo.unary main_v9 main_v10 (broadcastInDim S4x512x2048 ![0, 1, 2] bcast_S4x512x1_S4x512x2048_0_1_2 : (⟨S4x512x1, .f32⟩ : BufTy).Contents (Elt F) → (⟨S4x512x2048, .f32⟩ : BufTy).Contents (Elt F)),
    StableHlo.binary main_v6 main_v10 main_v11 (Host.divf : (⟨S4x512x2048, .f32⟩ : BufTy).Contents (Elt F) → (⟨S4x512x2048, .f32⟩ : BufTy).Contents (Elt F) → (⟨S4x512x2048, .f32⟩ : BufTy).Contents (Elt F)),
    StableHlo.binary main_arg1 main_arg2 main_v12 ((fun l r => Host.dotGeneral dot_S4x128_S128x2048_S4x2048_1_0_0_1_n_n none l r) : (⟨S4x128, .f32⟩ : BufTy).Contents (Elt F) → (⟨S128x2048, .f32⟩ : BufTy).Contents (Elt F) → (⟨S4x2048, .f32⟩ : BufTy).Contents (Elt F)),
    StableHlo.binary main_arg1 main_arg3 main_v13 ((fun l r => Host.dotGeneral dot_S4x128_S128x2048_S4x2048_1_0_0_1_n_n none l r) : (⟨S4x128, .f32⟩ : BufTy).Contents (Elt F) → (⟨S128x2048, .f32⟩ : BufTy).Contents (Elt F) → (⟨S4x2048, .f32⟩ : BufTy).Contents (Elt F)),
    StableHlo.unary main_v12 main_v14 (broadcastInDim S4x1x2048 ![0, 2] bcast_S4x2048_S4x1x2048_0_2 : (⟨S4x2048, .f32⟩ : BufTy).Contents (Elt F) → (⟨S4x1x2048, .f32⟩ : BufTy).Contents (Elt F)),
    StableHlo.nullary main_cst_2 (constant S_ .f32 0x3F800000#32),
    StableHlo.unary main_cst_2 main_v15 (broadcastInDim S4x1x2048 ![] bcast_S_S4x1x2048 : (⟨S_, .f32⟩ : BufTy).Contents (Elt F) → (⟨S4x1x2048, .f32⟩ : BufTy).Contents (Elt F)),
    StableHlo.binary main_v15 main_v14 main_v16 (addf : (⟨S4x1x2048, .f32⟩ : BufTy).Contents (Elt F) → (⟨S4x1x2048, .f32⟩ : BufTy).Contents (Elt F) → (⟨S4x1x2048, .f32⟩ : BufTy).Contents (Elt F)),
    StableHlo.unary main_v16 main_v17 (broadcastInDim S4x512x2048 ![0, 1, 2] bcast_S4x1x2048_S4x512x2048_0_1_2 : (⟨S4x1x2048, .f32⟩ : BufTy).Contents (Elt F) → (⟨S4x512x2048, .f32⟩ : BufTy).Contents (Elt F)),
    StableHlo.binary main_v11 main_v17 main_v18 (mulf : (⟨S4x512x2048, .f32⟩ : BufTy).Contents (Elt F) → (⟨S4x512x2048, .f32⟩ : BufTy).Contents (Elt F) → (⟨S4x512x2048, .f32⟩ : BufTy).Contents (Elt F)),
    StableHlo.unary main_v13 main_v19 (broadcastInDim S4x1x2048 ![0, 2] bcast_S4x2048_S4x1x2048_0_2 : (⟨S4x2048, .f32⟩ : BufTy).Contents (Elt F) → (⟨S4x1x2048, .f32⟩ : BufTy).Contents (Elt F)),
    StableHlo.unary main_v19 main_v20 (broadcastInDim S4x512x2048 ![0, 1, 2] bcast_S4x1x2048_S4x512x2048_0_1_2 : (⟨S4x1x2048, .f32⟩ : BufTy).Contents (Elt F) → (⟨S4x512x2048, .f32⟩ : BufTy).Contents (Elt F)),
    StableHlo.binary main_v18 main_v20 main_v21 (addf : (⟨S4x512x2048, .f32⟩ : BufTy).Contents (Elt F) → (⟨S4x512x2048, .f32⟩ : BufTy).Contents (Elt F) → (⟨S4x512x2048, .f32⟩ : BufTy).Contents (Elt F)) ]

-- forty-nine binds re-associated: the rewrite under the chain recurses once per statement
set_option maxRecDepth 2048 in
/-- @main is that straight line: the two functions' definitions unfolded at their calls, both sides are one chain
    of host steps once sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., binary_bufs_sub .., binary_bufs_sub .., unary_bufs_sub .., nullary_bufs_sub .., unary_bufs_sub .., binary_bufs_sub .., unary_bufs_sub .., binary_bufs_sub .., unary_bufs_sub .., unary_bufs_sub .., binary_bufs_sub ..⟩

/-- The fold at the result buffer, read back operation by operation, is the reference's result term of the four
    argument arrays: each operation's result at its own buffer is its function of its operands' contents, at any
    other buffer what was there; the typed references' transports are the identity at these literal references. -/
theorem out_eq (V : Valuation τ sig (Elt F)) :
    after ops V (Proc.devRef .tc main_v21)
      = Cert.RefSpec.refOut (F := F) (V (Proc.devRef .tc main_arg0)) (V (Proc.devRef .tc main_arg1)) (V (Proc.devRef .tc main_arg2)) (V (Proc.devRef .tc main_arg3)) := by
  after_results_simp
  rfl

/-- No operation writes an argument's buffer. -/
theorem arg0_eq (V : Valuation τ sig (Elt F)) : after ops V (Proc.devRef .tc main_arg0) = V (Proc.devRef .tc main_arg0) := by
  after_results_simp
theorem arg1_eq (V : Valuation τ sig (Elt F)) : after ops V (Proc.devRef .tc main_arg1) = V (Proc.devRef .tc main_arg1) := by
  after_results_simp
theorem arg2_eq (V : Valuation τ sig (Elt F)) : after ops V (Proc.devRef .tc main_arg2) = V (Proc.devRef .tc main_arg2) := by
  after_results_simp
theorem arg3_eq (V : Valuation τ sig (Elt F)) : after ops V (Proc.devRef .tc main_arg3) = V (Proc.devRef .tc main_arg3) := by
  after_results_simp

/-- For any float values, from any memory with zero counters: every weakly fair execution of @main terminates with
    the result buffer at the reference's result term of the launch contents of the four arguments, and the
    arguments unchanged. -/
theorem run_of (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r =>
      r.2.mem (((0 : Dev Cert.ReferenceIdeal.nD).tc : Thread Cert.ReferenceIdeal.nD Cert.ReferenceIdeal.τ).loc Cert.ReferenceIdeal.main_v21)
          = Cert.RefSpec.refOut (F := F) (m (((0 : Dev Cert.ReferenceIdeal.nD).tc : Thread Cert.ReferenceIdeal.nD Cert.ReferenceIdeal.τ).loc Cert.ReferenceIdeal.main_arg0)) (m (((0 : Dev Cert.ReferenceIdeal.nD).tc : Thread Cert.ReferenceIdeal.nD Cert.ReferenceIdeal.τ).loc Cert.ReferenceIdeal.main_arg1)) (m (((0 : Dev Cert.ReferenceIdeal.nD).tc : Thread Cert.ReferenceIdeal.nD Cert.ReferenceIdeal.τ).loc Cert.ReferenceIdeal.main_arg2)) (m (((0 : Dev Cert.ReferenceIdeal.nD).tc : Thread Cert.ReferenceIdeal.nD Cert.ReferenceIdeal.τ).loc Cert.ReferenceIdeal.main_arg3))
      ∧ r.2.mem (((0 : Dev Cert.ReferenceIdeal.nD).tc : Thread Cert.ReferenceIdeal.nD Cert.ReferenceIdeal.τ).loc Cert.ReferenceIdeal.main_arg0) = m (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m (((0 : Dev Cert.ReferenceIdeal.nD).tc : Thread Cert.ReferenceIdeal.nD Cert.ReferenceIdeal.τ).loc Cert.ReferenceIdeal.main_arg2)
      ∧ r.2.mem (((0 : Dev Cert.ReferenceIdeal.nD).tc : Thread Cert.ReferenceIdeal.nD Cert.ReferenceIdeal.τ).loc Cert.ReferenceIdeal.main_arg3) = m (((0 : Dev Cert.ReferenceIdeal.nD).tc : Thread Cert.ReferenceIdeal.nD Cert.ReferenceIdeal.τ).loc Cert.ReferenceIdeal.main_arg3)) :=
  (θ_run defs _ _).mono (fun _ h =>
      ⟨(h 0 main_v21).trans (out_eq _), (h 0 main_arg0).trans (arg0_eq _), (h 0 main_arg1).trans (arg1_eq _),
        (h 0 main_arg2).trans (arg2_eq _), (h 0 main_arg3).trans (arg3_eq _)⟩)
    (run_seq scopedRefs_eq scopedSems_eq defs main (fun _ => ops) main_eq (fun _ => ops_sub) m ρ)

/-- The same at the ideal instance: floats extended reals, every operation its textbook one. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      r.2.mem (((0 : Dev Cert.ReferenceIdeal.nD).tc : Thread Cert.ReferenceIdeal.nD Cert.ReferenceIdeal.τ).loc Cert.ReferenceIdeal.main_v21)
          = Cert.RefSpec.refOut (F := Ideal) (m (((0 : Dev Cert.ReferenceIdeal.nD).tc : Thread Cert.ReferenceIdeal.nD Cert.ReferenceIdeal.τ).loc Cert.ReferenceIdeal.main_arg0)) (m (((0 : Dev Cert.ReferenceIdeal.nD).tc : Thread Cert.ReferenceIdeal.nD Cert.ReferenceIdeal.τ).loc Cert.ReferenceIdeal.main_arg1)) (m (((0 : Dev Cert.ReferenceIdeal.nD).tc : Thread Cert.ReferenceIdeal.nD Cert.ReferenceIdeal.τ).loc Cert.ReferenceIdeal.main_arg2)) (m (((0 : Dev Cert.ReferenceIdeal.nD).tc : Thread Cert.ReferenceIdeal.nD Cert.ReferenceIdeal.τ).loc Cert.ReferenceIdeal.main_arg3))
      ∧ r.2.mem (((0 : Dev Cert.ReferenceIdeal.nD).tc : Thread Cert.ReferenceIdeal.nD Cert.ReferenceIdeal.τ).loc Cert.ReferenceIdeal.main_arg0) = m (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m (((0 : Dev Cert.ReferenceIdeal.nD).tc : Thread Cert.ReferenceIdeal.nD Cert.ReferenceIdeal.τ).loc Cert.ReferenceIdeal.main_arg2)
      ∧ r.2.mem (((0 : Dev Cert.ReferenceIdeal.nD).tc : Thread Cert.ReferenceIdeal.nD Cert.ReferenceIdeal.τ).loc Cert.ReferenceIdeal.main_arg3) = m (((0 : Dev Cert.ReferenceIdeal.nD).tc : Thread Cert.ReferenceIdeal.nD Cert.ReferenceIdeal.τ).loc Cert.ReferenceIdeal.main_arg3)) :=
  run_of (F := Ideal) m ρ

/-- The arguments alone, on every device of the one-device mesh: every weakly fair execution of @main terminates with
    the four argument arrays unchanged. -/
theorem run_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c =>
      ⟨(h c main_arg0).trans (arg0_eq _), (h c main_arg1).trans (arg1_eq _), (h c main_arg2).trans (arg2_eq _),
        (h c main_arg3).trans (arg3_eq _)⟩)
    (run_seq scopedRefs_eq scopedSems_eq defs main (fun _ => ops) main_eq (fun _ => ops_sub) m ρ)

end Cert.RefRun

end
-- ==== Proof.Assemble.lean ====
/- The certificate's five claims put together.  The reference's run and the two closed formulas are
   proved elsewhere; the two runs of the kernel (at the extended reals, where each device ends with its
   result block holding the kernel's pure term and its arguments unchanged, and at the words, where
   the arguments end unchanged) are taken here as hypotheses.  From them: each program's frame claim is
   its run with the values dropped, and the algebraic claim takes the reference's pure term over the
   whole arrays as the witness, each device's result block being that device's block of it. -/
import proofs.«900772_g7700000000000773_dist_diff_adaln_cshard_i_b4_s512_c256_v7x_i8_f32_1_alg».proof.Defs
import proofs.«900772_g7700000000000773_dist_diff_adaln_cshard_i_b4_s512_c256_v7x_i8_f32_1_alg».proof.Proof.Bridge
import proofs.«900772_g7700000000000773_dist_diff_adaln_cshard_i_b4_s512_c256_v7x_i8_f32_1_alg».proof.Proof.KiValue
import proofs.«900772_g7700000000000773_dist_diff_adaln_cshard_i_b4_s512_c256_v7x_i8_f32_1_alg».proof.Proof.RefValue
import proofs.«900772_g7700000000000773_dist_diff_adaln_cshard_i_b4_s512_c256_v7x_i8_f32_1_alg».proof.Proof.RefRun
import proofs.«900772_g7700000000000773_dist_diff_adaln_cshard_i_b4_s512_c256_v7x_i8_f32_1_alg».proof.Proof.Gen.Kernel
import proofs.«900772_g7700000000000773_dist_diff_adaln_cshard_i_b4_s512_c256_v7x_i8_f32_1_alg».proof.Proof.Gen.KernelIdeal
import proofs.«900772_g7700000000000773_dist_diff_adaln_cshard_i_b4_s512_c256_v7x_i8_f32_1_alg».proof.Proof.Gen.ReferenceIdeal
import proofs.«900772_g7700000000000773_dist_diff_adaln_cshard_i_b4_s512_c256_v7x_i8_f32_1_alg».proof.Proof.Gen.Pre_finite_inputs_Kernel
import proofs.«900772_g7700000000000773_dist_diff_adaln_cshard_i_b4_s512_c256_v7x_i8_f32_1_alg».proof.Proof.Gen.Pre_finite_inputs_ReferenceIdeal
import Idealize.ShloMosaic.Adequacy
import Idealize.ShloMosaic.Init

noncomputable section

namespace Cert.Asm

open Idealize.ShloMosaic Idealize.SL.Sem

/-- The reference runs and leaves its four argument arrays unchanged, whatever they hold. -/
theorem frame_ReferenceIdeal :
    Cert.frame_ReferenceIdeal (hReferenceIdeal := Cert.ReferenceIdeal.Gen.facts)
      (hPre_finite_inputs_ReferenceIdeal := Cert.Pre_finite_inputs_ReferenceIdeal.Gen.facts) :=
  fun m g _ => Cert.RefRun.run_frame m g

/-- The kernel at the extended reals runs and leaves every device's argument blocks unchanged: its run
    with the result block's value dropped. -/
theorem frame_KernelIdeal
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1) = Cert.KernelIdeal.Spec.outAt (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :
    Cert.frame_KernelIdeal (hKernelIdeal := Cert.KernelIdeal.Gen.facts)
      (hPre_finite_inputs_Kernel := Cert.Pre_finite_inputs_Kernel.Gen.facts) :=
  fun m g _ => (θ_run _ _ _).mono (fun r h c => (h c).2) (hrun m g)

/-- The kernel at the words runs and leaves every device's argument blocks unchanged. -/
theorem frame_Kernel
    (hrunB : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩ (fun r => ∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3))) :
    Cert.frame_Kernel (hKernel := Cert.Kernel.Gen.facts)
      (hPre_finite_inputs_Kernel := Cert.Pre_finite_inputs_Kernel.Gen.facts) :=
  fun m g _ => hrunB m g

/-- At the extended reals, from devices' argument blocks that are the blocks of the reference's arrays
    and hold real numbers only: both programs run, the reference's result is its pure term over the whole
    arrays, each device's result block is that device's block of it, and all arguments end unchanged. -/
theorem algebraic
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1) = Cert.KernelIdeal.Spec.outAt (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :
    Cert.algebraic_KernelIdeal_ReferenceIdeal (hKernelIdeal := Cert.KernelIdeal.Gen.facts)
      (hReferenceIdeal := Cert.ReferenceIdeal.Gen.facts)
      (hPre_finite_inputs_Kernel := Cert.Pre_finite_inputs_Kernel.Gen.facts) :=
  fun m g m' g' hpre hag =>
    ⟨Cert.RefSpec.refOut (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)),
      (θ_run _ _ _).mono (fun r h c =>
          ⟨(h c).1.trans (Cert.Bridge.outAt_eq_block Cert.KernelIdeal.Value'.outAt_apply Cert.RefValue.refOut_apply m m' hpre hag c),
            (h c).2⟩)
        (hrun m g),
      Cert.RefRun.run m' g'⟩

/-- Everything the certificate claims, from the kernel's two runs. -/
theorem claim
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1) = Cert.KernelIdeal.Spec.outAt (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)))
    (hrunB : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩ (fun r => ∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3))) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_Kernel hrunB, frame_KernelIdeal hrun, frame_ReferenceIdeal, trivial, algebraic hrun⟩

end Cert.Asm

end

/-- info: 'Cert.Asm.claim' depends on axioms: [propext, Classical.choice, Quot.sound] -/
#guard_msgs in #print axioms Cert.Asm.claim
-- ==== Proof.KiMem.lean ====
/- The memory the exchange runs on: each device's statistics scratch (the source of its seven
   copies), its receive buffer of seven slots (slot k written by the device k+1 steps behind it
   on the ring), the barrier semaphore and the seven send and seven receive semaphores; the cells
   the protocol counts on, and the points-to assertions the protocol hands around. -/
import proofs.«900772_g7700000000000773_dist_diff_adaln_cshard_i_b4_s512_c256_v7x_i8_f32_1_alg».proof.Proof.Gen.KernelIdeal
import proofs.«900772_g7700000000000773_dist_diff_adaln_cshard_i_b4_s512_c256_v7x_i8_f32_1_alg».proof.Proof.Gen.KernelIdeal.Skeleton
import proofs.«900772_g7700000000000773_dist_diff_adaln_cshard_i_b4_s512_c256_v7x_i8_f32_1_alg».proof.Proof.Gen.KernelIdeal.Launch
import proofs.«900772_g7700000000000773_dist_diff_adaln_cshard_i_b4_s512_c256_v7x_i8_f32_1_alg».proof.Proof.KiSpec
import Idealize.ShloMosaic.Lib.Pipeline.Launch
import Idealize.ShloMosaic.Lib.Pipeline.Kit
import Idealize.ShloMosaic.Lib.Tactic

noncomputable section

namespace Cert.KernelIdeal.Mem

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two resource algebras side by side: the pipeline's own, and the exchange's rounds with
    duties named by a slot number. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev xM : Memref sig .tc .vmem S4x512x256 .f32 := Memref.whole cc0_stg0_0
abbrev tM : Memref sig .tc .vmem S4x128 .f32 := Memref.whole cc0_stg1_0
abbrev wsM : Memref sig .tc .vmem S128x256 .f32 := Memref.whole cc0_stg2_0
abbrev wshM : Memref sig .tc .vmem S128x256 .f32 := Memref.whole cc0_stg3_0
abbrev oM : Memref sig .tc .vmem S4x512x256 .f32 := Memref.whole cc0_stg4_0
/-- The statistics scratch and the receive buffer. -/
abbrev statsM : Memref sig .tc .vmem S2x4x512 .f32 := Memref.whole cc0_scratch0
abbrev commM : Memref sig .tc .vmem S7x2x4x512 .f32 := Memref.whole cc0_scratch1

/-- Slot `k` of the receive buffer as a 2x4x512 view: the destination of the `k`-th copy. -/
abbrev slotM : Fin 7 → Memref sig .tc .vmem S2x4x512 .f32
  | ⟨0, _⟩ => ((commM.slice (Rect.unit (s := S7x2x4x512) ![0, 0, 0, 0] S1x2x4x512.size Facts₀.inb_S7x2x4x512_S1x2x4x512_0_0_0_0) (fun _ => rfl)).squeeze S2x4x512 Facts₀.squeezes_S1x2x4x512_S2x4x512)
  | ⟨1, _⟩ => ((commM.slice (Rect.unit (s := S7x2x4x512) ![1, 0, 0, 0] S1x2x4x512.size Facts₀.inb_S7x2x4x512_S1x2x4x512_1_0_0_0) (fun _ => rfl)).squeeze S2x4x512 Facts₀.squeezes_S1x2x4x512_S2x4x512)
  | ⟨2, _⟩ => ((commM.slice (Rect.unit (s := S7x2x4x512) ![2, 0, 0, 0] S1x2x4x512.size Facts₀.inb_S7x2x4x512_S1x2x4x512_2_0_0_0) (fun _ => rfl)).squeeze S2x4x512 Facts₀.squeezes_S1x2x4x512_S2x4x512)
  | ⟨3, _⟩ => ((commM.slice (Rect.unit (s := S7x2x4x512) ![3, 0, 0, 0] S1x2x4x512.size Facts₀.inb_S7x2x4x512_S1x2x4x512_3_0_0_0) (fun _ => rfl)).squeeze S2x4x512 Facts₀.squeezes_S1x2x4x512_S2x4x512)
  | ⟨4, _⟩ => ((commM.slice (Rect.unit (s := S7x2x4x512) ![4, 0, 0, 0] S1x2x4x512.size Facts₀.inb_S7x2x4x512_S1x2x4x512_4_0_0_0) (fun _ => rfl)).squeeze S2x4x512 Facts₀.squeezes_S1x2x4x512_S2x4x512)
  | ⟨5, _⟩ => ((commM.slice (Rect.unit (s := S7x2x4x512) ![5, 0, 0, 0] S1x2x4x512.size Facts₀.inb_S7x2x4x512_S1x2x4x512_5_0_0_0) (fun _ => rfl)).squeeze S2x4x512 Facts₀.squeezes_S1x2x4x512_S2x4x512)
  | ⟨6, _⟩ => ((commM.slice (Rect.unit (s := S7x2x4x512) ![6, 0, 0, 0] S1x2x4x512.size Facts₀.inb_S7x2x4x512_S1x2x4x512_6_0_0_0) (fun _ => rfl)).squeeze S2x4x512 Facts₀.squeezes_S1x2x4x512_S2x4x512)

/-- The rectangle a load of slot `k` goes through. -/
abbrev slotRect : Fin 7 → Rect S7x2x4x512
  | ⟨0, _⟩ => Rect.unit (s := S7x2x4x512) ![0, 0, 0, 0] S1x2x4x512.size Facts₀.inb_S7x2x4x512_S1x2x4x512_0_0_0_0
  | ⟨1, _⟩ => Rect.unit (s := S7x2x4x512) ![1, 0, 0, 0] S1x2x4x512.size Facts₀.inb_S7x2x4x512_S1x2x4x512_1_0_0_0
  | ⟨2, _⟩ => Rect.unit (s := S7x2x4x512) ![2, 0, 0, 0] S1x2x4x512.size Facts₀.inb_S7x2x4x512_S1x2x4x512_2_0_0_0
  | ⟨3, _⟩ => Rect.unit (s := S7x2x4x512) ![3, 0, 0, 0] S1x2x4x512.size Facts₀.inb_S7x2x4x512_S1x2x4x512_3_0_0_0
  | ⟨4, _⟩ => Rect.unit (s := S7x2x4x512) ![4, 0, 0, 0] S1x2x4x512.size Facts₀.inb_S7x2x4x512_S1x2x4x512_4_0_0_0
  | ⟨5, _⟩ => Rect.unit (s := S7x2x4x512) ![5, 0, 0, 0] S1x2x4x512.size Facts₀.inb_S7x2x4x512_S1x2x4x512_5_0_0_0
  | ⟨6, _⟩ => Rect.unit (s := S7x2x4x512) ![6, 0, 0, 0] S1x2x4x512.size Facts₀.inb_S7x2x4x512_S1x2x4x512_6_0_0_0

/-! ## The semaphores and the cells -/

/-- The runtime's barrier semaphore of collective id 0 (not scoped to the launch). -/
abbrev barS : Sem sig := (SemArray.scalar (sig.barrier 0 rfl) : Sems sig S_).sem
/-- The `k`-th send and receive DMA semaphores (scoped scratch). -/
abbrev sendS : Fin 7 → DmaSem sig
  | ⟨0, _⟩ => ((cc0_scratch2.slice (Rect.unit (s := S7) ![0] S1.size Facts₀.inb_S7_S1_0)).squeeze S_ Facts₀.squeezes_S1_S_).sem
  | ⟨1, _⟩ => ((cc0_scratch2.slice (Rect.unit (s := S7) ![1] S1.size Facts₀.inb_S7_S1_1)).squeeze S_ Facts₀.squeezes_S1_S_).sem
  | ⟨2, _⟩ => ((cc0_scratch2.slice (Rect.unit (s := S7) ![2] S1.size Facts₀.inb_S7_S1_2)).squeeze S_ Facts₀.squeezes_S1_S_).sem
  | ⟨3, _⟩ => ((cc0_scratch2.slice (Rect.unit (s := S7) ![3] S1.size Facts₀.inb_S7_S1_3)).squeeze S_ Facts₀.squeezes_S1_S_).sem
  | ⟨4, _⟩ => ((cc0_scratch2.slice (Rect.unit (s := S7) ![4] S1.size Facts₀.inb_S7_S1_4)).squeeze S_ Facts₀.squeezes_S1_S_).sem
  | ⟨5, _⟩ => ((cc0_scratch2.slice (Rect.unit (s := S7) ![5] S1.size Facts₀.inb_S7_S1_5)).squeeze S_ Facts₀.squeezes_S1_S_).sem
  | ⟨6, _⟩ => ((cc0_scratch2.slice (Rect.unit (s := S7) ![6] S1.size Facts₀.inb_S7_S1_6)).squeeze S_ Facts₀.squeezes_S1_S_).sem
abbrev recvS : Fin 7 → DmaSem sig
  | ⟨0, _⟩ => ((cc0_scratch3.slice (Rect.unit (s := S7) ![0] S1.size Facts₀.inb_S7_S1_0)).squeeze S_ Facts₀.squeezes_S1_S_).sem
  | ⟨1, _⟩ => ((cc0_scratch3.slice (Rect.unit (s := S7) ![1] S1.size Facts₀.inb_S7_S1_1)).squeeze S_ Facts₀.squeezes_S1_S_).sem
  | ⟨2, _⟩ => ((cc0_scratch3.slice (Rect.unit (s := S7) ![2] S1.size Facts₀.inb_S7_S1_2)).squeeze S_ Facts₀.squeezes_S1_S_).sem
  | ⟨3, _⟩ => ((cc0_scratch3.slice (Rect.unit (s := S7) ![3] S1.size Facts₀.inb_S7_S1_3)).squeeze S_ Facts₀.squeezes_S1_S_).sem
  | ⟨4, _⟩ => ((cc0_scratch3.slice (Rect.unit (s := S7) ![4] S1.size Facts₀.inb_S7_S1_4)).squeeze S_ Facts₀.squeezes_S1_S_).sem
  | ⟨5, _⟩ => ((cc0_scratch3.slice (Rect.unit (s := S7) ![5] S1.size Facts₀.inb_S7_S1_5)).squeeze S_ Facts₀.squeezes_S1_S_).sem
  | ⟨6, _⟩ => ((cc0_scratch3.slice (Rect.unit (s := S7) ![6] S1.size Facts₀.inb_S7_S1_6)).squeeze S_ Facts₀.squeezes_S1_S_).sem

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- A copy's credit: the words of a statistics array. -/
abbrev N : ℕ := (statsM : Memref sig .tc .vmem S2x4x512 .f32).view.dmaCredit
theorem N_pos : 0 < N := View.dmaCredit_pos _ (by decide)

/-! ## Shares of the statistics scratch

The seven copies read one source at once while the device itself loads it: each copy takes one
share, the device keeps the eighth. -/

/-- The share the `k`-th copy holds of the source, and the one the device keeps: the tree of halves
    `L`, `RL`, `RRL`, …, `R⁷`. -/
def restShr : ℕ → PosShare TreeShare
  | 0 => fullShare
  | n + 1 => (restShr n).right
def cpShr (k : Fin 7) : PosShare TreeShare := (restShr k.val).left
def keepShr : PosShare TreeShare := restShr 7

/-! ## The points-to assertions handed around -/

variable (m : (ℓ : Loc nD τ sig) → Buf (Elt F) ℓ)

/-- Device `c`'s statistics scratch at share `q`, holding `f`. -/
def statsPts (c : Dev nD) (q : PosShare TreeShare) (f : Buf (Elt F) ((statsM : Memref sig .tc .vmem S2x4x512 .f32).view.loc (c : Thread nD τ))) : sProp 𝕄 :=
  (statsM : Memref sig .tc .vmem S2x4x512 .f32).view.loc (c : Thread nD τ) ↦[(statsM : Memref sig .tc .vmem S2x4x512 .f32).view.set]{q} f
/-- Slot `k` of device `c`'s receive buffer, whole share, the buffer's contents `f` (only the slot's entries matter). -/
def slotPts (c : Dev nD) : (k : Fin 7) → Buf (Elt F) ((c : Thread nD τ).loc cc0_scratch1) → sProp 𝕄
  | ⟨0, _⟩, f => (slotM 0).view.loc (c : Thread nD τ) ↦[(slotM 0).view.set]{fullShare} f
  | ⟨1, _⟩, f => (slotM 1).view.loc (c : Thread nD τ) ↦[(slotM 1).view.set]{fullShare} f
  | ⟨2, _⟩, f => (slotM 2).view.loc (c : Thread nD τ) ↦[(slotM 2).view.set]{fullShare} f
  | ⟨3, _⟩, f => (slotM 3).view.loc (c : Thread nD τ) ↦[(slotM 3).view.set]{fullShare} f
  | ⟨4, _⟩, f => (slotM 4).view.loc (c : Thread nD τ) ↦[(slotM 4).view.set]{fullShare} f
  | ⟨5, _⟩, f => (slotM 5).view.loc (c : Thread nD τ) ↦[(slotM 5).view.set]{fullShare} f
  | ⟨6, _⟩, f => (slotM 6).view.loc (c : Thread nD τ) ↦[(slotM 6).view.set]{fullShare} f

/-- The receive buffer's contents once every slot has landed: entry `(k, p, b, s)` is entry `(p, b, s)` of the
    statistics of the device `k+1` steps behind. -/
def landed (c : Dev nD) : Buf (Elt F) ((c : Thread nD τ).loc cc0_scratch1) :=
  fun i => statsOf m (src c (i 0)) (ValueIdx.ix3 (n0 := 2) (n1 := 4) (n2 := 512) (i 1) (i 2) (i 3))

end Cert.KernelIdeal.Mem

end
-- ==== Proof.KiProto.lean ====
/- The exchange's protocol under the rounds discipline, one round per cell.
   Device c's barrier cell has seven duties, duty e paid by the device c sends its e-th copy to
   (dst c e) with ONE unit, its payload that device's receive slot e: the slot c's e-th copy will
   write.  Receive cell e of device c has one duty, paid by the e-th copy of the device e+1 steps
   behind it, its payload slot e holding that device's statistics.  Send cell e of device c has
   one duty, paid by c's own e-th copy, its payload the share of the statistics scratch the copy
   read through.  A device signals all seven peers, waits for its seven units, then copies: so a
   copy lands only in a slot whose owner has entered the kernel and handed the slot over. -/
import proofs.«900772_g7700000000000773_dist_diff_adaln_cshard_i_b4_s512_c256_v7x_i8_f32_1_alg».proof.Proof.KiMem

noncomputable section

namespace Cert.KernelIdeal.Proto

open Cert.KernelIdeal Cert.KernelIdeal.Gen Cert.KernelIdeal.Spec Cert.KernelIdeal.Mem
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring -/

/-- The slot a device's `k`-th signal hands over: its signal goes to `dst c k`, which writes the signaller's slot `rev k`. -/
abbrev rev (k : Fin 7) : Fin 7 := ⟨6 - k.val, by omega⟩

theorem dst_dst_rev (c : Dev nD) (k : Fin 7) : dst (dst c k) (rev k) = c := by revert c k; decide
theorem rev_rev (k : Fin 7) : rev (rev k) = k := by revert k; decide
theorem src_eq (c : Dev nD) (k : Fin 7) : src c k = dst c (rev k) := by revert c k; decide

/-- The kernel's `device_id` chains: the `k`-th signal and the `k`-th copy both name `dst c k`. -/
theorem dev1_eq (c : Dev nD) : (⟨k0_dev1 c, k0_dev1_lt c⟩ : Dev nD) = dst c 0 := Fin.ext (k0_dev1_eq c)
theorem dev2_eq (c : Dev nD) : (⟨k0_dev2 c, k0_dev2_lt c⟩ : Dev nD) = dst c 1 := Fin.ext (k0_dev2_eq c)
theorem dev3_eq (c : Dev nD) : (⟨k0_dev3 c, k0_dev3_lt c⟩ : Dev nD) = dst c 2 := Fin.ext (k0_dev3_eq c)
theorem dev4_eq (c : Dev nD) : (⟨k0_dev4 c, k0_dev4_lt c⟩ : Dev nD) = dst c 3 := Fin.ext (k0_dev4_eq c)
theorem dev5_eq (c : Dev nD) : (⟨k0_dev5 c, k0_dev5_lt c⟩ : Dev nD) = dst c 4 := Fin.ext (k0_dev5_eq c)
theorem dev6_eq (c : Dev nD) : (⟨k0_dev6 c, k0_dev6_lt c⟩ : Dev nD) = dst c 5 := Fin.ext (k0_dev6_eq c)
theorem dev7_eq (c : Dev nD) : (⟨k0_dev7 c, k0_dev7_lt c⟩ : Dev nD) = dst c 6 := Fin.ext (k0_dev7_eq c)
theorem dev8_eq (c : Dev nD) : (⟨k0_dev8 c, k0_dev8_lt c⟩ : Dev nD) = dst c 0 := Fin.ext (k0_dev8_eq c)
theorem dev9_eq (c : Dev nD) : (⟨k0_dev9 c, k0_dev9_lt c⟩ : Dev nD) = dst c 1 := Fin.ext (k0_dev9_eq c)
theorem dev10_eq (c : Dev nD) : (⟨k0_dev10 c, k0_dev10_lt c⟩ : Dev nD) = dst c 2 := Fin.ext (k0_dev10_eq c)
theorem dev11_eq (c : Dev nD) : (⟨k0_dev11 c, k0_dev11_lt c⟩ : Dev nD) = dst c 3 := Fin.ext (k0_dev11_eq c)
theorem dev12_eq (c : Dev nD) : (⟨k0_dev12 c, k0_dev12_lt c⟩ : Dev nD) = dst c 4 := Fin.ext (k0_dev12_eq c)
theorem dev13_eq (c : Dev nD) : (⟨k0_dev13 c, k0_dev13_lt c⟩ : Dev nD) = dst c 5 := Fin.ext (k0_dev13_eq c)
theorem dev14_eq (c : Dev nD) : (⟨k0_dev14 c, k0_dev14_lt c⟩ : Dev nD) = dst c 6 := Fin.ext (k0_dev14_eq c)

/-! ## The schedule -/

/-- Which send (receive) semaphore a semaphore is, if any. -/
def sendK (sl : SemLoc sig) : Option (Fin 7) := (List.finRange 7).find? fun k => decide (sl = .dma (sendS k))
def recvK (sl : SemLoc sig) : Option (Fin 7) := (List.finRange 7).find? fun k => decide (sl = .dma (recvS k))

theorem sendK_send (k : Fin 7) : sendK (.dma (sendS k)) = some k := by revert k; decide
theorem recvK_recv (k : Fin 7) : recvK (.dma (recvS k)) = some k := by revert k; decide
theorem recvK_send (k : Fin 7) : recvK (.dma (sendS k)) = none := by revert k; decide
theorem sendK_recv (k : Fin 7) : sendK (.dma (recvS k)) = none := by revert k; decide
theorem recvK_bar : recvK (.reg barS) = none := by decide
theorem sendK_bar : sendK (.reg barS) = none := by decide

/-- What the units of a duty hand the cell's owner. -/
def barPay (c : Dev nD) (e : Fin 7) : sProp 𝕄 := iprop(∃ f, slotPts (dst c e) e f)
def recvPay (c : Dev nD) (e : Fin 7) : sProp 𝕄 := slotPts c e (landed m c)
def sendPay (c : Dev nD) (e : Fin 7) : sProp 𝕄 := statsPts c (cpShr e) (statsOf m c)

abbrev IsBar (g : GSem nD τ sig) : Prop := g.1.2 = .tc ∧ g.2 = .reg barS
abbrev IsXfer (g : GSem nD τ sig) : Prop := g.1.2 = .tc ∧ ((sendK g.2).isSome ∨ (recvK g.2).isSome)

/-- One round, round 0: a barrier cell has seven duties of one unit; a send or receive cell the one duty `0` of a
    statistics array's credit. -/
def Rd : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay (F := F) g.1.1 d
    else match recvK g.2 with
      | some k => recvPay m g.1.1 k
      | none => match sendK g.2 with
        | some k => sendPay m g.1.1 k
        | none => iprop(emp)
  amount_pos g _ _ _ := by
    by_cases h : g.2 = .reg barS
    · rw [if_pos h]; exact Nat.one_pos
    · rw [if_neg h]; exact N_pos

/-! ## What each device owes at launch; the levels -/

/-- The fourteen payments a device makes, in program order: seven signals, then seven copies' receive credits. -/
def payCell (c : Dev nD) : Fin 14 → GSem nD τ sig
  | ⟨0, _⟩ => barCell (dst c 0) | ⟨1, _⟩ => barCell (dst c 1) | ⟨2, _⟩ => barCell (dst c 2) | ⟨3, _⟩ => barCell (dst c 3)
  | ⟨4, _⟩ => barCell (dst c 4) | ⟨5, _⟩ => barCell (dst c 5) | ⟨6, _⟩ => barCell (dst c 6)
  | ⟨7, _⟩ => recvCell (dst c 0) 0 | ⟨8, _⟩ => recvCell (dst c 1) 1 | ⟨9, _⟩ => recvCell (dst c 2) 2 | ⟨10, _⟩ => recvCell (dst c 3) 3
  | ⟨11, _⟩ => recvCell (dst c 4) 4 | ⟨12, _⟩ => recvCell (dst c 5) 5 | ⟨13, _⟩ => recvCell (dst c 6) 6
def payAmt (i : Fin 14) : ℕ := if i.val < 7 then 1 else N

/-- What is still owed when `j` payments remain (the last `j` of the fourteen): each payment peels the last summand. -/
def owedR (c : Dev nD) : ℕ → CellTallies nD τ sig Unit
  | 0 => 0
  | j + 1 => if h : j < 14 then owedR c j + tallyAt (payCell c ⟨13 - j, by omega⟩) () (payAmt ⟨13 - j, by omega⟩) else owedR c j
def O₀ (c : Dev nD) : CellTallies nD τ sig Unit := owedR c 14

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvK g.2).isSome then 2 else 0

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The input windows' blocks: each window is its whole array. -/
def xstg (c : Dev nD) : (cc0_stg0_0 : Ref sig .tc).ty.Contents (Elt F) :=
  (win0_0.blk (0 : Fin 1)).view.read (Elt F) ((s₀ m ρ).mem ((c : Thread nD τ).loc main_arg0))
def tstg (c : Dev nD) : (cc0_stg1_0 : Ref sig .tc).ty.Contents (Elt F) :=
  (win0_1.blk (0 : Fin 1)).view.read (Elt F) ((s₀ m ρ).mem ((c : Thread nD τ).loc main_arg1))
def wsstg (c : Dev nD) : (cc0_stg2_0 : Ref sig .tc).ty.Contents (Elt F) :=
  (win0_2.blk (0 : Fin 1)).view.read (Elt F) ((s₀ m ρ).mem ((c : Thread nD τ).loc main_arg2))
def wshstg (c : Dev nD) : (cc0_stg3_0 : Ref sig .tc).ty.Contents (Elt F) :=
  (win0_3.blk (0 : Fin 1)).view.read (Elt F) ((s₀ m ρ).mem ((c : Thread nD τ).loc main_arg3))

/-- The cells' invariants device `c`'s body opens, under the names `K` the launch allocated them at: its own fifteen,
    and per copy the peer's barrier cell and the peer's receive cell. -/
def invs (K : GSem nD τ sig → ℕ) (c : Dev nD) : sProp 𝕄 :=
  iprop(cellInv ER (Rd m) (K (barCell c)) (barCell c)
    ∗ bigSep Finset.univ fun k : Fin 7 => iprop(cellInv ER (Rd m) (K (sendCell c k)) (sendCell c k) ∗ cellInv ER (Rd m) (K (recvCell c k)) (recvCell c k)
        ∗ cellInv ER (Rd m) (K (barCell (dst c k))) (barCell (dst c k)) ∗ cellInv ER (Rd m) (K (recvCell (dst c k) k)) (recvCell (dst c k) k)))

/-- The cells a device pays, and its own send and receive cells, have reached round 0. -/
def marks (c : Dev nD) : sProp 𝕄 :=
  bigSep Finset.univ fun k : Fin 7 => iprop(reached ER (barCell (dst c k)) 0 ∗ reached ER (recvCell (dst c k) k) 0 ∗ reached ER (sendCell c k) 0 ∗ reached ER (recvCell c k) 0)

/-- The device's positions at round 0 of its fifteen cells, and the tokens of the duties it pays: per copy `k` the
    barrier duty `rev k` of the peer, the peer's receive duty and its own send duty. -/
def linear (c : Dev nD) : sProp 𝕄 :=
  iprop(atPos ER (barCell c) 0 ∅ 0
    ∗ (bigSep Finset.univ fun k : Fin 7 => iprop(atPos ER (sendCell c k) 0 ∅ 0 ∗ atPos ER (recvCell c k) 0 ∅ 0))
    ∗ bigSep Finset.univ fun k : Fin 7 => iprop(dutyTok ER (barCell (dst c k)) 0 (rev k) ∗ dutyTok ER (recvCell (dst c k) k) 0 0 ∗ dutyTok ER (sendCell c k) 0 0))

def ghost (K : GSem nD τ sig → ℕ) (c : Dev nD) : sProp 𝕄 := iprop(invs m K c ∗ marks c ∗ linear c)

/-- What device `c`'s body starts from: that at some names, the credit of its barrier's seven units and of each
    receive cell, and the level facts. -/
def start (c : Dev nD) : sProp 𝕄 :=
  iprop((∃ K, ghost m K c) ∗ cred (tallyAt (barCell c) () 7) ∗ (bigSep Finset.univ fun k : Fin 7 => cred (tallyAt (recvCell c k) () N)) ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
/-- After the point: both scratch buffers whole again, the fourteen own cells at zero, closed. -/
def Φ₁ (c : Dev nD) : sProp 𝕄 :=
  iprop(scratch c ∗ bigSep Finset.univ fun k : Fin 7 => iprop(semVal (sendCell c k) 0 ∗ semVal (recvCell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => wsstg m ρ c
    | ⟨3, _⟩ => wshstg m ρ c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Proto

end
-- ==== Proof.KiTables.lean ====
/- The exchange's schedule read cell by cell: which duties a barrier, a send and a receive cell have in
   round 0 and that no cell has any later, what each duty contributes and hands over, what a round
   expects in all, and what remains of a round no duty of which has been taken; then the order of the
   cells: every cell a device still owes lies above the cell it waits on. -/
import proofs.«900772_g7700000000000773_dist_diff_adaln_cshard_i_b4_s512_c256_v7x_i8_f32_1_alg».proof.Proof.KiProto

noncomputable section

namespace Cert.KernelIdeal.Proto

open Cert.KernelIdeal Cert.KernelIdeal.Gen Cert.KernelIdeal.Spec Cert.KernelIdeal.Mem
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Seven at a time -/

/-- A separating conjunction over the seven slots, written out. -/
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-! ## The payloads can be kept in an invariant -/

instance statsPts_storable (c : Dev nD) (q : PosShare TreeShare)
    (f : Buf (Elt F) ((statsM : Memref sig .tc .vmem S2x4x512 .f32).view.loc (c : Thread nD τ))) :
    BI.Storable (upEmb : UEmb _ 𝕄) (statsPts c q f) := by
  unfold statsPts; infer_instance

instance slotPts_storable (c : Dev nD) (k : Fin 7) (f : Buf (Elt F) ((c : Thread nD τ).loc cc0_scratch1)) :
    BI.Storable (upEmb : UEmb _ 𝕄) (slotPts c k f) := by
  fin_cases k <;> (unfold slotPts; infer_instance)

instance Rd_payload_storable (g : GSem nD τ sig) (r : ℕ) (d : Fin 7) :
    BI.Storable (upEmb : UEmb _ 𝕄) ((Rd (F := F) m).payload g r d) := by
  show BI.Storable upEmb (if g.2 = .reg barS then barPay (F := F) g.1.1 d
    else match recvK g.2 with
      | some k => recvPay m g.1.1 k
      | none => match sendK g.2 with
        | some k => sendPay m g.1.1 k
        | none => iprop(emp))
  unfold barPay recvPay sendPay
  (repeat' split) <;> infer_instance

/-! ## The table, cell by cell -/

section Sched
variable (c : Dev nD)

/-- A DMA semaphore is not the barrier semaphore. -/
theorem send_ne_bar (k : Fin 7) : (SemLoc.dma (sendS k) : SemLoc sig) ≠ .reg barS := fun h => by cases h
theorem recv_ne_bar (k : Fin 7) : (SemLoc.dma (recvS k) : SemLoc sig) ≠ .reg barS := fun h => by cases h
theorem not_bar_send (k : Fin 7) : ¬ IsBar (sendCell c k) := fun h => send_ne_bar k h.2
theorem not_bar_recv (k : Fin 7) : ¬ IsBar (recvCell c k) := fun h => recv_ne_bar k h.2

theorem duties_bar : (Rd (F := F) m).duties (barCell c) 0 = Finset.univ := by
  dsimp only [Rd]; exact if_pos ⟨rfl, rfl, rfl⟩
theorem duties_send (k : Fin 7) : (Rd (F := F) m).duties (sendCell c k) 0 = {0} := by
  dsimp only [Rd]; rw [if_neg (fun h => not_bar_send c k h.2)]
  exact if_pos ⟨rfl, rfl, .inl ((congrArg Option.isSome (sendK_send k)).trans rfl)⟩
theorem duties_recv (k : Fin 7) : (Rd (F := F) m).duties (recvCell c k) 0 = {0} := by
  dsimp only [Rd]; rw [if_neg (fun h => not_bar_recv c k h.2)]
  exact if_pos ⟨rfl, rfl, .inr ((congrArg Option.isSome (recvK_recv k)).trans rfl)⟩
theorem duties_later (g : GSem nD τ sig) : ∀ r, 1 ≤ r → (Rd (F := F) m).duties g r = ∅ :=
  fun r hr => by dsimp only [Rd]; rw [if_neg fun h => by omega, if_neg fun h => by omega]

theorem amount_bar (d : Fin 7) : (Rd (F := F) m).amount (barCell c) 0 d = 1 := by
  dsimp only [Rd]; exact if_pos rfl
theorem amount_send (k d : Fin 7) : (Rd (F := F) m).amount (sendCell c k) 0 d = N := by
  dsimp only [Rd]; exact if_neg (send_ne_bar k)
theorem amount_recv (k d : Fin 7) : (Rd (F := F) m).amount (recvCell c k) 0 d = N := by
  dsimp only [Rd]; exact if_neg (recv_ne_bar k)

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send (k : Fin 7) : (Rd (F := F) m).expect (sendCell c k) 0 = N := by
  unfold Schedule.expect Schedule.amountOf; rw [duties_send, Finset.sum_singleton, amount_send]
theorem expect_recv (k : Fin 7) : (Rd (F := F) m).expect (recvCell c k) 0 = N := by
  unfold Schedule.expect Schedule.amountOf; rw [duties_recv, Finset.sum_singleton, amount_recv]

theorem payload_bar (e : Fin 7) : (Rd (F := F) m).payload (barCell c) 0 e = barPay c e := by
  dsimp only [Rd]; rw [if_pos rfl]
theorem payload_send (k d : Fin 7) : (Rd (F := F) m).payload (sendCell c k) 0 d = sendPay m c k := by
  dsimp only [Rd]; rw [if_neg (send_ne_bar k), recvK_send, sendK_send]
theorem payload_recv (k d : Fin 7) : (Rd (F := F) m).payload (recvCell c k) 0 d = recvPay m c k := by
  dsimp only [Rd]; rw [if_neg (recv_ne_bar k), recvK_recv]

/-- The rest of the barrier cell's round, no duty taken: the seven slots handed over. -/
theorem rest_bar : bigSep ((Rd (F := F) m).duties (barCell c) 0 \ ∅) (fun d => (Rd (F := F) m).payload (barCell c) 0 d)
    = iprop(barPay c 0 ∗ barPay c 1 ∗ barPay c 2 ∗ barPay c 3 ∗ barPay c 4 ∗ barPay c 5 ∗ barPay c 6) := by
  rw [Finset.sdiff_empty, duties_bar, bigSep_fin7, payload_bar, payload_bar, payload_bar, payload_bar, payload_bar, payload_bar, payload_bar]
theorem rest_send (k : Fin 7) : bigSep ((Rd (F := F) m).duties (sendCell c k) 0 \ ∅) (fun d => (Rd (F := F) m).payload (sendCell c k) 0 d)
    = sendPay m c k := by
  rw [Finset.sdiff_empty, duties_send, bigSep_singleton, payload_send]
theorem rest_recv (k : Fin 7) : bigSep ((Rd (F := F) m).duties (recvCell c k) 0 \ ∅) (fun d => (Rd (F := F) m).payload (recvCell c k) 0 d)
    = recvPay m c k := by
  rw [Finset.sdiff_empty, duties_recv, bigSep_singleton, payload_recv]

end Sched

/-! ## What each device owes; the levels -/

theorem L_of_ne (g : GSem nD τ sig) (h : g.1.2 ≠ .tc) : L g = ∅ := if_neg h
theorem L_tc (c : Dev nD) (sm : SemLoc sig) : L ((c : Thread nD τ), sm) = {()} := if_pos rfl

/-- With one more payment remaining, one more summand is owed: the payment made just before the last `j`. -/
theorem owedR_succ (c : Dev nD) (j : ℕ) (h : j < 14) :
    owedR c (j + 1) = owedR c j + tallyAt (payCell c ⟨13 - j, by omega⟩) () (payAmt ⟨13 - j, by omega⟩) := by
  rw [owedR, dif_pos h]

/-- Past the fourteenth payment nothing more is owed. -/
theorem owedR_succ_of_ge (c : Dev nD) (j : ℕ) (h : ¬ j < 14) : owedR c (j + 1) = owedR c j := by
  rw [owedR, dif_neg h]

/-- Whatever is owed with `j` payments remaining is owed to one of the last `j` cells paid. -/
theorem owedR_pos {c : Dev nD} {j : ℕ} {g : GSem nD τ sig} {u : Unit} (h : 0 < owedR c j g u) :
    ∃ i : Fin 14, 14 - j ≤ i.val ∧ g = payCell c i := by
  induction j with
  | zero => exact absurd h (Nat.lt_irrefl 0)
  | succ j ih =>
    by_cases hj : j < 14
    · rw [owedR_succ c j hj, Pi.add_apply, Finsupp.add_apply, tallyAt_apply] at h
      by_cases hg : g = payCell c ⟨13 - j, by omega⟩ ∧ u = ()
      · exact ⟨⟨13 - j, by omega⟩, by simp only; omega, hg.1⟩
      · rw [if_neg hg, Nat.add_zero] at h
        obtain ⟨i, hi, he⟩ := ih h
        exact ⟨i, by omega, he⟩
    · rw [owedR_succ_of_ge c j hj] at h
      obtain ⟨i, hi, he⟩ := ih h
      exact ⟨i, by omega, he⟩

/-- The first seven payments go to barrier cells, the last seven to receive cells. -/
theorem payCell_lo (c : Dev nD) (i : Fin 14) (h : i.val < 7) : payCell c i = barCell (dst c ⟨i.val, h⟩) := by
  fin_cases i <;> first | rfl | exact absurd h (by decide)
theorem payCell_hi (c : Dev nD) (i : Fin 14) (h : 7 ≤ i.val) :
    payCell c i = recvCell (dst c ⟨i.val - 7, by omega⟩) ⟨i.val - 7, by omega⟩ := by
  fin_cases i <;> first | rfl | exact absurd h (by decide)

theorem lv_bar (d : Dev nD) : lv (barCell d) () = 1 := if_pos rfl
theorem lv_recv (d : Dev nD) (k : Fin 7) : lv (recvCell d k) () = 2 := by
  dsimp only [lv]; rw [if_neg (recv_ne_bar k), recvK_recv]; rfl
theorem lv_stage (d : Dev nD) (q : DmaSem sig) (hq : recvK (.dma q) = none) : lv ((d : Thread nD τ), .dma q) () = 0 := by
  dsimp only [lv]; rw [if_neg (fun h => by cases h), hq]; rfl

/-- Every cell a device pays is a TensorCore's, and lies at level 1 or 2. -/
theorem L_payCell (c : Dev nD) (i : Fin 14) : L (payCell c i) = {()} := by
  by_cases h : i.val < 7
  · rw [payCell_lo c i h]; exact L_tc _ _
  · rw [payCell_hi c i (by omega)]; exact L_tc _ _
theorem lv_payCell_pos (c : Dev nD) (i : Fin 14) : 0 < lv (payCell c i) () := by
  by_cases h : i.val < 7
  · rw [payCell_lo c i h, lv_bar]; decide
  · rw [payCell_hi c i (by omega), lv_recv]; decide
theorem lv_payCell_hi (c : Dev nD) (i : Fin 14) (h : 7 ≤ i.val) : lv (payCell c i) () = 2 := by
  rw [payCell_hi c i h, lv_recv]

/-- A wait on a staging or a send cell (level 0), whether everything or nothing is still owed: every cell owed
    is a barrier cell (level 1) or a receive cell (level 2). -/
theorem mayWait_stage (c : Dev nD) (q : DmaSem sig) (hq : recvK (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨i, -, rfl⟩ := owedR_pos hg; rw [L_payCell]; exact Finset.mem_singleton_self _)
      (fun p hp => by rw [Finset.mem_singleton.mp hp]; exact le_of_eq (lv_stage c q hq))
      (fun g u hg => by obtain ⟨i, -, rfl⟩ := owedR_pos hg; exact lv_payCell_pos c i)
  · rw [MayWait_zero]; iintro -; iempintro

/-- At its barrier wait a device still owes the seven receive credits: receive cells (level 2), above its barrier
    cell (level 1). -/
theorem mayWait_bar (c : Dev nD) :
    (levAts L lv : sProp 𝕄) ⊢ MayWait (c : Thread nD τ) (.reg barS) () (owedR c 7) :=
  MayOwe.of_cut (L := L) (lev := lv) 1 (fun p hp => by rw [Finset.mem_singleton.mp hp, L_tc]; exact Finset.mem_singleton_self _)
    (fun g u hg => by obtain ⟨i, -, rfl⟩ := owedR_pos hg; rw [L_payCell]; exact Finset.mem_singleton_self _)
    (fun p hp => by rw [Finset.mem_singleton.mp hp]; exact le_of_eq (lv_bar c))
    (fun g u hg => by obtain ⟨i, hi, rfl⟩ := owedR_pos hg; rw [lv_payCell_hi c i (by omega)]; decide)

/-- info: 'Cert.KernelIdeal.Proto.mayWait_bar' depends on axioms: [propext, Classical.choice, Quot.sound] -/
#guard_msgs in #print axioms mayWait_bar

end Cert.KernelIdeal.Proto

end
-- ==== Proof.KiRegions.lean ====
/- One device's two scratch buffers as regions of memory: the whole-buffer loads and stores read
   and write the contents themselves; the statistics scratch splits into eight shares, one per
   outgoing copy and one kept; the two plane stores leave the statistics array; the receive buffer
   splits into its seven slots and is put back from them; what lands in a slot is the sender's
   statistics, and a load of the slot reads them back as the slot vector. -/
import proofs.«900772_g7700000000000773_dist_diff_adaln_cshard_i_b4_s512_c256_v7x_i8_f32_1_alg».proof.Proof.KiMem
import Idealize.ShloMosaic.Rules.PointsTo
import Idealize.ShloMosaic.Lib.ValueIdx
import Idealize.ShloMosaic.Lib.Pipeline.Value
import Idealize.ShloMosaic.Lib.Writes

noncomputable section

namespace Cert.KernelIdeal.Mem

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Whole-buffer loads and stores

A load through the rectangle of a buffer's own sizes at offset zero reads the contents; an
unmasked store through it leaves the payload. -/

theorem hz3 : (![0, 0, 0] : Fin 3 → Nat) = fun _ => 0 := by
  funext a; fin_cases a <;> rfl
theorem hz2 : (![0, 0] : Fin 2 → Nat) = fun _ => 0 := by
  funext a; fin_cases a <;> rfl

theorem read_x (c : Dev nD)
    (f : Buf (Elt F) ((xM : Memref sig .tc .vmem S4x512x256 .f32).view.loc (c : Thread nD τ))) :
    (xM : Memref sig .tc .vmem S4x512x256 .f32).view.readAt (Elt F)
      (Rect.unit (s := S4x512x256) ![0, 0, 0] S4x512x256.size Facts₀.inb_S4x512x256_S4x512x256_0_0_0).toLoadRect f = f :=
  Memref.readAt_unit_zero (Elt F) cc0_stg0_0 hz3 _ f

theorem read_t (c : Dev nD)
    (f : Buf (Elt F) ((tM : Memref sig .tc .vmem S4x128 .f32).view.loc (c : Thread nD τ))) :
    (tM : Memref sig .tc .vmem S4x128 .f32).view.readAt (Elt F)
      (Rect.unit (s := S4x128) ![0, 0] S4x128.size Facts₀.inb_S4x128_S4x128_0_0).toLoadRect f = f :=
  Memref.readAt_unit_zero (Elt F) cc0_stg1_0 hz2 _ f

theorem read_ws (c : Dev nD)
    (f : Buf (Elt F) ((wsM : Memref sig .tc .vmem S128x256 .f32).view.loc (c : Thread nD τ))) :
    (wsM : Memref sig .tc .vmem S128x256 .f32).view.readAt (Elt F)
      (Rect.unit (s := S128x256) ![0, 0] S128x256.size Facts₀.inb_S128x256_S128x256_0_0).toLoadRect f = f :=
  Memref.readAt_unit_zero (Elt F) cc0_stg2_0 hz2 _ f

theorem read_wsh (c : Dev nD)
    (f : Buf (Elt F) ((wshM : Memref sig .tc .vmem S128x256 .f32).view.loc (c : Thread nD τ))) :
    (wshM : Memref sig .tc .vmem S128x256 .f32).view.readAt (Elt F)
      (Rect.unit (s := S128x256) ![0, 0] S128x256.size Facts₀.inb_S128x256_S128x256_0_0).toLoadRect f = f :=
  Memref.readAt_unit_zero (Elt F) cc0_stg3_0 hz2 _ f

theorem read_o (c : Dev nD)
    (f : Buf (Elt F) ((oM : Memref sig .tc .vmem S4x512x256 .f32).view.loc (c : Thread nD τ))) :
    (oM : Memref sig .tc .vmem S4x512x256 .f32).view.readAt (Elt F)
      (Rect.unit (s := S4x512x256) ![0, 0, 0] S4x512x256.size Facts₀.inb_S4x512x256_S4x512x256_0_0_0).toLoadRect f = f :=
  Memref.readAt_unit_zero (Elt F) cc0_stg4_0 hz3 _ f

theorem read_stats (c : Dev nD)
    (f : Buf (Elt F) ((statsM : Memref sig .tc .vmem S2x4x512 .f32).view.loc (c : Thread nD τ))) :
    (statsM : Memref sig .tc .vmem S2x4x512 .f32).view.readAt (Elt F)
      (Rect.unit (s := S2x4x512) ![0, 0, 0] S2x4x512.size Facts₀.inb_S2x4x512_S2x4x512_0_0_0).toLoadRect f = f :=
  Memref.readAt_unit_zero (Elt F) cc0_scratch0 hz3 _ f

theorem write_out (c : Dev nD)
    (f : Buf (Elt F) ((oM : Memref sig .tc .vmem S4x512x256 .f32).view.loc (c : Thread nD τ)))
    (w : Vec F S4x512x256 .f32) :
    ((oM.access (Rect.unit (s := S4x512x256) ![0, 0, 0] S4x512x256.size Facts₀.inb_S4x512x256_S4x512x256_0_0_0) :
        View sig .tc _ _ _).write (Elt F) f w Finset.univ) = w :=
  Memref.write_access_unit_zero_univ (Elt F) cc0_stg4_0 hz3 _ f w

/-- The same store as the one write it is in a list of writes. -/
theorem writes_out (f : (oM : Memref sig .tc .vmem S4x512x256 .f32).view.ty.Contents (Elt F))
    (w : Vec F S4x512x256 .f32) :
    (oM : Memref sig .tc .vmem S4x512x256 .f32).view.writes (Elt F) f
      [⟨Rect.unit (s := S4x512x256) ![0, 0, 0] S4x512x256.size Facts₀.inb_S4x512x256_S4x512x256_0_0_0, w⟩] = w := by
  show ((oM.access (Rect.unit (s := S4x512x256) ![0, 0, 0] S4x512x256.size Facts₀.inb_S4x512x256_S4x512x256_0_0_0) :
      View sig .tc _ _ _).write (Elt F) f w Finset.univ) = w
  exact Memref.write_access_unit_zero_univ (Elt F) cc0_stg4_0 hz3 _ f w

/-! ## Shares of the statistics scratch

A share is the composition of its two halves; seven halvings peel off the seven copies' shares and
leave the kept one. -/

theorem stats_share_step (c : Dev nD) (n : ℕ)
    (f : Buf (Elt F) ((statsM : Memref sig .tc .vmem S2x4x512 .f32).view.loc (c : Thread nD τ))) :
    (statsPts (F := F) c (restShr n) f : sProp 𝕄) ⊣⊢
      iprop(statsPts c (restShr n).left f ∗ statsPts c (restShr (n + 1)) f) :=
  pointsTo_share (PosShare.mem_left_op_right (restShr n))

theorem stats_shares (c : Dev nD)
    (f : Buf (Elt F) ((statsM : Memref sig .tc .vmem S2x4x512 .f32).view.loc (c : Thread nD τ))) :
    (statsPts (F := F) c fullShare f : sProp 𝕄) ⊣⊢
      iprop(statsPts c (cpShr 0) f ∗ statsPts c (cpShr 1) f ∗ statsPts c (cpShr 2) f ∗ statsPts c (cpShr 3) f ∗
        statsPts c (cpShr 4) f ∗ statsPts c (cpShr 5) f ∗ statsPts c (cpShr 6) f ∗ statsPts c keepShr f) :=
  (stats_share_step c 0 f).trans <| sep_congr_right <|
  (stats_share_step c 1 f).trans <| sep_congr_right <|
  (stats_share_step c 2 f).trans <| sep_congr_right <|
  (stats_share_step c 3 f).trans <| sep_congr_right <|
  (stats_share_step c 4 f).trans <| sep_congr_right <|
  (stats_share_step c 5 f).trans <| sep_congr_right <|
  (stats_share_step c 6 f)

/-! ## A slot of the receive buffer

Slot `n` is the receive buffer restricted to the entries whose first coordinate is `n`, with that
axis dropped: entry `(p, b, s)` of the slot is entry `(n, p, b, s)` of the buffer. -/

/-- The slot at first coordinate `n`, whatever the spelling of the evidence that it is inside. -/
abbrev slotAt (n : ℕ) (inb : ∀ a, (![n, 0, 0, 0] : Fin 4 → Nat) a + S1x2x4x512.size a ≤ S7x2x4x512.size a) :
    Memref sig .tc .vmem S2x4x512 .f32 :=
  ((commM.slice (Rect.unit (s := S7x2x4x512) ![n, 0, 0, 0] S1x2x4x512.size inb) (fun _ => rfl)).squeeze S2x4x512
    Facts₀.squeezes_S1x2x4x512_S2x4x512)

theorem slot_lt {n : ℕ} (inb : ∀ a, (![n, 0, 0, 0] : Fin 4 → Nat) a + S1x2x4x512.size a ≤ S7x2x4x512.size a) :
    n < 7 := by
  have h := inb 0
  change n + 1 ≤ 7 at h
  omega

/-- Where the slot's entries sit in the buffer. -/
theorem slotAt_emb (n : ℕ) (inb : ∀ a, (![n, 0, 0, 0] : Fin 4 → Nat) a + S1x2x4x512.size a ≤ S7x2x4x512.size a)
    (x : S2x4x512.Idx) :
    (slotAt n inb).view.emb x
      = ValueIdx.ix4 (n0 := 7) (n1 := 2) (n2 := 4) (n3 := 512) ⟨n, slot_lt inb⟩ (x 0) (x 1) (x 2) := by
  show (Rect.unit (s := S7x2x4x512) ![n, 0, 0, 0] S1x2x4x512.size inb).emb
      (Shape.reshapeEquiv Facts₀.squeezes_S1x2x4x512_S2x4x512.numel_eq x) = _
  rw [Shape.reshapeEquiv_cons_one (n := 3) (d := ![2, 4, 512])]
  funext a
  apply Fin.ext
  rw [Rect.emb_apply]
  match a with
  | ⟨0, _⟩ => rfl
  | ⟨1, _⟩ => show 0 + 1 * (x 0).val = (x 0).val; omega
  | ⟨2, _⟩ => show 0 + 1 * (x 1).val = (x 1).val; omega
  | ⟨3, _⟩ => show 0 + 1 * (x 2).val = (x 2).val; omega

/-- The slot's entries are those with first coordinate `n`. -/
theorem mem_slot_set (n : ℕ) (inb : ∀ a, (![n, 0, 0, 0] : Fin 4 → Nat) a + S1x2x4x512.size a ≤ S7x2x4x512.size a)
    (i : S7x2x4x512.Idx) : i ∈ (slotAt n inb).view.set ↔ (i 0).val = n := by
  constructor
  · intro h
    obtain ⟨x, -, rfl⟩ := Finset.mem_map.mp h
    rw [slotAt_emb]
  · intro h
    have e : i = (slotAt n inb).view.emb
        (ValueIdx.ix3 (n0 := 2) (n1 := 4) (n2 := 512) (i 1) (i 2) (i 3)) := by
      rw [slotAt_emb]
      refine (ValueIdx.eq_ix4 i).trans ?_
      have h0 : i 0 = (⟨n, slot_lt inb⟩ : Fin 7) := Fin.ext h
      rw [h0]
      rfl
    rw [e]
    exact View.emb_mem_set _ _

/-- What lands in a slot: written whole with a device's statistics, the slot holds on its own entries
    what the landed buffer holds there. -/
theorem slot_landed (m : (ℓ : Loc nD τ sig) → Buf (Elt F) ℓ) (c : Dev nD) (n : ℕ)
    (inb : ∀ a, (![n, 0, 0, 0] : Fin 4 → Nat) a + S1x2x4x512.size a ≤ S7x2x4x512.size a)
    (fd : Buf (Elt F) ((c : Thread nD τ).loc cc0_scratch1)) :
    ∀ i ∈ (slotAt n inb).view.set,
      (slotAt n inb).view.write (Elt F) fd
        ((statsM : Memref sig .tc .vmem S2x4x512 .f32).view.read (Elt F) (statsOf m (src c ⟨n, slot_lt inb⟩)))
        Finset.univ i = landed m c i := by
  intro i hi
  obtain ⟨x, -, rfl⟩ := Finset.mem_map.mp hi
  rw [View.write_emb_of_mem _ _ (Finset.mem_univ x), slotAt_emb]
  show statsOf m (src c ⟨n, slot_lt inb⟩) x
    = statsOf m (src c ⟨n, slot_lt inb⟩) (ValueIdx.ix3 (n0 := 2) (n1 := 4) (n2 := 512) (x 0) (x 1) (x 2))
  exact congrArg _ (ValueIdx.eq_ix3 x)

/-- A load of the slot's rectangle reads only the slot's entries. -/
theorem slot_load_subset (n : ℕ)
    (inb : ∀ a, (![n, 0, 0, 0] : Fin 4 → Nat) a + S1x2x4x512.size a ≤ S7x2x4x512.size a) :
    (commM : Memref sig .tc .vmem S7x2x4x512 .f32).view.setOn
        (Rect.unit (s := S7x2x4x512) ![n, 0, 0, 0] S1x2x4x512.size inb).toLoadRect.set
      ⊆ (slotAt n inb).view.set := by
  intro i hi
  obtain ⟨j, hj, rfl⟩ := Finset.mem_map.mp hi
  show j ∈ (slotAt n inb).view.set
  rw [mem_slot_set]
  have h0 := (Rect.mem_set_unit.mp hj) 0
  have h1 : n ≤ (j 0).val := h0.1
  have h2 : (j 0).val < n + 1 := h0.2
  omega

/-- The load reads the sender's statistics back as a one-slot vector. -/
theorem slot_read_landed (m : (ℓ : Loc nD τ sig) → Buf (Elt F) ℓ) (c : Dev nD) (n : ℕ)
    (inb : ∀ a, (![n, 0, 0, 0] : Fin 4 → Nat) a + S1x2x4x512.size a ≤ S7x2x4x512.size a) :
    (commM : Memref sig .tc .vmem S7x2x4x512 .f32).view.readAt (Elt F)
        (Rect.unit (s := S7x2x4x512) ![n, 0, 0, 0] S1x2x4x512.size inb).toLoadRect (landed m c)
      = slotOf m c ⟨n, slot_lt inb⟩ := by
  funext x
  have e : (Rect.unit (s := S7x2x4x512) ![n, 0, 0, 0] S1x2x4x512.size inb).toLoadRect.idx x
      = ValueIdx.ix4 (n0 := 7) (n1 := 2) (n2 := 4) (n3 := 512) ⟨n, slot_lt inb⟩ (x 1) (x 2) (x 3) := by
    funext a
    apply Fin.ext
    rw [LoadRect.idx_apply]
    match a with
    | ⟨0, _⟩ =>
      have hx : (x 0).val < 1 := (x 0).isLt
      show n + 1 * (x 0).val = n; omega
    | ⟨1, _⟩ => show 0 + 1 * (x 1).val = (x 1).val; omega
    | ⟨2, _⟩ => show 0 + 1 * (x 2).val = (x 2).val; omega
    | ⟨3, _⟩ => show 0 + 1 * (x 3).val = (x 3).val; omega
  show landed m c ((Rect.unit (s := S7x2x4x512) ![n, 0, 0, 0] S1x2x4x512.size inb).toLoadRect.idx x) = _
  rw [e]
  rfl

/-! ## The seven slots

The facts above at each of the seven slots, in the spelling the kernel's copies and loads use. -/

theorem landed_eq_0 (m : (ℓ : Loc nD τ sig) → Buf (Elt F) ℓ) (c : Dev nD)
    (fd : Buf (Elt F) ((c : Thread nD τ).loc cc0_scratch1)) :
    slotPts (F := F) c 0 ((slotM 0).view.write (Elt F) fd
        ((statsM : Memref sig .tc .vmem S2x4x512 .f32).view.read (Elt F) (statsOf m (src c 0))) Finset.univ)
      = slotPts c 0 (landed m c) :=
  pointsTo_congr (slot_landed m c 0 Facts₀.inb_S7x2x4x512_S1x2x4x512_0_0_0_0 fd)

theorem load_slot_subset_0 :
    (commM : Memref sig .tc .vmem S7x2x4x512 .f32).view.setOn (slotRect 0).toLoadRect.set ⊆ (slotM 0).view.set :=
  slot_load_subset 0 Facts₀.inb_S7x2x4x512_S1x2x4x512_0_0_0_0

theorem read_landed_0 (m : (ℓ : Loc nD τ sig) → Buf (Elt F) ℓ) (c : Dev nD) :
    (commM : Memref sig .tc .vmem S7x2x4x512 .f32).view.readAt (Elt F) (slotRect 0).toLoadRect (landed m c) = slotOf m c 0 :=
  slot_read_landed m c 0 Facts₀.inb_S7x2x4x512_S1x2x4x512_0_0_0_0

theorem landed_eq_1 (m : (ℓ : Loc nD τ sig) → Buf (Elt F) ℓ) (c : Dev nD)
    (fd : Buf (Elt F) ((c : Thread nD τ).loc cc0_scratch1)) :
    slotPts (F := F) c 1 ((slotM 1).view.write (Elt F) fd
        ((statsM : Memref sig .tc .vmem S2x4x512 .f32).view.read (Elt F) (statsOf m (src c 1))) Finset.univ)
      = slotPts c 1 (landed m c) :=
  pointsTo_congr (slot_landed m c 1 Facts₀.inb_S7x2x4x512_S1x2x4x512_1_0_0_0 fd)

theorem load_slot_subset_1 :
    (commM : Memref sig .tc .vmem S7x2x4x512 .f32).view.setOn (slotRect 1).toLoadRect.set ⊆ (slotM 1).view.set :=
  slot_load_subset 1 Facts₀.inb_S7x2x4x512_S1x2x4x512_1_0_0_0

theorem read_landed_1 (m : (ℓ : Loc nD τ sig) → Buf (Elt F) ℓ) (c : Dev nD) :
    (commM : Memref sig .tc .vmem S7x2x4x512 .f32).view.readAt (Elt F) (slotRect 1).toLoadRect (landed m c) = slotOf m c 1 :=
  slot_read_landed m c 1 Facts₀.inb_S7x2x4x512_S1x2x4x512_1_0_0_0

theorem landed_eq_2 (m : (ℓ : Loc nD τ sig) → Buf (Elt F) ℓ) (c : Dev nD)
    (fd : Buf (Elt F) ((c : Thread nD τ).loc cc0_scratch1)) :
    slotPts (F := F) c 2 ((slotM 2).view.write (Elt F) fd
        ((statsM : Memref sig .tc .vmem S2x4x512 .f32).view.read (Elt F) (statsOf m (src c 2))) Finset.univ)
      = slotPts c 2 (landed m c) :=
  pointsTo_congr (slot_landed m c 2 Facts₀.inb_S7x2x4x512_S1x2x4x512_2_0_0_0 fd)

theorem load_slot_subset_2 :
    (commM : Memref sig .tc .vmem S7x2x4x512 .f32).view.setOn (slotRect 2).toLoadRect.set ⊆ (slotM 2).view.set :=
  slot_load_subset 2 Facts₀.inb_S7x2x4x512_S1x2x4x512_2_0_0_0

theorem read_landed_2 (m : (ℓ : Loc nD τ sig) → Buf (Elt F) ℓ) (c : Dev nD) :
    (commM : Memref sig .tc .vmem S7x2x4x512 .f32).view.readAt (Elt F) (slotRect 2).toLoadRect (landed m c) = slotOf m c 2 :=
  slot_read_landed m c 2 Facts₀.inb_S7x2x4x512_S1x2x4x512_2_0_0_0

theorem landed_eq_3 (m : (ℓ : Loc nD τ sig) → Buf (Elt F) ℓ) (c : Dev nD)
    (fd : Buf (Elt F) ((c : Thread nD τ).loc cc0_scratch1)) :
    slotPts (F := F) c 3 ((slotM 3).view.write (Elt F) fd
        ((statsM : Memref sig .tc .vmem S2x4x512 .f32).view.read (Elt F) (statsOf m (src c 3))) Finset.univ)
      = slotPts c 3 (landed m c) :=
  pointsTo_congr (slot_landed m c 3 Facts₀.inb_S7x2x4x512_S1x2x4x512_3_0_0_0 fd)

theorem load_slot_subset_3 :
    (commM : Memref sig .tc .vmem S7x2x4x512 .f32).view.setOn (slotRect 3).toLoadRect.set ⊆ (slotM 3).view.set :=
  slot_load_subset 3 Facts₀.inb_S7x2x4x512_S1x2x4x512_3_0_0_0

theorem read_landed_3 (m : (ℓ : Loc nD τ sig) → Buf (Elt F) ℓ) (c : Dev nD) :
    (commM : Memref sig .tc .vmem S7x2x4x512 .f32).view.readAt (Elt F) (slotRect 3).toLoadRect (landed m c) = slotOf m c 3 :=
  slot_read_landed m c 3 Facts₀.inb_S7x2x4x512_S1x2x4x512_3_0_0_0

theorem landed_eq_4 (m : (ℓ : Loc nD τ sig) → Buf (Elt F) ℓ) (c : Dev nD)
    (fd : Buf (Elt F) ((c : Thread nD τ).loc cc0_scratch1)) :
    slotPts (F := F) c 4 ((slotM 4).view.write (Elt F) fd
        ((statsM : Memref sig .tc .vmem S2x4x512 .f32).view.read (Elt F) (statsOf m (src c 4))) Finset.univ)
      = slotPts c 4 (landed m c) :=
  pointsTo_congr (slot_landed m c 4 Facts₀.inb_S7x2x4x512_S1x2x4x512_4_0_0_0 fd)

theorem load_slot_subset_4 :
    (commM : Memref sig .tc .vmem S7x2x4x512 .f32).view.setOn (slotRect 4).toLoadRect.set ⊆ (slotM 4).view.set :=
  slot_load_subset 4 Facts₀.inb_S7x2x4x512_S1x2x4x512_4_0_0_0

theorem read_landed_4 (m : (ℓ : Loc nD τ sig) → Buf (Elt F) ℓ) (c : Dev nD) :
    (commM : Memref sig .tc .vmem S7x2x4x512 .f32).view.readAt (Elt F) (slotRect 4).toLoadRect (landed m c) = slotOf m c 4 :=
  slot_read_landed m c 4 Facts₀.inb_S7x2x4x512_S1x2x4x512_4_0_0_0

theorem landed_eq_5 (m : (ℓ : Loc nD τ sig) → Buf (Elt F) ℓ) (c : Dev nD)
    (fd : Buf (Elt F) ((c : Thread nD τ).loc cc0_scratch1)) :
    slotPts (F := F) c 5 ((slotM 5).view.write (Elt F) fd
        ((statsM : Memref sig .tc .vmem S2x4x512 .f32).view.read (Elt F) (statsOf m (src c 5))) Finset.univ)
      = slotPts c 5 (landed m c) :=
  pointsTo_congr (slot_landed m c 5 Facts₀.inb_S7x2x4x512_S1x2x4x512_5_0_0_0 fd)

theorem load_slot_subset_5 :
    (commM : Memref sig .tc .vmem S7x2x4x512 .f32).view.setOn (slotRect 5).toLoadRect.set ⊆ (slotM 5).view.set :=
  slot_load_subset 5 Facts₀.inb_S7x2x4x512_S1x2x4x512_5_0_0_0

theorem read_landed_5 (m : (ℓ : Loc nD τ sig) → Buf (Elt F) ℓ) (c : Dev nD) :
    (commM : Memref sig .tc .vmem S7x2x4x512 .f32).view.readAt (Elt F) (slotRect 5).toLoadRect (landed m c) = slotOf m c 5 :=
  slot_read_landed m c 5 Facts₀.inb_S7x2x4x512_S1x2x4x512_5_0_0_0

theorem landed_eq_6 (m : (ℓ : Loc nD τ sig) → Buf (Elt F) ℓ) (c : Dev nD)
    (fd : Buf (Elt F) ((c : Thread nD τ).loc cc0_scratch1)) :
    slotPts (F := F) c 6 ((slotM 6).view.write (Elt F) fd
        ((statsM : Memref sig .tc .vmem S2x4x512 .f32).view.read (Elt F) (statsOf m (src c 6))) Finset.univ)
      = slotPts c 6 (landed m c) :=
  pointsTo_congr (slot_landed m c 6 Facts₀.inb_S7x2x4x512_S1x2x4x512_6_0_0_0 fd)

theorem load_slot_subset_6 :
    (commM : Memref sig .tc .vmem S7x2x4x512 .f32).view.setOn (slotRect 6).toLoadRect.set ⊆ (slotM 6).view.set :=
  slot_load_subset 6 Facts₀.inb_S7x2x4x512_S1x2x4x512_6_0_0_0

theorem read_landed_6 (m : (ℓ : Loc nD τ sig) → Buf (Elt F) ℓ) (c : Dev nD) :
    (commM : Memref sig .tc .vmem S7x2x4x512 .f32).view.readAt (Elt F) (slotRect 6).toLoadRect (landed m c) = slotOf m c 6 :=
  slot_read_landed m c 6 Facts₀.inb_S7x2x4x512_S1x2x4x512_6_0_0_0

/-! ## The receive buffer cut into its slots

The entries from first coordinate `j` on are slot `j`'s together with those from `j + 1` on; from
`0` on they are all of the buffer, and from `6` on they are slot 6's. -/

/-- The buffer's entries whose first coordinate is at least `j`. -/
def fromSlot (j : ℕ) : Finset S7x2x4x512.Idx := Finset.univ.filter fun i => j ≤ (i 0).val

theorem mem_fromSlot (j : ℕ) (i : S7x2x4x512.Idx) : i ∈ fromSlot j ↔ j ≤ (i 0).val := by
  unfold fromSlot
  rw [Finset.mem_filter]
  exact ⟨fun h => h.2, fun h => ⟨Finset.mem_univ _, h⟩⟩

theorem fromSlot_zero : fromSlot 0 = Finset.univ := by
  ext i
  rw [mem_fromSlot]
  exact ⟨fun _ => Finset.mem_univ _, fun _ => Nat.zero_le _⟩

theorem fromSlot_succ (j : ℕ) (inb : ∀ a, (![j, 0, 0, 0] : Fin 4 → Nat) a + S1x2x4x512.size a ≤ S7x2x4x512.size a) :
    fromSlot j = (slotAt j inb).view.set ∪ fromSlot (j + 1) := by
  ext i
  rw [Finset.mem_union, mem_fromSlot, mem_fromSlot, mem_slot_set]
  omega

theorem fromSlot_disjoint (j : ℕ) (inb : ∀ a, (![j, 0, 0, 0] : Fin 4 → Nat) a + S1x2x4x512.size a ≤ S7x2x4x512.size a) :
    Disjoint (slotAt j inb).view.set (fromSlot (j + 1)) := by
  rw [Finset.disjoint_left]
  intro i hi hj
  rw [mem_slot_set] at hi
  rw [mem_fromSlot] at hj
  omega

theorem fromSlot_six (inb : ∀ a, (![6, 0, 0, 0] : Fin 4 → Nat) a + S1x2x4x512.size a ≤ S7x2x4x512.size a) :
    fromSlot 6 = (slotAt 6 inb).view.set := by
  ext i
  rw [mem_fromSlot, mem_slot_set]
  have h : (i 0).val < 7 := (i 0).isLt
  omega

/-- Taking slot `j` off the entries from `j` on. -/
theorem comm_step (c : Dev nD) (f : Buf (Elt F) ((c : Thread nD τ).loc cc0_scratch1)) (j : ℕ)
    (inb : ∀ a, (![j, 0, 0, 0] : Fin 4 → Nat) a + S1x2x4x512.size a ≤ S7x2x4x512.size a) :
    (((c : Thread nD τ).loc cc0_scratch1) ↦[fromSlot j]{fullShare} f : sProp 𝕄) ⊣⊢
      iprop((((c : Thread nD τ).loc cc0_scratch1) ↦[(slotAt j inb).view.set]{fullShare} f) ∗
        ((c : Thread nD τ).loc cc0_scratch1) ↦[fromSlot (j + 1)]{fullShare} f) := by
  rw [fromSlot_succ j inb]
  exact pointsTo_union (fromSlot_disjoint j inb)

theorem comm_split (c : Dev nD) (f : Buf (Elt F) ((c : Thread nD τ).loc cc0_scratch1)) :
    (((c : Thread nD τ).loc cc0_scratch1) ↦{fullShare} f : sProp 𝕄) ⊣⊢
      iprop(slotPts c 0 f ∗ slotPts c 1 f ∗ slotPts c 2 f ∗ slotPts c 3 f ∗ slotPts c 4 f ∗ slotPts c 5 f ∗
        slotPts c 6 f) := by
  have h6 : (((c : Thread nD τ).loc cc0_scratch1) ↦[fromSlot 6]{fullShare} f : sProp 𝕄) ⊣⊢ slotPts c 6 f := by
    rw [fromSlot_six Facts₀.inb_S7x2x4x512_S1x2x4x512_6_0_0_0]
    exact .rfl
  have h : (((c : Thread nD τ).loc cc0_scratch1) ↦[fromSlot 0]{fullShare} f : sProp 𝕄) ⊣⊢
      iprop(slotPts c 0 f ∗ slotPts c 1 f ∗ slotPts c 2 f ∗ slotPts c 3 f ∗ slotPts c 4 f ∗ slotPts c 5 f ∗
        slotPts c 6 f) :=
    (comm_step c f 0 Facts₀.inb_S7x2x4x512_S1x2x4x512_0_0_0_0).trans <| sep_congr_right <|
    (comm_step c f 1 Facts₀.inb_S7x2x4x512_S1x2x4x512_1_0_0_0).trans <| sep_congr_right <|
    (comm_step c f 2 Facts₀.inb_S7x2x4x512_S1x2x4x512_2_0_0_0).trans <| sep_congr_right <|
    (comm_step c f 3 Facts₀.inb_S7x2x4x512_S1x2x4x512_3_0_0_0).trans <| sep_congr_right <|
    (comm_step c f 4 Facts₀.inb_S7x2x4x512_S1x2x4x512_4_0_0_0).trans <| sep_congr_right <|
    (comm_step c f 5 Facts₀.inb_S7x2x4x512_S1x2x4x512_5_0_0_0).trans <| sep_congr_right h6
  rw [fromSlot_zero] at h
  exact h

/-- Putting slot `j`, at whatever contents, back before the entries from `j + 1` on. -/
theorem comm_join_step (c : Dev nD) (j : ℕ)
    (inb : ∀ a, (![j, 0, 0, 0] : Fin 4 → Nat) a + S1x2x4x512.size a ≤ S7x2x4x512.size a)
    (g : Buf (Elt F) ((c : Thread nD τ).loc cc0_scratch1)) :
    iprop((((c : Thread nD τ).loc cc0_scratch1) ↦[(slotAt j inb).view.set]{fullShare} g) ∗
        ∃ h, ((c : Thread nD τ).loc cc0_scratch1) ↦[fromSlot (j + 1)]{fullShare} h)
      ⊢ (iprop(∃ h, ((c : Thread nD τ).loc cc0_scratch1) ↦[fromSlot j]{fullShare} h) : sProp 𝕄) := by
  iintro ⟨Hg, ⟨%h, Hh⟩⟩
  iexists (fromSlot (j + 1)).piecewise h g
  rw [fromSlot_succ j inb]
  iapply (pointsTo_join (fromSlot_disjoint j inb))
  isplitl [Hg]
  · iexact Hg
  · iexact Hh

theorem comm_join (c : Dev nD) (f0 f1 f2 f3 f4 f5 f6 : Buf (Elt F) ((c : Thread nD τ).loc cc0_scratch1)) :
    iprop(slotPts c 0 f0 ∗ slotPts c 1 f1 ∗ slotPts c 2 f2 ∗ slotPts c 3 f3 ∗ slotPts c 4 f4 ∗ slotPts c 5 f5 ∗
        slotPts c 6 f6)
      ⊢ (iprop(∃ f, ((c : Thread nD τ).loc cc0_scratch1) ↦{fullShare} f) : sProp 𝕄) := by
  have h6 : slotPts (F := F) c 6 f6 ⊢ (iprop(∃ h, ((c : Thread nD τ).loc cc0_scratch1) ↦[fromSlot 6]{fullShare} h) : sProp 𝕄) := by
    rw [fromSlot_six Facts₀.inb_S7x2x4x512_S1x2x4x512_6_0_0_0]
    exact exists_intro (Φ := fun h => (((c : Thread nD τ).loc cc0_scratch1) ↦[(slotAt 6 Facts₀.inb_S7x2x4x512_S1x2x4x512_6_0_0_0).view.set]{fullShare} h : sProp 𝕄)) f6
  have h : iprop(slotPts c 0 f0 ∗ slotPts c 1 f1 ∗ slotPts c 2 f2 ∗ slotPts c 3 f3 ∗ slotPts c 4 f4 ∗
        slotPts c 5 f5 ∗ slotPts c 6 f6)
      ⊢ (iprop(∃ h, ((c : Thread nD τ).loc cc0_scratch1) ↦[fromSlot 0]{fullShare} h) : sProp 𝕄) :=
    (sep_mono_right <| (sep_mono_right <| (sep_mono_right <| (sep_mono_right <| (sep_mono_right <|
      (sep_mono_right h6).trans (comm_join_step c 5 Facts₀.inb_S7x2x4x512_S1x2x4x512_5_0_0_0 f5)).trans
      (comm_join_step c 4 Facts₀.inb_S7x2x4x512_S1x2x4x512_4_0_0_0 f4)).trans
      (comm_join_step c 3 Facts₀.inb_S7x2x4x512_S1x2x4x512_3_0_0_0 f3)).trans
      (comm_join_step c 2 Facts₀.inb_S7x2x4x512_S1x2x4x512_2_0_0_0 f2)).trans
      (comm_join_step c 1 Facts₀.inb_S7x2x4x512_S1x2x4x512_1_0_0_0 f1)).trans
      (comm_join_step c 0 Facts₀.inb_S7x2x4x512_S1x2x4x512_0_0_0_0 f0)
  rw [fromSlot_zero] at h
  exact h

/-! ## The two plane stores

The statistics scratch is two planes; a store of a plane through the rectangle at first coordinate
`p` puts entry `(0, b, s)` of the payload at entry `(p, b, s)`. Every entry is in exactly one plane, so
after both stores nothing of the old contents is left. -/

theorem plane_lt {p : ℕ} (inb : ∀ a, (![p, 0, 0] : Fin 3 → Nat) a + S1x4x512.size a ≤ S2x4x512.size a) :
    p < 2 := by
  have h := inb 0
  change p + 1 ≤ 2 at h
  omega

theorem plane_emb (p : ℕ) (inb : ∀ a, (![p, 0, 0] : Fin 3 → Nat) a + S1x4x512.size a ≤ S2x4x512.size a)
    (y : S1x4x512.Idx) :
    ((statsM.access (Rect.unit (s := S2x4x512) ![p, 0, 0] S1x4x512.size inb) : View sig .tc _ _ _)).emb y
      = ValueIdx.ix3 (n0 := 2) (n1 := 4) (n2 := 512) ⟨p, plane_lt inb⟩ (y 1) (y 2) := by
  show (Rect.unit (s := S2x4x512) ![p, 0, 0] S1x4x512.size inb).emb y = _
  funext a
  apply Fin.ext
  rw [Rect.emb_apply]
  match a with
  | ⟨0, _⟩ =>
    have hy : (y 0).val < 1 := (y 0).isLt
    show p + 1 * (y 0).val = p; omega
  | ⟨1, _⟩ => show 0 + 1 * (y 1).val = (y 1).val; omega
  | ⟨2, _⟩ => show 0 + 1 * (y 2).val = (y 2).val; omega

/-- A plane's index is its two inner coordinates behind the coordinate `0`. -/
theorem plane_idx (y : S1x4x512.Idx) :
    y = ValueIdx.ix3 (n0 := 1) (n1 := 4) (n2 := 512) 0 (y 1) (y 2) := by
  refine (ValueIdx.eq_ix3 y).trans ?_
  have hy : (y 0).val < 1 := (y 0).isLt
  have e : y 0 = (0 : Fin 1) := Fin.ext (by show (y 0).val = 0; omega)
  rw [e]
  rfl

/-- Every entry of the scratch is in plane 0 or in plane 1. -/
theorem plane_cover (i : S2x4x512.Idx) :
    (∃ y, i = ((statsM.access (Rect.unit (s := S2x4x512) ![0, 0, 0] S1x4x512.size Facts₀.inb_S2x4x512_S1x4x512_0_0_0) : View sig .tc _ _ _)).emb y) ∨
    (∃ y, i = ((statsM.access (Rect.unit (s := S2x4x512) ![1, 0, 0] S1x4x512.size Facts₀.inb_S2x4x512_S1x4x512_1_0_0) : View sig .tc _ _ _)).emb y) := by
  have h : (i 0).val < 2 := (i 0).isLt
  by_cases h0 : (i 0).val = 0
  · left
    refine ⟨ValueIdx.ix3 (n0 := 1) (n1 := 4) (n2 := 512) 0 (i 1) (i 2), ?_⟩
    rw [plane_emb]
    refine (ValueIdx.eq_ix3 i).trans ?_
    have e : i 0 = (⟨0, plane_lt Facts₀.inb_S2x4x512_S1x4x512_0_0_0⟩ : Fin 2) := Fin.ext h0
    rw [e]
    rfl
  · right
    refine ⟨ValueIdx.ix3 (n0 := 1) (n1 := 4) (n2 := 512) 0 (i 1) (i 2), ?_⟩
    rw [plane_emb]
    refine (ValueIdx.eq_ix3 i).trans ?_
    have e : i 0 = (⟨1, plane_lt Facts₀.inb_S2x4x512_S1x4x512_1_0_0⟩ : Fin 2) := Fin.ext (by show (i 0).val = 1; omega)
    rw [e]
    rfl

/-- The two stores as a list of writes, the later one first: whatever the scratch held, it now holds
    the statistics array. -/
theorem writes_stats (fs : (statsM : Memref sig .tc .vmem S2x4x512 .f32).view.ty.Contents (Elt F)) (x : Vec F S4x512x256 .f32) :
    (statsM : Memref sig .tc .vmem S2x4x512 .f32).view.writes (Elt F) fs
      [⟨Rect.unit (s := S2x4x512) ![1, 0, 0] S1x4x512.size Facts₀.inb_S2x4x512_S1x4x512_1_0_0, k0_pay4 x⟩,
       ⟨Rect.unit (s := S2x4x512) ![0, 0, 0] S1x4x512.size Facts₀.inb_S2x4x512_S1x4x512_0_0_0, k0_pay3 x⟩] = statsVec x := by
  show (((statsM.access (Rect.unit (s := S2x4x512) ![1, 0, 0] S1x4x512.size Facts₀.inb_S2x4x512_S1x4x512_1_0_0) : View sig .tc _ _ _)).write (Elt F)
      (((statsM.access (Rect.unit (s := S2x4x512) ![0, 0, 0] S1x4x512.size Facts₀.inb_S2x4x512_S1x4x512_0_0_0) : View sig .tc _ _ _)).write (Elt F) fs (k0_pay3 x) Finset.univ)
      (k0_pay4 x) Finset.univ) = statsVec x
  funext i
  rcases plane_cover i with ⟨y, rfl⟩ | ⟨y, rfl⟩
  · have hn : ((statsM.access (Rect.unit (s := S2x4x512) ![0, 0, 0] S1x4x512.size Facts₀.inb_S2x4x512_S1x4x512_0_0_0) : View sig .tc _ _ _)).emb y
        ∉ ((statsM.access (Rect.unit (s := S2x4x512) ![1, 0, 0] S1x4x512.size Facts₀.inb_S2x4x512_S1x4x512_1_0_0) : View sig .tc _ _ _)).setOn Finset.univ := by
      intro hm
      obtain ⟨z, -, hz⟩ := Finset.mem_map.mp hm
      rw [plane_emb, plane_emb] at hz
      have h01 : (1 : ℕ) = 0 := congrArg (fun j : S2x4x512.Idx => (j 0).val) hz
      exact absurd h01 (by decide)
    rw [View.write_of_not_mem _ _ _ hn, View.write_emb_of_mem _ _ (Finset.mem_univ y), plane_emb]
    show k0_pay3 x y
      = (if (0 : ℕ) = 0 then k0_pay3 x (ValueIdx.ix3 (n0 := 1) (n1 := 4) (n2 := 512) 0 (y 1) (y 2))
          else k0_pay4 x (ValueIdx.ix3 (n0 := 1) (n1 := 4) (n2 := 512) 0 (y 1) (y 2)))
    rw [if_pos rfl]
    exact congrArg _ (plane_idx y)
  · rw [View.write_emb_of_mem _ _ (Finset.mem_univ y), plane_emb]
    show k0_pay4 x y
      = (if (1 : ℕ) = 0 then k0_pay3 x (ValueIdx.ix3 (n0 := 1) (n1 := 4) (n2 := 512) 0 (y 1) (y 2))
          else k0_pay4 x (ValueIdx.ix3 (n0 := 1) (n1 := 4) (n2 := 512) 0 (y 1) (y 2)))
    rw [if_neg (by decide)]
    exact congrArg _ (plane_idx y)

/-- The same, spelt as the two writes one over the other. -/
theorem write_stats (c : Dev nD)
    (f0 : Buf (Elt F) ((statsM : Memref sig .tc .vmem S2x4x512 .f32).view.loc (c : Thread nD τ)))
    (x : Vec F S4x512x256 .f32) :
    (((statsM.access (Rect.unit (s := S2x4x512) ![1, 0, 0] S1x4x512.size Facts₀.inb_S2x4x512_S1x4x512_1_0_0) : View sig .tc _ _ _)).write (Elt F)
      (((statsM.access (Rect.unit (s := S2x4x512) ![0, 0, 0] S1x4x512.size Facts₀.inb_S2x4x512_S1x4x512_0_0_0) : View sig .tc _ _ _)).write (Elt F) f0 (k0_pay3 x) Finset.univ)
      (k0_pay4 x) Finset.univ) = statsVec x :=
  writes_stats f0 x

/-- info: 'Cert.KernelIdeal.Mem.comm_split' depends on axioms: [propext, Classical.choice, Quot.sound] -/
#guard_msgs in
#print axioms comm_split

end Cert.KernelIdeal.Mem

end
-- ==== Proof.KiSteps.lean ====
/- The exchange's protocol steps, each one rule of the rounds discipline at this schedule's cells, for
   any slot number: a device's signal to a peer's barrier cell, handing over the slot that peer will
   write; its wait for its own seven units, which brings the seven slots handed to it; a copy of its
   statistics into a peer's slot, paying the peer's receive cell and its own send cell; and the waits
   on a receive cell and on a send cell, which bring the landed slot and the lent share back. -/
import proofs.«900772_g7700000000000773_dist_diff_adaln_cshard_i_b4_s512_c256_v7x_i8_f32_1_alg».proof.Proof.KiTables
import proofs.«900772_g7700000000000773_dist_diff_adaln_cshard_i_b4_s512_c256_v7x_i8_f32_1_alg».proof.Proof.KiRegions

noncomputable section

namespace Cert.KernelIdeal.Steps

open Cert.KernelIdeal Cert.KernelIdeal.Gen Cert.KernelIdeal.Spec Cert.KernelIdeal.Mem
open Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (K : GSem nD τ sig → ℕ)

/-- A slot of one's own is the payload of the duty one pays at the barrier cell of the peer that will write it. -/
theorem barPay_intro (c c' : Dev nD) (e : Fin 7) (h : dst c' e = c) (f : Buf (Elt F) ((c : Thread nD τ).loc cc0_scratch1)) :
    slotPts c e f ⊢ (barPay c' e : sProp 𝕄) := by
  subst h; unfold barPay; iintro H; iexists f; iexact H

/-- The device `k+1` steps ahead has this device `k+1` steps behind it. -/
theorem src_dst (c : Dev nD) (k : Fin 7) : src (dst c k) k = c := Cert.Math.src_dst c k

/-- The `k`-th signal: one unit to the barrier cell of the device `k+1` steps ahead, paying its duty `rev k` with
    the slot that device's copy will write. -/
theorem wp_sig {α : Type} {Q : α → sProp 𝕄} {kk : PUnit → Prog (TpuEff nD τ sig (Elt F) Λ₀ .tc) α} (c n : Dev nD) (k : Fin 7) (hn : n = dst c k) (O : CellTallies nD τ sig Unit) (W : Waits sig Unit)
    (f : Buf (Elt F) ((c : Thread nD τ).loc cc0_scratch1)) :
    iprop(cellInv ER (Rd m) (K (barCell (dst c k))) (barCell (dst c k)) ∗ owes (c : Thread nD τ) (O + tallyAt (barCell (dst c k)) () 1) W
        ∗ dutyTok ER (barCell (dst c k)) 0 (rev k) ∗ slotPts c (rev k) f ∗ reached ER (barCell (dst c k)) 0)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS (1#32).toNat) kk) Q) := by
  subst hn
  have hpay : slotPts c (rev k) f ⊢ (Rd (F := F) m).payload (barCell (dst c k)) 0 (rev k) := by
    rw [payload_bar]; exact barPay_intro c (dst c k) (rev k) (dst_dst_rev c k) f
  refine (sep_mono_right (sep_mono_right (sep_mono_right (sep_mono_left hpay)))).trans ?_
  exact Rounds.wp_signal 𝒱₀ ER (Rd m) (c : Thread nD τ) none (dst := (dst c k : Thread nD τ)) (sem := barS) (r := 0) (d := rev k)
    (κ := K (barCell (dst c k))) (by rw [duties_bar]; exact Finset.mem_univ _) (amount_bar m (dst c k) (rev k)) () O rfl

/-- The barrier wait: seven units, the seven receive credits still owed; the round's payloads are the seven slots
    of the seven peers. -/
theorem wp_barwait {α : Type} {Q : α → sProp 𝕄} {kk : PUnit → Prog (TpuEff nD τ sig (Elt F) Λ₀ .tc) α} (c : Dev nD) (W : Waits sig Unit) :
    iprop(cellInv ER (Rd m) (K (barCell c)) (barCell c) ∗ cred (tallyAt (barCell c) () 7) ∗ owes (c : Thread nD τ) (owedR c 7) W
        ∗ levAts L lv ∗ atPos ER (barCell c) 0 ∅ 0)
      ⊢ iprop(((owes (c : Thread nD τ) (owedR c 7) (insert (SemLoc.reg barS, ()) W) ∗ atPos ER (barCell c) 1 ∅ 0 ∗ reached ER (barCell c) 1
            ∗ barPay c 0 ∗ barPay c 1 ∗ barPay c 2 ∗ barPay c 3 ∗ barPay c 4 ∗ barPay c 5 ∗ barPay c 6) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (7#32).toNat) kk) Q) := by
  refine (sep_mono_right (sep_mono_right (sep_mono_right (sep_mono_left (mayWait_bar c))))).trans ?_
  rw [← rest_bar m c]
  exact Rounds.wp_wait_rest_token 𝒱₀ ER (Rd m) (c : Thread nD τ) none (defs := defs₀ (F := F)) (Γ := .empty)
    (w := .semWait barS (7#32).toNat) (sm := .reg barS) (k' := 7) (Es := Set.univ) (κ := K (barCell c))
    (wpE_semWait_eq 𝒱₀ (c : Thread nD τ) none Set.univ) (Set.mem_univ _) () (O := owedR c 7) (W := W) (R := 0) (m := 0) (T := ∅)
    (by rw [Nat.zero_add, expect_bar])

/-- Owing nothing, a device may wait anywhere: the level evidence is empty. -/
theorem mayWait_nothing (c : Dev nD) (sm : SemLoc sig) (P : sProp 𝕄) :
    P ⊢ iprop(MayWait (c : Thread nD τ) sm () 0 ∗ P) := by
  rw [MayWait_zero]; exact (emp_sep (PROP := sProp 𝕄)).2

/-- The `k`-th receive wait, nothing owed: the round's one payload is slot `k` holding the statistics of the
    device `k+1` steps behind. -/
theorem wp_recvwait {α : Type} {Q : α → sProp 𝕄} {kk : PUnit → Prog (TpuEff nD τ sig (Elt F) Λ₀ .tc) α} (c : Dev nD) (k : Fin 7) {hsrc hdst} (W : Waits sig Unit) :
    iprop(cellInv ER (Rd m) (K (recvCell c k)) (recvCell c k) ∗ cred (tallyAt (recvCell c k) () N) ∗ owes (c : Thread nD τ) 0 W
        ∗ atPos ER (recvCell c k) 0 ∅ 0)
      ⊢ iprop(((owes (c : Thread nD τ) 0 (insert (SemLoc.dma (recvS k), ()) W) ∗ atPos ER (recvCell c k) 1 ∅ 0 ∗ reached ER (recvCell c k) 1
            ∗ slotPts c k (landed m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k) statsM (slotM k) hsrc hdst) kk) Q) := by
  have h := Rounds.wp_wait_rest_token 𝒱₀ ER (Rd m) (c : Thread nD τ) none (defs := defs₀ (F := F)) (Γ := .empty)
    (w := .waitDma2 (recvS k) statsM (slotM k) hsrc hdst) (sm := .dma (recvS k)) (k' := N) (Es := Set.univ) (κ := K (recvCell c k))
    (wpE_waitDma2_eq 𝒱₀ (c : Thread nD τ) none Set.univ) (Set.mem_univ _) (k := kk) (Q := Q) () (O := 0) (W := W) (R := 0) (m := 0) (T := ∅)
    (by rw [Nat.zero_add, expect_recv])
  rw [rest_recv] at h
  exact (sep_mono_right (sep_mono_right (sep_mono_right (mayWait_nothing c _ _)))).trans h

/-- The `k`-th send wait, nothing owed: the round's one payload is the share of the statistics the copy read through. -/
theorem wp_sendwait {α : Type} {Q : α → sProp 𝕄} {kk : PUnit → Prog (TpuEff nD τ sig (Elt F) Λ₀ .tc) α} (c : Dev nD) (k : Fin 7) {hsrc hdst} (W : Waits sig Unit) :
    iprop(cellInv ER (Rd m) (K (sendCell c k)) (sendCell c k) ∗ cred (tallyAt (sendCell c k) () N) ∗ owes (c : Thread nD τ) 0 W
        ∗ atPos ER (sendCell c k) 0 ∅ 0)
      ⊢ iprop(((owes (c : Thread nD τ) 0 (insert (SemLoc.dma (sendS k), ()) W) ∗ atPos ER (sendCell c k) 1 ∅ 0 ∗ reached ER (sendCell c k) 1
            ∗ statsPts c (cpShr k) (statsOf m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS k) (slotM k) statsM hsrc hdst) kk) Q) := by
  have h := Rounds.wp_wait_rest_token 𝒱₀ ER (Rd m) (c : Thread nD τ) none (defs := defs₀ (F := F)) (Γ := .empty)
    (w := .waitDma2 (sendS k) (slotM k) statsM hsrc hdst) (sm := .dma (sendS k)) (k' := N) (Es := Set.univ) (κ := K (sendCell c k))
    (wpE_waitDma2_eq 𝒱₀ (c : Thread nD τ) none Set.univ) (Set.mem_univ _) (k := kk) (Q := Q) () (O := 0) (W := W) (R := 0) (m := 0) (T := ∅)
    (by rw [Nat.zero_add, expect_send])
  rw [rest_send] at h
  exact (sep_mono_right (sep_mono_right (sep_mono_right (mayWait_nothing c _ _)))).trans h

/-- The copy into slot 0 of the device 1 step ahead. -/
theorem wp_cp_0 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 0 : Thread nD τ).loc cc0_scratch1)) :
    iprop(cellInv ER (Rd m) (K (sendCell c 0)) (sendCell c 0) ∗ cellInv ER (Rd m) (K (recvCell (dst c 0) 0)) (recvCell (dst c 0) 0)
        ∗ statsPts c (cpShr 0) (statsOf m c) ∗ slotPts (dst c 0) 0 fd ∗ owes (c : Thread nD τ) (O + tallyAt (recvCell (dst c 0) 0) () N) W
        ∗ dutyTok ER (sendCell c 0) 0 0 ∗ reached ER (sendCell c 0) 0 ∗ dutyTok ER (recvCell (dst c 0) 0) 0 0 ∗ reached ER (recvCell (dst c 0) 0) 0)
      ⊢ iprop(((cred (tallyAt (sendCell c 0) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 0) : Thread nD τ) (slotM 0) (.dma (sendS 0)) hsc) (.dma (recvS 0)) hsrc hdst hsem) kk) Q) :=
  Rounds.wp_send_pointsTo 𝒱₀ ER (Rd m) (c : Thread nD τ) none (defs := defs₀ (F := F)) (Γ := .empty) (c' := (dst c 0 : Thread nD τ))
    (src := statsM) (dst := slotM 0) (sS := .dma (sendS 0)) (sem := .dma (recvS 0)) (q := cpShr 0) (fs := statsOf m c) (fd := fd)
    (κ₁ := K (sendCell c 0)) (κ₂ := K (recvCell (dst c 0) 0)) (r₁ := 0) (r₂ := 0) (d₁ := 0) (d₂ := 0)
    (by rw [duties_send]; exact Finset.mem_singleton_self _) (by rw [duties_recv]; exact Finset.mem_singleton_self _)
    () () N rfl (amount_send m c 0 0) (amount_recv m (dst c 0) 0 0) O rfl (W := W)
    (by rw [payload_send]; exact BI.Entails.refl _)
    (by rw [payload_recv]; unfold recvPay; rw [← landed_eq_0 m (dst c 0) fd, src_dst]; exact BI.Entails.refl _)

/-- The copy into slot 1 of the device 2 steps ahead. -/
theorem wp_cp_1 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 1 : Thread nD τ).loc cc0_scratch1)) :
    iprop(cellInv ER (Rd m) (K (sendCell c 1)) (sendCell c 1) ∗ cellInv ER (Rd m) (K (recvCell (dst c 1) 1)) (recvCell (dst c 1) 1)
        ∗ statsPts c (cpShr 1) (statsOf m c) ∗ slotPts (dst c 1) 1 fd ∗ owes (c : Thread nD τ) (O + tallyAt (recvCell (dst c 1) 1) () N) W
        ∗ dutyTok ER (sendCell c 1) 0 0 ∗ reached ER (sendCell c 1) 0 ∗ dutyTok ER (recvCell (dst c 1) 1) 0 0 ∗ reached ER (recvCell (dst c 1) 1) 0)
      ⊢ iprop(((cred (tallyAt (sendCell c 1) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 1) : Thread nD τ) (slotM 1) (.dma (sendS 1)) hsc) (.dma (recvS 1)) hsrc hdst hsem) kk) Q) :=
  Rounds.wp_send_pointsTo 𝒱₀ ER (Rd m) (c : Thread nD τ) none (defs := defs₀ (F := F)) (Γ := .empty) (c' := (dst c 1 : Thread nD τ))
    (src := statsM) (dst := slotM 1) (sS := .dma (sendS 1)) (sem := .dma (recvS 1)) (q := cpShr 1) (fs := statsOf m c) (fd := fd)
    (κ₁ := K (sendCell c 1)) (κ₂ := K (recvCell (dst c 1) 1)) (r₁ := 0) (r₂ := 0) (d₁ := 0) (d₂ := 0)
    (by rw [duties_send]; exact Finset.mem_singleton_self _) (by rw [duties_recv]; exact Finset.mem_singleton_self _)
    () () N rfl (amount_send m c 1 0) (amount_recv m (dst c 1) 1 0) O rfl (W := W)
    (by rw [payload_send]; exact BI.Entails.refl _)
    (by rw [payload_recv]; unfold recvPay; rw [← landed_eq_1 m (dst c 1) fd, src_dst]; exact BI.Entails.refl _)

/-- The copy into slot 2 of the device 3 steps ahead. -/
theorem wp_cp_2 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 2 : Thread nD τ).loc cc0_scratch1)) :
    iprop(cellInv ER (Rd m) (K (sendCell c 2)) (sendCell c 2) ∗ cellInv ER (Rd m) (K (recvCell (dst c 2) 2)) (recvCell (dst c 2) 2)
        ∗ statsPts c (cpShr 2) (statsOf m c) ∗ slotPts (dst c 2) 2 fd ∗ owes (c : Thread nD τ) (O + tallyAt (recvCell (dst c 2) 2) () N) W
        ∗ dutyTok ER (sendCell c 2) 0 0 ∗ reached ER (sendCell c 2) 0 ∗ dutyTok ER (recvCell (dst c 2) 2) 0 0 ∗ reached ER (recvCell (dst c 2) 2) 0)
      ⊢ iprop(((cred (tallyAt (sendCell c 2) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 2) : Thread nD τ) (slotM 2) (.dma (sendS 2)) hsc) (.dma (recvS 2)) hsrc hdst hsem) kk) Q) :=
  Rounds.wp_send_pointsTo 𝒱₀ ER (Rd m) (c : Thread nD τ) none (defs := defs₀ (F := F)) (Γ := .empty) (c' := (dst c 2 : Thread nD τ))
    (src := statsM) (dst := slotM 2) (sS := .dma (sendS 2)) (sem := .dma (recvS 2)) (q := cpShr 2) (fs := statsOf m c) (fd := fd)
    (κ₁ := K (sendCell c 2)) (κ₂ := K (recvCell (dst c 2) 2)) (r₁ := 0) (r₂ := 0) (d₁ := 0) (d₂ := 0)
    (by rw [duties_send]; exact Finset.mem_singleton_self _) (by rw [duties_recv]; exact Finset.mem_singleton_self _)
    () () N rfl (amount_send m c 2 0) (amount_recv m (dst c 2) 2 0) O rfl (W := W)
    (by rw [payload_send]; exact BI.Entails.refl _)
    (by rw [payload_recv]; unfold recvPay; rw [← landed_eq_2 m (dst c 2) fd, src_dst]; exact BI.Entails.refl _)

/-- The copy into slot 3 of the device 4 steps ahead. -/
theorem wp_cp_3 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 3 : Thread nD τ).loc cc0_scratch1)) :
    iprop(cellInv ER (Rd m) (K (sendCell c 3)) (sendCell c 3) ∗ cellInv ER (Rd m) (K (recvCell (dst c 3) 3)) (recvCell (dst c 3) 3)
        ∗ statsPts c (cpShr 3) (statsOf m c) ∗ slotPts (dst c 3) 3 fd ∗ owes (c : Thread nD τ) (O + tallyAt (recvCell (dst c 3) 3) () N) W
        ∗ dutyTok ER (sendCell c 3) 0 0 ∗ reached ER (sendCell c 3) 0 ∗ dutyTok ER (recvCell (dst c 3) 3) 0 0 ∗ reached ER (recvCell (dst c 3) 3) 0)
      ⊢ iprop(((cred (tallyAt (sendCell c 3) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 3) : Thread nD τ) (slotM 3) (.dma (sendS 3)) hsc) (.dma (recvS 3)) hsrc hdst hsem) kk) Q) :=
  Rounds.wp_send_pointsTo 𝒱₀ ER (Rd m) (c : Thread nD τ) none (defs := defs₀ (F := F)) (Γ := .empty) (c' := (dst c 3 : Thread nD τ))
    (src := statsM) (dst := slotM 3) (sS := .dma (sendS 3)) (sem := .dma (recvS 3)) (q := cpShr 3) (fs := statsOf m c) (fd := fd)
    (κ₁ := K (sendCell c 3)) (κ₂ := K (recvCell (dst c 3) 3)) (r₁ := 0) (r₂ := 0) (d₁ := 0) (d₂ := 0)
    (by rw [duties_send]; exact Finset.mem_singleton_self _) (by rw [duties_recv]; exact Finset.mem_singleton_self _)
    () () N rfl (amount_send m c 3 0) (amount_recv m (dst c 3) 3 0) O rfl (W := W)
    (by rw [payload_send]; exact BI.Entails.refl _)
    (by rw [payload_recv]; unfold recvPay; rw [← landed_eq_3 m (dst c 3) fd, src_dst]; exact BI.Entails.refl _)

/-- The copy into slot 4 of the device 5 steps ahead. -/
theorem wp_cp_4 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 4 : Thread nD τ).loc cc0_scratch1)) :
    iprop(cellInv ER (Rd m) (K (sendCell c 4)) (sendCell c 4) ∗ cellInv ER (Rd m) (K (recvCell (dst c 4) 4)) (recvCell (dst c 4) 4)
        ∗ statsPts c (cpShr 4) (statsOf m c) ∗ slotPts (dst c 4) 4 fd ∗ owes (c : Thread nD τ) (O + tallyAt (recvCell (dst c 4) 4) () N) W
        ∗ dutyTok ER (sendCell c 4) 0 0 ∗ reached ER (sendCell c 4) 0 ∗ dutyTok ER (recvCell (dst c 4) 4) 0 0 ∗ reached ER (recvCell (dst c 4) 4) 0)
      ⊢ iprop(((cred (tallyAt (sendCell c 4) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 4) : Thread nD τ) (slotM 4) (.dma (sendS 4)) hsc) (.dma (recvS 4)) hsrc hdst hsem) kk) Q) :=
  Rounds.wp_send_pointsTo 𝒱₀ ER (Rd m) (c : Thread nD τ) none (defs := defs₀ (F := F)) (Γ := .empty) (c' := (dst c 4 : Thread nD τ))
    (src := statsM) (dst := slotM 4) (sS := .dma (sendS 4)) (sem := .dma (recvS 4)) (q := cpShr 4) (fs := statsOf m c) (fd := fd)
    (κ₁ := K (sendCell c 4)) (κ₂ := K (recvCell (dst c 4) 4)) (r₁ := 0) (r₂ := 0) (d₁ := 0) (d₂ := 0)
    (by rw [duties_send]; exact Finset.mem_singleton_self _) (by rw [duties_recv]; exact Finset.mem_singleton_self _)
    () () N rfl (amount_send m c 4 0) (amount_recv m (dst c 4) 4 0) O rfl (W := W)
    (by rw [payload_send]; exact BI.Entails.refl _)
    (by rw [payload_recv]; unfold recvPay; rw [← landed_eq_4 m (dst c 4) fd, src_dst]; exact BI.Entails.refl _)

/-- The copy into slot 5 of the device 6 steps ahead. -/
theorem wp_cp_5 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 5 : Thread nD τ).loc cc0_scratch1)) :
    iprop(cellInv ER (Rd m) (K (sendCell c 5)) (sendCell c 5) ∗ cellInv ER (Rd m) (K (recvCell (dst c 5) 5)) (recvCell (dst c 5) 5)
        ∗ statsPts c (cpShr 5) (statsOf m c) ∗ slotPts (dst c 5) 5 fd ∗ owes (c : Thread nD τ) (O + tallyAt (recvCell (dst c 5) 5) () N) W
        ∗ dutyTok ER (sendCell c 5) 0 0 ∗ reached ER (sendCell c 5) 0 ∗ dutyTok ER (recvCell (dst c 5) 5) 0 0 ∗ reached ER (recvCell (dst c 5) 5) 0)
      ⊢ iprop(((cred (tallyAt (sendCell c 5) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 5) : Thread nD τ) (slotM 5) (.dma (sendS 5)) hsc) (.dma (recvS 5)) hsrc hdst hsem) kk) Q) :=
  Rounds.wp_send_pointsTo 𝒱₀ ER (Rd m) (c : Thread nD τ) none (defs := defs₀ (F := F)) (Γ := .empty) (c' := (dst c 5 : Thread nD τ))
    (src := statsM) (dst := slotM 5) (sS := .dma (sendS 5)) (sem := .dma (recvS 5)) (q := cpShr 5) (fs := statsOf m c) (fd := fd)
    (κ₁ := K (sendCell c 5)) (κ₂ := K (recvCell (dst c 5) 5)) (r₁ := 0) (r₂ := 0) (d₁ := 0) (d₂ := 0)
    (by rw [duties_send]; exact Finset.mem_singleton_self _) (by rw [duties_recv]; exact Finset.mem_singleton_self _)
    () () N rfl (amount_send m c 5 0) (amount_recv m (dst c 5) 5 0) O rfl (W := W)
    (by rw [payload_send]; exact BI.Entails.refl _)
    (by rw [payload_recv]; unfold recvPay; rw [← landed_eq_5 m (dst c 5) fd, src_dst]; exact BI.Entails.refl _)

/-- The copy into slot 6 of the device 7 steps ahead. -/
theorem wp_cp_6 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 6 : Thread nD τ).loc cc0_scratch1)) :
    iprop(cellInv ER (Rd m) (K (sendCell c 6)) (sendCell c 6) ∗ cellInv ER (Rd m) (K (recvCell (dst c 6) 6)) (recvCell (dst c 6) 6)
        ∗ statsPts c (cpShr 6) (statsOf m c) ∗ slotPts (dst c 6) 6 fd ∗ owes (c : Thread nD τ) (O + tallyAt (recvCell (dst c 6) 6) () N) W
        ∗ dutyTok ER (sendCell c 6) 0 0 ∗ reached ER (sendCell c 6) 0 ∗ dutyTok ER (recvCell (dst c 6) 6) 0 0 ∗ reached ER (recvCell (dst c 6) 6) 0)
      ⊢ iprop(((cred (tallyAt (sendCell c 6) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 6) : Thread nD τ) (slotM 6) (.dma (sendS 6)) hsc) (.dma (recvS 6)) hsrc hdst hsem) kk) Q) :=
  Rounds.wp_send_pointsTo 𝒱₀ ER (Rd m) (c : Thread nD τ) none (defs := defs₀ (F := F)) (Γ := .empty) (c' := (dst c 6 : Thread nD τ))
    (src := statsM) (dst := slotM 6) (sS := .dma (sendS 6)) (sem := .dma (recvS 6)) (q := cpShr 6) (fs := statsOf m c) (fd := fd)
    (κ₁ := K (sendCell c 6)) (κ₂ := K (recvCell (dst c 6) 6)) (r₁ := 0) (r₂ := 0) (d₁ := 0) (d₂ := 0)
    (by rw [duties_send]; exact Finset.mem_singleton_self _) (by rw [duties_recv]; exact Finset.mem_singleton_self _)
    () () N rfl (amount_send m c 6 0) (amount_recv m (dst c 6) 6 0) O rfl (W := W)
    (by rw [payload_send]; exact BI.Entails.refl _)
    (by rw [payload_recv]; unfold recvPay; rw [← landed_eq_6 m (dst c 6) fd, src_dst]; exact BI.Entails.refl _)

/-- The `k`-th copy: the statistics into slot `k` of the device `k+1` steps ahead, through a share of the source that
    the send cell hands back; it pays that device's receive cell with the slot rewritten, which is the slot landed. -/
theorem wp_cp {α : Type} {Q : α → sProp 𝕄} {kk : PUnit → Prog (TpuEff nD τ sig (Elt F) Λ₀ .tc) α} (c n : Dev nD) (k : Fin 7) (hn : n = dst c k) {hsc hsrc hdst hsem} (O : CellTallies nD τ sig Unit) (W : Waits sig Unit)
    (fd : Buf (Elt F) ((dst c k : Thread nD τ).loc cc0_scratch1)) :
    iprop(cellInv ER (Rd m) (K (sendCell c k)) (sendCell c k) ∗ cellInv ER (Rd m) (K (recvCell (dst c k) k)) (recvCell (dst c k) k)
        ∗ statsPts c (cpShr k) (statsOf m c) ∗ slotPts (dst c k) k fd ∗ owes (c : Thread nD τ) (O + tallyAt (recvCell (dst c k) k) () N) W
        ∗ dutyTok ER (sendCell c k) 0 0 ∗ reached ER (sendCell c k) 0 ∗ dutyTok ER (recvCell (dst c k) k) 0 0 ∗ reached ER (recvCell (dst c k) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc n : Thread nD τ) (slotM k) (.dma (sendS k)) hsc) (.dma (recvS k)) hsrc hdst hsem) kk) Q) := by
  subst hn
  fin_cases k
  · exact wp_cp_0 m K c O W fd
  · exact wp_cp_1 m K c O W fd
  · exact wp_cp_2 m K c O W fd
  · exact wp_cp_3 m K c O W fd
  · exact wp_cp_4 m K c O W fd
  · exact wp_cp_5 m K c O W fd
  · exact wp_cp_6 m K c O W fd

/-- info: 'Cert.KernelIdeal.Steps.wp_cp' depends on axioms: [propext, Classical.choice, Quot.sound] -/
#guard_msgs in #print axioms wp_cp

end Steps

end Cert.KernelIdeal.Steps

end
-- ==== Proof.KiStage.lean ====
/- An input window of the one-point grid covers its whole array: its block sits at block index
   zero and has the array's own sizes, so what the block reads off the launch memory is the
   device's argument array itself. -/
import proofs.«900772_g7700000000000773_dist_diff_adaln_cshard_i_b4_s512_c256_v7x_i8_f32_1_alg».proof.Proof.KiProto

noncomputable section

namespace Cert.KernelIdeal.Proto

open Cert.KernelIdeal Cert.KernelIdeal.Gen Cert.KernelIdeal.Spec Cert.KernelIdeal.Mem
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The four input blocks

The block's rectangle has offsets `0 * size` and the array's sizes: the unit-stride rectangle of
the buffer's own sizes at offset zero, through which a read returns the contents. -/

theorem xstg_eq (c : Dev nD) : xstg m ρ c = xOf m c := by
  unfold xstg xOf
  exact Memref.read_access_unit_zero (Elt F) main_arg0
    (off := fun a => win0_0.index (0 : Fin 1) a * win0_0.size a) (funext fun _ => Nat.zero_mul _) _ _

theorem tstg_eq (c : Dev nD) : tstg m ρ c = tOf m c := by
  unfold tstg tOf
  exact Memref.read_access_unit_zero (Elt F) main_arg1
    (off := fun a => win0_1.index (0 : Fin 1) a * win0_1.size a) (funext fun _ => Nat.zero_mul _) _ _

theorem wsstg_eq (c : Dev nD) : wsstg m ρ c = wsOf m c := by
  unfold wsstg wsOf
  exact Memref.read_access_unit_zero (Elt F) main_arg2
    (off := fun a => win0_2.index (0 : Fin 1) a * win0_2.size a) (funext fun _ => Nat.zero_mul _) _ _

theorem wshstg_eq (c : Dev nD) : wshstg m ρ c = wshOf m c := by
  unfold wshstg wshOf
  exact Memref.read_access_unit_zero (Elt F) main_arg3
    (off := fun a => win0_3.index (0 : Fin 1) a * win0_3.size a) (funext fun _ => Nat.zero_mul _) _ _

end Cert.KernelIdeal.Proto

end
-- ==== Proof.KiBody.lean ====
/- One device's body, stepped once at a symbolic device: the statistics of its block, the entry
   handshake (seven signals, one wait for seven units, each unit bringing the slot its sender will
   receive into), the seven copies (each reading the statistics scratch through a share of its
   own), the projections, the seven receive waits (each bringing a slot holding a peer's statistics)
   with the totals added up, the seven send waits (each bringing a share back), and the store of the
   normalised, scaled and shifted block. -/
import proofs.«900772_g7700000000000773_dist_diff_adaln_cshard_i_b4_s512_c256_v7x_i8_f32_1_alg».proof.Proof.KiTables
import proofs.«900772_g7700000000000773_dist_diff_adaln_cshard_i_b4_s512_c256_v7x_i8_f32_1_alg».proof.Proof.KiRegions
import proofs.«900772_g7700000000000773_dist_diff_adaln_cshard_i_b4_s512_c256_v7x_i8_f32_1_alg».proof.Proof.KiSteps
import proofs.«900772_g7700000000000773_dist_diff_adaln_cshard_i_b4_s512_c256_v7x_i8_f32_1_alg».proof.Proof.KiStage
import proofs.«900772_g7700000000000773_dist_diff_adaln_cshard_i_b4_s512_c256_v7x_i8_f32_1_alg».proof.Proof.Gen.KernelIdeal.Points

noncomputable section

namespace Cert.KernelIdeal.Body

open Cert.KernelIdeal Cert.KernelIdeal.Gen Cert.KernelIdeal.Spec Cert.KernelIdeal.Mem Cert.KernelIdeal.Proto Cert.KernelIdeal.Steps
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem read_whole_x (g : BufTy.Contents (Elt F) (xM : Memref sig .tc .vmem S4x512x256 .f32).view.ty) : View.read (Elt F) (xM : Memref sig .tc .vmem S4x512x256 .f32).view g = g := View.read_whole _ _
omit [FloatOps F] in
theorem read_whole_o (g : BufTy.Contents (Elt F) (oM : Memref sig .tc .vmem S4x512x256 .f32).view.ty) : View.read (Elt F) (oM : Memref sig .tc .vmem S4x512x256 .f32).view g = g := View.read_whole _ _
omit [FloatOps F] in
theorem read_whole_t (g : BufTy.Contents (Elt F) (tM : Memref sig .tc .vmem S4x128 .f32).view.ty) : View.read (Elt F) (tM : Memref sig .tc .vmem S4x128 .f32).view g = g := View.read_whole _ _
omit [FloatOps F] in
theorem read_whole_ws (g : BufTy.Contents (Elt F) (wsM : Memref sig .tc .vmem S128x256 .f32).view.ty) : View.read (Elt F) (wsM : Memref sig .tc .vmem S128x256 .f32).view g = g := View.read_whole _ _
omit [FloatOps F] in
theorem read_whole_wsh (g : BufTy.Contents (Elt F) (wshM : Memref sig .tc .vmem S128x256 .f32).view.ty) : View.read (Elt F) (wshM : Memref sig .tc .vmem S128x256 .f32).view g = g := View.read_whole _ _
omit [FloatOps F] in
theorem statsPts_def (c : Dev nD) (q : PosShare TreeShare) (f : Buf (Elt F) ((statsM : Memref sig .tc .vmem S2x4x512 .f32).view.loc (c : Thread nD τ))) :
    statsPts c q f = ((statsM : Memref sig .tc .vmem S2x4x512 .f32).view.loc (c : Thread nD τ) ↦[(statsM : Memref sig .tc .vmem S2x4x512 .f32).view.set]{q} f : sProp 𝕄) := rfl

omit [FloatOps F] in
theorem slotPts_0 (c : Dev nD) (f : Buf (Elt F) ((c : Thread nD τ).loc cc0_scratch1)) :
    slotPts c 0 f = ((slotM 0).view.loc (c : Thread nD τ) ↦[(slotM 0).view.set]{fullShare} f : sProp 𝕄) := rfl
omit [FloatOps F] in
theorem slotPts_1 (c : Dev nD) (f : Buf (Elt F) ((c : Thread nD τ).loc cc0_scratch1)) :
    slotPts c 1 f = ((slotM 1).view.loc (c : Thread nD τ) ↦[(slotM 1).view.set]{fullShare} f : sProp 𝕄) := rfl
omit [FloatOps F] in
theorem slotPts_2 (c : Dev nD) (f : Buf (Elt F) ((c : Thread nD τ).loc cc0_scratch1)) :
    slotPts c 2 f = ((slotM 2).view.loc (c : Thread nD τ) ↦[(slotM 2).view.set]{fullShare} f : sProp 𝕄) := rfl
omit [FloatOps F] in
theorem slotPts_3 (c : Dev nD) (f : Buf (Elt F) ((c : Thread nD τ).loc cc0_scratch1)) :
    slotPts c 3 f = ((slotM 3).view.loc (c : Thread nD τ) ↦[(slotM 3).view.set]{fullShare} f : sProp 𝕄) := rfl
omit [FloatOps F] in
theorem slotPts_4 (c : Dev nD) (f : Buf (Elt F) ((c : Thread nD τ).loc cc0_scratch1)) :
    slotPts c 4 f = ((slotM 4).view.loc (c : Thread nD τ) ↦[(slotM 4).view.set]{fullShare} f : sProp 𝕄) := rfl
omit [FloatOps F] in
theorem slotPts_5 (c : Dev nD) (f : Buf (Elt F) ((c : Thread nD τ).loc cc0_scratch1)) :
    slotPts c 5 f = ((slotM 5).view.loc (c : Thread nD τ) ↦[(slotM 5).view.set]{fullShare} f : sProp 𝕄) := rfl
omit [FloatOps F] in
theorem slotPts_6 (c : Dev nD) (f : Buf (Elt F) ((c : Thread nD τ).loc cc0_scratch1)) :
    slotPts c 6 f = ((slotM 6).view.loc (c : Thread nD τ) ↦[(slotM 6).view.set]{fullShare} f : sProp 𝕄) := rfl

theorem recv_pay_0 (c : Dev nD) : bigSep ((Rd (F := F) m).duties (recvCell c 0) 0) (fun d => (Rd (F := F) m).payload (recvCell c 0) 0 d)
    = ((slotM 0).view.loc (c : Thread nD τ) ↦[(slotM 0).view.set]{fullShare} landed m c : sProp 𝕄) := by
  rw [duties_recv, bigSep_singleton, payload_recv]; rfl
theorem send_pay_0 (c : Dev nD) : bigSep ((Rd (F := F) m).duties (sendCell c 0) 0) (fun d => (Rd (F := F) m).payload (sendCell c 0) 0 d)
    = statsPts c (cpShr 0) (statsOf m c) := by
  rw [duties_send, bigSep_singleton, payload_send]; rfl
theorem recv_pay_1 (c : Dev nD) : bigSep ((Rd (F := F) m).duties (recvCell c 1) 0) (fun d => (Rd (F := F) m).payload (recvCell c 1) 0 d)
    = ((slotM 1).view.loc (c : Thread nD τ) ↦[(slotM 1).view.set]{fullShare} landed m c : sProp 𝕄) := by
  rw [duties_recv, bigSep_singleton, payload_recv]; rfl
theorem send_pay_1 (c : Dev nD) : bigSep ((Rd (F := F) m).duties (sendCell c 1) 0) (fun d => (Rd (F := F) m).payload (sendCell c 1) 0 d)
    = statsPts c (cpShr 1) (statsOf m c) := by
  rw [duties_send, bigSep_singleton, payload_send]; rfl
theorem recv_pay_2 (c : Dev nD) : bigSep ((Rd (F := F) m).duties (recvCell c 2) 0) (fun d => (Rd (F := F) m).payload (recvCell c 2) 0 d)
    = ((slotM 2).view.loc (c : Thread nD τ) ↦[(slotM 2).view.set]{fullShare} landed m c : sProp 𝕄) := by
  rw [duties_recv, bigSep_singleton, payload_recv]; rfl
theorem send_pay_2 (c : Dev nD) : bigSep ((Rd (F := F) m).duties (sendCell c 2) 0) (fun d => (Rd (F := F) m).payload (sendCell c 2) 0 d)
    = statsPts c (cpShr 2) (statsOf m c) := by
  rw [duties_send, bigSep_singleton, payload_send]; rfl
theorem recv_pay_3 (c : Dev nD) : bigSep ((Rd (F := F) m).duties (recvCell c 3) 0) (fun d => (Rd (F := F) m).payload (recvCell c 3) 0 d)
    = ((slotM 3).view.loc (c : Thread nD τ) ↦[(slotM 3).view.set]{fullShare} landed m c : sProp 𝕄) := by
  rw [duties_recv, bigSep_singleton, payload_recv]; rfl
theorem send_pay_3 (c : Dev nD) : bigSep ((Rd (F := F) m).duties (sendCell c 3) 0) (fun d => (Rd (F := F) m).payload (sendCell c 3) 0 d)
    = statsPts c (cpShr 3) (statsOf m c) := by
  rw [duties_send, bigSep_singleton, payload_send]; rfl
theorem recv_pay_4 (c : Dev nD) : bigSep ((Rd (F := F) m).duties (recvCell c 4) 0) (fun d => (Rd (F := F) m).payload (recvCell c 4) 0 d)
    = ((slotM 4).view.loc (c : Thread nD τ) ↦[(slotM 4).view.set]{fullShare} landed m c : sProp 𝕄) := by
  rw [duties_recv, bigSep_singleton, payload_recv]; rfl
theorem send_pay_4 (c : Dev nD) : bigSep ((Rd (F := F) m).duties (sendCell c 4) 0) (fun d => (Rd (F := F) m).payload (sendCell c 4) 0 d)
    = statsPts c (cpShr 4) (statsOf m c) := by
  rw [duties_send, bigSep_singleton, payload_send]; rfl
theorem recv_pay_5 (c : Dev nD) : bigSep ((Rd (F := F) m).duties (recvCell c 5) 0) (fun d => (Rd (F := F) m).payload (recvCell c 5) 0 d)
    = ((slotM 5).view.loc (c : Thread nD τ) ↦[(slotM 5).view.set]{fullShare} landed m c : sProp 𝕄) := by
  rw [duties_recv, bigSep_singleton, payload_recv]; rfl
theorem send_pay_5 (c : Dev nD) : bigSep ((Rd (F := F) m).duties (sendCell c 5) 0) (fun d => (Rd (F := F) m).payload (sendCell c 5) 0 d)
    = statsPts c (cpShr 5) (statsOf m c) := by
  rw [duties_send, bigSep_singleton, payload_send]; rfl
theorem recv_pay_6 (c : Dev nD) : bigSep ((Rd (F := F) m).duties (recvCell c 6) 0) (fun d => (Rd (F := F) m).payload (recvCell c 6) 0 d)
    = ((slotM 6).view.loc (c : Thread nD τ) ↦[(slotM 6).view.set]{fullShare} landed m c : sProp 𝕄) := by
  rw [duties_recv, bigSep_singleton, payload_recv]; rfl
theorem send_pay_6 (c : Dev nD) : bigSep ((Rd (F := F) m).duties (sendCell c 6) 0) (fun d => (Rd (F := F) m).payload (sendCell c 6) 0 d)
    = statsPts c (cpShr 6) (statsOf m c) := by
  rw [duties_send, bigSep_singleton, payload_send]; rfl

/-- What is owed, one payment at a time: the seven signals, then the seven copies. -/
theorem owed_s0 (c : Dev nD) : owedR c 14 = owedR c 13 + tallyAt (barCell (dst c 0)) () 1 := owedR_succ c 13 (by decide)
theorem owed_s1 (c : Dev nD) : owedR c 13 = owedR c 12 + tallyAt (barCell (dst c 1)) () 1 := owedR_succ c 12 (by decide)
theorem owed_s2 (c : Dev nD) : owedR c 12 = owedR c 11 + tallyAt (barCell (dst c 2)) () 1 := owedR_succ c 11 (by decide)
theorem owed_s3 (c : Dev nD) : owedR c 11 = owedR c 10 + tallyAt (barCell (dst c 3)) () 1 := owedR_succ c 10 (by decide)
theorem owed_s4 (c : Dev nD) : owedR c 10 = owedR c 9 + tallyAt (barCell (dst c 4)) () 1 := owedR_succ c 9 (by decide)
theorem owed_s5 (c : Dev nD) : owedR c 9 = owedR c 8 + tallyAt (barCell (dst c 5)) () 1 := owedR_succ c 8 (by decide)
theorem owed_s6 (c : Dev nD) : owedR c 8 = owedR c 7 + tallyAt (barCell (dst c 6)) () 1 := owedR_succ c 7 (by decide)
theorem owed_c0 (c : Dev nD) : owedR c 7 = owedR c 6 + tallyAt (recvCell (dst c 0) 0) () N := owedR_succ c 6 (by decide)
theorem owed_c1 (c : Dev nD) : owedR c 6 = owedR c 5 + tallyAt (recvCell (dst c 1) 1) () N := owedR_succ c 5 (by decide)
theorem owed_c2 (c : Dev nD) : owedR c 5 = owedR c 4 + tallyAt (recvCell (dst c 2) 2) () N := owedR_succ c 4 (by decide)
theorem owed_c3 (c : Dev nD) : owedR c 4 = owedR c 3 + tallyAt (recvCell (dst c 3) 3) () N := owedR_succ c 3 (by decide)
theorem owed_c4 (c : Dev nD) : owedR c 3 = owedR c 2 + tallyAt (recvCell (dst c 4) 4) () N := owedR_succ c 2 (by decide)
theorem owed_c5 (c : Dev nD) : owedR c 2 = owedR c 1 + tallyAt (recvCell (dst c 5) 5) () N := owedR_succ c 1 (by decide)
theorem owed_c6 (c : Dev nD) : owedR c 1 = owedR c 0 + tallyAt (recvCell (dst c 6) 6) () N := owedR_succ c 0 (by decide)
theorem owed_0 (c : Dev nD) : owedR c 0 = 0 := rfl
theorem O₀_eq (c : Dev nD) : O₀ c = owedR c 14 := rfl

omit [FloatOps F] in
theorem statsPts_whole (c : Dev nD) (f : Buf (Elt F) ((c : Thread nD τ).loc cc0_scratch0)) :
    statsPts c fullShare f = (((c : Thread nD τ).loc cc0_scratch0) ↦{fullShare} f : sProp 𝕄) := by unfold statsPts; rw [View.set_whole]

/-- What the body starts from on device `c`: the protocol's ghost state at names `K`, the credit of its
    barrier's seven units and of its seven receive cells, the levels, the two scratch buffers, what it owes,
    and the five staging buffers. -/
def bodyPre (K : GSem nD τ sig → ℕ) (c : Dev nD) : sProp 𝕄 :=
  iprop((ghost m K c ∗ cred (tallyAt (barCell c) () 7) ∗ (bigSep Finset.univ fun k : Fin 7 => cred (tallyAt (recvCell c k) () N)) ∗ levAts L lv ∗ scratch c)
    ∗ (dats m ρ 0 c).owesAt () t₀.castSucc
    ∗ (∃ d, owns (c : Thread nD τ) xM fullShare ((dats m ρ 0 c).before (0 : Fin 5) t₀ d))
    ∗ (∃ d, owns (c : Thread nD τ) tM fullShare ((dats m ρ 0 c).before (1 : Fin 5) t₀ d))
    ∗ (∃ d, owns (c : Thread nD τ) wsM fullShare ((dats m ρ 0 c).before (2 : Fin 5) t₀ d))
    ∗ (∃ d, owns (c : Thread nD τ) wshM fullShare ((dats m ρ 0 c).before (3 : Fin 5) t₀ d))
    ∗ (∃ d, owns (c : Thread nD τ) oM fullShare ((dats m ρ 0 c).before (4 : Fin 5) t₀ d)))

def bodyPost (c : Dev nD) : sProp 𝕄 :=
  iprop(Φ₁ c ∗ (dats m ρ 0 c).owesAt () t₀.succ
    ∗ owns (c : Thread nD τ) xM fullShare (xstg m ρ c) ∗ owns (c : Thread nD τ) tM fullShare (tstg m ρ c)
    ∗ owns (c : Thread nD τ) wsM fullShare (wsstg m ρ c) ∗ owns (c : Thread nD τ) wshM fullShare (wshstg m ρ c)
    ∗ owns (c : Thread nD τ) oM fullShare (outAt m c))

set_option maxHeartbeats 4000000 in
theorem sound_body (K : GSem nD τ sig → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  unfold bodyPre Proto.ghost Proto.invs Proto.marks Proto.linear Proto.scratch
  rw [bigSep_fin7, bigSep_fin7, bigSep_fin7, bigSep_fin7, bigSep_fin7]
  unfold owns
  iintro ⟨⟨⟨⟨⟨#HIbar, ⟨#HIs0, #HIr0, #HIb0, #HId0⟩, ⟨#HIs1, #HIr1, #HIb1, #HId1⟩, ⟨#HIs2, #HIr2, #HIb2, #HId2⟩, ⟨#HIs3, #HIr3, #HIb3, #HId3⟩, ⟨#HIs4, #HIr4, #HIb4, #HId4⟩, ⟨#HIs5, #HIr5, #HIb5, #HId5⟩, ⟨#HIs6, #HIr6, #HIb6, #HId6⟩⟩,
      ⟨⟨#HRb0, #HRd0, #HRs0, #HRr0⟩, ⟨#HRb1, #HRd1, #HRs1, #HRr1⟩, ⟨#HRb2, #HRd2, #HRs2, #HRr2⟩, ⟨#HRb3, #HRd3, #HRs3, #HRr3⟩, ⟨#HRb4, #HRd4, #HRs4, #HRr4⟩, ⟨#HRb5, #HRd5, #HRs5, #HRr5⟩, ⟨#HRb6, #HRd6, #HRs6, #HRr6⟩⟩,
      HatB, ⟨⟨HaS0, HaR0⟩, ⟨HaS1, HaR1⟩, ⟨HaS2, HaR2⟩, ⟨HaS3, HaR3⟩, ⟨HaS4, HaR4⟩, ⟨HaS5, HaR5⟩, ⟨HaS6, HaR6⟩⟩,
      ⟨⟨HtB0, HtR0, HtS0⟩, ⟨HtB1, HtR1, HtS1⟩, ⟨HtB2, HtR2, HtS2⟩, ⟨HtB3, HtR3, HtS3⟩, ⟨HtB4, HtR4, HtS4⟩, ⟨HtB5, HtR5, HtS5⟩, ⟨HtB6, HtR6, HtS6⟩⟩⟩,
      HcB, ⟨Hc0, Hc1, Hc2, Hc3, Hc4, Hc5, Hc6⟩, #Hlev, ⟨⟨%fs, Hs⟩, ⟨%fc, Hcm⟩⟩⟩,
    Ho, ⟨%d0, %g0, %hg0, Hx⟩, ⟨%d1, %g1, %hg1, Htt⟩, ⟨%d2, %g2, %hg2, Hws⟩, ⟨%d3, %g3, %hg3, Hwsh⟩, ⟨%d4, %g4, %hg4, Hout⟩⟩, Hk⟩
  -- what the input staging buffers hold: each window's block is fetched at the one point
  have hb0 : (dats m ρ 0 c).before (0 : Fin 5) t₀ d0 = xstg m ρ c := by unfold Dat.before; rw [if_pos (fetch0_0 t₀)]; rfl
  have hb1 : (dats m ρ 0 c).before (1 : Fin 5) t₀ d1 = tstg m ρ c := by unfold Dat.before; rw [if_pos (fetch0_1 t₀)]; rfl
  have hb2 : (dats m ρ 0 c).before (2 : Fin 5) t₀ d2 = wsstg m ρ c := by unfold Dat.before; rw [if_pos (fetch0_2 t₀)]; rfl
  have hb3 : (dats m ρ 0 c).before (3 : Fin 5) t₀ d3 = wshstg m ρ c := by unfold Dat.before; rw [if_pos (fetch0_3 t₀)]; rfl
  rw [hb0] at hg0; rw [hb1] at hg1; rw [hb2] at hg2; rw [hb3] at hg3
  unfold Dat.owesAt Pipeline.owesWithin
  icases Ho with ⟨%W, %hW, HO⟩
  rw [show (dats m ρ 0 c).owed t₀.castSucc = O₀ c from rfl]
  -- the two scratch buffers through their memrefs' views; the receive buffer cut into its slots
  ihave Hst := (Entails.of_eq (statsPts_whole (F := F) c fs).symm) $$ Hs
  unfold statsPts
  sl_exec
  -- the receive buffer cut into its seven slots
  ihave Hsl := (comm_split (F := F) c fc).1 $$ Hcm
  icases Hsl with ⟨Hs0, Hs1, Hs2, Hs3, Hs4, Hs5, Hs6⟩
  rw [O₀_eq]
  -- signal 0: to the device 1 ahead, with this device's slot 6
  rw [owed_s0]
  iapply (wp_sig m K c _ 0 (dev1_eq c) (owedR c 13) W fc) $$ [HO HtB0 Hs6]
  · isplitr; · iexact HIb0
    isplitl [HO]; · iexact HO
    isplitl [HtB0]; · iexact HtB0
    isplitl [Hs6]; · iexact Hs6
    iexact HRb0
  iintro HO
  sl_exec
  -- signal 1: to the device 2 ahead, with this device's slot 5
  rw [owed_s1]
  iapply (wp_sig m K c _ 1 (dev2_eq c) (owedR c 12) W fc) $$ [HO HtB1 Hs5]
  · isplitr; · iexact HIb1
    isplitl [HO]; · iexact HO
    isplitl [HtB1]; · iexact HtB1
    isplitl [Hs5]; · iexact Hs5
    iexact HRb1
  iintro HO
  sl_exec
  -- signal 2: to the device 3 ahead, with this device's slot 4
  rw [owed_s2]
  iapply (wp_sig m K c _ 2 (dev3_eq c) (owedR c 11) W fc) $$ [HO HtB2 Hs4]
  · isplitr; · iexact HIb2
    isplitl [HO]; · iexact HO
    isplitl [HtB2]; · iexact HtB2
    isplitl [Hs4]; · iexact Hs4
    iexact HRb2
  iintro HO
  sl_exec
  -- signal 3: to the device 4 ahead, with this device's slot 3
  rw [owed_s3]
  iapply (wp_sig m K c _ 3 (dev4_eq c) (owedR c 10) W fc) $$ [HO HtB3 Hs3]
  · isplitr; · iexact HIb3
    isplitl [HO]; · iexact HO
    isplitl [HtB3]; · iexact HtB3
    isplitl [Hs3]; · iexact Hs3
    iexact HRb3
  iintro HO
  sl_exec
  -- signal 4: to the device 5 ahead, with this device's slot 2
  rw [owed_s4]
  iapply (wp_sig m K c _ 4 (dev5_eq c) (owedR c 9) W fc) $$ [HO HtB4 Hs2]
  · isplitr; · iexact HIb4
    isplitl [HO]; · iexact HO
    isplitl [HtB4]; · iexact HtB4
    isplitl [Hs2]; · iexact Hs2
    iexact HRb4
  iintro HO
  sl_exec
  -- signal 5: to the device 6 ahead, with this device's slot 1
  rw [owed_s5]
  iapply (wp_sig m K c _ 5 (dev6_eq c) (owedR c 8) W fc) $$ [HO HtB5 Hs1]
  · isplitr; · iexact HIb5
    isplitl [HO]; · iexact HO
    isplitl [HtB5]; · iexact HtB5
    isplitl [Hs1]; · iexact Hs1
    iexact HRb5
  iintro HO
  sl_exec
  -- signal 6: to the device 7 ahead, with this device's slot 0
  rw [owed_s6]
  iapply (wp_sig m K c _ 6 (dev7_eq c) (owedR c 7) W fc) $$ [HO HtB6 Hs0]
  · isplitr; · iexact HIb6
    isplitl [HO]; · iexact HO
    isplitl [HtB6]; · iexact HtB6
    isplitl [Hs0]; · iexact Hs0
    iexact HRb6
  iintro HO
  sl_exec
  -- the wait for the seven units: each brings the slot its sender will receive into
  iapply (wp_barwait m K c W) $$ [HcB HO HatB]
  · isplitr; · iexact HIbar
    isplitl [HcB]; · iexact HcB
    isplitl [HO]; · iexact HO
    isplitr; · iexact Hlev
    iexact HatB
  iintro ⟨HO, HatB, -, P0, P1, P2, P3, P4, P5, P6⟩
  unfold barPay
  icases P0 with ⟨%q0, Q0⟩
  icases P1 with ⟨%q1, Q1⟩
  icases P2 with ⟨%q2, Q2⟩
  icases P3 with ⟨%q3, Q3⟩
  icases P4 with ⟨%q4, Q4⟩
  icases P5 with ⟨%q5, Q5⟩
  icases P6 with ⟨%q6, Q6⟩
  sl_exec
  -- the statistics scratch holds the device's statistics, whatever it held before; one share per copy
  have hx0 : g0 = xOf m c := ((read_whole_x g0).symm.trans hg0).trans (xstg_eq m ρ c)
  subst hx0
  rw [read_x c, writes_stats]
  rw [show statsVec (xOf m c) = statsOf m c from rfl]
  ihave Hst' := (Entails.of_eq (statsPts_def (F := F) c fullShare (statsOf m c)).symm) $$ Hst
  ihave Hsh := (stats_shares (F := F) c (statsOf m c)).1 $$ Hst'
  icases Hsh with ⟨Hq0, Hq1, Hq2, Hq3, Hq4, Hq5, Hq6, Hkp⟩
  ihave Hkeep := (Entails.of_eq (statsPts_def (F := F) c keepShr (statsOf m c))) $$ Hkp
  -- copy 0: the statistics into slot 0 of the device 1 ahead, through share 0
  rw [owed_c0]
  iapply (wp_cp m K c _ 0 (dev8_eq c) (owedR c 6) _ q0) $$ [Hq0 Q0 HO HtS0 HtR0]
  · isplitr; · iexact HIs0
    isplitr; · iexact HId0
    isplitl [Hq0]; · iexact Hq0
    isplitl [Q0]; · iexact Q0
    isplitl [HO]; · iexact HO
    isplitl [HtS0]; · iexact HtS0
    isplitr; · iexact HRs0
    isplitl [HtR0]; · iexact HtR0
    iexact HRd0
  iintro ⟨HcS0, HO⟩
  sl_exec
  -- copy 1: the statistics into slot 1 of the device 2 ahead, through share 1
  rw [owed_c1]
  iapply (wp_cp m K c _ 1 (dev9_eq c) (owedR c 5) _ q1) $$ [Hq1 Q1 HO HtS1 HtR1]
  · isplitr; · iexact HIs1
    isplitr; · iexact HId1
    isplitl [Hq1]; · iexact Hq1
    isplitl [Q1]; · iexact Q1
    isplitl [HO]; · iexact HO
    isplitl [HtS1]; · iexact HtS1
    isplitr; · iexact HRs1
    isplitl [HtR1]; · iexact HtR1
    iexact HRd1
  iintro ⟨HcS1, HO⟩
  sl_exec
  -- copy 2: the statistics into slot 2 of the device 3 ahead, through share 2
  rw [owed_c2]
  iapply (wp_cp m K c _ 2 (dev10_eq c) (owedR c 4) _ q2) $$ [Hq2 Q2 HO HtS2 HtR2]
  · isplitr; · iexact HIs2
    isplitr; · iexact HId2
    isplitl [Hq2]; · iexact Hq2
    isplitl [Q2]; · iexact Q2
    isplitl [HO]; · iexact HO
    isplitl [HtS2]; · iexact HtS2
    isplitr; · iexact HRs2
    isplitl [HtR2]; · iexact HtR2
    iexact HRd2
  iintro ⟨HcS2, HO⟩
  sl_exec
  -- copy 3: the statistics into slot 3 of the device 4 ahead, through share 3
  rw [owed_c3]
  iapply (wp_cp m K c _ 3 (dev11_eq c) (owedR c 3) _ q3) $$ [Hq3 Q3 HO HtS3 HtR3]
  · isplitr; · iexact HIs3
    isplitr; · iexact HId3
    isplitl [Hq3]; · iexact Hq3
    isplitl [Q3]; · iexact Q3
    isplitl [HO]; · iexact HO
    isplitl [HtS3]; · iexact HtS3
    isplitr; · iexact HRs3
    isplitl [HtR3]; · iexact HtR3
    iexact HRd3
  iintro ⟨HcS3, HO⟩
  sl_exec
  -- copy 4: the statistics into slot 4 of the device 5 ahead, through share 4
  rw [owed_c4]
  iapply (wp_cp m K c _ 4 (dev12_eq c) (owedR c 2) _ q4) $$ [Hq4 Q4 HO HtS4 HtR4]
  · isplitr; · iexact HIs4
    isplitr; · iexact HId4
    isplitl [Hq4]; · iexact Hq4
    isplitl [Q4]; · iexact Q4
    isplitl [HO]; · iexact HO
    isplitl [HtS4]; · iexact HtS4
    isplitr; · iexact HRs4
    isplitl [HtR4]; · iexact HtR4
    iexact HRd4
  iintro ⟨HcS4, HO⟩
  sl_exec
  -- copy 5: the statistics into slot 5 of the device 6 ahead, through share 5
  rw [owed_c5]
  iapply (wp_cp m K c _ 5 (dev13_eq c) (owedR c 1) _ q5) $$ [Hq5 Q5 HO HtS5 HtR5]
  · isplitr; · iexact HIs5
    isplitr; · iexact HId5
    isplitl [Hq5]; · iexact Hq5
    isplitl [Q5]; · iexact Q5
    isplitl [HO]; · iexact HO
    isplitl [HtS5]; · iexact HtS5
    isplitr; · iexact HRs5
    isplitl [HtR5]; · iexact HtR5
    iexact HRd5
  iintro ⟨HcS5, HO⟩
  sl_exec
  -- copy 6: the statistics into slot 6 of the device 7 ahead, through share 6
  rw [owed_c6]
  iapply (wp_cp m K c _ 6 (dev14_eq c) (owedR c 0) _ q6) $$ [Hq6 Q6 HO HtS6 HtR6]
  · isplitr; · iexact HIs6
    isplitr; · iexact HId6
    isplitl [Hq6]; · iexact Hq6
    isplitl [Q6]; · iexact Q6
    isplitl [HO]; · iexact HO
    isplitl [HtS6]; · iexact HtS6
    isplitr; · iexact HRs6
    isplitl [HtR6]; · iexact HtR6
    iexact HRd6
  iintro ⟨HcS6, HO⟩
  rw [owed_0]
  sl_exec
  -- receive wait 0 has brought slot 0, holding the statistics of the device 1 behind; its load
  ihave L0 := (Entails.of_eq (recv_pay_0 m c)) $$ HaR0_pay1
  sl_exec
  -- receive wait 1 has brought slot 1, holding the statistics of the device 2 behind; its load
  ihave L1 := (Entails.of_eq (recv_pay_1 m c)) $$ HaR1_pay1
  sl_exec
  -- receive wait 2 has brought slot 2, holding the statistics of the device 3 behind; its load
  ihave L2 := (Entails.of_eq (recv_pay_2 m c)) $$ HaR2_pay1
  sl_exec
  -- receive wait 3 has brought slot 3, holding the statistics of the device 4 behind; its load
  ihave L3 := (Entails.of_eq (recv_pay_3 m c)) $$ HaR3_pay1
  sl_exec
  -- receive wait 4 has brought slot 4, holding the statistics of the device 5 behind; its load
  ihave L4 := (Entails.of_eq (recv_pay_4 m c)) $$ HaR4_pay1
  sl_exec
  -- receive wait 5 has brought slot 5, holding the statistics of the device 6 behind; its load
  ihave L5 := (Entails.of_eq (recv_pay_5 m c)) $$ HaR5_pay1
  sl_exec
  -- receive wait 6 has brought slot 6, holding the statistics of the device 7 behind; its load
  ihave L6 := (Entails.of_eq (recv_pay_6 m c)) $$ HaR6_pay1
  sl_exec
  ihave Hq0 := (Entails.of_eq (send_pay_0 m c)) $$ HaS0_pay1
  ihave Hq1 := (Entails.of_eq (send_pay_1 m c)) $$ HaS1_pay1
  ihave Hq2 := (Entails.of_eq (send_pay_2 m c)) $$ HaS2_pay1
  ihave Hq3 := (Entails.of_eq (send_pay_3 m c)) $$ HaS3_pay1
  ihave Hq4 := (Entails.of_eq (send_pay_4 m c)) $$ HaS4_pay1
  ihave Hq5 := (Entails.of_eq (send_pay_5 m c)) $$ HaS5_pay1
  ihave Hq6 := (Entails.of_eq (send_pay_6 m c)) $$ HaS6_pay1
  -- the fourteen own cells close: their counters at zero are the device's again
  rw [wp_ret]
  imod (Rounds.cell_close ER (Rd m) (Set.mem_univ (K (sendCell c 0))) (fun h => h) (R := 1) (fun r hr => duties_later m (sendCell c 0) r hr)) $$ [HaS0] with HzS0
  · isplitr; · iexact HIs0
    iexact HaS0
  imod (Rounds.cell_close ER (Rd m) (Set.mem_univ (K (recvCell c 0))) (fun h => h) (R := 1) (fun r hr => duties_later m (recvCell c 0) r hr)) $$ [HaR0] with HzR0
  · isplitr; · iexact HIr0
    iexact HaR0
  imod (Rounds.cell_close ER (Rd m) (Set.mem_univ (K (sendCell c 1))) (fun h => h) (R := 1) (fun r hr => duties_later m (sendCell c 1) r hr)) $$ [HaS1] with HzS1
  · isplitr; · iexact HIs1
    iexact HaS1
  imod (Rounds.cell_close ER (Rd m) (Set.mem_univ (K (recvCell c 1))) (fun h => h) (R := 1) (fun r hr => duties_later m (recvCell c 1) r hr)) $$ [HaR1] with HzR1
  · isplitr; · iexact HIr1
    iexact HaR1
  imod (Rounds.cell_close ER (Rd m) (Set.mem_univ (K (sendCell c 2))) (fun h => h) (R := 1) (fun r hr => duties_later m (sendCell c 2) r hr)) $$ [HaS2] with HzS2
  · isplitr; · iexact HIs2
    iexact HaS2
  imod (Rounds.cell_close ER (Rd m) (Set.mem_univ (K (recvCell c 2))) (fun h => h) (R := 1) (fun r hr => duties_later m (recvCell c 2) r hr)) $$ [HaR2] with HzR2
  · isplitr; · iexact HIr2
    iexact HaR2
  imod (Rounds.cell_close ER (Rd m) (Set.mem_univ (K (sendCell c 3))) (fun h => h) (R := 1) (fun r hr => duties_later m (sendCell c 3) r hr)) $$ [HaS3] with HzS3
  · isplitr; · iexact HIs3
    iexact HaS3
  imod (Rounds.cell_close ER (Rd m) (Set.mem_univ (K (recvCell c 3))) (fun h => h) (R := 1) (fun r hr => duties_later m (recvCell c 3) r hr)) $$ [HaR3] with HzR3
  · isplitr; · iexact HIr3
    iexact HaR3
  imod (Rounds.cell_close ER (Rd m) (Set.mem_univ (K (sendCell c 4))) (fun h => h) (R := 1) (fun r hr => duties_later m (sendCell c 4) r hr)) $$ [HaS4] with HzS4
  · isplitr; · iexact HIs4
    iexact HaS4
  imod (Rounds.cell_close ER (Rd m) (Set.mem_univ (K (recvCell c 4))) (fun h => h) (R := 1) (fun r hr => duties_later m (recvCell c 4) r hr)) $$ [HaR4] with HzR4
  · isplitr; · iexact HIr4
    iexact HaR4
  imod (Rounds.cell_close ER (Rd m) (Set.mem_univ (K (sendCell c 5))) (fun h => h) (R := 1) (fun r hr => duties_later m (sendCell c 5) r hr)) $$ [HaS5] with HzS5
  · isplitr; · iexact HIs5
    iexact HaS5
  imod (Rounds.cell_close ER (Rd m) (Set.mem_univ (K (recvCell c 5))) (fun h => h) (R := 1) (fun r hr => duties_later m (recvCell c 5) r hr)) $$ [HaR5] with HzR5
  · isplitr; · iexact HIr5
    iexact HaR5
  imod (Rounds.cell_close ER (Rd m) (Set.mem_univ (K (sendCell c 6))) (fun h => h) (R := 1) (fun r hr => duties_later m (sendCell c 6) r hr)) $$ [HaS6] with HzS6
  · isplitr; · iexact HIs6
    iexact HaS6
  imod (Rounds.cell_close ER (Rd m) (Set.mem_univ (K (recvCell c 6))) (fun h => h) (R := 1) (fun r hr => duties_later m (recvCell c 6) r hr)) $$ [HaR6] with HzR6
  · isplitr; · iexact HIr6
    iexact HaR6
  imodintro
  iapply Hk
  unfold bodyPost Φ₁ Proto.scratch Dat.owesAt Pipeline.owesWithin owns
  rw [show (dats m ρ 0 c).owed t₀.succ = 0 from rfl, bigSep_fin7]
  isplitl [Hq0 Hq1 Hq2 Hq3 Hq4 Hq5 Hq6 Hkeep L0 L1 L2 L3 L4 L5 L6 HzS0 HzR0 HzS1 HzR1 HzS2 HzR2 HzS3 HzR3 HzS4 HzR4 HzS5 HzR5 HzS6 HzR6]
  · isplitl [Hq0 Hq1 Hq2 Hq3 Hq4 Hq5 Hq6 Hkeep L0 L1 L2 L3 L4 L5 L6]
    · isplitl [Hq0 Hq1 Hq2 Hq3 Hq4 Hq5 Hq6 Hkeep]
      · -- the statistics scratch whole again: the eight shares rejoined
        iexists (statsOf m c)
        ihave Hkp := (Entails.of_eq (statsPts_def (F := F) c keepShr (statsOf m c)).symm) $$ Hkeep
        ihave Hfull := (stats_shares (F := F) c (statsOf m c)).2 $$ [Hq0 Hq1 Hq2 Hq3 Hq4 Hq5 Hq6 Hkp]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hkp
        iapply (Entails.of_eq (statsPts_whole (F := F) c (statsOf m c)))
        iexact Hfull
      · -- the receive buffer whole again: the seven slots rejoined
        ihave M0 := (Entails.of_eq (slotPts_0 (F := F) c (landed m c)).symm) $$ L0
        ihave M1 := (Entails.of_eq (slotPts_1 (F := F) c (landed m c)).symm) $$ L1
        ihave M2 := (Entails.of_eq (slotPts_2 (F := F) c (landed m c)).symm) $$ L2
        ihave M3 := (Entails.of_eq (slotPts_3 (F := F) c (landed m c)).symm) $$ L3
        ihave M4 := (Entails.of_eq (slotPts_4 (F := F) c (landed m c)).symm) $$ L4
        ihave M5 := (Entails.of_eq (slotPts_5 (F := F) c (landed m c)).symm) $$ L5
        ihave M6 := (Entails.of_eq (slotPts_6 (F := F) c (landed m c)).symm) $$ L6
        iapply (comm_join (F := F) c (landed m c) (landed m c) (landed m c) (landed m c) (landed m c) (landed m c) (landed m c))
        isplitl [M0]; · iexact M0
        isplitl [M1]; · iexact M1
        isplitl [M2]; · iexact M2
        isplitl [M3]; · iexact M3
        isplitl [M4]; · iexact M4
        isplitl [M5]; · iexact M5
        iexact M6
    · isplitl [HzS0 HzR0]
      · isplitl [HzS0]; · iexact HzS0
        iexact HzR0
      isplitl [HzS1 HzR1]
      · isplitl [HzS1]; · iexact HzS1
        iexact HzR1
      isplitl [HzS2 HzR2]
      · isplitl [HzS2]; · iexact HzS2
        iexact HzR2
      isplitl [HzS3 HzR3]
      · isplitl [HzS3]; · iexact HzS3
        iexact HzR3
      isplitl [HzS4 HzR4]
      · isplitl [HzS4]; · iexact HzS4
        iexact HzR4
      isplitl [HzS5 HzR5]
      · isplitl [HzS5]; · iexact HzS5
        iexact HzR5
      isplitl [HzS6]; · iexact HzS6
      iexact HzR6
  isplitl [HO]
  · iexists _
    isplitr
    rotate_left
    · iexact HO
    · ipureintro; exact fun _ _ => Or.inl trivial
  isplitl [Hx]
  · iexists (xOf m c); isplitr; · (ipureintro; exact hg0)
    iexact Hx
  isplitl [Htt]
  · iexists g1; isplitr; · (ipureintro; exact hg1)
    iexact Htt
  isplitl [Hws]
  · iexists g2; isplitr; · (ipureintro; exact hg2)
    iexact Hws
  isplitl [Hwsh]
  · iexists g3; isplitr; · (ipureintro; exact hg3)
    iexact Hwsh
  iexists _
  isplitr
  rotate_left
  · iexact Hout
  · ipureintro
    have h1 : g1 = tOf m c := ((read_whole_t g1).symm.trans hg1).trans (tstg_eq m ρ c)
    have h2 : g2 = wsOf m c := ((read_whole_ws g2).symm.trans hg2).trans (wsstg_eq m ρ c)
    have h3 : g3 = wshOf m c := ((read_whole_wsh g3).symm.trans hg3).trans (wshstg_eq m ρ c)
    subst h1 h2 h3
    rw [writes_out, read_whole_o]
    sl_unfold_run_names
    rw [read_t c, read_ws c, read_wsh c, read_x c, read_stats c]
    have e0 := read_landed_0 m c
    have e1 := read_landed_1 m c
    have e2 := read_landed_2 m c
    have e3 := read_landed_3 m c
    have e4 := read_landed_4 m c
    have e5 := read_landed_5 m c
    have e6 := read_landed_6 m c
    dsimp only [slotRect, commM] at e0 e1 e2 e3 e4 e5 e6
    rw [e0, e1, e2, e3, e4, e5, e6]
    rfl

/-- The pipeline's view of the same start: the invariant `Φ 0`, what is owed, the five staging buffers. -/
def bodyPre' (c : Dev nD) : sProp 𝕄 :=
  iprop(Φ₀ m c ∗ (dats m ρ 0 c).owesAt () t₀.castSucc
    ∗ (∃ d, owns (c : Thread nD τ) xM fullShare ((dats m ρ 0 c).before (0 : Fin 5) t₀ d))
    ∗ (∃ d, owns (c : Thread nD τ) tM fullShare ((dats m ρ 0 c).before (1 : Fin 5) t₀ d))
    ∗ (∃ d, owns (c : Thread nD τ) wsM fullShare ((dats m ρ 0 c).before (2 : Fin 5) t₀ d))
    ∗ (∃ d, owns (c : Thread nD τ) wshM fullShare ((dats m ρ 0 c).before (3 : Fin 5) t₀ d))
    ∗ (∃ d, owns (c : Thread nD τ) oM fullShare ((dats m ρ 0 c).before (4 : Fin 5) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hrest⟩, Hscr⟩, Ho, Hx, Ht, Hws, Hwsh, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Ht]; · iexact Ht
    isplitl [Hws]; · iexact Hws
    isplitl [Hwsh]; · iexact Hwsh
    iexact Hout
  · iintro H; iexact H

/-- info: 'Cert.KernelIdeal.Body.body_obligation' depends on axioms: [propext, Classical.choice, Quot.sound] -/
#guard_msgs in #print axioms body_obligation

end Cert.KernelIdeal.Body

end
-- ==== Proof.KiLaunch.lean ====
/- The launch of the eight-device exchange: from each device's body to the run of the whole program.
   The cells of all devices are funded at once, each device's fifteen semaphores become fifteen cell
   invariants, the duty tokens are dealt to the devices that pay them (for each copy number the map
   from a device to the peer it addresses is a permutation of the ring), the credit each device may
   wait for is what its seven peers owe it, and the final arrays are read off the one grid point. -/
import proofs.«900772_g7700000000000773_dist_diff_adaln_cshard_i_b4_s512_c256_v7x_i8_f32_1_alg».proof.Proof.KiTables
import Idealize.ShloMosaic.Lib.Pipeline.Launch
import Idealize.ShloMosaic.Lib.Pipeline.Kit
import Idealize.ShloMosaic.Lib.Tactic

noncomputable section

namespace Cert.KernelIdeal.Launch

open Cert.KernelIdeal.Proto
open Cert.KernelIdeal Cert.KernelIdeal.Gen Cert.KernelIdeal.Spec Cert.KernelIdeal.Mem
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of a device, as the launch indexes them -/

/-- The fourteen scoped semaphores: the seven send semaphores, then the seven receive semaphores. -/
abbrev osem : Fin 14 → SemLoc sig := fun
  | 0 => .dma (sendS 0) | 1 => .dma (sendS 1) | 2 => .dma (sendS 2) | 3 => .dma (sendS 3) | 4 => .dma (sendS 4) | 5 => .dma (sendS 5) | 6 => .dma (sendS 6)
  | 7 => .dma (recvS 0) | 8 => .dma (recvS 1) | 9 => .dma (recvS 2) | 10 => .dma (recvS 3) | 11 => .dma (recvS 4) | 12 => .dma (recvS 5) | 13 => .dma (recvS 6)

/-- All fifteen: the barrier semaphore first. -/
abbrev csem : Fin 15 → SemLoc sig := fun
  | 0 => .reg barS
  | 1 => .dma (sendS 0) | 2 => .dma (sendS 1) | 3 => .dma (sendS 2) | 4 => .dma (sendS 3) | 5 => .dma (sendS 4) | 6 => .dma (sendS 5) | 7 => .dma (sendS 6)
  | 8 => .dma (recvS 0) | 9 => .dma (recvS 1) | 10 => .dma (recvS 2) | 11 => .dma (recvS 3) | 12 => .dma (recvS 4) | 13 => .dma (recvS 5) | 14 => .dma (recvS 6)

abbrev kcell (ck : Dev nD × Fin 15) : GSem nD τ sig := ((ck.1 : Thread nD τ), csem ck.2)

theorem ownSemFacts : Pipeline.OwnSemFacts cfg0.spec osem := by decide

theorem csem_injective : Function.Injective csem := by decide

theorem share_eq (c : Dev nD) (w : Fin cfg0.W) : (dats m ρ 0 c).share w = fullShare := by unfold Dat.share; split <;> rfl

/-! ## The cells and the duty tokens of the whole mesh -/

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

/-- A device's own cells' duty tokens as minted, by kind (barrier, send, receive) and number: the seven
    duties of its barrier cell, the one duty of each send cell and of each receive cell. -/
abbrev tsem (jk : Fin 3 × Fin 7) : SemLoc sig × Fin 7 := match jk.1 with
  | 0 => (.reg barS, jk.2) | 1 => (.dma (sendS jk.2), 0) | 2 => (.dma (recvS jk.2), 0)
theorem tsem_injective : Function.Injective tsem := by decide
abbrev tokOf (cj : Dev nD × (Fin 3 × Fin 7)) : GSem nD τ sig × ℕ × Fin 7 :=
  (((cj.1 : Thread nD τ), (tsem cj.2).1), 0, (tsem cj.2).2)
theorem tokOf_injective : Function.Injective (tokOf : Dev nD × (Fin 3 × Fin 7) → GSem nD τ sig × ℕ × Fin 7) := by
  rintro ⟨c, j⟩ ⟨c', j'⟩ h
  have h1 : c = c' := by have := congrArg (fun x : GSem nD τ sig × ℕ × Fin 7 => x.1.1.1) h; exact this
  subst h1
  have h2 : tsem j = tsem j' := Prod.ext (congrArg (fun x : GSem nD τ sig × ℕ × Fin 7 => x.1.2) h) (congrArg (fun x : GSem nD τ sig × ℕ × Fin 7 => x.2.2) h)
  have : j = j' := tsem_injective h2
  subst this; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun e : Fin 7 => dutyTok ER (barCell c) 0 e)
    ∗ (bigSep Finset.univ fun k : Fin 7 => dutyTok ER (sendCell c k) 0 0)
    ∗ bigSep Finset.univ fun k : Fin 7 => dutyTok ER (recvCell c k) 0 0)

/-- What the launch element deals device `c`. -/
def G (c : Dev nD) : sProp 𝕄 :=
  iprop((bigSep Finset.univ fun k : Fin 15 => roundState ER (Rd m) (kcell (c, k)) 0)
    ∗ (bigSep Finset.univ fun k : Fin 15 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      refine (bigSep_univ_prod (fun jk : Fin 3 × Fin 7 => (dutyTok ER (tokOf (c, jk)).1 (tokOf (c, jk)).2.1 (tokOf (c, jk)).2.2 : sProp 𝕄))).trans ?_
      rw [bigSep_fin3]
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## A device's semaphores at zero become its cells' invariants -/

omit [FloatOps F] in
theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
/-- The scoped semaphores are the seven send and the seven receive semaphores; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0
        ∗ semVal (sendCell c 5) 0 ∗ semVal (sendCell c 6) 0 ∗ semVal (recvCell c 0) 0 ∗ semVal (recvCell c 1) 0 ∗ semVal (recvCell c 2) 0
        ∗ semVal (recvCell c 3) 0 ∗ semVal (recvCell c 4) 0 ∗ semVal (recvCell c 5) 0 ∗ semVal (recvCell c 6) 0) := by
  rw [Pipeline.ownSems0_eq_of_list c osem [0, 1, 2, 3, 4, 5, 6, 7, 8, 9, 10, 11, 12, 13] (by decide) (by decide)]; rfl
omit [FloatOps F] in
/-- the barrier semaphore the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_fin15]
  iintro ⟨⟨S0, S1, S2, S3, S4, S5, S6, V0, V1, V2, V3, V4, V5, V6⟩, HB⟩
  isplitl [HB]; · iexact HB
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [V0]; · iexact V0
  isplitl [V1]; · iexact V1
  isplitl [V2]; · iexact V2
  isplitl [V3]; · iexact V3
  isplitl [V4]; · iexact V4
  isplitl [V5]; · iexact V5
  iexact V6

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 15 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the ring, and the ghost state regrouped per device -/

/-- For each copy number the map from a device to the peer it addresses is a permutation of the ring. -/
def dstE (k : Fin 7) : Dev nD ≃ Dev nD := ⟨fun c => dst c k, fun c => src c k, fun c => Cert.Math.src_dst c k, fun c => Cert.Math.dst_src c k⟩
def revE : Fin 7 ≃ Fin 7 := ⟨rev, rev, rev_rev, rev_rev⟩

/-- The tokens of the duties device `c` pays. -/
def payToks (c : Dev nD) : sProp 𝕄 :=
  bigSep Finset.univ fun k : Fin 7 => iprop(dutyTok ER (barCell (dst c k)) 0 (rev k) ∗ dutyTok ER (recvCell (dst c k) k) 0 0 ∗ dutyTok ER (sendCell c k) 0 0)

omit [FloatOps F] in
/-- A barrier cell's token `e` goes to the device that pays it: as its entry `rev e`. -/
theorem bar_around :
    (bigSep Finset.univ fun c : Dev nD => bigSep Finset.univ fun e : Fin 7 => (dutyTok ER (barCell c) 0 e : sProp 𝕄))
      = bigSep Finset.univ fun c : Dev nD => bigSep Finset.univ fun k : Fin 7 => (dutyTok ER (barCell (dst c k)) 0 (rev k) : sProp 𝕄) :=
  (bigSep_univ_comm (fun (c : Dev nD) (e : Fin 7) => (dutyTok ER (barCell c) 0 e : sProp 𝕄))).trans <|
  (bigSep_univ_equiv revE (fun e : Fin 7 => bigSep Finset.univ fun c : Dev nD => (dutyTok ER (barCell c) 0 e : sProp 𝕄))).trans <|
  (bigSep_congr fun k _ => bigSep_univ_equiv (dstE k) (fun c : Dev nD => (dutyTok ER (barCell c) 0 (rev k) : sProp 𝕄))).trans <|
  (bigSep_univ_comm (fun (k : Fin 7) (c : Dev nD) => (dutyTok ER (barCell (dst c k)) 0 (rev k) : sProp 𝕄)))

omit [FloatOps F] in
/-- A receive cell's token goes to the device whose copy lands there. -/
theorem recv_around :
    (bigSep Finset.univ fun c : Dev nD => bigSep Finset.univ fun k : Fin 7 => (dutyTok ER (recvCell c k) 0 0 : sProp 𝕄))
      = bigSep Finset.univ fun c : Dev nD => bigSep Finset.univ fun k : Fin 7 => (dutyTok ER (recvCell (dst c k) k) 0 0 : sProp 𝕄) :=
  (bigSep_univ_comm (fun (c : Dev nD) (k : Fin 7) => (dutyTok ER (recvCell c k) 0 0 : sProp 𝕄))).trans <|
  (bigSep_congr fun k _ => bigSep_univ_equiv (dstE k) (fun c : Dev nD => (dutyTok ER (recvCell c k) 0 0 : sProp 𝕄))).trans <|
  (bigSep_univ_comm (fun (k : Fin 7) (c : Dev nD) => (dutyTok ER (recvCell (dst c k) k) 0 0 : sProp 𝕄)))

omit [FloatOps F] in
theorem toks_around : (bigSep Finset.univ fun c : Dev nD => (toks c : sProp 𝕄)) ⊢ bigSep Finset.univ fun c : Dev nD => payToks c := by
  unfold toks payToks
  simp only [bigSep_sep']
  rw [bar_around, recv_around]
  iintro ⟨H1, H2, H3⟩
  isplitl [H1]; · iexact H1
  isplitl [H3]; · iexact H3
  iexact H2

/-- The name of a cell, from the names given by device and number. -/
def Kof (K : Dev nD × Fin 15 → ℕ) (g : GSem nD τ sig) : ℕ := K (Function.invFun kcell g)
theorem Kof_kcell (K : Dev nD × Fin 15 → ℕ) (ck : Dev nD × Fin 15) : Kof K (kcell ck) = K ck :=
  congrArg K (Function.leftInverse_invFun kcell_injective ck)

/-- The number of a send and of a receive semaphore among the fifteen. -/
abbrev sIdx (k : Fin 7) : Fin 15 := ⟨k.val + 1, by omega⟩
abbrev rIdx (k : Fin 7) : Fin 15 := ⟨k.val + 8, by omega⟩
theorem send_kcell (c : Dev nD) (k : Fin 7) : sendCell c k = kcell (c, sIdx k) := by fin_cases k <;> rfl
theorem recv_kcell (c : Dev nD) (k : Fin 7) : recvCell c k = kcell (c, rIdx k) := by fin_cases k <;> rfl

def records (K : Dev nD × Fin 15 → ℕ) : sProp 𝕄 :=
  iprop((bigSep Finset.univ fun ck : Dev nD × Fin 15 => cellInv ER (Rd m) (K ck) (kcell ck))
    ∗ bigSep Finset.univ fun ck : Dev nD × Fin 15 => reached ER (kcell ck) 0)

instance records_persistent (K : Dev nD × Fin 15 → ℕ) : BI.Persistent (records m K) := by unfold records; infer_instance

theorem inv_at0 (K : Dev nD × Fin 15 → ℕ) (ck : Dev nD × Fin 15) :
    (bigSep Finset.univ fun ck : Dev nD × Fin 15 => (cellInv ER (Rd m) (K ck) (kcell ck) : sProp 𝕄)) ⊢ cellInv ER (Rd m) (K ck) (kcell ck) :=
  bigSep_elim (Finset.mem_univ ck)
omit [FloatOps F] in
theorem reached_at0 (ck : Dev nD × Fin 15) :
    (bigSep Finset.univ fun ck : Dev nD × Fin 15 => (reached ER (kcell ck) 0 : sProp 𝕄)) ⊢ reached ER (kcell ck) 0 :=
  bigSep_elim (Finset.mem_univ ck)

theorem inv_at (K : Dev nD × Fin 15 → ℕ) (ck : Dev nD × Fin 15) :
    records m K ⊢ cellInv ER (Rd m) (Kof K (kcell ck)) (kcell ck) := by
  rw [Kof_kcell]; unfold records
  iintro ⟨HI, -⟩
  iapply (inv_at0 m K ck)
  iexact HI
theorem inv_send (K : Dev nD × Fin 15 → ℕ) (c : Dev nD) (k : Fin 7) :
    records m K ⊢ cellInv ER (Rd m) (Kof K (sendCell c k)) (sendCell c k) := by rw [send_kcell]; exact inv_at m K (c, sIdx k)
theorem inv_recv (K : Dev nD × Fin 15 → ℕ) (c : Dev nD) (k : Fin 7) :
    records m K ⊢ cellInv ER (Rd m) (Kof K (recvCell c k)) (recvCell c k) := by rw [recv_kcell]; exact inv_at m K (c, rIdx k)

theorem reached_at (K : Dev nD × Fin 15 → ℕ) (ck : Dev nD × Fin 15) : records m K ⊢ reached ER (kcell ck) 0 := by
  unfold records
  iintro ⟨-, HR⟩
  iapply (reached_at0 (F := F) ck)
  iexact HR
theorem reached_send (K : Dev nD × Fin 15 → ℕ) (c : Dev nD) (k : Fin 7) : records m K ⊢ reached ER (sendCell c k) 0 := by
  rw [send_kcell]; exact reached_at m K (c, sIdx k)
theorem reached_recv (K : Dev nD × Fin 15 → ℕ) (c : Dev nD) (k : Fin 7) : records m K ⊢ reached ER (recvCell c k) 0 := by
  rw [recv_kcell]; exact reached_at m K (c, rIdx k)

theorem invs_intro (K : Dev nD × Fin 15 → ℕ) (c : Dev nD) : records m K ⊢ Proto.invs m (Kof K) c := by
  unfold Proto.invs
  iintro #HR
  isplitr; · iapply (inv_at m K (c, 0)); iexact HR
  iapply (bigSep_intro_persistent (R := records m K) (S := Finset.univ) fun (k : Fin 7) _ => show records m K ⊢ _ from by
    iintro #HR
    isplitr; · iapply (inv_send m K c k); iexact HR
    isplitr; · iapply (inv_recv m K c k); iexact HR
    isplitr; · iapply (inv_at m K (dst c k, 0)); iexact HR
    iapply (inv_recv m K (dst c k) k); iexact HR)
  iexact HR

theorem marks_intro (K : Dev nD × Fin 15 → ℕ) (c : Dev nD) : records m K ⊢ marks c := by
  unfold marks
  exact bigSep_intro_persistent (R := records m K) (S := Finset.univ) fun (k : Fin 7) _ => show records m K ⊢ _ from by
    iintro #HR
    isplitr; · iapply (reached_at m K (dst c k, 0)); iexact HR
    isplitr; · iapply (reached_recv m K (dst c k) k); iexact HR
    isplitr; · iapply (reached_send m K c k); iexact HR
    iapply (reached_recv m K c k); iexact HR

theorem ghost_intro (K : Dev nD × Fin 15 → ℕ) (c : Dev nD) : iprop(records m K ∗ linear c) ⊢ G' m c := by
  unfold G' ghost
  iintro ⟨#HR, Hlin⟩
  iexists (Kof K)
  isplitr; · iapply (invs_intro m K c); iexact HR
  isplitr; · iapply (marks_intro m K c); iexact HR
  iexact Hlin

theorem linear_intro (c : Dev nD) :
    iprop((bigSep Finset.univ fun k : Fin 15 => (atPos ER (kcell (c, k)) 0 ∅ 0 : sProp 𝕄)) ∗ payToks c) ⊢ linear c := by
  unfold linear
  rw [bigSep_fin15, bigSep_fin7 (fun k : Fin 7 => iprop(atPos ER (sendCell c k) 0 ∅ 0 ∗ atPos ER (recvCell c k) 0 ∅ 0))]
  iintro ⟨⟨B, S0, S1, S2, S3, S4, S5, S6, V0, V1, V2, V3, V4, V5, V6⟩, HT⟩
  isplitl [B]; · iexact B
  isplitr [HT]
  · isplitl [S0 V0]; · isplitl [S0] <;> iassumption
    isplitl [S1 V1]; · isplitl [S1] <;> iassumption
    isplitl [S2 V2]; · isplitl [S2] <;> iassumption
    isplitl [S3 V3]; · isplitl [S3] <;> iassumption
    isplitl [S4 V4]; · isplitl [S4] <;> iassumption
    isplitl [S5 V5]; · isplitl [S5] <;> iassumption
    isplitl [S6] <;> iassumption
  unfold payToks
  iexact HT

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 15 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (Rd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => linear_intro c))
    isplitl [Hat]; · iexact Hat
    iexact Htk

/-- The global step: the scoped and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit

Device `d` owes, per copy number `k`, one unit to the barrier cell of `dst d k` and the words of a
statistics array to receive cell `k` of `dst d k`; as `d ↦ dst d k` is a permutation, each device is
dealt, per `k`, one unit on its own barrier cell and those words on its own receive cell `k`. -/

theorem launch_step (c : Dev nD) (j j' : ℕ) (hj : j' = j + 1) (h : j < 14) :
    (Pipeline.launchCred (fun d => owedR d j') c : sProp 𝕄)
      = iprop(Pipeline.launchCred (fun d => owedR d j) c
          ∗ Pipeline.launchCred (fun d => tallyAt (payCell d ⟨13 - j, by omega⟩) () (payAmt ⟨13 - j, by omega⟩)) c) := by
  subst hj
  rw [show (fun d : Dev nD => owedR d (j + 1)) = fun d => owedR d j + tallyAt (payCell d ⟨13 - j, by omega⟩) () (payAmt ⟨13 - j, by omega⟩) from
    funext fun d => owedR_succ d j h]
  exact Pipeline.launchCred_add _ _ c

theorem pay_bar (c : Dev nD) (k : Fin 7) (n : ℕ) :
    (Pipeline.launchCred (fun d => tallyAt (barCell (dst d k)) () n) c : sProp 𝕄) ⊢ cred (tallyAt (barCell c) () n) :=
  Pipeline.launchCred_tallyAt (.reg barS) (fun d => dst d k) (fun d => src d k) (fun c => Cert.Math.dst_src c k) (fun d => Cert.Math.src_dst d k) () n c

theorem pay_recv (c : Dev nD) (k : Fin 7) (n : ℕ) :
    (Pipeline.launchCred (fun d => tallyAt (recvCell (dst d k) k) () n) c : sProp 𝕄) ⊢ cred (tallyAt (recvCell c k) () n) :=
  Pipeline.launchCred_tallyAt (.dma (recvS k)) (fun d => dst d k) (fun d => src d k) (fun c => Cert.Math.dst_src c k) (fun d => Cert.Math.src_dst d k) () n c

/-- What the launch deals for the devices' payment number `i`. -/
abbrev payDue (c : Dev nD) (i : Fin 14) : sProp 𝕄 :=
  Pipeline.launchCred (fun d => tallyAt (payCell d i) () (payAmt i)) c

theorem due_bar (c : Dev nD) (k : Fin 7) (i : Fin 14) (hi : i.val = k.val) :
    (payDue c i : sProp 𝕄) ⊢ cred (tallyAt (barCell c) () 1) := by
  obtain ⟨iv, hlt⟩ := i
  have : iv = k.val := hi
  subst this
  fin_cases k
  · exact pay_bar c 0 1
  · exact pay_bar c 1 1
  · exact pay_bar c 2 1
  · exact pay_bar c 3 1
  · exact pay_bar c 4 1
  · exact pay_bar c 5 1
  · exact pay_bar c 6 1

theorem due_recv (c : Dev nD) (k : Fin 7) (i : Fin 14) (hi : i.val = k.val + 7) :
    (payDue c i : sProp 𝕄) ⊢ cred (tallyAt (recvCell c k) () N) := by
  obtain ⟨iv, hlt⟩ := i
  have : iv = k.val + 7 := hi
  subst this
  fin_cases k
  · exact pay_recv c 0 N
  · exact pay_recv c 1 N
  · exact pay_recv c 2 N
  · exact pay_recv c 3 N
  · exact pay_recv c 4 N
  · exact pay_recv c 5 N
  · exact pay_recv c 6 N

omit [FloatOps F] in
theorem cred_seven (g : GSem nD τ sig) :
    iprop(cred (tallyAt g () 1) ∗ cred (tallyAt g () 1) ∗ cred (tallyAt g () 1) ∗ cred (tallyAt g () 1) ∗ cred (tallyAt g () 1)
        ∗ cred (tallyAt g () 1) ∗ cred (tallyAt g () 1)) ⊢ (cred (tallyAt g () 7) : sProp 𝕄) := by
  have e : (tallyAt g () 7 : CellTallies nD τ sig Unit)
      = tallyAt g () 1 + (tallyAt g () 1 + (tallyAt g () 1 + (tallyAt g () 1 + (tallyAt g () 1 + (tallyAt g () 1 + tallyAt g () 1))))) := by
    simp only [tallyAt_add]
  rw [e]
  iintro ⟨H0, H1, H2, H3, H4, H5, H6⟩
  iapply (cred_add _ _).2; isplitl [H0]; · iexact H0
  iapply (cred_add _ _).2; isplitl [H1]; · iexact H1
  iapply (cred_add _ _).2; isplitl [H2]; · iexact H2
  iapply (cred_add _ _).2; isplitl [H3]; · iexact H3
  iapply (cred_add _ _).2; isplitl [H4]; · iexact H4
  iapply (cred_add _ _).2; isplitl [H5]; · iexact H5
  iexact H6

theorem creds (c : Dev nD) :
    (Pipeline.launchCred O₀ c : sProp 𝕄)
      ⊢ iprop(cred (tallyAt (barCell c) () 7) ∗ bigSep Finset.univ fun k : Fin 7 => cred (tallyAt (recvCell c k) () N)) := by
  unfold O₀
  rw [launch_step c 13 14 rfl (by omega), launch_step c 12 13 rfl (by omega), launch_step c 11 12 rfl (by omega),
    launch_step c 10 11 rfl (by omega), launch_step c 9 10 rfl (by omega), launch_step c 8 9 rfl (by omega),
    launch_step c 7 8 rfl (by omega), launch_step c 6 7 rfl (by omega), launch_step c 5 6 rfl (by omega),
    launch_step c 4 5 rfl (by omega), launch_step c 3 4 rfl (by omega), launch_step c 2 3 rfl (by omega),
    launch_step c 1 2 rfl (by omega), launch_step c 0 1 rfl (by omega), bigSep_fin7]
  iintro ⟨⟨⟨⟨⟨⟨⟨⟨⟨⟨⟨⟨⟨⟨-, P13⟩, P12⟩, P11⟩, P10⟩, P9⟩, P8⟩, P7⟩, P6⟩, P5⟩, P4⟩, P3⟩, P2⟩, P1⟩, P0⟩
  ihave B0 := (due_bar (F := F) c 0 ⟨13 - 13, _⟩ rfl) $$ P0
  ihave B1 := (due_bar (F := F) c 1 ⟨13 - 12, _⟩ rfl) $$ P1
  ihave B2 := (due_bar (F := F) c 2 ⟨13 - 11, _⟩ rfl) $$ P2
  ihave B3 := (due_bar (F := F) c 3 ⟨13 - 10, _⟩ rfl) $$ P3
  ihave B4 := (due_bar (F := F) c 4 ⟨13 - 9, _⟩ rfl) $$ P4
  ihave B5 := (due_bar (F := F) c 5 ⟨13 - 8, _⟩ rfl) $$ P5
  ihave B6 := (due_bar (F := F) c 6 ⟨13 - 7, _⟩ rfl) $$ P6
  ihave R0 := (due_recv (F := F) c 0 ⟨13 - 6, _⟩ rfl) $$ P7
  ihave R1 := (due_recv (F := F) c 1 ⟨13 - 5, _⟩ rfl) $$ P8
  ihave R2 := (due_recv (F := F) c 2 ⟨13 - 4, _⟩ rfl) $$ P9
  ihave R3 := (due_recv (F := F) c 3 ⟨13 - 3, _⟩ rfl) $$ P10
  ihave R4 := (due_recv (F := F) c 4 ⟨13 - 2, _⟩ rfl) $$ P11
  ihave R5 := (due_recv (F := F) c 5 ⟨13 - 1, _⟩ rfl) $$ P12
  ihave R6 := (due_recv (F := F) c 6 ⟨13 - 0, _⟩ rfl) $$ P13
  isplitl [B0 B1 B2 B3 B4 B5 B6]
  · iapply (cred_seven (F := F) (barCell c))
    isplitl [B0]; · iexact B0
    isplitl [B1]; · iexact B1
    isplitl [B2]; · iexact B2
    isplitl [B3]; · iexact B3
    isplitl [B4]; · iexact B4
    isplitl [B5]; · iexact B5
    iexact B6
  isplitl [R0]; · iexact R0
  isplitl [R1]; · iexact R1
  isplitl [R2]; · iexact R2
  isplitl [R3]; · iexact R3
  isplitl [R4]; · iexact R4
  isplitl [R5]; · iexact R5
  iexact R6

/-! ## The side conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  rw [bigSep_fin7]
  iintro ⟨Hr, ⟨S0, V0⟩, ⟨S1, V1⟩, ⟨S2, V2⟩, ⟨S3, V3⟩, ⟨S4, V4⟩, ⟨S5, V5⟩, ⟨S6, V6⟩⟩
  isplitr; · iempintro
  isplitr [Hr]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [V0]; · iexact V0
    isplitl [V1]; · iexact V1
    isplitl [V2]; · iexact V2
    isplitl [V3]; · iexact V3
    isplitl [V4]; · iexact V4
    isplitl [V5]; · iexact V5
    iexact V6
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- From any memory with zero counters, given each device's body: every weakly fair execution of the
    eight kernels terminates, and every final state has each window's array at the computed contents. -/
theorem run_main' (hbody : ∀ c : Dev nD, BodyObligation (dats (F := F) m ρ 0 c) (defs₀ (F := F)) 𝒱₀ () Set.univ) :
    θ_run defs (onTc (τ := τ) (main (F := F))) ⟨m, fun _ => 0, ρ⟩ (fun r =>
      ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays

The input windows' arrays are never written; the output window's one block is the whole array, and
after the one grid point it holds what the body left. -/

theorem final_in (c : Dev nD) (w : Fin cfg0.W) (hin : (cfg0.win w).isOut = false) :
    (dats m ρ 0 c).arrAt w cfg0.N = m ((cfg0.win w).arr.view.loc (c : Thread nD τ)) :=
  (dats (F := F) m ρ 0 c).arrAt_in w hin _

theorem final_out (c : Dev nD) : (dats m ρ 0 c).arrAt (4 : Fin 5) cfg0.N = outAt m c := by
  have h1 := (dats (F := F) m ρ 0 c).arrAt_succ (4 : Fin 5) t₀
  rw [if_pos (by decide)] at h1
  refine (show _ = (dats m ρ 0 c).arrAt (4 : Fin 5) (t₀.val + 1) from rfl).trans (h1.trans ?_)
  exact Memref.write_access_unit_zero_univ (Elt F) main_v1 (funext fun a => Nat.zero_mul _) _ _ _

/-- From any memory with zero counters, given each device's body: every weakly fair execution of the
    eight kernels terminates, and every final state has each device's result block at the computed
    contents and its four argument blocks unchanged. -/
theorem run_main (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c (4 : Fin 5)).trans (final_out m ρ c),
      (h c (0 : Fin 5)).trans (final_in m ρ c (0 : Fin 5) rfl),
      (h c (1 : Fin 5)).trans (final_in m ρ c (1 : Fin 5) rfl),
      (h c (2 : Fin 5)).trans (final_in m ρ c (2 : Fin 5) rfl),
      (h c (3 : Fin 5)).trans (final_in m ρ c (3 : Fin 5) rfl)⟩) (run_main' m ρ hbody)

/-- info: 'Cert.KernelIdeal.Launch.run_main' depends on axioms: [propext, Classical.choice, Quot.sound] -/
#guard_msgs in #print axioms run_main

end Cert.KernelIdeal.Launch

end
-- ==== Proof.KbSpec.lean ====
/- What the kernel computes, as pure terms of the argument arrays of all eight devices.
   Each device reduces its block of x along the last axis (row sums and row sums of squares: a
   2x4x512 array of partial statistics), the devices exchange these, and each device adds the
   seven arrays it receives to its own, normalises its block with the totals, and applies its
   block of the scale and shift projections. -/
import proofs.«900772_g7700000000000773_dist_diff_adaln_cshard_i_b4_s512_c256_v7x_i8_f32_1_alg».proof.Proof.Gen.Kernel.Skeleton
import proofs.«900772_g7700000000000773_dist_diff_adaln_cshard_i_b4_s512_c256_v7x_i8_f32_1_alg».proof.Proof.Math
import Idealize.ShloMosaic.Lib.ValueIdx

noncomputable section

namespace Cert.Kernel.Spec

open Idealize.ShloMosaic Idealize.SL.Sem Cert.Kernel Cert.Kernel.Gen

variable {F : FTy → Type} [FloatOps F]

/-- The device whose statistics land in slot `k` of device `c`, and the one `c`'s `k`-th copy goes to. -/
abbrev src (c : Dev nD) (k : Fin 7) : Dev nD := Cert.Math.src c k
abbrev dst (c : Dev nD) (k : Fin 7) : Dev nD := Cert.Math.dst c k

/-- The statistics array of a block: plane 0 its row sums, plane 1 the row sums of its squares. -/
def statsVec (x : Vec F S4x512x256 .f32) : Vec F S2x4x512 .f32 := fun i =>
  if (i 0).val = 0 then k0_pay3 x (ValueIdx.ix3 (n0 := 1) (n1 := 4) (n2 := 512) 0 (i 1) (i 2))
  else k0_pay4 x (ValueIdx.ix3 (n0 := 1) (n1 := 4) (n2 := 512) 0 (i 1) (i 2))

/-- A statistics array as the one-slot vector a load of a receive slot returns. -/
def slotVec (s : Vec F S2x4x512 .f32) : Vec F S1x2x4x512 .f32 := fun i =>
  s (ValueIdx.ix3 (n0 := 2) (n1 := 4) (n2 := 512) (i 1) (i 2) (i 3))

/-- The totals: the device's own statistics, then the seven slots added in slot order. -/
def totalVec (s0 : Vec F S2x4x512 .f32) (sl : Fin 7 → Vec F S1x2x4x512 .f32) : FVec F S2x4x512 .f32 :=
  k0_pay10 (k0_pay9 (k0_pay8 (k0_pay7 s0 (sl 0)) (sl 1) (sl 2)) (sl 3) (sl 4) (sl 5)) (sl 6)

/-- The result block from the device's four blocks and the totals. -/
def outVec (x : Vec F S4x512x256 .f32) (t : Vec F S4x128 .f32) (ws wsh : Vec F S128x256 .f32)
    (tot : FVec F S2x4x512 .f32) : FVec F S4x512x256 .f32 :=
  k0_pay1 (k0_pay6 t wsh) (k0_pay11 (k0_pay2 x) tot) (k0_pay12 (k0_pay5 t ws))

variable (m : (ℓ : Loc nD τ sig) → Buf (Elt F) ℓ)

/-- Device `c`'s argument blocks as launched. -/
def xOf (c : Dev nD) : Vec F S4x512x256 .f32 := m ((c.tc : Thread nD τ).loc main_arg0)
def tOf (c : Dev nD) : Vec F S4x128 .f32 := m ((c.tc : Thread nD τ).loc main_arg1)
def wsOf (c : Dev nD) : Vec F S128x256 .f32 := m ((c.tc : Thread nD τ).loc main_arg2)
def wshOf (c : Dev nD) : Vec F S128x256 .f32 := m ((c.tc : Thread nD τ).loc main_arg3)

/-- Device `c`'s statistics, and what lands in its slot `k`. -/
def statsOf (c : Dev nD) : Vec F S2x4x512 .f32 := statsVec (xOf m c)
def slotOf (c : Dev nD) (k : Fin 7) : Vec F S1x2x4x512 .f32 := slotVec (statsOf m (src c k))

/-- Device `c`'s result block. -/
def outAt (c : Dev nD) : Vec F S4x512x256 .f32 :=
  outVec (xOf m c) (tOf m c) (wsOf m c) (wshOf m c) (totalVec (statsOf m c) (slotOf m c))

end Cert.Kernel.Spec

end
-- ==== Proof.KbMem.lean ====
/- The memory the exchange runs on: each device's statistics scratch (the source of its seven
   copies), its receive buffer of seven slots (slot k written by the device k+1 steps behind it
   on the ring), the barrier semaphore and the seven send and seven receive semaphores; the cells
   the protocol counts on, and the points-to assertions the protocol hands around. -/
import proofs.«900772_g7700000000000773_dist_diff_adaln_cshard_i_b4_s512_c256_v7x_i8_f32_1_alg».proof.Proof.Gen.Kernel
import proofs.«900772_g7700000000000773_dist_diff_adaln_cshard_i_b4_s512_c256_v7x_i8_f32_1_alg».proof.Proof.Gen.Kernel.Skeleton
import proofs.«900772_g7700000000000773_dist_diff_adaln_cshard_i_b4_s512_c256_v7x_i8_f32_1_alg».proof.Proof.Gen.Kernel.Launch
import proofs.«900772_g7700000000000773_dist_diff_adaln_cshard_i_b4_s512_c256_v7x_i8_f32_1_alg».proof.Proof.KbSpec
import Idealize.ShloMosaic.Lib.Pipeline.Launch
import Idealize.ShloMosaic.Lib.Pipeline.Kit
import Idealize.ShloMosaic.Lib.Tactic

noncomputable section

namespace Cert.Kernel.Mem

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two resource algebras side by side: the pipeline's own, and the exchange's rounds with
    duties named by a slot number. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev xM : Memref sig .tc .vmem S4x512x256 .f32 := Memref.whole cc0_stg0_0
abbrev tM : Memref sig .tc .vmem S4x128 .f32 := Memref.whole cc0_stg1_0
abbrev wsM : Memref sig .tc .vmem S128x256 .f32 := Memref.whole cc0_stg2_0
abbrev wshM : Memref sig .tc .vmem S128x256 .f32 := Memref.whole cc0_stg3_0
abbrev oM : Memref sig .tc .vmem S4x512x256 .f32 := Memref.whole cc0_stg4_0
/-- The statistics scratch and the receive buffer. -/
abbrev statsM : Memref sig .tc .vmem S2x4x512 .f32 := Memref.whole cc0_scratch0
abbrev commM : Memref sig .tc .vmem S7x2x4x512 .f32 := Memref.whole cc0_scratch1

/-- Slot `k` of the receive buffer as a 2x4x512 view: the destination of the `k`-th copy. -/
abbrev slotM : Fin 7 → Memref sig .tc .vmem S2x4x512 .f32
  | ⟨0, _⟩ => ((commM.slice (Rect.unit (s := S7x2x4x512) ![0, 0, 0, 0] S1x2x4x512.size Facts₀.inb_S7x2x4x512_S1x2x4x512_0_0_0_0) (fun _ => rfl)).squeeze S2x4x512 Facts₀.squeezes_S1x2x4x512_S2x4x512)
  | ⟨1, _⟩ => ((commM.slice (Rect.unit (s := S7x2x4x512) ![1, 0, 0, 0] S1x2x4x512.size Facts₀.inb_S7x2x4x512_S1x2x4x512_1_0_0_0) (fun _ => rfl)).squeeze S2x4x512 Facts₀.squeezes_S1x2x4x512_S2x4x512)
  | ⟨2, _⟩ => ((commM.slice (Rect.unit (s := S7x2x4x512) ![2, 0, 0, 0] S1x2x4x512.size Facts₀.inb_S7x2x4x512_S1x2x4x512_2_0_0_0) (fun _ => rfl)).squeeze S2x4x512 Facts₀.squeezes_S1x2x4x512_S2x4x512)
  | ⟨3, _⟩ => ((commM.slice (Rect.unit (s := S7x2x4x512) ![3, 0, 0, 0] S1x2x4x512.size Facts₀.inb_S7x2x4x512_S1x2x4x512_3_0_0_0) (fun _ => rfl)).squeeze S2x4x512 Facts₀.squeezes_S1x2x4x512_S2x4x512)
  | ⟨4, _⟩ => ((commM.slice (Rect.unit (s := S7x2x4x512) ![4, 0, 0, 0] S1x2x4x512.size Facts₀.inb_S7x2x4x512_S1x2x4x512_4_0_0_0) (fun _ => rfl)).squeeze S2x4x512 Facts₀.squeezes_S1x2x4x512_S2x4x512)
  | ⟨5, _⟩ => ((commM.slice (Rect.unit (s := S7x2x4x512) ![5, 0, 0, 0] S1x2x4x512.size Facts₀.inb_S7x2x4x512_S1x2x4x512_5_0_0_0) (fun _ => rfl)).squeeze S2x4x512 Facts₀.squeezes_S1x2x4x512_S2x4x512)
  | ⟨6, _⟩ => ((commM.slice (Rect.unit (s := S7x2x4x512) ![6, 0, 0, 0] S1x2x4x512.size Facts₀.inb_S7x2x4x512_S1x2x4x512_6_0_0_0) (fun _ => rfl)).squeeze S2x4x512 Facts₀.squeezes_S1x2x4x512_S2x4x512)

/-- The rectangle a load of slot `k` goes through. -/
abbrev slotRect : Fin 7 → Rect S7x2x4x512
  | ⟨0, _⟩ => Rect.unit (s := S7x2x4x512) ![0, 0, 0, 0] S1x2x4x512.size Facts₀.inb_S7x2x4x512_S1x2x4x512_0_0_0_0
  | ⟨1, _⟩ => Rect.unit (s := S7x2x4x512) ![1, 0, 0, 0] S1x2x4x512.size Facts₀.inb_S7x2x4x512_S1x2x4x512_1_0_0_0
  | ⟨2, _⟩ => Rect.unit (s := S7x2x4x512) ![2, 0, 0, 0] S1x2x4x512.size Facts₀.inb_S7x2x4x512_S1x2x4x512_2_0_0_0
  | ⟨3, _⟩ => Rect.unit (s := S7x2x4x512) ![3, 0, 0, 0] S1x2x4x512.size Facts₀.inb_S7x2x4x512_S1x2x4x512_3_0_0_0
  | ⟨4, _⟩ => Rect.unit (s := S7x2x4x512) ![4, 0, 0, 0] S1x2x4x512.size Facts₀.inb_S7x2x4x512_S1x2x4x512_4_0_0_0
  | ⟨5, _⟩ => Rect.unit (s := S7x2x4x512) ![5, 0, 0, 0] S1x2x4x512.size Facts₀.inb_S7x2x4x512_S1x2x4x512_5_0_0_0
  | ⟨6, _⟩ => Rect.unit (s := S7x2x4x512) ![6, 0, 0, 0] S1x2x4x512.size Facts₀.inb_S7x2x4x512_S1x2x4x512_6_0_0_0

/-! ## The semaphores and the cells -/

/-- The runtime's barrier semaphore of collective id 0 (not scoped to the launch). -/
abbrev barS : Sem sig := (SemArray.scalar (sig.barrier 0 rfl) : Sems sig S_).sem
/-- The `k`-th send and receive DMA semaphores (scoped scratch). -/
abbrev sendS : Fin 7 → DmaSem sig
  | ⟨0, _⟩ => ((cc0_scratch2.slice (Rect.unit (s := S7) ![0] S1.size Facts₀.inb_S7_S1_0)).squeeze S_ Facts₀.squeezes_S1_S_).sem
  | ⟨1, _⟩ => ((cc0_scratch2.slice (Rect.unit (s := S7) ![1] S1.size Facts₀.inb_S7_S1_1)).squeeze S_ Facts₀.squeezes_S1_S_).sem
  | ⟨2, _⟩ => ((cc0_scratch2.slice (Rect.unit (s := S7) ![2] S1.size Facts₀.inb_S7_S1_2)).squeeze S_ Facts₀.squeezes_S1_S_).sem
  | ⟨3, _⟩ => ((cc0_scratch2.slice (Rect.unit (s := S7) ![3] S1.size Facts₀.inb_S7_S1_3)).squeeze S_ Facts₀.squeezes_S1_S_).sem
  | ⟨4, _⟩ => ((cc0_scratch2.slice (Rect.unit (s := S7) ![4] S1.size Facts₀.inb_S7_S1_4)).squeeze S_ Facts₀.squeezes_S1_S_).sem
  | ⟨5, _⟩ => ((cc0_scratch2.slice (Rect.unit (s := S7) ![5] S1.size Facts₀.inb_S7_S1_5)).squeeze S_ Facts₀.squeezes_S1_S_).sem
  | ⟨6, _⟩ => ((cc0_scratch2.slice (Rect.unit (s := S7) ![6] S1.size Facts₀.inb_S7_S1_6)).squeeze S_ Facts₀.squeezes_S1_S_).sem
abbrev recvS : Fin 7 → DmaSem sig
  | ⟨0, _⟩ => ((cc0_scratch3.slice (Rect.unit (s := S7) ![0] S1.size Facts₀.inb_S7_S1_0)).squeeze S_ Facts₀.squeezes_S1_S_).sem
  | ⟨1, _⟩ => ((cc0_scratch3.slice (Rect.unit (s := S7) ![1] S1.size Facts₀.inb_S7_S1_1)).squeeze S_ Facts₀.squeezes_S1_S_).sem
  | ⟨2, _⟩ => ((cc0_scratch3.slice (Rect.unit (s := S7) ![2] S1.size Facts₀.inb_S7_S1_2)).squeeze S_ Facts₀.squeezes_S1_S_).sem
  | ⟨3, _⟩ => ((cc0_scratch3.slice (Rect.unit (s := S7) ![3] S1.size Facts₀.inb_S7_S1_3)).squeeze S_ Facts₀.squeezes_S1_S_).sem
  | ⟨4, _⟩ => ((cc0_scratch3.slice (Rect.unit (s := S7) ![4] S1.size Facts₀.inb_S7_S1_4)).squeeze S_ Facts₀.squeezes_S1_S_).sem
  | ⟨5, _⟩ => ((cc0_scratch3.slice (Rect.unit (s := S7) ![5] S1.size Facts₀.inb_S7_S1_5)).squeeze S_ Facts₀.squeezes_S1_S_).sem
  | ⟨6, _⟩ => ((cc0_scratch3.slice (Rect.unit (s := S7) ![6] S1.size Facts₀.inb_S7_S1_6)).squeeze S_ Facts₀.squeezes_S1_S_).sem

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- A copy's credit: the words of a statistics array. -/
abbrev N : ℕ := (statsM : Memref sig .tc .vmem S2x4x512 .f32).view.dmaCredit
theorem N_pos : 0 < N := View.dmaCredit_pos _ (by decide)

/-! ## Shares of the statistics scratch

The seven copies read one source at once while the device itself loads it: each copy takes one
share, the device keeps the eighth. -/

/-- The share the `k`-th copy holds of the source, and the one the device keeps: the tree of halves
    `L`, `RL`, `RRL`, …, `R⁷`. -/
def restShr : ℕ → PosShare TreeShare
  | 0 => fullShare
  | n + 1 => (restShr n).right
def cpShr (k : Fin 7) : PosShare TreeShare := (restShr k.val).left
def keepShr : PosShare TreeShare := restShr 7

/-! ## The points-to assertions handed around -/

variable (m : (ℓ : Loc nD τ sig) → Buf (Elt F) ℓ)

/-- Device `c`'s statistics scratch at share `q`, holding `f`. -/
def statsPts (c : Dev nD) (q : PosShare TreeShare) (f : Buf (Elt F) ((statsM : Memref sig .tc .vmem S2x4x512 .f32).view.loc (c : Thread nD τ))) : sProp 𝕄 :=
  (statsM : Memref sig .tc .vmem S2x4x512 .f32).view.loc (c : Thread nD τ) ↦[(statsM : Memref sig .tc .vmem S2x4x512 .f32).view.set]{q} f
/-- Slot `k` of device `c`'s receive buffer, whole share, the buffer's contents `f` (only the slot's entries matter). -/
def slotPts (c : Dev nD) : (k : Fin 7) → Buf (Elt F) ((c : Thread nD τ).loc cc0_scratch1) → sProp 𝕄
  | ⟨0, _⟩, f => (slotM 0).view.loc (c : Thread nD τ) ↦[(slotM 0).view.set]{fullShare} f
  | ⟨1, _⟩, f => (slotM 1).view.loc (c : Thread nD τ) ↦[(slotM 1).view.set]{fullShare} f
  | ⟨2, _⟩, f => (slotM 2).view.loc (c : Thread nD τ) ↦[(slotM 2).view.set]{fullShare} f
  | ⟨3, _⟩, f => (slotM 3).view.loc (c : Thread nD τ) ↦[(slotM 3).view.set]{fullShare} f
  | ⟨4, _⟩, f => (slotM 4).view.loc (c : Thread nD τ) ↦[(slotM 4).view.set]{fullShare} f
  | ⟨5, _⟩, f => (slotM 5).view.loc (c : Thread nD τ) ↦[(slotM 5).view.set]{fullShare} f
  | ⟨6, _⟩, f => (slotM 6).view.loc (c : Thread nD τ) ↦[(slotM 6).view.set]{fullShare} f

/-- The receive buffer's contents once every slot has landed: entry `(k, p, b, s)` is entry `(p, b, s)` of the
    statistics of the device `k+1` steps behind. -/
def landed (c : Dev nD) : Buf (Elt F) ((c : Thread nD τ).loc cc0_scratch1) :=
  fun i => statsOf m (src c (i 0)) (ValueIdx.ix3 (n0 := 2) (n1 := 4) (n2 := 512) (i 1) (i 2) (i 3))

end Cert.Kernel.Mem

end
-- ==== Proof.KbProto.lean ====
/- The exchange's protocol under the rounds discipline, one round per cell.
   Device c's barrier cell has seven duties, duty e paid by the device c sends its e-th copy to
   (dst c e) with ONE unit, its payload that device's receive slot e: the slot c's e-th copy will
   write.  Receive cell e of device c has one duty, paid by the e-th copy of the device e+1 steps
   behind it, its payload slot e holding that device's statistics.  Send cell e of device c has
   one duty, paid by c's own e-th copy, its payload the share of the statistics scratch the copy
   read through.  A device signals all seven peers, waits for its seven units, then copies: so a
   copy lands only in a slot whose owner has entered the kernel and handed the slot over. -/
import proofs.«900772_g7700000000000773_dist_diff_adaln_cshard_i_b4_s512_c256_v7x_i8_f32_1_alg».proof.Proof.KbMem

noncomputable section

namespace Cert.Kernel.Proto

open Cert.Kernel Cert.Kernel.Gen Cert.Kernel.Spec Cert.Kernel.Mem
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring -/

/-- The slot a device's `k`-th signal hands over: its signal goes to `dst c k`, which writes the signaller's slot `rev k`. -/
abbrev rev (k : Fin 7) : Fin 7 := ⟨6 - k.val, by omega⟩

theorem dst_dst_rev (c : Dev nD) (k : Fin 7) : dst (dst c k) (rev k) = c := by revert c k; decide
theorem rev_rev (k : Fin 7) : rev (rev k) = k := by revert k; decide
theorem src_eq (c : Dev nD) (k : Fin 7) : src c k = dst c (rev k) := by revert c k; decide

/-- The kernel's `device_id` chains: the `k`-th signal and the `k`-th copy both name `dst c k`. -/
theorem dev1_eq (c : Dev nD) : (⟨k0_dev1 c, k0_dev1_lt c⟩ : Dev nD) = dst c 0 := Fin.ext (k0_dev1_eq c)
theorem dev2_eq (c : Dev nD) : (⟨k0_dev2 c, k0_dev2_lt c⟩ : Dev nD) = dst c 1 := Fin.ext (k0_dev2_eq c)
theorem dev3_eq (c : Dev nD) : (⟨k0_dev3 c, k0_dev3_lt c⟩ : Dev nD) = dst c 2 := Fin.ext (k0_dev3_eq c)
theorem dev4_eq (c : Dev nD) : (⟨k0_dev4 c, k0_dev4_lt c⟩ : Dev nD) = dst c 3 := Fin.ext (k0_dev4_eq c)
theorem dev5_eq (c : Dev nD) : (⟨k0_dev5 c, k0_dev5_lt c⟩ : Dev nD) = dst c 4 := Fin.ext (k0_dev5_eq c)
theorem dev6_eq (c : Dev nD) : (⟨k0_dev6 c, k0_dev6_lt c⟩ : Dev nD) = dst c 5 := Fin.ext (k0_dev6_eq c)
theorem dev7_eq (c : Dev nD) : (⟨k0_dev7 c, k0_dev7_lt c⟩ : Dev nD) = dst c 6 := Fin.ext (k0_dev7_eq c)
theorem dev8_eq (c : Dev nD) : (⟨k0_dev8 c, k0_dev8_lt c⟩ : Dev nD) = dst c 0 := Fin.ext (k0_dev8_eq c)
theorem dev9_eq (c : Dev nD) : (⟨k0_dev9 c, k0_dev9_lt c⟩ : Dev nD) = dst c 1 := Fin.ext (k0_dev9_eq c)
theorem dev10_eq (c : Dev nD) : (⟨k0_dev10 c, k0_dev10_lt c⟩ : Dev nD) = dst c 2 := Fin.ext (k0_dev10_eq c)
theorem dev11_eq (c : Dev nD) : (⟨k0_dev11 c, k0_dev11_lt c⟩ : Dev nD) = dst c 3 := Fin.ext (k0_dev11_eq c)
theorem dev12_eq (c : Dev nD) : (⟨k0_dev12 c, k0_dev12_lt c⟩ : Dev nD) = dst c 4 := Fin.ext (k0_dev12_eq c)
theorem dev13_eq (c : Dev nD) : (⟨k0_dev13 c, k0_dev13_lt c⟩ : Dev nD) = dst c 5 := Fin.ext (k0_dev13_eq c)
theorem dev14_eq (c : Dev nD) : (⟨k0_dev14 c, k0_dev14_lt c⟩ : Dev nD) = dst c 6 := Fin.ext (k0_dev14_eq c)

/-! ## The schedule -/

/-- Which send (receive) semaphore a semaphore is, if any. -/
def sendK (sl : SemLoc sig) : Option (Fin 7) := (List.finRange 7).find? fun k => decide (sl = .dma (sendS k))
def recvK (sl : SemLoc sig) : Option (Fin 7) := (List.finRange 7).find? fun k => decide (sl = .dma (recvS k))

theorem sendK_send (k : Fin 7) : sendK (.dma (sendS k)) = some k := by revert k; decide
theorem recvK_recv (k : Fin 7) : recvK (.dma (recvS k)) = some k := by revert k; decide
theorem recvK_send (k : Fin 7) : recvK (.dma (sendS k)) = none := by revert k; decide
theorem sendK_recv (k : Fin 7) : sendK (.dma (recvS k)) = none := by revert k; decide
theorem recvK_bar : recvK (.reg barS) = none := by decide
theorem sendK_bar : sendK (.reg barS) = none := by decide

/-- What the units of a duty hand the cell's owner. -/
def barPay (c : Dev nD) (e : Fin 7) : sProp 𝕄 := iprop(∃ f, slotPts (dst c e) e f)
def recvPay (c : Dev nD) (e : Fin 7) : sProp 𝕄 := slotPts c e (landed m c)
def sendPay (c : Dev nD) (e : Fin 7) : sProp 𝕄 := statsPts c (cpShr e) (statsOf m c)

abbrev IsBar (g : GSem nD τ sig) : Prop := g.1.2 = .tc ∧ g.2 = .reg barS
abbrev IsXfer (g : GSem nD τ sig) : Prop := g.1.2 = .tc ∧ ((sendK g.2).isSome ∨ (recvK g.2).isSome)

/-- One round, round 0: a barrier cell has seven duties of one unit; a send or receive cell the one duty `0` of a
    statistics array's credit. -/
def Rd : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay (F := F) g.1.1 d
    else match recvK g.2 with
      | some k => recvPay m g.1.1 k
      | none => match sendK g.2 with
        | some k => sendPay m g.1.1 k
        | none => iprop(emp)
  amount_pos g _ _ _ := by
    by_cases h : g.2 = .reg barS
    · rw [if_pos h]; exact Nat.one_pos
    · rw [if_neg h]; exact N_pos

/-! ## What each device owes at launch; the levels -/

/-- The fourteen payments a device makes, in program order: seven signals, then seven copies' receive credits. -/
def payCell (c : Dev nD) : Fin 14 → GSem nD τ sig
  | ⟨0, _⟩ => barCell (dst c 0) | ⟨1, _⟩ => barCell (dst c 1) | ⟨2, _⟩ => barCell (dst c 2) | ⟨3, _⟩ => barCell (dst c 3)
  | ⟨4, _⟩ => barCell (dst c 4) | ⟨5, _⟩ => barCell (dst c 5) | ⟨6, _⟩ => barCell (dst c 6)
  | ⟨7, _⟩ => recvCell (dst c 0) 0 | ⟨8, _⟩ => recvCell (dst c 1) 1 | ⟨9, _⟩ => recvCell (dst c 2) 2 | ⟨10, _⟩ => recvCell (dst c 3) 3
  | ⟨11, _⟩ => recvCell (dst c 4) 4 | ⟨12, _⟩ => recvCell (dst c 5) 5 | ⟨13, _⟩ => recvCell (dst c 6) 6
def payAmt (i : Fin 14) : ℕ := if i.val < 7 then 1 else N

/-- What is still owed when `j` payments remain (the last `j` of the fourteen): each payment peels the last summand. -/
def owedR (c : Dev nD) : ℕ → CellTallies nD τ sig Unit
  | 0 => 0
  | j + 1 => if h : j < 14 then owedR c j + tallyAt (payCell c ⟨13 - j, by omega⟩) () (payAmt ⟨13 - j, by omega⟩) else owedR c j
def O₀ (c : Dev nD) : CellTallies nD τ sig Unit := owedR c 14

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvK g.2).isSome then 2 else 0

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The input windows' blocks: each window is its whole array. -/
def xstg (c : Dev nD) : (cc0_stg0_0 : Ref sig .tc).ty.Contents (Elt F) :=
  (win0_0.blk (0 : Fin 1)).view.read (Elt F) ((s₀ m ρ).mem ((c : Thread nD τ).loc main_arg0))
def tstg (c : Dev nD) : (cc0_stg1_0 : Ref sig .tc).ty.Contents (Elt F) :=
  (win0_1.blk (0 : Fin 1)).view.read (Elt F) ((s₀ m ρ).mem ((c : Thread nD τ).loc main_arg1))
def wsstg (c : Dev nD) : (cc0_stg2_0 : Ref sig .tc).ty.Contents (Elt F) :=
  (win0_2.blk (0 : Fin 1)).view.read (Elt F) ((s₀ m ρ).mem ((c : Thread nD τ).loc main_arg2))
def wshstg (c : Dev nD) : (cc0_stg3_0 : Ref sig .tc).ty.Contents (Elt F) :=
  (win0_3.blk (0 : Fin 1)).view.read (Elt F) ((s₀ m ρ).mem ((c : Thread nD τ).loc main_arg3))

/-- The cells' invariants device `c`'s body opens, under the names `K` the launch allocated them at: its own fifteen,
    and per copy the peer's barrier cell and the peer's receive cell. -/
def invs (K : GSem nD τ sig → ℕ) (c : Dev nD) : sProp 𝕄 :=
  iprop(cellInv ER (Rd m) (K (barCell c)) (barCell c)
    ∗ bigSep Finset.univ fun k : Fin 7 => iprop(cellInv ER (Rd m) (K (sendCell c k)) (sendCell c k) ∗ cellInv ER (Rd m) (K (recvCell c k)) (recvCell c k)
        ∗ cellInv ER (Rd m) (K (barCell (dst c k))) (barCell (dst c k)) ∗ cellInv ER (Rd m) (K (recvCell (dst c k) k)) (recvCell (dst c k) k)))

/-- The cells a device pays, and its own send and receive cells, have reached round 0. -/
def marks (c : Dev nD) : sProp 𝕄 :=
  bigSep Finset.univ fun k : Fin 7 => iprop(reached ER (barCell (dst c k)) 0 ∗ reached ER (recvCell (dst c k) k) 0 ∗ reached ER (sendCell c k) 0 ∗ reached ER (recvCell c k) 0)

/-- The device's positions at round 0 of its fifteen cells, and the tokens of the duties it pays: per copy `k` the
    barrier duty `rev k` of the peer, the peer's receive duty and its own send duty. -/
def linear (c : Dev nD) : sProp 𝕄 :=
  iprop(atPos ER (barCell c) 0 ∅ 0
    ∗ (bigSep Finset.univ fun k : Fin 7 => iprop(atPos ER (sendCell c k) 0 ∅ 0 ∗ atPos ER (recvCell c k) 0 ∅ 0))
    ∗ bigSep Finset.univ fun k : Fin 7 => iprop(dutyTok ER (barCell (dst c k)) 0 (rev k) ∗ dutyTok ER (recvCell (dst c k) k) 0 0 ∗ dutyTok ER (sendCell c k) 0 0))

def ghost (K : GSem nD τ sig → ℕ) (c : Dev nD) : sProp 𝕄 := iprop(invs m K c ∗ marks c ∗ linear c)

/-- What device `c`'s body starts from: that at some names, the credit of its barrier's seven units and of each
    receive cell, and the level facts. -/
def start (c : Dev nD) : sProp 𝕄 :=
  iprop((∃ K, ghost m K c) ∗ cred (tallyAt (barCell c) () 7) ∗ (bigSep Finset.univ fun k : Fin 7 => cred (tallyAt (recvCell c k) () N)) ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
/-- After the point: both scratch buffers whole again, the fourteen own cells at zero, closed. -/
def Φ₁ (c : Dev nD) : sProp 𝕄 :=
  iprop(scratch c ∗ bigSep Finset.univ fun k : Fin 7 => iprop(semVal (sendCell c k) 0 ∗ semVal (recvCell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => wsstg m ρ c
    | ⟨3, _⟩ => wshstg m ρ c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Proto

end
-- ==== Proof.KbTables.lean ====
/- The exchange's schedule read cell by cell: which duties a barrier, a send and a receive cell have in
   round 0 and that no cell has any later, what each duty contributes and hands over, what a round
   expects in all, and what remains of a round no duty of which has been taken; then the order of the
   cells: every cell a device still owes lies above the cell it waits on. -/
import proofs.«900772_g7700000000000773_dist_diff_adaln_cshard_i_b4_s512_c256_v7x_i8_f32_1_alg».proof.Proof.KbProto

noncomputable section

namespace Cert.Kernel.Proto

open Cert.Kernel Cert.Kernel.Gen Cert.Kernel.Spec Cert.Kernel.Mem
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Seven at a time -/

/-- A separating conjunction over the seven slots, written out. -/
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-! ## The payloads can be kept in an invariant -/

instance statsPts_storable (c : Dev nD) (q : PosShare TreeShare)
    (f : Buf (Elt F) ((statsM : Memref sig .tc .vmem S2x4x512 .f32).view.loc (c : Thread nD τ))) :
    BI.Storable (upEmb : UEmb _ 𝕄) (statsPts c q f) := by
  unfold statsPts; infer_instance

instance slotPts_storable (c : Dev nD) (k : Fin 7) (f : Buf (Elt F) ((c : Thread nD τ).loc cc0_scratch1)) :
    BI.Storable (upEmb : UEmb _ 𝕄) (slotPts c k f) := by
  fin_cases k <;> (unfold slotPts; infer_instance)

instance Rd_payload_storable (g : GSem nD τ sig) (r : ℕ) (d : Fin 7) :
    BI.Storable (upEmb : UEmb _ 𝕄) ((Rd (F := F) m).payload g r d) := by
  show BI.Storable upEmb (if g.2 = .reg barS then barPay (F := F) g.1.1 d
    else match recvK g.2 with
      | some k => recvPay m g.1.1 k
      | none => match sendK g.2 with
        | some k => sendPay m g.1.1 k
        | none => iprop(emp))
  unfold barPay recvPay sendPay
  (repeat' split) <;> infer_instance

/-! ## The table, cell by cell -/

section Sched
variable (c : Dev nD)

/-- A DMA semaphore is not the barrier semaphore. -/
theorem send_ne_bar (k : Fin 7) : (SemLoc.dma (sendS k) : SemLoc sig) ≠ .reg barS := fun h => by cases h
theorem recv_ne_bar (k : Fin 7) : (SemLoc.dma (recvS k) : SemLoc sig) ≠ .reg barS := fun h => by cases h
theorem not_bar_send (k : Fin 7) : ¬ IsBar (sendCell c k) := fun h => send_ne_bar k h.2
theorem not_bar_recv (k : Fin 7) : ¬ IsBar (recvCell c k) := fun h => recv_ne_bar k h.2

theorem duties_bar : (Rd (F := F) m).duties (barCell c) 0 = Finset.univ := by
  dsimp only [Rd]; exact if_pos ⟨rfl, rfl, rfl⟩
theorem duties_send (k : Fin 7) : (Rd (F := F) m).duties (sendCell c k) 0 = {0} := by
  dsimp only [Rd]; rw [if_neg (fun h => not_bar_send c k h.2)]
  exact if_pos ⟨rfl, rfl, .inl ((congrArg Option.isSome (sendK_send k)).trans rfl)⟩
theorem duties_recv (k : Fin 7) : (Rd (F := F) m).duties (recvCell c k) 0 = {0} := by
  dsimp only [Rd]; rw [if_neg (fun h => not_bar_recv c k h.2)]
  exact if_pos ⟨rfl, rfl, .inr ((congrArg Option.isSome (recvK_recv k)).trans rfl)⟩
theorem duties_later (g : GSem nD τ sig) : ∀ r, 1 ≤ r → (Rd (F := F) m).duties g r = ∅ :=
  fun r hr => by dsimp only [Rd]; rw [if_neg fun h => by omega, if_neg fun h => by omega]

theorem amount_bar (d : Fin 7) : (Rd (F := F) m).amount (barCell c) 0 d = 1 := by
  dsimp only [Rd]; exact if_pos rfl
theorem amount_send (k d : Fin 7) : (Rd (F := F) m).amount (sendCell c k) 0 d = N := by
  dsimp only [Rd]; exact if_neg (send_ne_bar k)
theorem amount_recv (k d : Fin 7) : (Rd (F := F) m).amount (recvCell c k) 0 d = N := by
  dsimp only [Rd]; exact if_neg (recv_ne_bar k)

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send (k : Fin 7) : (Rd (F := F) m).expect (sendCell c k) 0 = N := by
  unfold Schedule.expect Schedule.amountOf; rw [duties_send, Finset.sum_singleton, amount_send]
theorem expect_recv (k : Fin 7) : (Rd (F := F) m).expect (recvCell c k) 0 = N := by
  unfold Schedule.expect Schedule.amountOf; rw [duties_recv, Finset.sum_singleton, amount_recv]

theorem payload_bar (e : Fin 7) : (Rd (F := F) m).payload (barCell c) 0 e = barPay c e := by
  dsimp only [Rd]; rw [if_pos rfl]
theorem payload_send (k d : Fin 7) : (Rd (F := F) m).payload (sendCell c k) 0 d = sendPay m c k := by
  dsimp only [Rd]; rw [if_neg (send_ne_bar k), recvK_send, sendK_send]
theorem payload_recv (k d : Fin 7) : (Rd (F := F) m).payload (recvCell c k) 0 d = recvPay m c k := by
  dsimp only [Rd]; rw [if_neg (recv_ne_bar k), recvK_recv]

/-- The rest of the barrier cell's round, no duty taken: the seven slots handed over. -/
theorem rest_bar : bigSep ((Rd (F := F) m).duties (barCell c) 0 \ ∅) (fun d => (Rd (F := F) m).payload (barCell c) 0 d)
    = iprop(barPay c 0 ∗ barPay c 1 ∗ barPay c 2 ∗ barPay c 3 ∗ barPay c 4 ∗ barPay c 5 ∗ barPay c 6) := by
  rw [Finset.sdiff_empty, duties_bar, bigSep_fin7, payload_bar, payload_bar, payload_bar, payload_bar, payload_bar, payload_bar, payload_bar]
theorem rest_send (k : Fin 7) : bigSep ((Rd (F := F) m).duties (sendCell c k) 0 \ ∅) (fun d => (Rd (F := F) m).payload (sendCell c k) 0 d)
    = sendPay m c k := by
  rw [Finset.sdiff_empty, duties_send, bigSep_singleton, payload_send]
theorem rest_recv (k : Fin 7) : bigSep ((Rd (F := F) m).duties (recvCell c k) 0 \ ∅) (fun d => (Rd (F := F) m).payload (recvCell c k) 0 d)
    = recvPay m c k := by
  rw [Finset.sdiff_empty, duties_recv, bigSep_singleton, payload_recv]

end Sched

/-! ## What each device owes; the levels -/

theorem L_of_ne (g : GSem nD τ sig) (h : g.1.2 ≠ .tc) : L g = ∅ := if_neg h
theorem L_tc (c : Dev nD) (sm : SemLoc sig) : L ((c : Thread nD τ), sm) = {()} := if_pos rfl

/-- With one more payment remaining, one more summand is owed: the payment made just before the last `j`. -/
theorem owedR_succ (c : Dev nD) (j : ℕ) (h : j < 14) :
    owedR c (j + 1) = owedR c j + tallyAt (payCell c ⟨13 - j, by omega⟩) () (payAmt ⟨13 - j, by omega⟩) := by
  rw [owedR, dif_pos h]

/-- Past the fourteenth payment nothing more is owed. -/
theorem owedR_succ_of_ge (c : Dev nD) (j : ℕ) (h : ¬ j < 14) : owedR c (j + 1) = owedR c j := by
  rw [owedR, dif_neg h]

/-- Whatever is owed with `j` payments remaining is owed to one of the last `j` cells paid. -/
theorem owedR_pos {c : Dev nD} {j : ℕ} {g : GSem nD τ sig} {u : Unit} (h : 0 < owedR c j g u) :
    ∃ i : Fin 14, 14 - j ≤ i.val ∧ g = payCell c i := by
  induction j with
  | zero => exact absurd h (Nat.lt_irrefl 0)
  | succ j ih =>
    by_cases hj : j < 14
    · rw [owedR_succ c j hj, Pi.add_apply, Finsupp.add_apply, tallyAt_apply] at h
      by_cases hg : g = payCell c ⟨13 - j, by omega⟩ ∧ u = ()
      · exact ⟨⟨13 - j, by omega⟩, by simp only; omega, hg.1⟩
      · rw [if_neg hg, Nat.add_zero] at h
        obtain ⟨i, hi, he⟩ := ih h
        exact ⟨i, by omega, he⟩
    · rw [owedR_succ_of_ge c j hj] at h
      obtain ⟨i, hi, he⟩ := ih h
      exact ⟨i, by omega, he⟩

/-- The first seven payments go to barrier cells, the last seven to receive cells. -/
theorem payCell_lo (c : Dev nD) (i : Fin 14) (h : i.val < 7) : payCell c i = barCell (dst c ⟨i.val, h⟩) := by
  fin_cases i <;> first | rfl | exact absurd h (by decide)
theorem payCell_hi (c : Dev nD) (i : Fin 14) (h : 7 ≤ i.val) :
    payCell c i = recvCell (dst c ⟨i.val - 7, by omega⟩) ⟨i.val - 7, by omega⟩ := by
  fin_cases i <;> first | rfl | exact absurd h (by decide)

theorem lv_bar (d : Dev nD) : lv (barCell d) () = 1 := if_pos rfl
theorem lv_recv (d : Dev nD) (k : Fin 7) : lv (recvCell d k) () = 2 := by
  dsimp only [lv]; rw [if_neg (recv_ne_bar k), recvK_recv]; rfl
theorem lv_stage (d : Dev nD) (q : DmaSem sig) (hq : recvK (.dma q) = none) : lv ((d : Thread nD τ), .dma q) () = 0 := by
  dsimp only [lv]; rw [if_neg (fun h => by cases h), hq]; rfl

/-- Every cell a device pays is a TensorCore's, and lies at level 1 or 2. -/
theorem L_payCell (c : Dev nD) (i : Fin 14) : L (payCell c i) = {()} := by
  by_cases h : i.val < 7
  · rw [payCell_lo c i h]; exact L_tc _ _
  · rw [payCell_hi c i (by omega)]; exact L_tc _ _
theorem lv_payCell_pos (c : Dev nD) (i : Fin 14) : 0 < lv (payCell c i) () := by
  by_cases h : i.val < 7
  · rw [payCell_lo c i h, lv_bar]; decide
  · rw [payCell_hi c i (by omega), lv_recv]; decide
theorem lv_payCell_hi (c : Dev nD) (i : Fin 14) (h : 7 ≤ i.val) : lv (payCell c i) () = 2 := by
  rw [payCell_hi c i h, lv_recv]

/-- A wait on a staging or a send cell (level 0), whether everything or nothing is still owed: every cell owed
    is a barrier cell (level 1) or a receive cell (level 2). -/
theorem mayWait_stage (c : Dev nD) (q : DmaSem sig) (hq : recvK (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨i, -, rfl⟩ := owedR_pos hg; rw [L_payCell]; exact Finset.mem_singleton_self _)
      (fun p hp => by rw [Finset.mem_singleton.mp hp]; exact le_of_eq (lv_stage c q hq))
      (fun g u hg => by obtain ⟨i, -, rfl⟩ := owedR_pos hg; exact lv_payCell_pos c i)
  · rw [MayWait_zero]; iintro -; iempintro

/-- At its barrier wait a device still owes the seven receive credits: receive cells (level 2), above its barrier
    cell (level 1). -/
theorem mayWait_bar (c : Dev nD) :
    (levAts L lv : sProp 𝕄) ⊢ MayWait (c : Thread nD τ) (.reg barS) () (owedR c 7) :=
  MayOwe.of_cut (L := L) (lev := lv) 1 (fun p hp => by rw [Finset.mem_singleton.mp hp, L_tc]; exact Finset.mem_singleton_self _)
    (fun g u hg => by obtain ⟨i, -, rfl⟩ := owedR_pos hg; rw [L_payCell]; exact Finset.mem_singleton_self _)
    (fun p hp => by rw [Finset.mem_singleton.mp hp]; exact le_of_eq (lv_bar c))
    (fun g u hg => by obtain ⟨i, hi, rfl⟩ := owedR_pos hg; rw [lv_payCell_hi c i (by omega)]; decide)

/-- info: 'Cert.Kernel.Proto.mayWait_bar' depends on axioms: [propext, Classical.choice, Quot.sound] -/
#guard_msgs in #print axioms mayWait_bar

end Cert.Kernel.Proto

end
-- ==== Proof.KbRegions.lean ====
/- One device's two scratch buffers as regions of memory: the whole-buffer loads and stores read
   and write the contents themselves; the statistics scratch splits into eight shares, one per
   outgoing copy and one kept; the two plane stores leave the statistics array; the receive buffer
   splits into its seven slots and is put back from them; what lands in a slot is the sender's
   statistics, and a load of the slot reads them back as the slot vector. -/
import proofs.«900772_g7700000000000773_dist_diff_adaln_cshard_i_b4_s512_c256_v7x_i8_f32_1_alg».proof.Proof.KbMem
import Idealize.ShloMosaic.Rules.PointsTo
import Idealize.ShloMosaic.Lib.ValueIdx
import Idealize.ShloMosaic.Lib.Pipeline.Value
import Idealize.ShloMosaic.Lib.Writes

noncomputable section

namespace Cert.Kernel.Mem

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Whole-buffer loads and stores

A load through the rectangle of a buffer's own sizes at offset zero reads the contents; an
unmasked store through it leaves the payload. -/

theorem hz3 : (![0, 0, 0] : Fin 3 → Nat) = fun _ => 0 := by
  funext a; fin_cases a <;> rfl
theorem hz2 : (![0, 0] : Fin 2 → Nat) = fun _ => 0 := by
  funext a; fin_cases a <;> rfl

theorem read_x (c : Dev nD)
    (f : Buf (Elt F) ((xM : Memref sig .tc .vmem S4x512x256 .f32).view.loc (c : Thread nD τ))) :
    (xM : Memref sig .tc .vmem S4x512x256 .f32).view.readAt (Elt F)
      (Rect.unit (s := S4x512x256) ![0, 0, 0] S4x512x256.size Facts₀.inb_S4x512x256_S4x512x256_0_0_0).toLoadRect f = f :=
  Memref.readAt_unit_zero (Elt F) cc0_stg0_0 hz3 _ f

theorem read_t (c : Dev nD)
    (f : Buf (Elt F) ((tM : Memref sig .tc .vmem S4x128 .f32).view.loc (c : Thread nD τ))) :
    (tM : Memref sig .tc .vmem S4x128 .f32).view.readAt (Elt F)
      (Rect.unit (s := S4x128) ![0, 0] S4x128.size Facts₀.inb_S4x128_S4x128_0_0).toLoadRect f = f :=
  Memref.readAt_unit_zero (Elt F) cc0_stg1_0 hz2 _ f

theorem read_ws (c : Dev nD)
    (f : Buf (Elt F) ((wsM : Memref sig .tc .vmem S128x256 .f32).view.loc (c : Thread nD τ))) :
    (wsM : Memref sig .tc .vmem S128x256 .f32).view.readAt (Elt F)
      (Rect.unit (s := S128x256) ![0, 0] S128x256.size Facts₀.inb_S128x256_S128x256_0_0).toLoadRect f = f :=
  Memref.readAt_unit_zero (Elt F) cc0_stg2_0 hz2 _ f

theorem read_wsh (c : Dev nD)
    (f : Buf (Elt F) ((wshM : Memref sig .tc .vmem S128x256 .f32).view.loc (c : Thread nD τ))) :
    (wshM : Memref sig .tc .vmem S128x256 .f32).view.readAt (Elt F)
      (Rect.unit (s := S128x256) ![0, 0] S128x256.size Facts₀.inb_S128x256_S128x256_0_0).toLoadRect f = f :=
  Memref.readAt_unit_zero (Elt F) cc0_stg3_0 hz2 _ f

theorem read_o (c : Dev nD)
    (f : Buf (Elt F) ((oM : Memref sig .tc .vmem S4x512x256 .f32).view.loc (c : Thread nD τ))) :
    (oM : Memref sig .tc .vmem S4x512x256 .f32).view.readAt (Elt F)
      (Rect.unit (s := S4x512x256) ![0, 0, 0] S4x512x256.size Facts₀.inb_S4x512x256_S4x512x256_0_0_0).toLoadRect f = f :=
  Memref.readAt_unit_zero (Elt F) cc0_stg4_0 hz3 _ f

theorem read_stats (c : Dev nD)
    (f : Buf (Elt F) ((statsM : Memref sig .tc .vmem S2x4x512 .f32).view.loc (c : Thread nD τ))) :
    (statsM : Memref sig .tc .vmem S2x4x512 .f32).view.readAt (Elt F)
      (Rect.unit (s := S2x4x512) ![0, 0, 0] S2x4x512.size Facts₀.inb_S2x4x512_S2x4x512_0_0_0).toLoadRect f = f :=
  Memref.readAt_unit_zero (Elt F) cc0_scratch0 hz3 _ f

theorem write_out (c : Dev nD)
    (f : Buf (Elt F) ((oM : Memref sig .tc .vmem S4x512x256 .f32).view.loc (c : Thread nD τ)))
    (w : Vec F S4x512x256 .f32) :
    ((oM.access (Rect.unit (s := S4x512x256) ![0, 0, 0] S4x512x256.size Facts₀.inb_S4x512x256_S4x512x256_0_0_0) :
        View sig .tc _ _ _).write (Elt F) f w Finset.univ) = w :=
  Memref.write_access_unit_zero_univ (Elt F) cc0_stg4_0 hz3 _ f w

/-- The same store as the one write it is in a list of writes. -/
theorem writes_out (f : (oM : Memref sig .tc .vmem S4x512x256 .f32).view.ty.Contents (Elt F))
    (w : Vec F S4x512x256 .f32) :
    (oM : Memref sig .tc .vmem S4x512x256 .f32).view.writes (Elt F) f
      [⟨Rect.unit (s := S4x512x256) ![0, 0, 0] S4x512x256.size Facts₀.inb_S4x512x256_S4x512x256_0_0_0, w⟩] = w := by
  show ((oM.access (Rect.unit (s := S4x512x256) ![0, 0, 0] S4x512x256.size Facts₀.inb_S4x512x256_S4x512x256_0_0_0) :
      View sig .tc _ _ _).write (Elt F) f w Finset.univ) = w
  exact Memref.write_access_unit_zero_univ (Elt F) cc0_stg4_0 hz3 _ f w

/-! ## Shares of the statistics scratch

A share is the composition of its two halves; seven halvings peel off the seven copies' shares and
leave the kept one. -/

theorem stats_share_step (c : Dev nD) (n : ℕ)
    (f : Buf (Elt F) ((statsM : Memref sig .tc .vmem S2x4x512 .f32).view.loc (c : Thread nD τ))) :
    (statsPts (F := F) c (restShr n) f : sProp 𝕄) ⊣⊢
      iprop(statsPts c (restShr n).left f ∗ statsPts c (restShr (n + 1)) f) :=
  pointsTo_share (PosShare.mem_left_op_right (restShr n))

theorem stats_shares (c : Dev nD)
    (f : Buf (Elt F) ((statsM : Memref sig .tc .vmem S2x4x512 .f32).view.loc (c : Thread nD τ))) :
    (statsPts (F := F) c fullShare f : sProp 𝕄) ⊣⊢
      iprop(statsPts c (cpShr 0) f ∗ statsPts c (cpShr 1) f ∗ statsPts c (cpShr 2) f ∗ statsPts c (cpShr 3) f ∗
        statsPts c (cpShr 4) f ∗ statsPts c (cpShr 5) f ∗ statsPts c (cpShr 6) f ∗ statsPts c keepShr f) :=
  (stats_share_step c 0 f).trans <| sep_congr_right <|
  (stats_share_step c 1 f).trans <| sep_congr_right <|
  (stats_share_step c 2 f).trans <| sep_congr_right <|
  (stats_share_step c 3 f).trans <| sep_congr_right <|
  (stats_share_step c 4 f).trans <| sep_congr_right <|
  (stats_share_step c 5 f).trans <| sep_congr_right <|
  (stats_share_step c 6 f)

/-! ## A slot of the receive buffer

Slot `n` is the receive buffer restricted to the entries whose first coordinate is `n`, with that
axis dropped: entry `(p, b, s)` of the slot is entry `(n, p, b, s)` of the buffer. -/

/-- The slot at first coordinate `n`, whatever the spelling of the evidence that it is inside. -/
abbrev slotAt (n : ℕ) (inb : ∀ a, (![n, 0, 0, 0] : Fin 4 → Nat) a + S1x2x4x512.size a ≤ S7x2x4x512.size a) :
    Memref sig .tc .vmem S2x4x512 .f32 :=
  ((commM.slice (Rect.unit (s := S7x2x4x512) ![n, 0, 0, 0] S1x2x4x512.size inb) (fun _ => rfl)).squeeze S2x4x512
    Facts₀.squeezes_S1x2x4x512_S2x4x512)

theorem slot_lt {n : ℕ} (inb : ∀ a, (![n, 0, 0, 0] : Fin 4 → Nat) a + S1x2x4x512.size a ≤ S7x2x4x512.size a) :
    n < 7 := by
  have h := inb 0
  change n + 1 ≤ 7 at h
  omega

/-- Where the slot's entries sit in the buffer. -/
theorem slotAt_emb (n : ℕ) (inb : ∀ a, (![n, 0, 0, 0] : Fin 4 → Nat) a + S1x2x4x512.size a ≤ S7x2x4x512.size a)
    (x : S2x4x512.Idx) :
    (slotAt n inb).view.emb x
      = ValueIdx.ix4 (n0 := 7) (n1 := 2) (n2 := 4) (n3 := 512) ⟨n, slot_lt inb⟩ (x 0) (x 1) (x 2) := by
  show (Rect.unit (s := S7x2x4x512) ![n, 0, 0, 0] S1x2x4x512.size inb).emb
      (Shape.reshapeEquiv Facts₀.squeezes_S1x2x4x512_S2x4x512.numel_eq x) = _
  rw [Shape.reshapeEquiv_cons_one (n := 3) (d := ![2, 4, 512])]
  funext a
  apply Fin.ext
  rw [Rect.emb_apply]
  match a with
  | ⟨0, _⟩ => rfl
  | ⟨1, _⟩ => show 0 + 1 * (x 0).val = (x 0).val; omega
  | ⟨2, _⟩ => show 0 + 1 * (x 1).val = (x 1).val; omega
  | ⟨3, _⟩ => show 0 + 1 * (x 2).val = (x 2).val; omega

/-- The slot's entries are those with first coordinate `n`. -/
theorem mem_slot_set (n : ℕ) (inb : ∀ a, (![n, 0, 0, 0] : Fin 4 → Nat) a + S1x2x4x512.size a ≤ S7x2x4x512.size a)
    (i : S7x2x4x512.Idx) : i ∈ (slotAt n inb).view.set ↔ (i 0).val = n := by
  constructor
  · intro h
    obtain ⟨x, -, rfl⟩ := Finset.mem_map.mp h
    rw [slotAt_emb]
  · intro h
    have e : i = (slotAt n inb).view.emb
        (ValueIdx.ix3 (n0 := 2) (n1 := 4) (n2 := 512) (i 1) (i 2) (i 3)) := by
      rw [slotAt_emb]
      refine (ValueIdx.eq_ix4 i).trans ?_
      have h0 : i 0 = (⟨n, slot_lt inb⟩ : Fin 7) := Fin.ext h
      rw [h0]
      rfl
    rw [e]
    exact View.emb_mem_set _ _

/-- What lands in a slot: written whole with a device's statistics, the slot holds on its own entries
    what the landed buffer holds there. -/
theorem slot_landed (m : (ℓ : Loc nD τ sig) → Buf (Elt F) ℓ) (c : Dev nD) (n : ℕ)
    (inb : ∀ a, (![n, 0, 0, 0] : Fin 4 → Nat) a + S1x2x4x512.size a ≤ S7x2x4x512.size a)
    (fd : Buf (Elt F) ((c : Thread nD τ).loc cc0_scratch1)) :
    ∀ i ∈ (slotAt n inb).view.set,
      (slotAt n inb).view.write (Elt F) fd
        ((statsM : Memref sig .tc .vmem S2x4x512 .f32).view.read (Elt F) (statsOf m (src c ⟨n, slot_lt inb⟩)))
        Finset.univ i = landed m c i := by
  intro i hi
  obtain ⟨x, -, rfl⟩ := Finset.mem_map.mp hi
  rw [View.write_emb_of_mem _ _ (Finset.mem_univ x), slotAt_emb]
  show statsOf m (src c ⟨n, slot_lt inb⟩) x
    = statsOf m (src c ⟨n, slot_lt inb⟩) (ValueIdx.ix3 (n0 := 2) (n1 := 4) (n2 := 512) (x 0) (x 1) (x 2))
  exact congrArg _ (ValueIdx.eq_ix3 x)

/-- A load of the slot's rectangle reads only the slot's entries. -/
theorem slot_load_subset (n : ℕ)
    (inb : ∀ a, (![n, 0, 0, 0] : Fin 4 → Nat) a + S1x2x4x512.size a ≤ S7x2x4x512.size a) :
    (commM : Memref sig .tc .vmem S7x2x4x512 .f32).view.setOn
        (Rect.unit (s := S7x2x4x512) ![n, 0, 0, 0] S1x2x4x512.size inb).toLoadRect.set
      ⊆ (slotAt n inb).view.set := by
  intro i hi
  obtain ⟨j, hj, rfl⟩ := Finset.mem_map.mp hi
  show j ∈ (slotAt n inb).view.set
  rw [mem_slot_set]
  have h0 := (Rect.mem_set_unit.mp hj) 0
  have h1 : n ≤ (j 0).val := h0.1
  have h2 : (j 0).val < n + 1 := h0.2
  omega

/-- The load reads the sender's statistics back as a one-slot vector. -/
theorem slot_read_landed (m : (ℓ : Loc nD τ sig) → Buf (Elt F) ℓ) (c : Dev nD) (n : ℕ)
    (inb : ∀ a, (![n, 0, 0, 0] : Fin 4 → Nat) a + S1x2x4x512.size a ≤ S7x2x4x512.size a) :
    (commM : Memref sig .tc .vmem S7x2x4x512 .f32).view.readAt (Elt F)
        (Rect.unit (s := S7x2x4x512) ![n, 0, 0, 0] S1x2x4x512.size inb).toLoadRect (landed m c)
      = slotOf m c ⟨n, slot_lt inb⟩ := by
  funext x
  have e : (Rect.unit (s := S7x2x4x512) ![n, 0, 0, 0] S1x2x4x512.size inb).toLoadRect.idx x
      = ValueIdx.ix4 (n0 := 7) (n1 := 2) (n2 := 4) (n3 := 512) ⟨n, slot_lt inb⟩ (x 1) (x 2) (x 3) := by
    funext a
    apply Fin.ext
    rw [LoadRect.idx_apply]
    match a with
    | ⟨0, _⟩ =>
      have hx : (x 0).val < 1 := (x 0).isLt
      show n + 1 * (x 0).val = n; omega
    | ⟨1, _⟩ => show 0 + 1 * (x 1).val = (x 1).val; omega
    | ⟨2, _⟩ => show 0 + 1 * (x 2).val = (x 2).val; omega
    | ⟨3, _⟩ => show 0 + 1 * (x 3).val = (x 3).val; omega
  show landed m c ((Rect.unit (s := S7x2x4x512) ![n, 0, 0, 0] S1x2x4x512.size inb).toLoadRect.idx x) = _
  rw [e]
  rfl

/-! ## The seven slots

The facts above at each of the seven slots, in the spelling the kernel's copies and loads use. -/

theorem landed_eq_0 (m : (ℓ : Loc nD τ sig) → Buf (Elt F) ℓ) (c : Dev nD)
    (fd : Buf (Elt F) ((c : Thread nD τ).loc cc0_scratch1)) :
    slotPts (F := F) c 0 ((slotM 0).view.write (Elt F) fd
        ((statsM : Memref sig .tc .vmem S2x4x512 .f32).view.read (Elt F) (statsOf m (src c 0))) Finset.univ)
      = slotPts c 0 (landed m c) :=
  pointsTo_congr (slot_landed m c 0 Facts₀.inb_S7x2x4x512_S1x2x4x512_0_0_0_0 fd)

theorem load_slot_subset_0 :
    (commM : Memref sig .tc .vmem S7x2x4x512 .f32).view.setOn (slotRect 0).toLoadRect.set ⊆ (slotM 0).view.set :=
  slot_load_subset 0 Facts₀.inb_S7x2x4x512_S1x2x4x512_0_0_0_0

theorem read_landed_0 (m : (ℓ : Loc nD τ sig) → Buf (Elt F) ℓ) (c : Dev nD) :
    (commM : Memref sig .tc .vmem S7x2x4x512 .f32).view.readAt (Elt F) (slotRect 0).toLoadRect (landed m c) = slotOf m c 0 :=
  slot_read_landed m c 0 Facts₀.inb_S7x2x4x512_S1x2x4x512_0_0_0_0

theorem landed_eq_1 (m : (ℓ : Loc nD τ sig) → Buf (Elt F) ℓ) (c : Dev nD)
    (fd : Buf (Elt F) ((c : Thread nD τ).loc cc0_scratch1)) :
    slotPts (F := F) c 1 ((slotM 1).view.write (Elt F) fd
        ((statsM : Memref sig .tc .vmem S2x4x512 .f32).view.read (Elt F) (statsOf m (src c 1))) Finset.univ)
      = slotPts c 1 (landed m c) :=
  pointsTo_congr (slot_landed m c 1 Facts₀.inb_S7x2x4x512_S1x2x4x512_1_0_0_0 fd)

theorem load_slot_subset_1 :
    (commM : Memref sig .tc .vmem S7x2x4x512 .f32).view.setOn (slotRect 1).toLoadRect.set ⊆ (slotM 1).view.set :=
  slot_load_subset 1 Facts₀.inb_S7x2x4x512_S1x2x4x512_1_0_0_0

theorem read_landed_1 (m : (ℓ : Loc nD τ sig) → Buf (Elt F) ℓ) (c : Dev nD) :
    (commM : Memref sig .tc .vmem S7x2x4x512 .f32).view.readAt (Elt F) (slotRect 1).toLoadRect (landed m c) = slotOf m c 1 :=
  slot_read_landed m c 1 Facts₀.inb_S7x2x4x512_S1x2x4x512_1_0_0_0

theorem landed_eq_2 (m : (ℓ : Loc nD τ sig) → Buf (Elt F) ℓ) (c : Dev nD)
    (fd : Buf (Elt F) ((c : Thread nD τ).loc cc0_scratch1)) :
    slotPts (F := F) c 2 ((slotM 2).view.write (Elt F) fd
        ((statsM : Memref sig .tc .vmem S2x4x512 .f32).view.read (Elt F) (statsOf m (src c 2))) Finset.univ)
      = slotPts c 2 (landed m c) :=
  pointsTo_congr (slot_landed m c 2 Facts₀.inb_S7x2x4x512_S1x2x4x512_2_0_0_0 fd)

theorem load_slot_subset_2 :
    (commM : Memref sig .tc .vmem S7x2x4x512 .f32).view.setOn (slotRect 2).toLoadRect.set ⊆ (slotM 2).view.set :=
  slot_load_subset 2 Facts₀.inb_S7x2x4x512_S1x2x4x512_2_0_0_0

theorem read_landed_2 (m : (ℓ : Loc nD τ sig) → Buf (Elt F) ℓ) (c : Dev nD) :
    (commM : Memref sig .tc .vmem S7x2x4x512 .f32).view.readAt (Elt F) (slotRect 2).toLoadRect (landed m c) = slotOf m c 2 :=
  slot_read_landed m c 2 Facts₀.inb_S7x2x4x512_S1x2x4x512_2_0_0_0

theorem landed_eq_3 (m : (ℓ : Loc nD τ sig) → Buf (Elt F) ℓ) (c : Dev nD)
    (fd : Buf (Elt F) ((c : Thread nD τ).loc cc0_scratch1)) :
    slotPts (F := F) c 3 ((slotM 3).view.write (Elt F) fd
        ((statsM : Memref sig .tc .vmem S2x4x512 .f32).view.read (Elt F) (statsOf m (src c 3))) Finset.univ)
      = slotPts c 3 (landed m c) :=
  pointsTo_congr (slot_landed m c 3 Facts₀.inb_S7x2x4x512_S1x2x4x512_3_0_0_0 fd)

theorem load_slot_subset_3 :
    (commM : Memref sig .tc .vmem S7x2x4x512 .f32).view.setOn (slotRect 3).toLoadRect.set ⊆ (slotM 3).view.set :=
  slot_load_subset 3 Facts₀.inb_S7x2x4x512_S1x2x4x512_3_0_0_0

theorem read_landed_3 (m : (ℓ : Loc nD τ sig) → Buf (Elt F) ℓ) (c : Dev nD) :
    (commM : Memref sig .tc .vmem S7x2x4x512 .f32).view.readAt (Elt F) (slotRect 3).toLoadRect (landed m c) = slotOf m c 3 :=
  slot_read_landed m c 3 Facts₀.inb_S7x2x4x512_S1x2x4x512_3_0_0_0

theorem landed_eq_4 (m : (ℓ : Loc nD τ sig) → Buf (Elt F) ℓ) (c : Dev nD)
    (fd : Buf (Elt F) ((c : Thread nD τ).loc cc0_scratch1)) :
    slotPts (F := F) c 4 ((slotM 4).view.write (Elt F) fd
        ((statsM : Memref sig .tc .vmem S2x4x512 .f32).view.read (Elt F) (statsOf m (src c 4))) Finset.univ)
      = slotPts c 4 (landed m c) :=
  pointsTo_congr (slot_landed m c 4 Facts₀.inb_S7x2x4x512_S1x2x4x512_4_0_0_0 fd)

theorem load_slot_subset_4 :
    (commM : Memref sig .tc .vmem S7x2x4x512 .f32).view.setOn (slotRect 4).toLoadRect.set ⊆ (slotM 4).view.set :=
  slot_load_subset 4 Facts₀.inb_S7x2x4x512_S1x2x4x512_4_0_0_0

theorem read_landed_4 (m : (ℓ : Loc nD τ sig) → Buf (Elt F) ℓ) (c : Dev nD) :
    (commM : Memref sig .tc .vmem S7x2x4x512 .f32).view.readAt (Elt F) (slotRect 4).toLoadRect (landed m c) = slotOf m c 4 :=
  slot_read_landed m c 4 Facts₀.inb_S7x2x4x512_S1x2x4x512_4_0_0_0

theorem landed_eq_5 (m : (ℓ : Loc nD τ sig) → Buf (Elt F) ℓ) (c : Dev nD)
    (fd : Buf (Elt F) ((c : Thread nD τ).loc cc0_scratch1)) :
    slotPts (F := F) c 5 ((slotM 5).view.write (Elt F) fd
        ((statsM : Memref sig .tc .vmem S2x4x512 .f32).view.read (Elt F) (statsOf m (src c 5))) Finset.univ)
      = slotPts c 5 (landed m c) :=
  pointsTo_congr (slot_landed m c 5 Facts₀.inb_S7x2x4x512_S1x2x4x512_5_0_0_0 fd)

theorem load_slot_subset_5 :
    (commM : Memref sig .tc .vmem S7x2x4x512 .f32).view.setOn (slotRect 5).toLoadRect.set ⊆ (slotM 5).view.set :=
  slot_load_subset 5 Facts₀.inb_S7x2x4x512_S1x2x4x512_5_0_0_0

theorem read_landed_5 (m : (ℓ : Loc nD τ sig) → Buf (Elt F) ℓ) (c : Dev nD) :
    (commM : Memref sig .tc .vmem S7x2x4x512 .f32).view.readAt (Elt F) (slotRect 5).toLoadRect (landed m c) = slotOf m c 5 :=
  slot_read_landed m c 5 Facts₀.inb_S7x2x4x512_S1x2x4x512_5_0_0_0

theorem landed_eq_6 (m : (ℓ : Loc nD τ sig) → Buf (Elt F) ℓ) (c : Dev nD)
    (fd : Buf (Elt F) ((c : Thread nD τ).loc cc0_scratch1)) :
    slotPts (F := F) c 6 ((slotM 6).view.write (Elt F) fd
        ((statsM : Memref sig .tc .vmem S2x4x512 .f32).view.read (Elt F) (statsOf m (src c 6))) Finset.univ)
      = slotPts c 6 (landed m c) :=
  pointsTo_congr (slot_landed m c 6 Facts₀.inb_S7x2x4x512_S1x2x4x512_6_0_0_0 fd)

theorem load_slot_subset_6 :
    (commM : Memref sig .tc .vmem S7x2x4x512 .f32).view.setOn (slotRect 6).toLoadRect.set ⊆ (slotM 6).view.set :=
  slot_load_subset 6 Facts₀.inb_S7x2x4x512_S1x2x4x512_6_0_0_0

theorem read_landed_6 (m : (ℓ : Loc nD τ sig) → Buf (Elt F) ℓ) (c : Dev nD) :
    (commM : Memref sig .tc .vmem S7x2x4x512 .f32).view.readAt (Elt F) (slotRect 6).toLoadRect (landed m c) = slotOf m c 6 :=
  slot_read_landed m c 6 Facts₀.inb_S7x2x4x512_S1x2x4x512_6_0_0_0

/-! ## The receive buffer cut into its slots

The entries from first coordinate `j` on are slot `j`'s together with those from `j + 1` on; from
`0` on they are all of the buffer, and from `6` on they are slot 6's. -/

/-- The buffer's entries whose first coordinate is at least `j`. -/
def fromSlot (j : ℕ) : Finset S7x2x4x512.Idx := Finset.univ.filter fun i => j ≤ (i 0).val

theorem mem_fromSlot (j : ℕ) (i : S7x2x4x512.Idx) : i ∈ fromSlot j ↔ j ≤ (i 0).val := by
  unfold fromSlot
  rw [Finset.mem_filter]
  exact ⟨fun h => h.2, fun h => ⟨Finset.mem_univ _, h⟩⟩

theorem fromSlot_zero : fromSlot 0 = Finset.univ := by
  ext i
  rw [mem_fromSlot]
  exact ⟨fun _ => Finset.mem_univ _, fun _ => Nat.zero_le _⟩

theorem fromSlot_succ (j : ℕ) (inb : ∀ a, (![j, 0, 0, 0] : Fin 4 → Nat) a + S1x2x4x512.size a ≤ S7x2x4x512.size a) :
    fromSlot j = (slotAt j inb).view.set ∪ fromSlot (j + 1) := by
  ext i
  rw [Finset.mem_union, mem_fromSlot, mem_fromSlot, mem_slot_set]
  omega

theorem fromSlot_disjoint (j : ℕ) (inb : ∀ a, (![j, 0, 0, 0] : Fin 4 → Nat) a + S1x2x4x512.size a ≤ S7x2x4x512.size a) :
    Disjoint (slotAt j inb).view.set (fromSlot (j + 1)) := by
  rw [Finset.disjoint_left]
  intro i hi hj
  rw [mem_slot_set] at hi
  rw [mem_fromSlot] at hj
  omega

theorem fromSlot_six (inb : ∀ a, (![6, 0, 0, 0] : Fin 4 → Nat) a + S1x2x4x512.size a ≤ S7x2x4x512.size a) :
    fromSlot 6 = (slotAt 6 inb).view.set := by
  ext i
  rw [mem_fromSlot, mem_slot_set]
  have h : (i 0).val < 7 := (i 0).isLt
  omega

/-- Taking slot `j` off the entries from `j` on. -/
theorem comm_step (c : Dev nD) (f : Buf (Elt F) ((c : Thread nD τ).loc cc0_scratch1)) (j : ℕ)
    (inb : ∀ a, (![j, 0, 0, 0] : Fin 4 → Nat) a + S1x2x4x512.size a ≤ S7x2x4x512.size a) :
    (((c : Thread nD τ).loc cc0_scratch1) ↦[fromSlot j]{fullShare} f : sProp 𝕄) ⊣⊢
      iprop((((c : Thread nD τ).loc cc0_scratch1) ↦[(slotAt j inb).view.set]{fullShare} f) ∗
        ((c : Thread nD τ).loc cc0_scratch1) ↦[fromSlot (j + 1)]{fullShare} f) := by
  rw [fromSlot_succ j inb]
  exact pointsTo_union (fromSlot_disjoint j inb)

theorem comm_split (c : Dev nD) (f : Buf (Elt F) ((c : Thread nD τ).loc cc0_scratch1)) :
    (((c : Thread nD τ).loc cc0_scratch1) ↦{fullShare} f : sProp 𝕄) ⊣⊢
      iprop(slotPts c 0 f ∗ slotPts c 1 f ∗ slotPts c 2 f ∗ slotPts c 3 f ∗ slotPts c 4 f ∗ slotPts c 5 f ∗
        slotPts c 6 f) := by
  have h6 : (((c : Thread nD τ).loc cc0_scratch1) ↦[fromSlot 6]{fullShare} f : sProp 𝕄) ⊣⊢ slotPts c 6 f := by
    rw [fromSlot_six Facts₀.inb_S7x2x4x512_S1x2x4x512_6_0_0_0]
    exact .rfl
  have h : (((c : Thread nD τ).loc cc0_scratch1) ↦[fromSlot 0]{fullShare} f : sProp 𝕄) ⊣⊢
      iprop(slotPts c 0 f ∗ slotPts c 1 f ∗ slotPts c 2 f ∗ slotPts c 3 f ∗ slotPts c 4 f ∗ slotPts c 5 f ∗
        slotPts c 6 f) :=
    (comm_step c f 0 Facts₀.inb_S7x2x4x512_S1x2x4x512_0_0_0_0).trans <| sep_congr_right <|
    (comm_step c f 1 Facts₀.inb_S7x2x4x512_S1x2x4x512_1_0_0_0).trans <| sep_congr_right <|
    (comm_step c f 2 Facts₀.inb_S7x2x4x512_S1x2x4x512_2_0_0_0).trans <| sep_congr_right <|
    (comm_step c f 3 Facts₀.inb_S7x2x4x512_S1x2x4x512_3_0_0_0).trans <| sep_congr_right <|
    (comm_step c f 4 Facts₀.inb_S7x2x4x512_S1x2x4x512_4_0_0_0).trans <| sep_congr_right <|
    (comm_step c f 5 Facts₀.inb_S7x2x4x512_S1x2x4x512_5_0_0_0).trans <| sep_congr_right h6
  rw [fromSlot_zero] at h
  exact h

/-- Putting slot `j`, at whatever contents, back before the entries from `j + 1` on. -/
theorem comm_join_step (c : Dev nD) (j : ℕ)
    (inb : ∀ a, (![j, 0, 0, 0] : Fin 4 → Nat) a + S1x2x4x512.size a ≤ S7x2x4x512.size a)
    (g : Buf (Elt F) ((c : Thread nD τ).loc cc0_scratch1)) :
    iprop((((c : Thread nD τ).loc cc0_scratch1) ↦[(slotAt j inb).view.set]{fullShare} g) ∗
        ∃ h, ((c : Thread nD τ).loc cc0_scratch1) ↦[fromSlot (j + 1)]{fullShare} h)
      ⊢ (iprop(∃ h, ((c : Thread nD τ).loc cc0_scratch1) ↦[fromSlot j]{fullShare} h) : sProp 𝕄) := by
  iintro ⟨Hg, ⟨%h, Hh⟩⟩
  iexists (fromSlot (j + 1)).piecewise h g
  rw [fromSlot_succ j inb]
  iapply (pointsTo_join (fromSlot_disjoint j inb))
  isplitl [Hg]
  · iexact Hg
  · iexact Hh

theorem comm_join (c : Dev nD) (f0 f1 f2 f3 f4 f5 f6 : Buf (Elt F) ((c : Thread nD τ).loc cc0_scratch1)) :
    iprop(slotPts c 0 f0 ∗ slotPts c 1 f1 ∗ slotPts c 2 f2 ∗ slotPts c 3 f3 ∗ slotPts c 4 f4 ∗ slotPts c 5 f5 ∗
        slotPts c 6 f6)
      ⊢ (iprop(∃ f, ((c : Thread nD τ).loc cc0_scratch1) ↦{fullShare} f) : sProp 𝕄) := by
  have h6 : slotPts (F := F) c 6 f6 ⊢ (iprop(∃ h, ((c : Thread nD τ).loc cc0_scratch1) ↦[fromSlot 6]{fullShare} h) : sProp 𝕄) := by
    rw [fromSlot_six Facts₀.inb_S7x2x4x512_S1x2x4x512_6_0_0_0]
    exact exists_intro (Φ := fun h => (((c : Thread nD τ).loc cc0_scratch1) ↦[(slotAt 6 Facts₀.inb_S7x2x4x512_S1x2x4x512_6_0_0_0).view.set]{fullShare} h : sProp 𝕄)) f6
  have h : iprop(slotPts c 0 f0 ∗ slotPts c 1 f1 ∗ slotPts c 2 f2 ∗ slotPts c 3 f3 ∗ slotPts c 4 f4 ∗
        slotPts c 5 f5 ∗ slotPts c 6 f6)
      ⊢ (iprop(∃ h, ((c : Thread nD τ).loc cc0_scratch1) ↦[fromSlot 0]{fullShare} h) : sProp 𝕄) :=
    (sep_mono_right <| (sep_mono_right <| (sep_mono_right <| (sep_mono_right <| (sep_mono_right <|
      (sep_mono_right h6).trans (comm_join_step c 5 Facts₀.inb_S7x2x4x512_S1x2x4x512_5_0_0_0 f5)).trans
      (comm_join_step c 4 Facts₀.inb_S7x2x4x512_S1x2x4x512_4_0_0_0 f4)).trans
      (comm_join_step c 3 Facts₀.inb_S7x2x4x512_S1x2x4x512_3_0_0_0 f3)).trans
      (comm_join_step c 2 Facts₀.inb_S7x2x4x512_S1x2x4x512_2_0_0_0 f2)).trans
      (comm_join_step c 1 Facts₀.inb_S7x2x4x512_S1x2x4x512_1_0_0_0 f1)).trans
      (comm_join_step c 0 Facts₀.inb_S7x2x4x512_S1x2x4x512_0_0_0_0 f0)
  rw [fromSlot_zero] at h
  exact h

/-! ## The two plane stores

The statistics scratch is two planes; a store of a plane through the rectangle at first coordinate
`p` puts entry `(0, b, s)` of the payload at entry `(p, b, s)`. Every entry is in exactly one plane, so
after both stores nothing of the old contents is left. -/

theorem plane_lt {p : ℕ} (inb : ∀ a, (![p, 0, 0] : Fin 3 → Nat) a + S1x4x512.size a ≤ S2x4x512.size a) :
    p < 2 := by
  have h := inb 0
  change p + 1 ≤ 2 at h
  omega

theorem plane_emb (p : ℕ) (inb : ∀ a, (![p, 0, 0] : Fin 3 → Nat) a + S1x4x512.size a ≤ S2x4x512.size a)
    (y : S1x4x512.Idx) :
    ((statsM.access (Rect.unit (s := S2x4x512) ![p, 0, 0] S1x4x512.size inb) : View sig .tc _ _ _)).emb y
      = ValueIdx.ix3 (n0 := 2) (n1 := 4) (n2 := 512) ⟨p, plane_lt inb⟩ (y 1) (y 2) := by
  show (Rect.unit (s := S2x4x512) ![p, 0, 0] S1x4x512.size inb).emb y = _
  funext a
  apply Fin.ext
  rw [Rect.emb_apply]
  match a with
  | ⟨0, _⟩ =>
    have hy : (y 0).val < 1 := (y 0).isLt
    show p + 1 * (y 0).val = p; omega
  | ⟨1, _⟩ => show 0 + 1 * (y 1).val = (y 1).val; omega
  | ⟨2, _⟩ => show 0 + 1 * (y 2).val = (y 2).val; omega

/-- A plane's index is its two inner coordinates behind the coordinate `0`. -/
theorem plane_idx (y : S1x4x512.Idx) :
    y = ValueIdx.ix3 (n0 := 1) (n1 := 4) (n2 := 512) 0 (y 1) (y 2) := by
  refine (ValueIdx.eq_ix3 y).trans ?_
  have hy : (y 0).val < 1 := (y 0).isLt
  have e : y 0 = (0 : Fin 1) := Fin.ext (by show (y 0).val = 0; omega)
  rw [e]
  rfl

/-- Every entry of the scratch is in plane 0 or in plane 1. -/
theorem plane_cover (i : S2x4x512.Idx) :
    (∃ y, i = ((statsM.access (Rect.unit (s := S2x4x512) ![0, 0, 0] S1x4x512.size Facts₀.inb_S2x4x512_S1x4x512_0_0_0) : View sig .tc _ _ _)).emb y) ∨
    (∃ y, i = ((statsM.access (Rect.unit (s := S2x4x512) ![1, 0, 0] S1x4x512.size Facts₀.inb_S2x4x512_S1x4x512_1_0_0) : View sig .tc _ _ _)).emb y) := by
  have h : (i 0).val < 2 := (i 0).isLt
  by_cases h0 : (i 0).val = 0
  · left
    refine ⟨ValueIdx.ix3 (n0 := 1) (n1 := 4) (n2 := 512) 0 (i 1) (i 2), ?_⟩
    rw [plane_emb]
    refine (ValueIdx.eq_ix3 i).trans ?_
    have e : i 0 = (⟨0, plane_lt Facts₀.inb_S2x4x512_S1x4x512_0_0_0⟩ : Fin 2) := Fin.ext h0
    rw [e]
    rfl
  · right
    refine ⟨ValueIdx.ix3 (n0 := 1) (n1 := 4) (n2 := 512) 0 (i 1) (i 2), ?_⟩
    rw [plane_emb]
    refine (ValueIdx.eq_ix3 i).trans ?_
    have e : i 0 = (⟨1, plane_lt Facts₀.inb_S2x4x512_S1x4x512_1_0_0⟩ : Fin 2) := Fin.ext (by show (i 0).val = 1; omega)
    rw [e]
    rfl

/-- The two stores as a list of writes, the later one first: whatever the scratch held, it now holds
    the statistics array. -/
theorem writes_stats (fs : (statsM : Memref sig .tc .vmem S2x4x512 .f32).view.ty.Contents (Elt F)) (x : Vec F S4x512x256 .f32) :
    (statsM : Memref sig .tc .vmem S2x4x512 .f32).view.writes (Elt F) fs
      [⟨Rect.unit (s := S2x4x512) ![1, 0, 0] S1x4x512.size Facts₀.inb_S2x4x512_S1x4x512_1_0_0, k0_pay4 x⟩,
       ⟨Rect.unit (s := S2x4x512) ![0, 0, 0] S1x4x512.size Facts₀.inb_S2x4x512_S1x4x512_0_0_0, k0_pay3 x⟩] = statsVec x := by
  show (((statsM.access (Rect.unit (s := S2x4x512) ![1, 0, 0] S1x4x512.size Facts₀.inb_S2x4x512_S1x4x512_1_0_0) : View sig .tc _ _ _)).write (Elt F)
      (((statsM.access (Rect.unit (s := S2x4x512) ![0, 0, 0] S1x4x512.size Facts₀.inb_S2x4x512_S1x4x512_0_0_0) : View sig .tc _ _ _)).write (Elt F) fs (k0_pay3 x) Finset.univ)
      (k0_pay4 x) Finset.univ) = statsVec x
  funext i
  rcases plane_cover i with ⟨y, rfl⟩ | ⟨y, rfl⟩
  · have hn : ((statsM.access (Rect.unit (s := S2x4x512) ![0, 0, 0] S1x4x512.size Facts₀.inb_S2x4x512_S1x4x512_0_0_0) : View sig .tc _ _ _)).emb y
        ∉ ((statsM.access (Rect.unit (s := S2x4x512) ![1, 0, 0] S1x4x512.size Facts₀.inb_S2x4x512_S1x4x512_1_0_0) : View sig .tc _ _ _)).setOn Finset.univ := by
      intro hm
      obtain ⟨z, -, hz⟩ := Finset.mem_map.mp hm
      rw [plane_emb, plane_emb] at hz
      have h01 : (1 : ℕ) = 0 := congrArg (fun j : S2x4x512.Idx => (j 0).val) hz
      exact absurd h01 (by decide)
    rw [View.write_of_not_mem _ _ _ hn, View.write_emb_of_mem _ _ (Finset.mem_univ y), plane_emb]
    show k0_pay3 x y
      = (if (0 : ℕ) = 0 then k0_pay3 x (ValueIdx.ix3 (n0 := 1) (n1 := 4) (n2 := 512) 0 (y 1) (y 2))
          else k0_pay4 x (ValueIdx.ix3 (n0 := 1) (n1 := 4) (n2 := 512) 0 (y 1) (y 2)))
    rw [if_pos rfl]
    exact congrArg _ (plane_idx y)
  · rw [View.write_emb_of_mem _ _ (Finset.mem_univ y), plane_emb]
    show k0_pay4 x y
      = (if (1 : ℕ) = 0 then k0_pay3 x (ValueIdx.ix3 (n0 := 1) (n1 := 4) (n2 := 512) 0 (y 1) (y 2))
          else k0_pay4 x (ValueIdx.ix3 (n0 := 1) (n1 := 4) (n2 := 512) 0 (y 1) (y 2)))
    rw [if_neg (by decide)]
    exact congrArg _ (plane_idx y)

/-- The same, spelt as the two writes one over the other. -/
theorem write_stats (c : Dev nD)
    (f0 : Buf (Elt F) ((statsM : Memref sig .tc .vmem S2x4x512 .f32).view.loc (c : Thread nD τ)))
    (x : Vec F S4x512x256 .f32) :
    (((statsM.access (Rect.unit (s := S2x4x512) ![1, 0, 0] S1x4x512.size Facts₀.inb_S2x4x512_S1x4x512_1_0_0) : View sig .tc _ _ _)).write (Elt F)
      (((statsM.access (Rect.unit (s := S2x4x512) ![0, 0, 0] S1x4x512.size Facts₀.inb_S2x4x512_S1x4x512_0_0_0) : View sig .tc _ _ _)).write (Elt F) f0 (k0_pay3 x) Finset.univ)
      (k0_pay4 x) Finset.univ) = statsVec x :=
  writes_stats f0 x

/-- info: 'Cert.Kernel.Mem.comm_split' depends on axioms: [propext, Classical.choice, Quot.sound] -/
#guard_msgs in
#print axioms comm_split

end Cert.Kernel.Mem

end
-- ==== Proof.KbSteps.lean ====
/- The exchange's protocol steps, each one rule of the rounds discipline at this schedule's cells, for
   any slot number: a device's signal to a peer's barrier cell, handing over the slot that peer will
   write; its wait for its own seven units, which brings the seven slots handed to it; a copy of its
   statistics into a peer's slot, paying the peer's receive cell and its own send cell; and the waits
   on a receive cell and on a send cell, which bring the landed slot and the lent share back. -/
import proofs.«900772_g7700000000000773_dist_diff_adaln_cshard_i_b4_s512_c256_v7x_i8_f32_1_alg».proof.Proof.KbTables
import proofs.«900772_g7700000000000773_dist_diff_adaln_cshard_i_b4_s512_c256_v7x_i8_f32_1_alg».proof.Proof.KbRegions

noncomputable section

namespace Cert.Kernel.Steps

open Cert.Kernel Cert.Kernel.Gen Cert.Kernel.Spec Cert.Kernel.Mem
open Cert.Kernel.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (K : GSem nD τ sig → ℕ)

/-- A slot of one's own is the payload of the duty one pays at the barrier cell of the peer that will write it. -/
theorem barPay_intro (c c' : Dev nD) (e : Fin 7) (h : dst c' e = c) (f : Buf (Elt F) ((c : Thread nD τ).loc cc0_scratch1)) :
    slotPts c e f ⊢ (barPay c' e : sProp 𝕄) := by
  subst h; unfold barPay; iintro H; iexists f; iexact H

/-- The device `k+1` steps ahead has this device `k+1` steps behind it. -/
theorem src_dst (c : Dev nD) (k : Fin 7) : src (dst c k) k = c := Cert.Math.src_dst c k

/-- The `k`-th signal: one unit to the barrier cell of the device `k+1` steps ahead, paying its duty `rev k` with
    the slot that device's copy will write. -/
theorem wp_sig {α : Type} {Q : α → sProp 𝕄} {kk : PUnit → Prog (TpuEff nD τ sig (Elt F) Λ₀ .tc) α} (c n : Dev nD) (k : Fin 7) (hn : n = dst c k) (O : CellTallies nD τ sig Unit) (W : Waits sig Unit)
    (f : Buf (Elt F) ((c : Thread nD τ).loc cc0_scratch1)) :
    iprop(cellInv ER (Rd m) (K (barCell (dst c k))) (barCell (dst c k)) ∗ owes (c : Thread nD τ) (O + tallyAt (barCell (dst c k)) () 1) W
        ∗ dutyTok ER (barCell (dst c k)) 0 (rev k) ∗ slotPts c (rev k) f ∗ reached ER (barCell (dst c k)) 0)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS (1#32).toNat) kk) Q) := by
  subst hn
  have hpay : slotPts c (rev k) f ⊢ (Rd (F := F) m).payload (barCell (dst c k)) 0 (rev k) := by
    rw [payload_bar]; exact barPay_intro c (dst c k) (rev k) (dst_dst_rev c k) f
  refine (sep_mono_right (sep_mono_right (sep_mono_right (sep_mono_left hpay)))).trans ?_
  exact Rounds.wp_signal 𝒱₀ ER (Rd m) (c : Thread nD τ) none (dst := (dst c k : Thread nD τ)) (sem := barS) (r := 0) (d := rev k)
    (κ := K (barCell (dst c k))) (by rw [duties_bar]; exact Finset.mem_univ _) (amount_bar m (dst c k) (rev k)) () O rfl

/-- The barrier wait: seven units, the seven receive credits still owed; the round's payloads are the seven slots
    of the seven peers. -/
theorem wp_barwait {α : Type} {Q : α → sProp 𝕄} {kk : PUnit → Prog (TpuEff nD τ sig (Elt F) Λ₀ .tc) α} (c : Dev nD) (W : Waits sig Unit) :
    iprop(cellInv ER (Rd m) (K (barCell c)) (barCell c) ∗ cred (tallyAt (barCell c) () 7) ∗ owes (c : Thread nD τ) (owedR c 7) W
        ∗ levAts L lv ∗ atPos ER (barCell c) 0 ∅ 0)
      ⊢ iprop(((owes (c : Thread nD τ) (owedR c 7) (insert (SemLoc.reg barS, ()) W) ∗ atPos ER (barCell c) 1 ∅ 0 ∗ reached ER (barCell c) 1
            ∗ barPay c 0 ∗ barPay c 1 ∗ barPay c 2 ∗ barPay c 3 ∗ barPay c 4 ∗ barPay c 5 ∗ barPay c 6) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (7#32).toNat) kk) Q) := by
  refine (sep_mono_right (sep_mono_right (sep_mono_right (sep_mono_left (mayWait_bar c))))).trans ?_
  rw [← rest_bar m c]
  exact Rounds.wp_wait_rest_token 𝒱₀ ER (Rd m) (c : Thread nD τ) none (defs := defs₀ (F := F)) (Γ := .empty)
    (w := .semWait barS (7#32).toNat) (sm := .reg barS) (k' := 7) (Es := Set.univ) (κ := K (barCell c))
    (wpE_semWait_eq 𝒱₀ (c : Thread nD τ) none Set.univ) (Set.mem_univ _) () (O := owedR c 7) (W := W) (R := 0) (m := 0) (T := ∅)
    (by rw [Nat.zero_add, expect_bar])

/-- Owing nothing, a device may wait anywhere: the level evidence is empty. -/
theorem mayWait_nothing (c : Dev nD) (sm : SemLoc sig) (P : sProp 𝕄) :
    P ⊢ iprop(MayWait (c : Thread nD τ) sm () 0 ∗ P) := by
  rw [MayWait_zero]; exact (emp_sep (PROP := sProp 𝕄)).2

/-- The `k`-th receive wait, nothing owed: the round's one payload is slot `k` holding the statistics of the
    device `k+1` steps behind. -/
theorem wp_recvwait {α : Type} {Q : α → sProp 𝕄} {kk : PUnit → Prog (TpuEff nD τ sig (Elt F) Λ₀ .tc) α} (c : Dev nD) (k : Fin 7) {hsrc hdst} (W : Waits sig Unit) :
    iprop(cellInv ER (Rd m) (K (recvCell c k)) (recvCell c k) ∗ cred (tallyAt (recvCell c k) () N) ∗ owes (c : Thread nD τ) 0 W
        ∗ atPos ER (recvCell c k) 0 ∅ 0)
      ⊢ iprop(((owes (c : Thread nD τ) 0 (insert (SemLoc.dma (recvS k), ()) W) ∗ atPos ER (recvCell c k) 1 ∅ 0 ∗ reached ER (recvCell c k) 1
            ∗ slotPts c k (landed m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k) statsM (slotM k) hsrc hdst) kk) Q) := by
  have h := Rounds.wp_wait_rest_token 𝒱₀ ER (Rd m) (c : Thread nD τ) none (defs := defs₀ (F := F)) (Γ := .empty)
    (w := .waitDma2 (recvS k) statsM (slotM k) hsrc hdst) (sm := .dma (recvS k)) (k' := N) (Es := Set.univ) (κ := K (recvCell c k))
    (wpE_waitDma2_eq 𝒱₀ (c : Thread nD τ) none Set.univ) (Set.mem_univ _) (k := kk) (Q := Q) () (O := 0) (W := W) (R := 0) (m := 0) (T := ∅)
    (by rw [Nat.zero_add, expect_recv])
  rw [rest_recv] at h
  exact (sep_mono_right (sep_mono_right (sep_mono_right (mayWait_nothing c _ _)))).trans h

/-- The `k`-th send wait, nothing owed: the round's one payload is the share of the statistics the copy read through. -/
theorem wp_sendwait {α : Type} {Q : α → sProp 𝕄} {kk : PUnit → Prog (TpuEff nD τ sig (Elt F) Λ₀ .tc) α} (c : Dev nD) (k : Fin 7) {hsrc hdst} (W : Waits sig Unit) :
    iprop(cellInv ER (Rd m) (K (sendCell c k)) (sendCell c k) ∗ cred (tallyAt (sendCell c k) () N) ∗ owes (c : Thread nD τ) 0 W
        ∗ atPos ER (sendCell c k) 0 ∅ 0)
      ⊢ iprop(((owes (c : Thread nD τ) 0 (insert (SemLoc.dma (sendS k), ()) W) ∗ atPos ER (sendCell c k) 1 ∅ 0 ∗ reached ER (sendCell c k) 1
            ∗ statsPts c (cpShr k) (statsOf m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS k) (slotM k) statsM hsrc hdst) kk) Q) := by
  have h := Rounds.wp_wait_rest_token 𝒱₀ ER (Rd m) (c : Thread nD τ) none (defs := defs₀ (F := F)) (Γ := .empty)
    (w := .waitDma2 (sendS k) (slotM k) statsM hsrc hdst) (sm := .dma (sendS k)) (k' := N) (Es := Set.univ) (κ := K (sendCell c k))
    (wpE_waitDma2_eq 𝒱₀ (c : Thread nD τ) none Set.univ) (Set.mem_univ _) (k := kk) (Q := Q) () (O := 0) (W := W) (R := 0) (m := 0) (T := ∅)
    (by rw [Nat.zero_add, expect_send])
  rw [rest_send] at h
  exact (sep_mono_right (sep_mono_right (sep_mono_right (mayWait_nothing c _ _)))).trans h

/-- The copy into slot 0 of the device 1 step ahead. -/
theorem wp_cp_0 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 0 : Thread nD τ).loc cc0_scratch1)) :
    iprop(cellInv ER (Rd m) (K (sendCell c 0)) (sendCell c 0) ∗ cellInv ER (Rd m) (K (recvCell (dst c 0) 0)) (recvCell (dst c 0) 0)
        ∗ statsPts c (cpShr 0) (statsOf m c) ∗ slotPts (dst c 0) 0 fd ∗ owes (c : Thread nD τ) (O + tallyAt (recvCell (dst c 0) 0) () N) W
        ∗ dutyTok ER (sendCell c 0) 0 0 ∗ reached ER (sendCell c 0) 0 ∗ dutyTok ER (recvCell (dst c 0) 0) 0 0 ∗ reached ER (recvCell (dst c 0) 0) 0)
      ⊢ iprop(((cred (tallyAt (sendCell c 0) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 0) : Thread nD τ) (slotM 0) (.dma (sendS 0)) hsc) (.dma (recvS 0)) hsrc hdst hsem) kk) Q) :=
  Rounds.wp_send_pointsTo 𝒱₀ ER (Rd m) (c : Thread nD τ) none (defs := defs₀ (F := F)) (Γ := .empty) (c' := (dst c 0 : Thread nD τ))
    (src := statsM) (dst := slotM 0) (sS := .dma (sendS 0)) (sem := .dma (recvS 0)) (q := cpShr 0) (fs := statsOf m c) (fd := fd)
    (κ₁ := K (sendCell c 0)) (κ₂ := K (recvCell (dst c 0) 0)) (r₁ := 0) (r₂ := 0) (d₁ := 0) (d₂ := 0)
    (by rw [duties_send]; exact Finset.mem_singleton_self _) (by rw [duties_recv]; exact Finset.mem_singleton_self _)
    () () N rfl (amount_send m c 0 0) (amount_recv m (dst c 0) 0 0) O rfl (W := W)
    (by rw [payload_send]; exact BI.Entails.refl _)
    (by rw [payload_recv]; unfold recvPay; rw [← landed_eq_0 m (dst c 0) fd, src_dst]; exact BI.Entails.refl _)

/-- The copy into slot 1 of the device 2 steps ahead. -/
theorem wp_cp_1 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 1 : Thread nD τ).loc cc0_scratch1)) :
    iprop(cellInv ER (Rd m) (K (sendCell c 1)) (sendCell c 1) ∗ cellInv ER (Rd m) (K (recvCell (dst c 1) 1)) (recvCell (dst c 1) 1)
        ∗ statsPts c (cpShr 1) (statsOf m c) ∗ slotPts (dst c 1) 1 fd ∗ owes (c : Thread nD τ) (O + tallyAt (recvCell (dst c 1) 1) () N) W
        ∗ dutyTok ER (sendCell c 1) 0 0 ∗ reached ER (sendCell c 1) 0 ∗ dutyTok ER (recvCell (dst c 1) 1) 0 0 ∗ reached ER (recvCell (dst c 1) 1) 0)
      ⊢ iprop(((cred (tallyAt (sendCell c 1) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 1) : Thread nD τ) (slotM 1) (.dma (sendS 1)) hsc) (.dma (recvS 1)) hsrc hdst hsem) kk) Q) :=
  Rounds.wp_send_pointsTo 𝒱₀ ER (Rd m) (c : Thread nD τ) none (defs := defs₀ (F := F)) (Γ := .empty) (c' := (dst c 1 : Thread nD τ))
    (src := statsM) (dst := slotM 1) (sS := .dma (sendS 1)) (sem := .dma (recvS 1)) (q := cpShr 1) (fs := statsOf m c) (fd := fd)
    (κ₁ := K (sendCell c 1)) (κ₂ := K (recvCell (dst c 1) 1)) (r₁ := 0) (r₂ := 0) (d₁ := 0) (d₂ := 0)
    (by rw [duties_send]; exact Finset.mem_singleton_self _) (by rw [duties_recv]; exact Finset.mem_singleton_self _)
    () () N rfl (amount_send m c 1 0) (amount_recv m (dst c 1) 1 0) O rfl (W := W)
    (by rw [payload_send]; exact BI.Entails.refl _)
    (by rw [payload_recv]; unfold recvPay; rw [← landed_eq_1 m (dst c 1) fd, src_dst]; exact BI.Entails.refl _)

/-- The copy into slot 2 of the device 3 steps ahead. -/
theorem wp_cp_2 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 2 : Thread nD τ).loc cc0_scratch1)) :
    iprop(cellInv ER (Rd m) (K (sendCell c 2)) (sendCell c 2) ∗ cellInv ER (Rd m) (K (recvCell (dst c 2) 2)) (recvCell (dst c 2) 2)
        ∗ statsPts c (cpShr 2) (statsOf m c) ∗ slotPts (dst c 2) 2 fd ∗ owes (c : Thread nD τ) (O + tallyAt (recvCell (dst c 2) 2) () N) W
        ∗ dutyTok ER (sendCell c 2) 0 0 ∗ reached ER (sendCell c 2) 0 ∗ dutyTok ER (recvCell (dst c 2) 2) 0 0 ∗ reached ER (recvCell (dst c 2) 2) 0)
      ⊢ iprop(((cred (tallyAt (sendCell c 2) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 2) : Thread nD τ) (slotM 2) (.dma (sendS 2)) hsc) (.dma (recvS 2)) hsrc hdst hsem) kk) Q) :=
  Rounds.wp_send_pointsTo 𝒱₀ ER (Rd m) (c : Thread nD τ) none (defs := defs₀ (F := F)) (Γ := .empty) (c' := (dst c 2 : Thread nD τ))
    (src := statsM) (dst := slotM 2) (sS := .dma (sendS 2)) (sem := .dma (recvS 2)) (q := cpShr 2) (fs := statsOf m c) (fd := fd)
    (κ₁ := K (sendCell c 2)) (κ₂ := K (recvCell (dst c 2) 2)) (r₁ := 0) (r₂ := 0) (d₁ := 0) (d₂ := 0)
    (by rw [duties_send]; exact Finset.mem_singleton_self _) (by rw [duties_recv]; exact Finset.mem_singleton_self _)
    () () N rfl (amount_send m c 2 0) (amount_recv m (dst c 2) 2 0) O rfl (W := W)
    (by rw [payload_send]; exact BI.Entails.refl _)
    (by rw [payload_recv]; unfold recvPay; rw [← landed_eq_2 m (dst c 2) fd, src_dst]; exact BI.Entails.refl _)

/-- The copy into slot 3 of the device 4 steps ahead. -/
theorem wp_cp_3 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 3 : Thread nD τ).loc cc0_scratch1)) :
    iprop(cellInv ER (Rd m) (K (sendCell c 3)) (sendCell c 3) ∗ cellInv ER (Rd m) (K (recvCell (dst c 3) 3)) (recvCell (dst c 3) 3)
        ∗ statsPts c (cpShr 3) (statsOf m c) ∗ slotPts (dst c 3) 3 fd ∗ owes (c : Thread nD τ) (O + tallyAt (recvCell (dst c 3) 3) () N) W
        ∗ dutyTok ER (sendCell c 3) 0 0 ∗ reached ER (sendCell c 3) 0 ∗ dutyTok ER (recvCell (dst c 3) 3) 0 0 ∗ reached ER (recvCell (dst c 3) 3) 0)
      ⊢ iprop(((cred (tallyAt (sendCell c 3) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 3) : Thread nD τ) (slotM 3) (.dma (sendS 3)) hsc) (.dma (recvS 3)) hsrc hdst hsem) kk) Q) :=
  Rounds.wp_send_pointsTo 𝒱₀ ER (Rd m) (c : Thread nD τ) none (defs := defs₀ (F := F)) (Γ := .empty) (c' := (dst c 3 : Thread nD τ))
    (src := statsM) (dst := slotM 3) (sS := .dma (sendS 3)) (sem := .dma (recvS 3)) (q := cpShr 3) (fs := statsOf m c) (fd := fd)
    (κ₁ := K (sendCell c 3)) (κ₂ := K (recvCell (dst c 3) 3)) (r₁ := 0) (r₂ := 0) (d₁ := 0) (d₂ := 0)
    (by rw [duties_send]; exact Finset.mem_singleton_self _) (by rw [duties_recv]; exact Finset.mem_singleton_self _)
    () () N rfl (amount_send m c 3 0) (amount_recv m (dst c 3) 3 0) O rfl (W := W)
    (by rw [payload_send]; exact BI.Entails.refl _)
    (by rw [payload_recv]; unfold recvPay; rw [← landed_eq_3 m (dst c 3) fd, src_dst]; exact BI.Entails.refl _)

/-- The copy into slot 4 of the device 5 steps ahead. -/
theorem wp_cp_4 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 4 : Thread nD τ).loc cc0_scratch1)) :
    iprop(cellInv ER (Rd m) (K (sendCell c 4)) (sendCell c 4) ∗ cellInv ER (Rd m) (K (recvCell (dst c 4) 4)) (recvCell (dst c 4) 4)
        ∗ statsPts c (cpShr 4) (statsOf m c) ∗ slotPts (dst c 4) 4 fd ∗ owes (c : Thread nD τ) (O + tallyAt (recvCell (dst c 4) 4) () N) W
        ∗ dutyTok ER (sendCell c 4) 0 0 ∗ reached ER (sendCell c 4) 0 ∗ dutyTok ER (recvCell (dst c 4) 4) 0 0 ∗ reached ER (recvCell (dst c 4) 4) 0)
      ⊢ iprop(((cred (tallyAt (sendCell c 4) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 4) : Thread nD τ) (slotM 4) (.dma (sendS 4)) hsc) (.dma (recvS 4)) hsrc hdst hsem) kk) Q) :=
  Rounds.wp_send_pointsTo 𝒱₀ ER (Rd m) (c : Thread nD τ) none (defs := defs₀ (F := F)) (Γ := .empty) (c' := (dst c 4 : Thread nD τ))
    (src := statsM) (dst := slotM 4) (sS := .dma (sendS 4)) (sem := .dma (recvS 4)) (q := cpShr 4) (fs := statsOf m c) (fd := fd)
    (κ₁ := K (sendCell c 4)) (κ₂ := K (recvCell (dst c 4) 4)) (r₁ := 0) (r₂ := 0) (d₁ := 0) (d₂ := 0)
    (by rw [duties_send]; exact Finset.mem_singleton_self _) (by rw [duties_recv]; exact Finset.mem_singleton_self _)
    () () N rfl (amount_send m c 4 0) (amount_recv m (dst c 4) 4 0) O rfl (W := W)
    (by rw [payload_send]; exact BI.Entails.refl _)
    (by rw [payload_recv]; unfold recvPay; rw [← landed_eq_4 m (dst c 4) fd, src_dst]; exact BI.Entails.refl _)

/-- The copy into slot 5 of the device 6 steps ahead. -/
theorem wp_cp_5 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 5 : Thread nD τ).loc cc0_scratch1)) :
    iprop(cellInv ER (Rd m) (K (sendCell c 5)) (sendCell c 5) ∗ cellInv ER (Rd m) (K (recvCell (dst c 5) 5)) (recvCell (dst c 5) 5)
        ∗ statsPts c (cpShr 5) (statsOf m c) ∗ slotPts (dst c 5) 5 fd ∗ owes (c : Thread nD τ) (O + tallyAt (recvCell (dst c 5) 5) () N) W
        ∗ dutyTok ER (sendCell c 5) 0 0 ∗ reached ER (sendCell c 5) 0 ∗ dutyTok ER (recvCell (dst c 5) 5) 0 0 ∗ reached ER (recvCell (dst c 5) 5) 0)
      ⊢ iprop(((cred (tallyAt (sendCell c 5) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 5) : Thread nD τ) (slotM 5) (.dma (sendS 5)) hsc) (.dma (recvS 5)) hsrc hdst hsem) kk) Q) :=
  Rounds.wp_send_pointsTo 𝒱₀ ER (Rd m) (c : Thread nD τ) none (defs := defs₀ (F := F)) (Γ := .empty) (c' := (dst c 5 : Thread nD τ))
    (src := statsM) (dst := slotM 5) (sS := .dma (sendS 5)) (sem := .dma (recvS 5)) (q := cpShr 5) (fs := statsOf m c) (fd := fd)
    (κ₁ := K (sendCell c 5)) (κ₂ := K (recvCell (dst c 5) 5)) (r₁ := 0) (r₂ := 0) (d₁ := 0) (d₂ := 0)
    (by rw [duties_send]; exact Finset.mem_singleton_self _) (by rw [duties_recv]; exact Finset.mem_singleton_self _)
    () () N rfl (amount_send m c 5 0) (amount_recv m (dst c 5) 5 0) O rfl (W := W)
    (by rw [payload_send]; exact BI.Entails.refl _)
    (by rw [payload_recv]; unfold recvPay; rw [← landed_eq_5 m (dst c 5) fd, src_dst]; exact BI.Entails.refl _)

/-- The copy into slot 6 of the device 7 steps ahead. -/
theorem wp_cp_6 {α : Type} {Q : α → sProp 𝕄} {kk : PUnit → Prog (TpuEff nD τ sig (Elt F) Λ₀ .tc) α} (c : Dev nD) {hsc hsrc hdst hsem} (O : CellTallies nD τ sig Unit) (W : Waits sig Unit)
    (fd : Buf (Elt F) ((dst c 6 : Thread nD τ).loc cc0_scratch1)) :
    iprop(cellInv ER (Rd m) (K (sendCell c 6)) (sendCell c 6) ∗ cellInv ER (Rd m) (K (recvCell (dst c 6) 6)) (recvCell (dst c 6) 6)
        ∗ statsPts c (cpShr 6) (statsOf m c) ∗ slotPts (dst c 6) 6 fd ∗ owes (c : Thread nD τ) (O + tallyAt (recvCell (dst c 6) 6) () N) W
        ∗ dutyTok ER (sendCell c 6) 0 0 ∗ reached ER (sendCell c 6) 0 ∗ dutyTok ER (recvCell (dst c 6) 6) 0 0 ∗ reached ER (recvCell (dst c 6) 6) 0)
      ⊢ iprop(((cred (tallyAt (sendCell c 6) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc (dst c 6) : Thread nD τ) (slotM 6) (.dma (sendS 6)) hsc) (.dma (recvS 6)) hsrc hdst hsem) kk) Q) :=
  Rounds.wp_send_pointsTo 𝒱₀ ER (Rd m) (c : Thread nD τ) none (defs := defs₀ (F := F)) (Γ := .empty) (c' := (dst c 6 : Thread nD τ))
    (src := statsM) (dst := slotM 6) (sS := .dma (sendS 6)) (sem := .dma (recvS 6)) (q := cpShr 6) (fs := statsOf m c) (fd := fd)
    (κ₁ := K (sendCell c 6)) (κ₂ := K (recvCell (dst c 6) 6)) (r₁ := 0) (r₂ := 0) (d₁ := 0) (d₂ := 0)
    (by rw [duties_send]; exact Finset.mem_singleton_self _) (by rw [duties_recv]; exact Finset.mem_singleton_self _)
    () () N rfl (amount_send m c 6 0) (amount_recv m (dst c 6) 6 0) O rfl (W := W)
    (by rw [payload_send]; exact BI.Entails.refl _)
    (by rw [payload_recv]; unfold recvPay; rw [← landed_eq_6 m (dst c 6) fd, src_dst]; exact BI.Entails.refl _)

/-- The `k`-th copy: the statistics into slot `k` of the device `k+1` steps ahead, through a share of the source that
    the send cell hands back; it pays that device's receive cell with the slot rewritten, which is the slot landed. -/
theorem wp_cp {α : Type} {Q : α → sProp 𝕄} {kk : PUnit → Prog (TpuEff nD τ sig (Elt F) Λ₀ .tc) α} (c n : Dev nD) (k : Fin 7) (hn : n = dst c k) {hsc hsrc hdst hsem} (O : CellTallies nD τ sig Unit) (W : Waits sig Unit)
    (fd : Buf (Elt F) ((dst c k : Thread nD τ).loc cc0_scratch1)) :
    iprop(cellInv ER (Rd m) (K (sendCell c k)) (sendCell c k) ∗ cellInv ER (Rd m) (K (recvCell (dst c k) k)) (recvCell (dst c k) k)
        ∗ statsPts c (cpShr k) (statsOf m c) ∗ slotPts (dst c k) k fd ∗ owes (c : Thread nD τ) (O + tallyAt (recvCell (dst c k) k) () N) W
        ∗ dutyTok ER (sendCell c k) 0 0 ∗ reached ER (sendCell c k) 0 ∗ dutyTok ER (recvCell (dst c k) k) 0 0 ∗ reached ER (recvCell (dst c k) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma statsM (.remote (Dev.tc n : Thread nD τ) (slotM k) (.dma (sendS k)) hsc) (.dma (recvS k)) hsrc hdst hsem) kk) Q) := by
  subst hn
  fin_cases k
  · exact wp_cp_0 m K c O W fd
  · exact wp_cp_1 m K c O W fd
  · exact wp_cp_2 m K c O W fd
  · exact wp_cp_3 m K c O W fd
  · exact wp_cp_4 m K c O W fd
  · exact wp_cp_5 m K c O W fd
  · exact wp_cp_6 m K c O W fd

/-- info: 'Cert.Kernel.Steps.wp_cp' depends on axioms: [propext, Classical.choice, Quot.sound] -/
#guard_msgs in #print axioms wp_cp

end Steps

end Cert.Kernel.Steps

end
-- ==== Proof.KbStage.lean ====
/- An input window of the one-point grid covers its whole array: its block sits at block index
   zero and has the array's own sizes, so what the block reads off the launch memory is the
   device's argument array itself. -/
import proofs.«900772_g7700000000000773_dist_diff_adaln_cshard_i_b4_s512_c256_v7x_i8_f32_1_alg».proof.Proof.KbProto

noncomputable section

namespace Cert.Kernel.Proto

open Cert.Kernel Cert.Kernel.Gen Cert.Kernel.Spec Cert.Kernel.Mem
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The four input blocks

The block's rectangle has offsets `0 * size` and the array's sizes: the unit-stride rectangle of
the buffer's own sizes at offset zero, through which a read returns the contents. -/

theorem xstg_eq (c : Dev nD) : xstg m ρ c = xOf m c := by
  unfold xstg xOf
  exact Memref.read_access_unit_zero (Elt F) main_arg0
    (off := fun a => win0_0.index (0 : Fin 1) a * win0_0.size a) (funext fun _ => Nat.zero_mul _) _ _

theorem tstg_eq (c : Dev nD) : tstg m ρ c = tOf m c := by
  unfold tstg tOf
  exact Memref.read_access_unit_zero (Elt F) main_arg1
    (off := fun a => win0_1.index (0 : Fin 1) a * win0_1.size a) (funext fun _ => Nat.zero_mul _) _ _

theorem wsstg_eq (c : Dev nD) : wsstg m ρ c = wsOf m c := by
  unfold wsstg wsOf
  exact Memref.read_access_unit_zero (Elt F) main_arg2
    (off := fun a => win0_2.index (0 : Fin 1) a * win0_2.size a) (funext fun _ => Nat.zero_mul _) _ _

theorem wshstg_eq (c : Dev nD) : wshstg m ρ c = wshOf m c := by
  unfold wshstg wshOf
  exact Memref.read_access_unit_zero (Elt F) main_arg3
    (off := fun a => win0_3.index (0 : Fin 1) a * win0_3.size a) (funext fun _ => Nat.zero_mul _) _ _

end Cert.Kernel.Proto

end
-- ==== Proof.KbBody.lean ====
/- One device's body, stepped once at a symbolic device: the statistics of its block, the entry
   handshake (seven signals, one wait for seven units, each unit bringing the slot its sender will
   receive into), the seven copies (each reading the statistics scratch through a share of its
   own), the projections, the seven receive waits (each bringing a slot holding a peer's statistics)
   with the totals added up, the seven send waits (each bringing a share back), and the store of the
   normalised, scaled and shifted block. -/
import proofs.«900772_g7700000000000773_dist_diff_adaln_cshard_i_b4_s512_c256_v7x_i8_f32_1_alg».proof.Proof.KbTables
import proofs.«900772_g7700000000000773_dist_diff_adaln_cshard_i_b4_s512_c256_v7x_i8_f32_1_alg».proof.Proof.KbRegions
import proofs.«900772_g7700000000000773_dist_diff_adaln_cshard_i_b4_s512_c256_v7x_i8_f32_1_alg».proof.Proof.KbSteps
import proofs.«900772_g7700000000000773_dist_diff_adaln_cshard_i_b4_s512_c256_v7x_i8_f32_1_alg».proof.Proof.KbStage
import proofs.«900772_g7700000000000773_dist_diff_adaln_cshard_i_b4_s512_c256_v7x_i8_f32_1_alg».proof.Proof.Gen.Kernel.Points

noncomputable section

namespace Cert.Kernel.Body

open Cert.Kernel Cert.Kernel.Gen Cert.Kernel.Spec Cert.Kernel.Mem Cert.Kernel.Proto Cert.Kernel.Steps
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem read_whole_x (g : BufTy.Contents (Elt F) (xM : Memref sig .tc .vmem S4x512x256 .f32).view.ty) : View.read (Elt F) (xM : Memref sig .tc .vmem S4x512x256 .f32).view g = g := View.read_whole _ _
omit [FloatOps F] in
theorem read_whole_o (g : BufTy.Contents (Elt F) (oM : Memref sig .tc .vmem S4x512x256 .f32).view.ty) : View.read (Elt F) (oM : Memref sig .tc .vmem S4x512x256 .f32).view g = g := View.read_whole _ _
omit [FloatOps F] in
theorem read_whole_t (g : BufTy.Contents (Elt F) (tM : Memref sig .tc .vmem S4x128 .f32).view.ty) : View.read (Elt F) (tM : Memref sig .tc .vmem S4x128 .f32).view g = g := View.read_whole _ _
omit [FloatOps F] in
theorem read_whole_ws (g : BufTy.Contents (Elt F) (wsM : Memref sig .tc .vmem S128x256 .f32).view.ty) : View.read (Elt F) (wsM : Memref sig .tc .vmem S128x256 .f32).view g = g := View.read_whole _ _
omit [FloatOps F] in
theorem read_whole_wsh (g : BufTy.Contents (Elt F) (wshM : Memref sig .tc .vmem S128x256 .f32).view.ty) : View.read (Elt F) (wshM : Memref sig .tc .vmem S128x256 .f32).view g = g := View.read_whole _ _
omit [FloatOps F] in
theorem statsPts_def (c : Dev nD) (q : PosShare TreeShare) (f : Buf (Elt F) ((statsM : Memref sig .tc .vmem S2x4x512 .f32).view.loc (c : Thread nD τ))) :
    statsPts c q f = ((statsM : Memref sig .tc .vmem S2x4x512 .f32).view.loc (c : Thread nD τ) ↦[(statsM : Memref sig .tc .vmem S2x4x512 .f32).view.set]{q} f : sProp 𝕄) := rfl

omit [FloatOps F] in
theorem slotPts_0 (c : Dev nD) (f : Buf (Elt F) ((c : Thread nD τ).loc cc0_scratch1)) :
    slotPts c 0 f = ((slotM 0).view.loc (c : Thread nD τ) ↦[(slotM 0).view.set]{fullShare} f : sProp 𝕄) := rfl
omit [FloatOps F] in
theorem slotPts_1 (c : Dev nD) (f : Buf (Elt F) ((c : Thread nD τ).loc cc0_scratch1)) :
    slotPts c 1 f = ((slotM 1).view.loc (c : Thread nD τ) ↦[(slotM 1).view.set]{fullShare} f : sProp 𝕄) := rfl
omit [FloatOps F] in
theorem slotPts_2 (c : Dev nD) (f : Buf (Elt F) ((c : Thread nD τ).loc cc0_scratch1)) :
    slotPts c 2 f = ((slotM 2).view.loc (c : Thread nD τ) ↦[(slotM 2).view.set]{fullShare} f : sProp 𝕄) := rfl
omit [FloatOps F] in
theorem slotPts_3 (c : Dev nD) (f : Buf (Elt F) ((c : Thread nD τ).loc cc0_scratch1)) :
    slotPts c 3 f = ((slotM 3).view.loc (c : Thread nD τ) ↦[(slotM 3).view.set]{fullShare} f : sProp 𝕄) := rfl
omit [FloatOps F] in
theorem slotPts_4 (c : Dev nD) (f : Buf (Elt F) ((c : Thread nD τ).loc cc0_scratch1)) :
    slotPts c 4 f = ((slotM 4).view.loc (c : Thread nD τ) ↦[(slotM 4).view.set]{fullShare} f : sProp 𝕄) := rfl
omit [FloatOps F] in
theorem slotPts_5 (c : Dev nD) (f : Buf (Elt F) ((c : Thread nD τ).loc cc0_scratch1)) :
    slotPts c 5 f = ((slotM 5).view.loc (c : Thread nD τ) ↦[(slotM 5).view.set]{fullShare} f : sProp 𝕄) := rfl
omit [FloatOps F] in
theorem slotPts_6 (c : Dev nD) (f : Buf (Elt F) ((c : Thread nD τ).loc cc0_scratch1)) :
    slotPts c 6 f = ((slotM 6).view.loc (c : Thread nD τ) ↦[(slotM 6).view.set]{fullShare} f : sProp 𝕄) := rfl

theorem recv_pay_0 (c : Dev nD) : bigSep ((Rd (F := F) m).duties (recvCell c 0) 0) (fun d => (Rd (F := F) m).payload (recvCell c 0) 0 d)
    = ((slotM 0).view.loc (c : Thread nD τ) ↦[(slotM 0).view.set]{fullShare} landed m c : sProp 𝕄) := by
  rw [duties_recv, bigSep_singleton, payload_recv]; rfl
theorem send_pay_0 (c : Dev nD) : bigSep ((Rd (F := F) m).duties (sendCell c 0) 0) (fun d => (Rd (F := F) m).payload (sendCell c 0) 0 d)
    = statsPts c (cpShr 0) (statsOf m c) := by
  rw [duties_send, bigSep_singleton, payload_send]; rfl
theorem recv_pay_1 (c : Dev nD) : bigSep ((Rd (F := F) m).duties (recvCell c 1) 0) (fun d => (Rd (F := F) m).payload (recvCell c 1) 0 d)
    = ((slotM 1).view.loc (c : Thread nD τ) ↦[(slotM 1).view.set]{fullShare} landed m c : sProp 𝕄) := by
  rw [duties_recv, bigSep_singleton, payload_recv]; rfl
theorem send_pay_1 (c : Dev nD) : bigSep ((Rd (F := F) m).duties (sendCell c 1) 0) (fun d => (Rd (F := F) m).payload (sendCell c 1) 0 d)
    = statsPts c (cpShr 1) (statsOf m c) := by
  rw [duties_send, bigSep_singleton, payload_send]; rfl
theorem recv_pay_2 (c : Dev nD) : bigSep ((Rd (F := F) m).duties (recvCell c 2) 0) (fun d => (Rd (F := F) m).payload (recvCell c 2) 0 d)
    = ((slotM 2).view.loc (c : Thread nD τ) ↦[(slotM 2).view.set]{fullShare} landed m c : sProp 𝕄) := by
  rw [duties_recv, bigSep_singleton, payload_recv]; rfl
theorem send_pay_2 (c : Dev nD) : bigSep ((Rd (F := F) m).duties (sendCell c 2) 0) (fun d => (Rd (F := F) m).payload (sendCell c 2) 0 d)
    = statsPts c (cpShr 2) (statsOf m c) := by
  rw [duties_send, bigSep_singleton, payload_send]; rfl
theorem recv_pay_3 (c : Dev nD) : bigSep ((Rd (F := F) m).duties (recvCell c 3) 0) (fun d => (Rd (F := F) m).payload (recvCell c 3) 0 d)
    = ((slotM 3).view.loc (c : Thread nD τ) ↦[(slotM 3).view.set]{fullShare} landed m c : sProp 𝕄) := by
  rw [duties_recv, bigSep_singleton, payload_recv]; rfl
theorem send_pay_3 (c : Dev nD) : bigSep ((Rd (F := F) m).duties (sendCell c 3) 0) (fun d => (Rd (F := F) m).payload (sendCell c 3) 0 d)
    = statsPts c (cpShr 3) (statsOf m c) := by
  rw [duties_send, bigSep_singleton, payload_send]; rfl
theorem recv_pay_4 (c : Dev nD) : bigSep ((Rd (F := F) m).duties (recvCell c 4) 0) (fun d => (Rd (F := F) m).payload (recvCell c 4) 0 d)
    = ((slotM 4).view.loc (c : Thread nD τ) ↦[(slotM 4).view.set]{fullShare} landed m c : sProp 𝕄) := by
  rw [duties_recv, bigSep_singleton, payload_recv]; rfl
theorem send_pay_4 (c : Dev nD) : bigSep ((Rd (F := F) m).duties (sendCell c 4) 0) (fun d => (Rd (F := F) m).payload (sendCell c 4) 0 d)
    = statsPts c (cpShr 4) (statsOf m c) := by
  rw [duties_send, bigSep_singleton, payload_send]; rfl
theorem recv_pay_5 (c : Dev nD) : bigSep ((Rd (F := F) m).duties (recvCell c 5) 0) (fun d => (Rd (F := F) m).payload (recvCell c 5) 0 d)
    = ((slotM 5).view.loc (c : Thread nD τ) ↦[(slotM 5).view.set]{fullShare} landed m c : sProp 𝕄) := by
  rw [duties_recv, bigSep_singleton, payload_recv]; rfl
theorem send_pay_5 (c : Dev nD) : bigSep ((Rd (F := F) m).duties (sendCell c 5) 0) (fun d => (Rd (F := F) m).payload (sendCell c 5) 0 d)
    = statsPts c (cpShr 5) (statsOf m c) := by
  rw [duties_send, bigSep_singleton, payload_send]; rfl
theorem recv_pay_6 (c : Dev nD) : bigSep ((Rd (F := F) m).duties (recvCell c 6) 0) (fun d => (Rd (F := F) m).payload (recvCell c 6) 0 d)
    = ((slotM 6).view.loc (c : Thread nD τ) ↦[(slotM 6).view.set]{fullShare} landed m c : sProp 𝕄) := by
  rw [duties_recv, bigSep_singleton, payload_recv]; rfl
theorem send_pay_6 (c : Dev nD) : bigSep ((Rd (F := F) m).duties (sendCell c 6) 0) (fun d => (Rd (F := F) m).payload (sendCell c 6) 0 d)
    = statsPts c (cpShr 6) (statsOf m c) := by
  rw [duties_send, bigSep_singleton, payload_send]; rfl

/-- What is owed, one payment at a time: the seven signals, then the seven copies. -/
theorem owed_s0 (c : Dev nD) : owedR c 14 = owedR c 13 + tallyAt (barCell (dst c 0)) () 1 := owedR_succ c 13 (by decide)
theorem owed_s1 (c : Dev nD) : owedR c 13 = owedR c 12 + tallyAt (barCell (dst c 1)) () 1 := owedR_succ c 12 (by decide)
theorem owed_s2 (c : Dev nD) : owedR c 12 = owedR c 11 + tallyAt (barCell (dst c 2)) () 1 := owedR_succ c 11 (by decide)
theorem owed_s3 (c : Dev nD) : owedR c 11 = owedR c 10 + tallyAt (barCell (dst c 3)) () 1 := owedR_succ c 10 (by decide)
theorem owed_s4 (c : Dev nD) : owedR c 10 = owedR c 9 + tallyAt (barCell (dst c 4)) () 1 := owedR_succ c 9 (by decide)
theorem owed_s5 (c : Dev nD) : owedR c 9 = owedR c 8 + tallyAt (barCell (dst c 5)) () 1 := owedR_succ c 8 (by decide)
theorem owed_s6 (c : Dev nD) : owedR c 8 = owedR c 7 + tallyAt (barCell (dst c 6)) () 1 := owedR_succ c 7 (by decide)
theorem owed_c0 (c : Dev nD) : owedR c 7 = owedR c 6 + tallyAt (recvCell (dst c 0) 0) () N := owedR_succ c 6 (by decide)
theorem owed_c1 (c : Dev nD) : owedR c 6 = owedR c 5 + tallyAt (recvCell (dst c 1) 1) () N := owedR_succ c 5 (by decide)
theorem owed_c2 (c : Dev nD) : owedR c 5 = owedR c 4 + tallyAt (recvCell (dst c 2) 2) () N := owedR_succ c 4 (by decide)
theorem owed_c3 (c : Dev nD) : owedR c 4 = owedR c 3 + tallyAt (recvCell (dst c 3) 3) () N := owedR_succ c 3 (by decide)
theorem owed_c4 (c : Dev nD) : owedR c 3 = owedR c 2 + tallyAt (recvCell (dst c 4) 4) () N := owedR_succ c 2 (by decide)
theorem owed_c5 (c : Dev nD) : owedR c 2 = owedR c 1 + tallyAt (recvCell (dst c 5) 5) () N := owedR_succ c 1 (by decide)
theorem owed_c6 (c : Dev nD) : owedR c 1 = owedR c 0 + tallyAt (recvCell (dst c 6) 6) () N := owedR_succ c 0 (by decide)
theorem owed_0 (c : Dev nD) : owedR c 0 = 0 := rfl
theorem O₀_eq (c : Dev nD) : O₀ c = owedR c 14 := rfl

omit [FloatOps F] in
theorem statsPts_whole (c : Dev nD) (f : Buf (Elt F) ((c : Thread nD τ).loc cc0_scratch0)) :
    statsPts c fullShare f = (((c : Thread nD τ).loc cc0_scratch0) ↦{fullShare} f : sProp 𝕄) := by unfold statsPts; rw [View.set_whole]

/-- What the body starts from on device `c`: the protocol's ghost state at names `K`, the credit of its
    barrier's seven units and of its seven receive cells, the levels, the two scratch buffers, what it owes,
    and the five staging buffers. -/
def bodyPre (K : GSem nD τ sig → ℕ) (c : Dev nD) : sProp 𝕄 :=
  iprop((ghost m K c ∗ cred (tallyAt (barCell c) () 7) ∗ (bigSep Finset.univ fun k : Fin 7 => cred (tallyAt (recvCell c k) () N)) ∗ levAts L lv ∗ scratch c)
    ∗ (dats m ρ 0 c).owesAt () t₀.castSucc
    ∗ (∃ d, owns (c : Thread nD τ) xM fullShare ((dats m ρ 0 c).before (0 : Fin 5) t₀ d))
    ∗ (∃ d, owns (c : Thread nD τ) tM fullShare ((dats m ρ 0 c).before (1 : Fin 5) t₀ d))
    ∗ (∃ d, owns (c : Thread nD τ) wsM fullShare ((dats m ρ 0 c).before (2 : Fin 5) t₀ d))
    ∗ (∃ d, owns (c : Thread nD τ) wshM fullShare ((dats m ρ 0 c).before (3 : Fin 5) t₀ d))
    ∗ (∃ d, owns (c : Thread nD τ) oM fullShare ((dats m ρ 0 c).before (4 : Fin 5) t₀ d)))

def bodyPost (c : Dev nD) : sProp 𝕄 :=
  iprop(Φ₁ c ∗ (dats m ρ 0 c).owesAt () t₀.succ
    ∗ owns (c : Thread nD τ) xM fullShare (xstg m ρ c) ∗ owns (c : Thread nD τ) tM fullShare (tstg m ρ c)
    ∗ owns (c : Thread nD τ) wsM fullShare (wsstg m ρ c) ∗ owns (c : Thread nD τ) wshM fullShare (wshstg m ρ c)
    ∗ owns (c : Thread nD τ) oM fullShare (outAt m c))

set_option maxHeartbeats 4000000 in
theorem sound_body (K : GSem nD τ sig → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  unfold bodyPre Proto.ghost Proto.invs Proto.marks Proto.linear Proto.scratch
  rw [bigSep_fin7, bigSep_fin7, bigSep_fin7, bigSep_fin7, bigSep_fin7]
  unfold owns
  iintro ⟨⟨⟨⟨⟨#HIbar, ⟨#HIs0, #HIr0, #HIb0, #HId0⟩, ⟨#HIs1, #HIr1, #HIb1, #HId1⟩, ⟨#HIs2, #HIr2, #HIb2, #HId2⟩, ⟨#HIs3, #HIr3, #HIb3, #HId3⟩, ⟨#HIs4, #HIr4, #HIb4, #HId4⟩, ⟨#HIs5, #HIr5, #HIb5, #HId5⟩, ⟨#HIs6, #HIr6, #HIb6, #HId6⟩⟩,
      ⟨⟨#HRb0, #HRd0, #HRs0, #HRr0⟩, ⟨#HRb1, #HRd1, #HRs1, #HRr1⟩, ⟨#HRb2, #HRd2, #HRs2, #HRr2⟩, ⟨#HRb3, #HRd3, #HRs3, #HRr3⟩, ⟨#HRb4, #HRd4, #HRs4, #HRr4⟩, ⟨#HRb5, #HRd5, #HRs5, #HRr5⟩, ⟨#HRb6, #HRd6, #HRs6, #HRr6⟩⟩,
      HatB, ⟨⟨HaS0, HaR0⟩, ⟨HaS1, HaR1⟩, ⟨HaS2, HaR2⟩, ⟨HaS3, HaR3⟩, ⟨HaS4, HaR4⟩, ⟨HaS5, HaR5⟩, ⟨HaS6, HaR6⟩⟩,
      ⟨⟨HtB0, HtR0, HtS0⟩, ⟨HtB1, HtR1, HtS1⟩, ⟨HtB2, HtR2, HtS2⟩, ⟨HtB3, HtR3, HtS3⟩, ⟨HtB4, HtR4, HtS4⟩, ⟨HtB5, HtR5, HtS5⟩, ⟨HtB6, HtR6, HtS6⟩⟩⟩,
      HcB, ⟨Hc0, Hc1, Hc2, Hc3, Hc4, Hc5, Hc6⟩, #Hlev, ⟨⟨%fs, Hs⟩, ⟨%fc, Hcm⟩⟩⟩,
    Ho, ⟨%d0, %g0, %hg0, Hx⟩, ⟨%d1, %g1, %hg1, Htt⟩, ⟨%d2, %g2, %hg2, Hws⟩, ⟨%d3, %g3, %hg3, Hwsh⟩, ⟨%d4, %g4, %hg4, Hout⟩⟩, Hk⟩
  -- what the input staging buffers hold: each window's block is fetched at the one point
  have hb0 : (dats m ρ 0 c).before (0 : Fin 5) t₀ d0 = xstg m ρ c := by unfold Dat.before; rw [if_pos (fetch0_0 t₀)]; rfl
  have hb1 : (dats m ρ 0 c).before (1 : Fin 5) t₀ d1 = tstg m ρ c := by unfold Dat.before; rw [if_pos (fetch0_1 t₀)]; rfl
  have hb2 : (dats m ρ 0 c).before (2 : Fin 5) t₀ d2 = wsstg m ρ c := by unfold Dat.before; rw [if_pos (fetch0_2 t₀)]; rfl
  have hb3 : (dats m ρ 0 c).before (3 : Fin 5) t₀ d3 = wshstg m ρ c := by unfold Dat.before; rw [if_pos (fetch0_3 t₀)]; rfl
  rw [hb0] at hg0; rw [hb1] at hg1; rw [hb2] at hg2; rw [hb3] at hg3
  unfold Dat.owesAt Pipeline.owesWithin
  icases Ho with ⟨%W, %hW, HO⟩
  rw [show (dats m ρ 0 c).owed t₀.castSucc = O₀ c from rfl]
  -- the two scratch buffers through their memrefs' views; the receive buffer cut into its slots
  ihave Hst := (Entails.of_eq (statsPts_whole (F := F) c fs).symm) $$ Hs
  unfold statsPts
  sl_exec
  -- the receive buffer cut into its seven slots
  ihave Hsl := (comm_split (F := F) c fc).1 $$ Hcm
  icases Hsl with ⟨Hs0, Hs1, Hs2, Hs3, Hs4, Hs5, Hs6⟩
  rw [O₀_eq]
  -- signal 0: to the device 1 ahead, with this device's slot 6
  rw [owed_s0]
  iapply (wp_sig m K c _ 0 (dev1_eq c) (owedR c 13) W fc) $$ [HO HtB0 Hs6]
  · isplitr; · iexact HIb0
    isplitl [HO]; · iexact HO
    isplitl [HtB0]; · iexact HtB0
    isplitl [Hs6]; · iexact Hs6
    iexact HRb0
  iintro HO
  sl_exec
  -- signal 1: to the device 2 ahead, with this device's slot 5
  rw [owed_s1]
  iapply (wp_sig m K c _ 1 (dev2_eq c) (owedR c 12) W fc) $$ [HO HtB1 Hs5]
  · isplitr; · iexact HIb1
    isplitl [HO]; · iexact HO
    isplitl [HtB1]; · iexact HtB1
    isplitl [Hs5]; · iexact Hs5
    iexact HRb1
  iintro HO
  sl_exec
  -- signal 2: to the device 3 ahead, with this device's slot 4
  rw [owed_s2]
  iapply (wp_sig m K c _ 2 (dev3_eq c) (owedR c 11) W fc) $$ [HO HtB2 Hs4]
  · isplitr; · iexact HIb2
    isplitl [HO]; · iexact HO
    isplitl [HtB2]; · iexact HtB2
    isplitl [Hs4]; · iexact Hs4
    iexact HRb2
  iintro HO
  sl_exec
  -- signal 3: to the device 4 ahead, with this device's slot 3
  rw [owed_s3]
  iapply (wp_sig m K c _ 3 (dev4_eq c) (owedR c 10) W fc) $$ [HO HtB3 Hs3]
  · isplitr; · iexact HIb3
    isplitl [HO]; · iexact HO
    isplitl [HtB3]; · iexact HtB3
    isplitl [Hs3]; · iexact Hs3
    iexact HRb3
  iintro HO
  sl_exec
  -- signal 4: to the device 5 ahead, with this device's slot 2
  rw [owed_s4]
  iapply (wp_sig m K c _ 4 (dev5_eq c) (owedR c 9) W fc) $$ [HO HtB4 Hs2]
  · isplitr; · iexact HIb4
    isplitl [HO]; · iexact HO
    isplitl [HtB4]; · iexact HtB4
    isplitl [Hs2]; · iexact Hs2
    iexact HRb4
  iintro HO
  sl_exec
  -- signal 5: to the device 6 ahead, with this device's slot 1
  rw [owed_s5]
  iapply (wp_sig m K c _ 5 (dev6_eq c) (owedR c 8) W fc) $$ [HO HtB5 Hs1]
  · isplitr; · iexact HIb5
    isplitl [HO]; · iexact HO
    isplitl [HtB5]; · iexact HtB5
    isplitl [Hs1]; · iexact Hs1
    iexact HRb5
  iintro HO
  sl_exec
  -- signal 6: to the device 7 ahead, with this device's slot 0
  rw [owed_s6]
  iapply (wp_sig m K c _ 6 (dev7_eq c) (owedR c 7) W fc) $$ [HO HtB6 Hs0]
  · isplitr; · iexact HIb6
    isplitl [HO]; · iexact HO
    isplitl [HtB6]; · iexact HtB6
    isplitl [Hs0]; · iexact Hs0
    iexact HRb6
  iintro HO
  sl_exec
  -- the wait for the seven units: each brings the slot its sender will receive into
  iapply (wp_barwait m K c W) $$ [HcB HO HatB]
  · isplitr; · iexact HIbar
    isplitl [HcB]; · iexact HcB
    isplitl [HO]; · iexact HO
    isplitr; · iexact Hlev
    iexact HatB
  iintro ⟨HO, HatB, -, P0, P1, P2, P3, P4, P5, P6⟩
  unfold barPay
  icases P0 with ⟨%q0, Q0⟩
  icases P1 with ⟨%q1, Q1⟩
  icases P2 with ⟨%q2, Q2⟩
  icases P3 with ⟨%q3, Q3⟩
  icases P4 with ⟨%q4, Q4⟩
  icases P5 with ⟨%q5, Q5⟩
  icases P6 with ⟨%q6, Q6⟩
  sl_exec
  -- the statistics scratch holds the device's statistics, whatever it held before; one share per copy
  have hx0 : g0 = xOf m c := ((read_whole_x g0).symm.trans hg0).trans (xstg_eq m ρ c)
  subst hx0
  rw [read_x c, writes_stats]
  rw [show statsVec (xOf m c) = statsOf m c from rfl]
  ihave Hst' := (Entails.of_eq (statsPts_def (F := F) c fullShare (statsOf m c)).symm) $$ Hst
  ihave Hsh := (stats_shares (F := F) c (statsOf m c)).1 $$ Hst'
  icases Hsh with ⟨Hq0, Hq1, Hq2, Hq3, Hq4, Hq5, Hq6, Hkp⟩
  ihave Hkeep := (Entails.of_eq (statsPts_def (F := F) c keepShr (statsOf m c))) $$ Hkp
  -- copy 0: the statistics into slot 0 of the device 1 ahead, through share 0
  rw [owed_c0]
  iapply (wp_cp m K c _ 0 (dev8_eq c) (owedR c 6) _ q0) $$ [Hq0 Q0 HO HtS0 HtR0]
  · isplitr; · iexact HIs0
    isplitr; · iexact HId0
    isplitl [Hq0]; · iexact Hq0
    isplitl [Q0]; · iexact Q0
    isplitl [HO]; · iexact HO
    isplitl [HtS0]; · iexact HtS0
    isplitr; · iexact HRs0
    isplitl [HtR0]; · iexact HtR0
    iexact HRd0
  iintro ⟨HcS0, HO⟩
  sl_exec
  -- copy 1: the statistics into slot 1 of the device 2 ahead, through share 1
  rw [owed_c1]
  iapply (wp_cp m K c _ 1 (dev9_eq c) (owedR c 5) _ q1) $$ [Hq1 Q1 HO HtS1 HtR1]
  · isplitr; · iexact HIs1
    isplitr; · iexact HId1
    isplitl [Hq1]; · iexact Hq1
    isplitl [Q1]; · iexact Q1
    isplitl [HO]; · iexact HO
    isplitl [HtS1]; · iexact HtS1
    isplitr; · iexact HRs1
    isplitl [HtR1]; · iexact HtR1
    iexact HRd1
  iintro ⟨HcS1, HO⟩
  sl_exec
  -- copy 2: the statistics into slot 2 of the device 3 ahead, through share 2
  rw [owed_c2]
  iapply (wp_cp m K c _ 2 (dev10_eq c) (owedR c 4) _ q2) $$ [Hq2 Q2 HO HtS2 HtR2]
  · isplitr; · iexact HIs2
    isplitr; · iexact HId2
    isplitl [Hq2]; · iexact Hq2
    isplitl [Q2]; · iexact Q2
    isplitl [HO]; · iexact HO
    isplitl [HtS2]; · iexact HtS2
    isplitr; · iexact HRs2
    isplitl [HtR2]; · iexact HtR2
    iexact HRd2
  iintro ⟨HcS2, HO⟩
  sl_exec
  -- copy 3: the statistics into slot 3 of the device 4 ahead, through share 3
  rw [owed_c3]
  iapply (wp_cp m K c _ 3 (dev11_eq c) (owedR c 3) _ q3) $$ [Hq3 Q3 HO HtS3 HtR3]
  · isplitr; · iexact HIs3
    isplitr; · iexact HId3
    isplitl [Hq3]; · iexact Hq3
    isplitl [Q3]; · iexact Q3
    isplitl [HO]; · iexact HO
    isplitl [HtS3]; · iexact HtS3
    isplitr; · iexact HRs3
    isplitl [HtR3]; · iexact HtR3
    iexact HRd3
  iintro ⟨HcS3, HO⟩
  sl_exec
  -- copy 4: the statistics into slot 4 of the device 5 ahead, through share 4
  rw [owed_c4]
  iapply (wp_cp m K c _ 4 (dev12_eq c) (owedR c 2) _ q4) $$ [Hq4 Q4 HO HtS4 HtR4]
  · isplitr; · iexact HIs4
    isplitr; · iexact HId4
    isplitl [Hq4]; · iexact Hq4
    isplitl [Q4]; · iexact Q4
    isplitl [HO]; · iexact HO
    isplitl [HtS4]; · iexact HtS4
    isplitr; · iexact HRs4
    isplitl [HtR4]; · iexact HtR4
    iexact HRd4
  iintro ⟨HcS4, HO⟩
  sl_exec
  -- copy 5: the statistics into slot 5 of the device 6 ahead, through share 5
  rw [owed_c5]
  iapply (wp_cp m K c _ 5 (dev13_eq c) (owedR c 1) _ q5) $$ [Hq5 Q5 HO HtS5 HtR5]
  · isplitr; · iexact HIs5
    isplitr; · iexact HId5
    isplitl [Hq5]; · iexact Hq5
    isplitl [Q5]; · iexact Q5
    isplitl [HO]; · iexact HO
    isplitl [HtS5]; · iexact HtS5
    isplitr; · iexact HRs5
    isplitl [HtR5]; · iexact HtR5
    iexact HRd5
  iintro ⟨HcS5, HO⟩
  sl_exec
  -- copy 6: the statistics into slot 6 of the device 7 ahead, through share 6
  rw [owed_c6]
  iapply (wp_cp m K c _ 6 (dev14_eq c) (owedR c 0) _ q6) $$ [Hq6 Q6 HO HtS6 HtR6]
  · isplitr; · iexact HIs6
    isplitr; · iexact HId6
    isplitl [Hq6]; · iexact Hq6
    isplitl [Q6]; · iexact Q6
    isplitl [HO]; · iexact HO
    isplitl [HtS6]; · iexact HtS6
    isplitr; · iexact HRs6
    isplitl [HtR6]; · iexact HtR6
    iexact HRd6
  iintro ⟨HcS6, HO⟩
  rw [owed_0]
  sl_exec
  -- receive wait 0 has brought slot 0, holding the statistics of the device 1 behind; its load
  ihave L0 := (Entails.of_eq (recv_pay_0 m c)) $$ HaR0_pay1
  sl_exec
  -- receive wait 1 has brought slot 1, holding the statistics of the device 2 behind; its load
  ihave L1 := (Entails.of_eq (recv_pay_1 m c)) $$ HaR1_pay1
  sl_exec
  -- receive wait 2 has brought slot 2, holding the statistics of the device 3 behind; its load
  ihave L2 := (Entails.of_eq (recv_pay_2 m c)) $$ HaR2_pay1
  sl_exec
  -- receive wait 3 has brought slot 3, holding the statistics of the device 4 behind; its load
  ihave L3 := (Entails.of_eq (recv_pay_3 m c)) $$ HaR3_pay1
  sl_exec
  -- receive wait 4 has brought slot 4, holding the statistics of the device 5 behind; its load
  ihave L4 := (Entails.of_eq (recv_pay_4 m c)) $$ HaR4_pay1
  sl_exec
  -- receive wait 5 has brought slot 5, holding the statistics of the device 6 behind; its load
  ihave L5 := (Entails.of_eq (recv_pay_5 m c)) $$ HaR5_pay1
  sl_exec
  -- receive wait 6 has brought slot 6, holding the statistics of the device 7 behind; its load
  ihave L6 := (Entails.of_eq (recv_pay_6 m c)) $$ HaR6_pay1
  sl_exec
  ihave Hq0 := (Entails.of_eq (send_pay_0 m c)) $$ HaS0_pay1
  ihave Hq1 := (Entails.of_eq (send_pay_1 m c)) $$ HaS1_pay1
  ihave Hq2 := (Entails.of_eq (send_pay_2 m c)) $$ HaS2_pay1
  ihave Hq3 := (Entails.of_eq (send_pay_3 m c)) $$ HaS3_pay1
  ihave Hq4 := (Entails.of_eq (send_pay_4 m c)) $$ HaS4_pay1
  ihave Hq5 := (Entails.of_eq (send_pay_5 m c)) $$ HaS5_pay1
  ihave Hq6 := (Entails.of_eq (send_pay_6 m c)) $$ HaS6_pay1
  -- the fourteen own cells close: their counters at zero are the device's again
  rw [wp_ret]
  imod (Rounds.cell_close ER (Rd m) (Set.mem_univ (K (sendCell c 0))) (fun h => h) (R := 1) (fun r hr => duties_later m (sendCell c 0) r hr)) $$ [HaS0] with HzS0
  · isplitr; · iexact HIs0
    iexact HaS0
  imod (Rounds.cell_close ER (Rd m) (Set.mem_univ (K (recvCell c 0))) (fun h => h) (R := 1) (fun r hr => duties_later m (recvCell c 0) r hr)) $$ [HaR0] with HzR0
  · isplitr; · iexact HIr0
    iexact HaR0
  imod (Rounds.cell_close ER (Rd m) (Set.mem_univ (K (sendCell c 1))) (fun h => h) (R := 1) (fun r hr => duties_later m (sendCell c 1) r hr)) $$ [HaS1] with HzS1
  · isplitr; · iexact HIs1
    iexact HaS1
  imod (Rounds.cell_close ER (Rd m) (Set.mem_univ (K (recvCell c 1))) (fun h => h) (R := 1) (fun r hr => duties_later m (recvCell c 1) r hr)) $$ [HaR1] with HzR1
  · isplitr; · iexact HIr1
    iexact HaR1
  imod (Rounds.cell_close ER (Rd m) (Set.mem_univ (K (sendCell c 2))) (fun h => h) (R := 1) (fun r hr => duties_later m (sendCell c 2) r hr)) $$ [HaS2] with HzS2
  · isplitr; · iexact HIs2
    iexact HaS2
  imod (Rounds.cell_close ER (Rd m) (Set.mem_univ (K (recvCell c 2))) (fun h => h) (R := 1) (fun r hr => duties_later m (recvCell c 2) r hr)) $$ [HaR2] with HzR2
  · isplitr; · iexact HIr2
    iexact HaR2
  imod (Rounds.cell_close ER (Rd m) (Set.mem_univ (K (sendCell c 3))) (fun h => h) (R := 1) (fun r hr => duties_later m (sendCell c 3) r hr)) $$ [HaS3] with HzS3
  · isplitr; · iexact HIs3
    iexact HaS3
  imod (Rounds.cell_close ER (Rd m) (Set.mem_univ (K (recvCell c 3))) (fun h => h) (R := 1) (fun r hr => duties_later m (recvCell c 3) r hr)) $$ [HaR3] with HzR3
  · isplitr; · iexact HIr3
    iexact HaR3
  imod (Rounds.cell_close ER (Rd m) (Set.mem_univ (K (sendCell c 4))) (fun h => h) (R := 1) (fun r hr => duties_later m (sendCell c 4) r hr)) $$ [HaS4] with HzS4
  · isplitr; · iexact HIs4
    iexact HaS4
  imod (Rounds.cell_close ER (Rd m) (Set.mem_univ (K (recvCell c 4))) (fun h => h) (R := 1) (fun r hr => duties_later m (recvCell c 4) r hr)) $$ [HaR4] with HzR4
  · isplitr; · iexact HIr4
    iexact HaR4
  imod (Rounds.cell_close ER (Rd m) (Set.mem_univ (K (sendCell c 5))) (fun h => h) (R := 1) (fun r hr => duties_later m (sendCell c 5) r hr)) $$ [HaS5] with HzS5
  · isplitr; · iexact HIs5
    iexact HaS5
  imod (Rounds.cell_close ER (Rd m) (Set.mem_univ (K (recvCell c 5))) (fun h => h) (R := 1) (fun r hr => duties_later m (recvCell c 5) r hr)) $$ [HaR5] with HzR5
  · isplitr; · iexact HIr5
    iexact HaR5
  imod (Rounds.cell_close ER (Rd m) (Set.mem_univ (K (sendCell c 6))) (fun h => h) (R := 1) (fun r hr => duties_later m (sendCell c 6) r hr)) $$ [HaS6] with HzS6
  · isplitr; · iexact HIs6
    iexact HaS6
  imod (Rounds.cell_close ER (Rd m) (Set.mem_univ (K (recvCell c 6))) (fun h => h) (R := 1) (fun r hr => duties_later m (recvCell c 6) r hr)) $$ [HaR6] with HzR6
  · isplitr; · iexact HIr6
    iexact HaR6
  imodintro
  iapply Hk
  unfold bodyPost Φ₁ Proto.scratch Dat.owesAt Pipeline.owesWithin owns
  rw [show (dats m ρ 0 c).owed t₀.succ = 0 from rfl, bigSep_fin7]
  isplitl [Hq0 Hq1 Hq2 Hq3 Hq4 Hq5 Hq6 Hkeep L0 L1 L2 L3 L4 L5 L6 HzS0 HzR0 HzS1 HzR1 HzS2 HzR2 HzS3 HzR3 HzS4 HzR4 HzS5 HzR5 HzS6 HzR6]
  · isplitl [Hq0 Hq1 Hq2 Hq3 Hq4 Hq5 Hq6 Hkeep L0 L1 L2 L3 L4 L5 L6]
    · isplitl [Hq0 Hq1 Hq2 Hq3 Hq4 Hq5 Hq6 Hkeep]
      · -- the statistics scratch whole again: the eight shares rejoined
        iexists (statsOf m c)
        ihave Hkp := (Entails.of_eq (statsPts_def (F := F) c keepShr (statsOf m c)).symm) $$ Hkeep
        ihave Hfull := (stats_shares (F := F) c (statsOf m c)).2 $$ [Hq0 Hq1 Hq2 Hq3 Hq4 Hq5 Hq6 Hkp]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          iexact Hkp
        iapply (Entails.of_eq (statsPts_whole (F := F) c (statsOf m c)))
        iexact Hfull
      · -- the receive buffer whole again: the seven slots rejoined
        ihave M0 := (Entails.of_eq (slotPts_0 (F := F) c (landed m c)).symm) $$ L0
        ihave M1 := (Entails.of_eq (slotPts_1 (F := F) c (landed m c)).symm) $$ L1
        ihave M2 := (Entails.of_eq (slotPts_2 (F := F) c (landed m c)).symm) $$ L2
        ihave M3 := (Entails.of_eq (slotPts_3 (F := F) c (landed m c)).symm) $$ L3
        ihave M4 := (Entails.of_eq (slotPts_4 (F := F) c (landed m c)).symm) $$ L4
        ihave M5 := (Entails.of_eq (slotPts_5 (F := F) c (landed m c)).symm) $$ L5
        ihave M6 := (Entails.of_eq (slotPts_6 (F := F) c (landed m c)).symm) $$ L6
        iapply (comm_join (F := F) c (landed m c) (landed m c) (landed m c) (landed m c) (landed m c) (landed m c) (landed m c))
        isplitl [M0]; · iexact M0
        isplitl [M1]; · iexact M1
        isplitl [M2]; · iexact M2
        isplitl [M3]; · iexact M3
        isplitl [M4]; · iexact M4
        isplitl [M5]; · iexact M5
        iexact M6
    · isplitl [HzS0 HzR0]
      · isplitl [HzS0]; · iexact HzS0
        iexact HzR0
      isplitl [HzS1 HzR1]
      · isplitl [HzS1]; · iexact HzS1
        iexact HzR1
      isplitl [HzS2 HzR2]
      · isplitl [HzS2]; · iexact HzS2
        iexact HzR2
      isplitl [HzS3 HzR3]
      · isplitl [HzS3]; · iexact HzS3
        iexact HzR3
      isplitl [HzS4 HzR4]
      · isplitl [HzS4]; · iexact HzS4
        iexact HzR4
      isplitl [HzS5 HzR5]
      · isplitl [HzS5]; · iexact HzS5
        iexact HzR5
      isplitl [HzS6]; · iexact HzS6
      iexact HzR6
  isplitl [HO]
  · iexists _
    isplitr
    rotate_left
    · iexact HO
    · ipureintro; exact fun _ _ => Or.inl trivial
  isplitl [Hx]
  · iexists (xOf m c); isplitr; · (ipureintro; exact hg0)
    iexact Hx
  isplitl [Htt]
  · iexists g1; isplitr; · (ipureintro; exact hg1)
    iexact Htt
  isplitl [Hws]
  · iexists g2; isplitr; · (ipureintro; exact hg2)
    iexact Hws
  isplitl [Hwsh]
  · iexists g3; isplitr; · (ipureintro; exact hg3)
    iexact Hwsh
  iexists _
  isplitr
  rotate_left
  · iexact Hout
  · ipureintro
    have h1 : g1 = tOf m c := ((read_whole_t g1).symm.trans hg1).trans (tstg_eq m ρ c)
    have h2 : g2 = wsOf m c := ((read_whole_ws g2).symm.trans hg2).trans (wsstg_eq m ρ c)
    have h3 : g3 = wshOf m c := ((read_whole_wsh g3).symm.trans hg3).trans (wshstg_eq m ρ c)
    subst h1 h2 h3
    rw [writes_out, read_whole_o]
    sl_unfold_run_names
    rw [read_t c, read_ws c, read_wsh c, read_x c, read_stats c]
    have e0 := read_landed_0 m c
    have e1 := read_landed_1 m c
    have e2 := read_landed_2 m c
    have e3 := read_landed_3 m c
    have e4 := read_landed_4 m c
    have e5 := read_landed_5 m c
    have e6 := read_landed_6 m c
    dsimp only [slotRect, commM] at e0 e1 e2 e3 e4 e5 e6
    rw [e0, e1, e2, e3, e4, e5, e6]
    rfl

/-- The pipeline's view of the same start: the invariant `Φ 0`, what is owed, the five staging buffers. -/
def bodyPre' (c : Dev nD) : sProp 𝕄 :=
  iprop(Φ₀ m c ∗ (dats m ρ 0 c).owesAt () t₀.castSucc
    ∗ (∃ d, owns (c : Thread nD τ) xM fullShare ((dats m ρ 0 c).before (0 : Fin 5) t₀ d))
    ∗ (∃ d, owns (c : Thread nD τ) tM fullShare ((dats m ρ 0 c).before (1 : Fin 5) t₀ d))
    ∗ (∃ d, owns (c : Thread nD τ) wsM fullShare ((dats m ρ 0 c).before (2 : Fin 5) t₀ d))
    ∗ (∃ d, owns (c : Thread nD τ) wshM fullShare ((dats m ρ 0 c).before (3 : Fin 5) t₀ d))
    ∗ (∃ d, owns (c : Thread nD τ) oM fullShare ((dats m ρ 0 c).before (4 : Fin 5) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hrest⟩, Hscr⟩, Ho, Hx, Ht, Hws, Hwsh, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Ht]; · iexact Ht
    isplitl [Hws]; · iexact Hws
    isplitl [Hwsh]; · iexact Hwsh
    iexact Hout
  · iintro H; iexact H

/-- info: 'Cert.Kernel.Body.body_obligation' depends on axioms: [propext, Classical.choice, Quot.sound] -/
#guard_msgs in #print axioms body_obligation

end Cert.Kernel.Body

end
-- ==== Proof.KbLaunch.lean ====
/- The launch of the eight-device exchange: from each device's body to the run of the whole program.
   The cells of all devices are funded at once, each device's fifteen semaphores become fifteen cell
   invariants, the duty tokens are dealt to the devices that pay them (for each copy number the map
   from a device to the peer it addresses is a permutation of the ring), the credit each device may
   wait for is what its seven peers owe it, and the final arrays are read off the one grid point. -/
import proofs.«900772_g7700000000000773_dist_diff_adaln_cshard_i_b4_s512_c256_v7x_i8_f32_1_alg».proof.Proof.KbTables
import Idealize.ShloMosaic.Lib.Pipeline.Launch
import Idealize.ShloMosaic.Lib.Pipeline.Kit
import Idealize.ShloMosaic.Lib.Tactic

noncomputable section

namespace Cert.Kernel.Launch

open Cert.Kernel.Proto
open Cert.Kernel Cert.Kernel.Gen Cert.Kernel.Spec Cert.Kernel.Mem
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of a device, as the launch indexes them -/

/-- The fourteen scoped semaphores: the seven send semaphores, then the seven receive semaphores. -/
abbrev osem : Fin 14 → SemLoc sig := fun
  | 0 => .dma (sendS 0) | 1 => .dma (sendS 1) | 2 => .dma (sendS 2) | 3 => .dma (sendS 3) | 4 => .dma (sendS 4) | 5 => .dma (sendS 5) | 6 => .dma (sendS 6)
  | 7 => .dma (recvS 0) | 8 => .dma (recvS 1) | 9 => .dma (recvS 2) | 10 => .dma (recvS 3) | 11 => .dma (recvS 4) | 12 => .dma (recvS 5) | 13 => .dma (recvS 6)

/-- All fifteen: the barrier semaphore first. -/
abbrev csem : Fin 15 → SemLoc sig := fun
  | 0 => .reg barS
  | 1 => .dma (sendS 0) | 2 => .dma (sendS 1) | 3 => .dma (sendS 2) | 4 => .dma (sendS 3) | 5 => .dma (sendS 4) | 6 => .dma (sendS 5) | 7 => .dma (sendS 6)
  | 8 => .dma (recvS 0) | 9 => .dma (recvS 1) | 10 => .dma (recvS 2) | 11 => .dma (recvS 3) | 12 => .dma (recvS 4) | 13 => .dma (recvS 5) | 14 => .dma (recvS 6)

abbrev kcell (ck : Dev nD × Fin 15) : GSem nD τ sig := ((ck.1 : Thread nD τ), csem ck.2)

theorem ownSemFacts : Pipeline.OwnSemFacts cfg0.spec osem := by decide

theorem csem_injective : Function.Injective csem := by decide

theorem share_eq (c : Dev nD) (w : Fin cfg0.W) : (dats m ρ 0 c).share w = fullShare := by unfold Dat.share; split <;> rfl

/-! ## The cells and the duty tokens of the whole mesh -/

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

/-- A device's own cells' duty tokens as minted, by kind (barrier, send, receive) and number: the seven
    duties of its barrier cell, the one duty of each send cell and of each receive cell. -/
abbrev tsem (jk : Fin 3 × Fin 7) : SemLoc sig × Fin 7 := match jk.1 with
  | 0 => (.reg barS, jk.2) | 1 => (.dma (sendS jk.2), 0) | 2 => (.dma (recvS jk.2), 0)
theorem tsem_injective : Function.Injective tsem := by decide
abbrev tokOf (cj : Dev nD × (Fin 3 × Fin 7)) : GSem nD τ sig × ℕ × Fin 7 :=
  (((cj.1 : Thread nD τ), (tsem cj.2).1), 0, (tsem cj.2).2)
theorem tokOf_injective : Function.Injective (tokOf : Dev nD × (Fin 3 × Fin 7) → GSem nD τ sig × ℕ × Fin 7) := by
  rintro ⟨c, j⟩ ⟨c', j'⟩ h
  have h1 : c = c' := by have := congrArg (fun x : GSem nD τ sig × ℕ × Fin 7 => x.1.1.1) h; exact this
  subst h1
  have h2 : tsem j = tsem j' := Prod.ext (congrArg (fun x : GSem nD τ sig × ℕ × Fin 7 => x.1.2) h) (congrArg (fun x : GSem nD τ sig × ℕ × Fin 7 => x.2.2) h)
  have : j = j' := tsem_injective h2
  subst this; rfl
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun e : Fin 7 => dutyTok ER (barCell c) 0 e)
    ∗ (bigSep Finset.univ fun k : Fin 7 => dutyTok ER (sendCell c k) 0 0)
    ∗ bigSep Finset.univ fun k : Fin 7 => dutyTok ER (recvCell c k) 0 0)

/-- What the launch element deals device `c`. -/
def G (c : Dev nD) : sProp 𝕄 :=
  iprop((bigSep Finset.univ fun k : Fin 15 => roundState ER (Rd m) (kcell (c, k)) 0)
    ∗ (bigSep Finset.univ fun k : Fin 15 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      refine (bigSep_univ_prod (fun jk : Fin 3 × Fin 7 => (dutyTok ER (tokOf (c, jk)).1 (tokOf (c, jk)).2.1 (tokOf (c, jk)).2.2 : sProp 𝕄))).trans ?_
      rw [bigSep_fin3]
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## A device's semaphores at zero become its cells' invariants -/

omit [FloatOps F] in
theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
/-- The scoped semaphores are the seven send and the seven receive semaphores; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0
        ∗ semVal (sendCell c 5) 0 ∗ semVal (sendCell c 6) 0 ∗ semVal (recvCell c 0) 0 ∗ semVal (recvCell c 1) 0 ∗ semVal (recvCell c 2) 0
        ∗ semVal (recvCell c 3) 0 ∗ semVal (recvCell c 4) 0 ∗ semVal (recvCell c 5) 0 ∗ semVal (recvCell c 6) 0) := by
  rw [Pipeline.ownSems0_eq_of_list c osem [0, 1, 2, 3, 4, 5, 6, 7, 8, 9, 10, 11, 12, 13] (by decide) (by decide)]; rfl
omit [FloatOps F] in
/-- the barrier semaphore the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_fin15]
  iintro ⟨⟨S0, S1, S2, S3, S4, S5, S6, V0, V1, V2, V3, V4, V5, V6⟩, HB⟩
  isplitl [HB]; · iexact HB
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [V0]; · iexact V0
  isplitl [V1]; · iexact V1
  isplitl [V2]; · iexact V2
  isplitl [V3]; · iexact V3
  isplitl [V4]; · iexact V4
  isplitl [V5]; · iexact V5
  iexact V6

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 15 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the ring, and the ghost state regrouped per device -/

/-- For each copy number the map from a device to the peer it addresses is a permutation of the ring. -/
def dstE (k : Fin 7) : Dev nD ≃ Dev nD := ⟨fun c => dst c k, fun c => src c k, fun c => Cert.Math.src_dst c k, fun c => Cert.Math.dst_src c k⟩
def revE : Fin 7 ≃ Fin 7 := ⟨rev, rev, rev_rev, rev_rev⟩

/-- The tokens of the duties device `c` pays. -/
def payToks (c : Dev nD) : sProp 𝕄 :=
  bigSep Finset.univ fun k : Fin 7 => iprop(dutyTok ER (barCell (dst c k)) 0 (rev k) ∗ dutyTok ER (recvCell (dst c k) k) 0 0 ∗ dutyTok ER (sendCell c k) 0 0)

omit [FloatOps F] in
/-- A barrier cell's token `e` goes to the device that pays it: as its entry `rev e`. -/
theorem bar_around :
    (bigSep Finset.univ fun c : Dev nD => bigSep Finset.univ fun e : Fin 7 => (dutyTok ER (barCell c) 0 e : sProp 𝕄))
      = bigSep Finset.univ fun c : Dev nD => bigSep Finset.univ fun k : Fin 7 => (dutyTok ER (barCell (dst c k)) 0 (rev k) : sProp 𝕄) :=
  (bigSep_univ_comm (fun (c : Dev nD) (e : Fin 7) => (dutyTok ER (barCell c) 0 e : sProp 𝕄))).trans <|
  (bigSep_univ_equiv revE (fun e : Fin 7 => bigSep Finset.univ fun c : Dev nD => (dutyTok ER (barCell c) 0 e : sProp 𝕄))).trans <|
  (bigSep_congr fun k _ => bigSep_univ_equiv (dstE k) (fun c : Dev nD => (dutyTok ER (barCell c) 0 (rev k) : sProp 𝕄))).trans <|
  (bigSep_univ_comm (fun (k : Fin 7) (c : Dev nD) => (dutyTok ER (barCell (dst c k)) 0 (rev k) : sProp 𝕄)))

omit [FloatOps F] in
/-- A receive cell's token goes to the device whose copy lands there. -/
theorem recv_around :
    (bigSep Finset.univ fun c : Dev nD => bigSep Finset.univ fun k : Fin 7 => (dutyTok ER (recvCell c k) 0 0 : sProp 𝕄))
      = bigSep Finset.univ fun c : Dev nD => bigSep Finset.univ fun k : Fin 7 => (dutyTok ER (recvCell (dst c k) k) 0 0 : sProp 𝕄) :=
  (bigSep_univ_comm (fun (c : Dev nD) (k : Fin 7) => (dutyTok ER (recvCell c k) 0 0 : sProp 𝕄))).trans <|
  (bigSep_congr fun k _ => bigSep_univ_equiv (dstE k) (fun c : Dev nD => (dutyTok ER (recvCell c k) 0 0 : sProp 𝕄))).trans <|
  (bigSep_univ_comm (fun (k : Fin 7) (c : Dev nD) => (dutyTok ER (recvCell (dst c k) k) 0 0 : sProp 𝕄)))

omit [FloatOps F] in
theorem toks_around : (bigSep Finset.univ fun c : Dev nD => (toks c : sProp 𝕄)) ⊢ bigSep Finset.univ fun c : Dev nD => payToks c := by
  unfold toks payToks
  simp only [bigSep_sep']
  rw [bar_around, recv_around]
  iintro ⟨H1, H2, H3⟩
  isplitl [H1]; · iexact H1
  isplitl [H3]; · iexact H3
  iexact H2

/-- The name of a cell, from the names given by device and number. -/
def Kof (K : Dev nD × Fin 15 → ℕ) (g : GSem nD τ sig) : ℕ := K (Function.invFun kcell g)
theorem Kof_kcell (K : Dev nD × Fin 15 → ℕ) (ck : Dev nD × Fin 15) : Kof K (kcell ck) = K ck :=
  congrArg K (Function.leftInverse_invFun kcell_injective ck)

/-- The number of a send and of a receive semaphore among the fifteen. -/
abbrev sIdx (k : Fin 7) : Fin 15 := ⟨k.val + 1, by omega⟩
abbrev rIdx (k : Fin 7) : Fin 15 := ⟨k.val + 8, by omega⟩
theorem send_kcell (c : Dev nD) (k : Fin 7) : sendCell c k = kcell (c, sIdx k) := by fin_cases k <;> rfl
theorem recv_kcell (c : Dev nD) (k : Fin 7) : recvCell c k = kcell (c, rIdx k) := by fin_cases k <;> rfl

def records (K : Dev nD × Fin 15 → ℕ) : sProp 𝕄 :=
  iprop((bigSep Finset.univ fun ck : Dev nD × Fin 15 => cellInv ER (Rd m) (K ck) (kcell ck))
    ∗ bigSep Finset.univ fun ck : Dev nD × Fin 15 => reached ER (kcell ck) 0)

instance records_persistent (K : Dev nD × Fin 15 → ℕ) : BI.Persistent (records m K) := by unfold records; infer_instance

theorem inv_at0 (K : Dev nD × Fin 15 → ℕ) (ck : Dev nD × Fin 15) :
    (bigSep Finset.univ fun ck : Dev nD × Fin 15 => (cellInv ER (Rd m) (K ck) (kcell ck) : sProp 𝕄)) ⊢ cellInv ER (Rd m) (K ck) (kcell ck) :=
  bigSep_elim (Finset.mem_univ ck)
omit [FloatOps F] in
theorem reached_at0 (ck : Dev nD × Fin 15) :
    (bigSep Finset.univ fun ck : Dev nD × Fin 15 => (reached ER (kcell ck) 0 : sProp 𝕄)) ⊢ reached ER (kcell ck) 0 :=
  bigSep_elim (Finset.mem_univ ck)

theorem inv_at (K : Dev nD × Fin 15 → ℕ) (ck : Dev nD × Fin 15) :
    records m K ⊢ cellInv ER (Rd m) (Kof K (kcell ck)) (kcell ck) := by
  rw [Kof_kcell]; unfold records
  iintro ⟨HI, -⟩
  iapply (inv_at0 m K ck)
  iexact HI
theorem inv_send (K : Dev nD × Fin 15 → ℕ) (c : Dev nD) (k : Fin 7) :
    records m K ⊢ cellInv ER (Rd m) (Kof K (sendCell c k)) (sendCell c k) := by rw [send_kcell]; exact inv_at m K (c, sIdx k)
theorem inv_recv (K : Dev nD × Fin 15 → ℕ) (c : Dev nD) (k : Fin 7) :
    records m K ⊢ cellInv ER (Rd m) (Kof K (recvCell c k)) (recvCell c k) := by rw [recv_kcell]; exact inv_at m K (c, rIdx k)

theorem reached_at (K : Dev nD × Fin 15 → ℕ) (ck : Dev nD × Fin 15) : records m K ⊢ reached ER (kcell ck) 0 := by
  unfold records
  iintro ⟨-, HR⟩
  iapply (reached_at0 (F := F) ck)
  iexact HR
theorem reached_send (K : Dev nD × Fin 15 → ℕ) (c : Dev nD) (k : Fin 7) : records m K ⊢ reached ER (sendCell c k) 0 := by
  rw [send_kcell]; exact reached_at m K (c, sIdx k)
theorem reached_recv (K : Dev nD × Fin 15 → ℕ) (c : Dev nD) (k : Fin 7) : records m K ⊢ reached ER (recvCell c k) 0 := by
  rw [recv_kcell]; exact reached_at m K (c, rIdx k)

theorem invs_intro (K : Dev nD × Fin 15 → ℕ) (c : Dev nD) : records m K ⊢ Proto.invs m (Kof K) c := by
  unfold Proto.invs
  iintro #HR
  isplitr; · iapply (inv_at m K (c, 0)); iexact HR
  iapply (bigSep_intro_persistent (R := records m K) (S := Finset.univ) fun (k : Fin 7) _ => show records m K ⊢ _ from by
    iintro #HR
    isplitr; · iapply (inv_send m K c k); iexact HR
    isplitr; · iapply (inv_recv m K c k); iexact HR
    isplitr; · iapply (inv_at m K (dst c k, 0)); iexact HR
    iapply (inv_recv m K (dst c k) k); iexact HR)
  iexact HR

theorem marks_intro (K : Dev nD × Fin 15 → ℕ) (c : Dev nD) : records m K ⊢ marks c := by
  unfold marks
  exact bigSep_intro_persistent (R := records m K) (S := Finset.univ) fun (k : Fin 7) _ => show records m K ⊢ _ from by
    iintro #HR
    isplitr; · iapply (reached_at m K (dst c k, 0)); iexact HR
    isplitr; · iapply (reached_recv m K (dst c k) k); iexact HR
    isplitr; · iapply (reached_send m K c k); iexact HR
    iapply (reached_recv m K c k); iexact HR

theorem ghost_intro (K : Dev nD × Fin 15 → ℕ) (c : Dev nD) : iprop(records m K ∗ linear c) ⊢ G' m c := by
  unfold G' ghost
  iintro ⟨#HR, Hlin⟩
  iexists (Kof K)
  isplitr; · iapply (invs_intro m K c); iexact HR
  isplitr; · iapply (marks_intro m K c); iexact HR
  iexact Hlin

theorem linear_intro (c : Dev nD) :
    iprop((bigSep Finset.univ fun k : Fin 15 => (atPos ER (kcell (c, k)) 0 ∅ 0 : sProp 𝕄)) ∗ payToks c) ⊢ linear c := by
  unfold linear
  rw [bigSep_fin15, bigSep_fin7 (fun k : Fin 7 => iprop(atPos ER (sendCell c k) 0 ∅ 0 ∗ atPos ER (recvCell c k) 0 ∅ 0))]
  iintro ⟨⟨B, S0, S1, S2, S3, S4, S5, S6, V0, V1, V2, V3, V4, V5, V6⟩, HT⟩
  isplitl [B]; · iexact B
  isplitr [HT]
  · isplitl [S0 V0]; · isplitl [S0] <;> iassumption
    isplitl [S1 V1]; · isplitl [S1] <;> iassumption
    isplitl [S2 V2]; · isplitl [S2] <;> iassumption
    isplitl [S3 V3]; · isplitl [S3] <;> iassumption
    isplitl [S4 V4]; · isplitl [S4] <;> iassumption
    isplitl [S5 V5]; · isplitl [S5] <;> iassumption
    isplitl [S6] <;> iassumption
  unfold payToks
  iexact HT

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 15 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (Rd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => linear_intro c))
    isplitl [Hat]; · iexact Hat
    iexact Htk

/-- The global step: the scoped and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit

Device `d` owes, per copy number `k`, one unit to the barrier cell of `dst d k` and the words of a
statistics array to receive cell `k` of `dst d k`; as `d ↦ dst d k` is a permutation, each device is
dealt, per `k`, one unit on its own barrier cell and those words on its own receive cell `k`. -/

theorem launch_step (c : Dev nD) (j j' : ℕ) (hj : j' = j + 1) (h : j < 14) :
    (Pipeline.launchCred (fun d => owedR d j') c : sProp 𝕄)
      = iprop(Pipeline.launchCred (fun d => owedR d j) c
          ∗ Pipeline.launchCred (fun d => tallyAt (payCell d ⟨13 - j, by omega⟩) () (payAmt ⟨13 - j, by omega⟩)) c) := by
  subst hj
  rw [show (fun d : Dev nD => owedR d (j + 1)) = fun d => owedR d j + tallyAt (payCell d ⟨13 - j, by omega⟩) () (payAmt ⟨13 - j, by omega⟩) from
    funext fun d => owedR_succ d j h]
  exact Pipeline.launchCred_add _ _ c

theorem pay_bar (c : Dev nD) (k : Fin 7) (n : ℕ) :
    (Pipeline.launchCred (fun d => tallyAt (barCell (dst d k)) () n) c : sProp 𝕄) ⊢ cred (tallyAt (barCell c) () n) :=
  Pipeline.launchCred_tallyAt (.reg barS) (fun d => dst d k) (fun d => src d k) (fun c => Cert.Math.dst_src c k) (fun d => Cert.Math.src_dst d k) () n c

theorem pay_recv (c : Dev nD) (k : Fin 7) (n : ℕ) :
    (Pipeline.launchCred (fun d => tallyAt (recvCell (dst d k) k) () n) c : sProp 𝕄) ⊢ cred (tallyAt (recvCell c k) () n) :=
  Pipeline.launchCred_tallyAt (.dma (recvS k)) (fun d => dst d k) (fun d => src d k) (fun c => Cert.Math.dst_src c k) (fun d => Cert.Math.src_dst d k) () n c

/-- What the launch deals for the devices' payment number `i`. -/
abbrev payDue (c : Dev nD) (i : Fin 14) : sProp 𝕄 :=
  Pipeline.launchCred (fun d => tallyAt (payCell d i) () (payAmt i)) c

theorem due_bar (c : Dev nD) (k : Fin 7) (i : Fin 14) (hi : i.val = k.val) :
    (payDue c i : sProp 𝕄) ⊢ cred (tallyAt (barCell c) () 1) := by
  obtain ⟨iv, hlt⟩ := i
  have : iv = k.val := hi
  subst this
  fin_cases k
  · exact pay_bar c 0 1
  · exact pay_bar c 1 1
  · exact pay_bar c 2 1
  · exact pay_bar c 3 1
  · exact pay_bar c 4 1
  · exact pay_bar c 5 1
  · exact pay_bar c 6 1

theorem due_recv (c : Dev nD) (k : Fin 7) (i : Fin 14) (hi : i.val = k.val + 7) :
    (payDue c i : sProp 𝕄) ⊢ cred (tallyAt (recvCell c k) () N) := by
  obtain ⟨iv, hlt⟩ := i
  have : iv = k.val + 7 := hi
  subst this
  fin_cases k
  · exact pay_recv c 0 N
  · exact pay_recv c 1 N
  · exact pay_recv c 2 N
  · exact pay_recv c 3 N
  · exact pay_recv c 4 N
  · exact pay_recv c 5 N
  · exact pay_recv c 6 N

omit [FloatOps F] in
theorem cred_seven (g : GSem nD τ sig) :
    iprop(cred (tallyAt g () 1) ∗ cred (tallyAt g () 1) ∗ cred (tallyAt g () 1) ∗ cred (tallyAt g () 1) ∗ cred (tallyAt g () 1)
        ∗ cred (tallyAt g () 1) ∗ cred (tallyAt g () 1)) ⊢ (cred (tallyAt g () 7) : sProp 𝕄) := by
  have e : (tallyAt g () 7 : CellTallies nD τ sig Unit)
      = tallyAt g () 1 + (tallyAt g () 1 + (tallyAt g () 1 + (tallyAt g () 1 + (tallyAt g () 1 + (tallyAt g () 1 + tallyAt g () 1))))) := by
    simp only [tallyAt_add]
  rw [e]
  iintro ⟨H0, H1, H2, H3, H4, H5, H6⟩
  iapply (cred_add _ _).2; isplitl [H0]; · iexact H0
  iapply (cred_add _ _).2; isplitl [H1]; · iexact H1
  iapply (cred_add _ _).2; isplitl [H2]; · iexact H2
  iapply (cred_add _ _).2; isplitl [H3]; · iexact H3
  iapply (cred_add _ _).2; isplitl [H4]; · iexact H4
  iapply (cred_add _ _).2; isplitl [H5]; · iexact H5
  iexact H6

theorem creds (c : Dev nD) :
    (Pipeline.launchCred O₀ c : sProp 𝕄)
      ⊢ iprop(cred (tallyAt (barCell c) () 7) ∗ bigSep Finset.univ fun k : Fin 7 => cred (tallyAt (recvCell c k) () N)) := by
  unfold O₀
  rw [launch_step c 13 14 rfl (by omega), launch_step c 12 13 rfl (by omega), launch_step c 11 12 rfl (by omega),
    launch_step c 10 11 rfl (by omega), launch_step c 9 10 rfl (by omega), launch_step c 8 9 rfl (by omega),
    launch_step c 7 8 rfl (by omega), launch_step c 6 7 rfl (by omega), launch_step c 5 6 rfl (by omega),
    launch_step c 4 5 rfl (by omega), launch_step c 3 4 rfl (by omega), launch_step c 2 3 rfl (by omega),
    launch_step c 1 2 rfl (by omega), launch_step c 0 1 rfl (by omega), bigSep_fin7]
  iintro ⟨⟨⟨⟨⟨⟨⟨⟨⟨⟨⟨⟨⟨⟨-, P13⟩, P12⟩, P11⟩, P10⟩, P9⟩, P8⟩, P7⟩, P6⟩, P5⟩, P4⟩, P3⟩, P2⟩, P1⟩, P0⟩
  ihave B0 := (due_bar (F := F) c 0 ⟨13 - 13, _⟩ rfl) $$ P0
  ihave B1 := (due_bar (F := F) c 1 ⟨13 - 12, _⟩ rfl) $$ P1
  ihave B2 := (due_bar (F := F) c 2 ⟨13 - 11, _⟩ rfl) $$ P2
  ihave B3 := (due_bar (F := F) c 3 ⟨13 - 10, _⟩ rfl) $$ P3
  ihave B4 := (due_bar (F := F) c 4 ⟨13 - 9, _⟩ rfl) $$ P4
  ihave B5 := (due_bar (F := F) c 5 ⟨13 - 8, _⟩ rfl) $$ P5
  ihave B6 := (due_bar (F := F) c 6 ⟨13 - 7, _⟩ rfl) $$ P6
  ihave R0 := (due_recv (F := F) c 0 ⟨13 - 6, _⟩ rfl) $$ P7
  ihave R1 := (due_recv (F := F) c 1 ⟨13 - 5, _⟩ rfl) $$ P8
  ihave R2 := (due_recv (F := F) c 2 ⟨13 - 4, _⟩ rfl) $$ P9
  ihave R3 := (due_recv (F := F) c 3 ⟨13 - 3, _⟩ rfl) $$ P10
  ihave R4 := (due_recv (F := F) c 4 ⟨13 - 2, _⟩ rfl) $$ P11
  ihave R5 := (due_recv (F := F) c 5 ⟨13 - 1, _⟩ rfl) $$ P12
  ihave R6 := (due_recv (F := F) c 6 ⟨13 - 0, _⟩ rfl) $$ P13
  isplitl [B0 B1 B2 B3 B4 B5 B6]
  · iapply (cred_seven (F := F) (barCell c))
    isplitl [B0]; · iexact B0
    isplitl [B1]; · iexact B1
    isplitl [B2]; · iexact B2
    isplitl [B3]; · iexact B3
    isplitl [B4]; · iexact B4
    isplitl [B5]; · iexact B5
    iexact B6
  isplitl [R0]; · iexact R0
  isplitl [R1]; · iexact R1
  isplitl [R2]; · iexact R2
  isplitl [R3]; · iexact R3
  isplitl [R4]; · iexact R4
  isplitl [R5]; · iexact R5
  iexact R6

/-! ## The side conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  rw [bigSep_fin7]
  iintro ⟨Hr, ⟨S0, V0⟩, ⟨S1, V1⟩, ⟨S2, V2⟩, ⟨S3, V3⟩, ⟨S4, V4⟩, ⟨S5, V5⟩, ⟨S6, V6⟩⟩
  isplitr; · iempintro
  isplitr [Hr]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [V0]; · iexact V0
    isplitl [V1]; · iexact V1
    isplitl [V2]; · iexact V2
    isplitl [V3]; · iexact V3
    isplitl [V4]; · iexact V4
    isplitl [V5]; · iexact V5
    iexact V6
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- From any memory with zero counters, given each device's body: every weakly fair execution of the
    eight kernels terminates, and every final state has each window's array at the computed contents. -/
theorem run_main' (hbody : ∀ c : Dev nD, BodyObligation (dats (F := F) m ρ 0 c) (defs₀ (F := F)) 𝒱₀ () Set.univ) :
    θ_run defs (onTc (τ := τ) (main (F := F))) ⟨m, fun _ => 0, ρ⟩ (fun r =>
      ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays

The input windows' arrays are never written; the output window's one block is the whole array, and
after the one grid point it holds what the body left. -/

theorem final_in (c : Dev nD) (w : Fin cfg0.W) (hin : (cfg0.win w).isOut = false) :
    (dats m ρ 0 c).arrAt w cfg0.N = m ((cfg0.win w).arr.view.loc (c : Thread nD τ)) :=
  (dats (F := F) m ρ 0 c).arrAt_in w hin _

theorem final_out (c : Dev nD) : (dats m ρ 0 c).arrAt (4 : Fin 5) cfg0.N = outAt m c := by
  have h1 := (dats (F := F) m ρ 0 c).arrAt_succ (4 : Fin 5) t₀
  rw [if_pos (by decide)] at h1
  refine (show _ = (dats m ρ 0 c).arrAt (4 : Fin 5) (t₀.val + 1) from rfl).trans (h1.trans ?_)
  exact Memref.write_access_unit_zero_univ (Elt F) main_v1 (funext fun a => Nat.zero_mul _) _ _ _

/-- From any memory with zero counters, given each device's body: every weakly fair execution of the
    eight kernels terminates, and every final state has each device's result block at the computed
    contents and its four argument blocks unchanged. -/
theorem run_main (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c (4 : Fin 5)).trans (final_out m ρ c),
      (h c (0 : Fin 5)).trans (final_in m ρ c (0 : Fin 5) rfl),
      (h c (1 : Fin 5)).trans (final_in m ρ c (1 : Fin 5) rfl),
      (h c (2 : Fin 5)).trans (final_in m ρ c (2 : Fin 5) rfl),
      (h c (3 : Fin 5)).trans (final_in m ρ c (3 : Fin 5) rfl)⟩) (run_main' m ρ hbody)

/-- info: 'Cert.Kernel.Launch.run_main' depends on axioms: [propext, Classical.choice, Quot.sound] -/
#guard_msgs in #print axioms run_main

end Cert.Kernel.Launch

end
-- ==== Proof.lean ====
/- The certificate's claim assembled.  The kernel's run on the eight devices (the launch over the body
   proved once at a symbolic device) gives each device's result block as a pure term of the argument
   blocks; read at the ideal instance it is its block of the reference's result, because the ring of
   partial row sums adds up to the whole row sums and E[x²] − mean² is the variance where every entry
   is finite; the same run with the values dropped is the frame, at the ideal instance and, over the
   word-level program's own names, at the bit-level one; the reference's run is its host operations
   in sequence. -/
import proofs.«900772_g7700000000000773_dist_diff_adaln_cshard_i_b4_s512_c256_v7x_i8_f32_1_alg».proof.Defs
import proofs.«900772_g7700000000000773_dist_diff_adaln_cshard_i_b4_s512_c256_v7x_i8_f32_1_alg».proof.Proof.Assemble
import proofs.«900772_g7700000000000773_dist_diff_adaln_cshard_i_b4_s512_c256_v7x_i8_f32_1_alg».proof.Proof.KiBody
import proofs.«900772_g7700000000000773_dist_diff_adaln_cshard_i_b4_s512_c256_v7x_i8_f32_1_alg».proof.Proof.KiLaunch
import proofs.«900772_g7700000000000773_dist_diff_adaln_cshard_i_b4_s512_c256_v7x_i8_f32_1_alg».proof.Proof.KbBody
import proofs.«900772_g7700000000000773_dist_diff_adaln_cshard_i_b4_s512_c256_v7x_i8_f32_1_alg».proof.Proof.KbLaunch
import Idealize.ShloMosaic.Adequacy
import Idealize.ShloMosaic.Init

noncomputable section

namespace Cert.Proof

open Idealize.ShloMosaic Idealize.SL.Sem

theorem claim : Cert.Claim :=
  Cert.Asm.claim
    (fun m ρ => Cert.KernelIdeal.Launch.run_main (F := Ideal) m ρ (Cert.KernelIdeal.Body.body_obligation (F := Ideal) m ρ))
    (fun m ρ => (θ_run (Cert.Kernel.defs (F := Bits)) _ _).mono (fun _ h c => (h c).2)
      (Cert.Kernel.Launch.run_main (F := Bits) m ρ (Cert.Kernel.Body.body_obligation (F := Bits) m ρ)))

end Cert.Proof

end
